-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v137)) (v1 : (c : Dev Cert.KernelIdeal.nD) → Buf (Elt Ideal) ((c.tc : Thread Cert.KernelIdeal.nD Cert.KernelIdeal.τ).loc Cert.KernelIdeal.main_v138)) (v2 : (c : Dev Cert.KernelIdeal.nD) → Buf (Elt Ideal) ((c.tc : Thread Cert.KernelIdeal.nD Cert.KernelIdeal.τ).loc Cert.KernelIdeal.main_v140)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v137) = v0 c
          ∧ r.2.mem ((c.tc : Thread Cert.KernelIdeal.nD Cert.KernelIdeal.τ).loc Cert.KernelIdeal.main_v138) = v1 c
          ∧ r.2.mem ((c.tc : Thread Cert.KernelIdeal.nD Cert.KernelIdeal.τ).loc Cert.KernelIdeal.main_v140) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_v131) = v1 c
          ∧ r.2.mem ((c.tc : Thread Cert.ReferenceIdeal.nD Cert.ReferenceIdeal.τ).loc Cert.ReferenceIdeal.main_v133) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096 : Shape := ⟨1, ![4096]⟩
abbrev S3200000 : Shape := ⟨1, ![3200000]⟩
abbrev S50000x64 : Shape := ⟨2, ![50000, 64]⟩
abbrev S3x64x64 : Shape := ⟨3, ![3, 64, 64]⟩
abbrev S3x1x64 : Shape := ⟨3, ![3, 1, 64]⟩
abbrev S_ : Shape := ⟨0, ![]⟩

class Facts : Prop where
  bcast_S_S3200000 : S_.BroadcastsInDim S3200000 (![] : Fin 0 → Fin S3200000.rank)
  reducesTo_S3200000_S_d0 : S3200000.ReducesTo [0] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S3x64x64 : S_.BroadcastsInDim S3x64x64 (![] : Fin 0 → Fin S3x64x64.rank)
  reducesTo_S3x64x64_S_d0_1_2 : S3x64x64.ReducesTo [0, 1, 2] S_
  bcast_S_S3x1x64 : S_.BroadcastsInDim S3x1x64 (![] : Fin 0 → Fin S3x1x64.rank)
  reducesTo_S3x1x64_S_d0_1_2 : S3x1x64.ReducesTo [0, 1, 2] S_
  bcast_S_S4096 : S_.BroadcastsInDim S4096 (![] : Fin 0 → Fin S4096.rank)
  reducesTo_S4096_S_d0 : S4096.ReducesTo [0] S_

variable [Facts]

def fn_part2 {F : FTy → Type} [FloatOps F] (main_arg0 : IVec S4096 32) (main_arg1 : IVec S4096 32) (main_v33 : IVec S_ 1) : IVec S_ 1 :=
  let main_c_12 : IVec S_ 32 := constantI S_ 32 0#32
  let main_v34 : IVec S4096 32 := broadcastInDim S4096 ![] bcast_S_S4096 main_c_12
  let main_v35 : IVec S4096 1 := cmpi .sge main_arg0 main_v34
  let main_c_13 : IVec S_ 32 := constantI S_ 32 50000#32
  let main_v36 : IVec S4096 32 := broadcastInDim S4096 ![] bcast_S_S4096 main_c_13
  let main_v37 : IVec S4096 1 := cmpi .slt main_arg0 main_v36
  let main_v38 : IVec S4096 1 := andi main_v35 main_v37
  let main_c_14 : IVec S_ 1 := constantI S_ 1 1#1
  let main_v39 : IVec S_ 1 := (fun x v => Host.reduce IntOp.andi x v reducesTo_S4096_S_d0 h_S_) main_v38 main_c_14
  let main_v40 : IVec S_ 1 := andi main_v33 main_v39
  let main_c_15 : IVec S_ 32 := constantI S_ 32 0#32
  let main_v41 : IVec S4096 32 := broadcastInDim S4096 ![] bcast_S_S4096 main_c_15
  let main_v42 : IVec S4096 1 := cmpi .sge main_arg1 main_v41
  let main_c_16 : IVec S_ 32 := constantI S_ 32 50000#32
  let main_v43 : IVec S4096 32 := broadcastInDim S4096 ![] bcast_S_S4096 main_c_16
  let main_v44 : IVec S4096 1 := cmpi .slt main_arg1 main_v43
  let main_v45 : IVec S4096 1 := andi main_v42 main_v44
  let main_c_17 : IVec S_ 1 := constantI S_ 1 1#1
  let main_v46 : IVec S_ 1 := (fun x v => Host.reduce IntOp.andi x v reducesTo_S4096_S_d0 h_S_) main_v45 main_c_17
  let main_v47 : IVec S_ 1 := andi main_v40 main_v46
  main_v47

def fn_part1 {F : FTy → Type} [FloatOps F] (main_arg0 : IVec S4096 32) (main_arg1 : IVec S4096 32) (main_arg8 : FVec F S3x1x64 .f32) (main_arg9 : FVec F S3x64x64 .f32) (main_arg10 : FVec F S3x1x64 .f32) (main_v13 : IVec S_ 1) (main_v16 : IVec S3x64x64 1) : IVec S_ 1 :=
  let main_c_5 : IVec S_ 1 := constantI S_ 1 1#1
  let main_v17 : IVec S_ 1 := (fun x v => Host.reduce IntOp.andi x v reducesTo_S3x64x64_S_d0_1_2 h_S_) main_v16 main_c_5
  let main_v18 : IVec S_ 1 := andi main_v13 main_v17
  let main_v19 : FVec F S3x1x64 .f32 := Host.absf main_arg8
  let main_cst_6 : FVec F S_ .f32 := constant S_ .f32 0x7F800000#32
  let main_v20 : FVec F S3x1x64 .f32 := broadcastInDim S3x1x64 ![] bcast_S_S3x1x64 main_cst_6
  let main_v21 : IVec S3x1x64 1 := cmpf .olt main_v19 main_v20
  let main_c_7 : IVec S_ 1 := constantI S_ 1 1#1
  let main_v22 : IVec S_ 1 := (fun x v => Host.reduce IntOp.andi x v reducesTo_S3x1x64_S_d0_1_2 h_S_) main_v21 main_c_7
  let main_v23 : IVec S_ 1 := andi main_v18 main_v22
  let main_v24 : FVec F S3x64x64 .f32 := Host.absf main_arg9
  let main_cst_8 : FVec F S_ .f32 := constant S_ .f32 0x7F800000#32
  let main_v25 : FVec F S3x64x64 .f32 := broadcastInDim S3x64x64 ![] bcast_S_S3x64x64 main_cst_8
  let main_v26 : IVec S3x64x64 1 := cmpf .olt main_v24 main_v25
  let main_c_9 : IVec S_ 1 := constantI S_ 1 1#1
  let main_v27 : IVec S_ 1 := (fun x v => Host.reduce IntOp.andi x v reducesTo_S3x64x64_S_d0_1_2 h_S_) main_v26 main_c_9
  let main_v28 : IVec S_ 1 := andi main_v23 main_v27
  let main_v29 : FVec F S3x1x64 .f32 := Host.absf main_arg10
  let main_cst_10 : FVec F S_ .f32 := constant S_ .f32 0x7F800000#32
  let main_v30 : FVec F S3x1x64 .f32 := broadcastInDim S3x1x64 ![] bcast_S_S3x1x64 main_cst_10
  let main_v31 : IVec S3x1x64 1 := cmpf .olt main_v29 main_v30
  let main_c_11 : IVec S_ 1 := constantI S_ 1 1#1
  let main_v32 : IVec S_ 1 := (fun x v => Host.reduce IntOp.andi x v reducesTo_S3x1x64_S_d0_1_2 h_S_) main_v31 main_c_11
  let main_v33 : IVec S_ 1 := andi main_v28 main_v32
  fn_part2 (F := F) main_arg0 main_arg1 main_v33

def fn {F : FTy → Type} [FloatOps F] (main_arg0 : IVec S4096 32) (main_arg1 : IVec S4096 32) (main_arg2 : IVec S3200000 32) (main_arg3 : IVec S3200000 32) (main_arg4 : FVec F S3200000 .f32) (main_arg5 : FVec F S50000x64 .f32) (main_arg6 : FVec F S50000x64 .f32) (main_arg7 : FVec F S3x64x64 .f32) (main_arg8 : FVec F S3x1x64 .f32) (main_arg9 : FVec F S3x64x64 .f32) (main_arg10 : FVec F S3x1x64 .f32) : IVec S_ 1 :=
  let main_v0 : FVec F S3200000 .f32 := Host.absf main_arg4
  let main_cst : FVec F S_ .f32 := constant S_ .f32 0x7F800000#32
  let main_v1 : FVec F S3200000 .f32 := broadcastInDim S3200000 ![] bcast_S_S3200000 main_cst
  let main_v2 : IVec S3200000 1 := cmpf .olt main_v0 main_v1
  let main_c : IVec S_ 1 := constantI S_ 1 1#1
  let main_v3 : IVec S_ 1 := (fun x v => Host.reduce IntOp.andi x v reducesTo_S3200000_S_d0 h_S_) main_v2 main_c
  let main_v4 : FVec F S50000x64 .f32 := Host.absf main_arg5
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S50000x64 .f32 := Host.absf main_arg6
  let main_cst_2 : FVec F S_ .f32 := constant S_ .f32 0x7F800000#32
  let main_v10 : FVec F S50000x64 .f32 := broadcastInDim S50000x64 ![] bcast_S_S50000x64 main_cst_2
  let main_v11 : IVec S50000x64 1 := cmpf .olt main_v9 main_v10
  let main_c_3 : IVec S_ 1 := constantI S_ 1 1#1
  let main_v12 : IVec S_ 1 := (fun x v => Host.reduce IntOp.andi x v reducesTo_S50000x64_S_d0_1 h_S_) main_v11 main_c_3
  let main_v13 : IVec S_ 1 := andi main_v8 main_v12
  let main_v14 : FVec F S3x64x64 .f32 := Host.absf main_arg7
  let main_cst_4 : FVec F S_ .f32 := constant S_ .f32 0x7F800000#32
  let main_v15 : FVec F S3x64x64 .f32 := broadcastInDim S3x64x64 ![] bcast_S_S3x64x64 main_cst_4
  let main_v16 : IVec S3x64x64 1 := cmpf .olt main_v14 main_v15
  fn_part1 (F := F) main_arg0 main_arg1 main_arg8 main_arg9 main_arg10 main_v13 main_v16
-- ==== Kernel.lean ====
abbrev S4096 : Shape := ⟨1, ![4096]⟩
abbrev S3200000 : Shape := ⟨1, ![3200000]⟩
abbrev S50000x64 : Shape := ⟨2, ![50000, 64]⟩
abbrev S3x64x64 : Shape := ⟨3, ![3, 64, 64]⟩
abbrev S3x1x64 : Shape := ⟨3, ![3, 1, 64]⟩
abbrev S100000x64 : Shape := ⟨2, ![100000, 64]⟩
abbrev S3200000x1 : Shape := ⟨2, ![3200000, 1]⟩
abbrev S_ : Shape := ⟨0, ![]⟩
abbrev S3200000x64 : Shape := ⟨2, ![3200000, 64]⟩
abbrev S1x64x64 : Shape := ⟨3, ![1, 64, 64]⟩
abbrev S64x64 : Shape := ⟨2, ![64, 64]⟩
abbrev S1x1x64 : Shape := ⟨3, ![1, 1, 64]⟩
abbrev S1x64 : Shape := ⟨2, ![1, 64]⟩
abbrev S5000x64 : Shape := ⟨2, ![5000, 64]⟩
abbrev S4096x1 : Shape := ⟨2, ![4096, 1]⟩
abbrev S1 : Shape := ⟨1, ![1]⟩
abbrev S1x1 : Shape := ⟨2, ![1, 1]⟩
abbrev S4096x64 : Shape := ⟨2, ![4096, 64]⟩
abbrev S4096x256 : Shape := ⟨2, ![4096, 256]⟩

abbrev nBuf : Space → Nat
  | .hbm => 350
  | .vmem => 30
  | .smem => 0
  | _ => 0

abbrev hbmTy0_0 (i : Nat) : BufTy := match i % 128 with
  | 0 => ⟨S4096, .i32⟩
  | 1 => ⟨S4096, .i32⟩
  | 2 => ⟨S3200000, .i32⟩
  | 3 => ⟨S3200000, .i32⟩
  | 4 => ⟨S3200000, .f32⟩
  | 5 => ⟨S50000x64, .f32⟩
  | 6 => ⟨S50000x64, .f32⟩
  | 7 => ⟨S3x64x64, .f32⟩
  | 8 => ⟨S3x1x64, .f32⟩
  | 9 => ⟨S3x64x64, .f32⟩
  | 10 => ⟨S3x1x64, .f32⟩
  | 11 => ⟨S100000x64, .f32⟩
  | 12 => ⟨S100000x64, .bf16⟩
  | 13 => ⟨S3200000x1, .f32⟩
  | 14 => ⟨S_, .i32⟩
  | 15 => ⟨S3200000, .i32⟩
  | 16 => ⟨S3200000, .i1⟩
  | 17 => ⟨S_, .i32⟩
  | 18 => ⟨S3200000, .i32⟩
  | 19 => ⟨S3200000, .i32⟩
  | 20 => ⟨S3200000, .i32⟩
  | 21 => ⟨S3200000x1, .i32⟩
  | 22 => ⟨S3200000x64, .bf16⟩
  | 23 => ⟨S3200000x64, .f32⟩
  | 24 => ⟨S3200000x64, .f32⟩
  | 25 => ⟨S3200000x64, .f32⟩
  | 26 => ⟨S_, .f32⟩
  | 27 => ⟨S100000x64, .f32⟩
  | 28 => ⟨S3200000x1, .i32⟩
  | 29 => ⟨S100000x64, .f32⟩
  | 30 => ⟨S1x64x64, .f32⟩
  | 31 => ⟨S64x64, .f32⟩
  | 32 => ⟨S1x1x64, .f32⟩
  | 33 => ⟨S1x64, .f32⟩
  | 34 => ⟨S1x64x64, .f32⟩
  | 35 => ⟨S64x64, .f32⟩
  | 36 => ⟨S1x1x64, .f32⟩
  | 37 => ⟨S1x64, .f32⟩
  | 38 => ⟨S100000x64, .f32⟩
  | 39 => ⟨S100000x64, .bf16⟩
  | 40 => ⟨S3200000x1, .f32⟩
  | 41 => ⟨S_, .i32⟩
  | 42 => ⟨S3200000, .i32⟩
  | 43 => ⟨S3200000, .i1⟩
  | 44 => ⟨S_, .i32⟩
  | 45 => ⟨S3200000, .i32⟩
  | 46 => ⟨S3200000, .i32⟩
  | 47 => ⟨S3200000, .i32⟩
  | 48 => ⟨S3200000x1, .i32⟩
  | 49 => ⟨S3200000x64, .bf16⟩
  | 50 => ⟨S3200000x64, .f32⟩
  | 51 => ⟨S3200000x64, .f32⟩
  | 52 => ⟨S3200000x64, .f32⟩
  | 53 => ⟨S_, .f32⟩
  | 54 => ⟨S100000x64, .f32⟩
  | 55 => ⟨S3200000x1, .i32⟩
  | 56 => ⟨S100000x64, .f32⟩
  | 57 => ⟨S1x64x64, .f32⟩
  | 58 => ⟨S64x64, .f32⟩
  | 59 => ⟨S1x1x64, .f32⟩
  | 60 => ⟨S1x64, .f32⟩
  | 61 => ⟨S1x64x64, .f32⟩
  | 62 => ⟨S64x64, .f32⟩
  | 63 => ⟨S1x1x64, .f32⟩
  | 64 => ⟨S1x64, .f32⟩
  | 65 => ⟨S100000x64, .f32⟩
  | 66 => ⟨S100000x64, .bf16⟩
  | 67 => ⟨S3200000x1, .f32⟩
  | 68 => ⟨S_, .i32⟩
  | 69 => ⟨S3200000, .i32⟩
  | 70 => ⟨S3200000, .i1⟩
  | 71 => ⟨S_, .i32⟩
  | 72 => ⟨S3200000, .i32⟩
  | 73 => ⟨S3200000, .i32⟩
  | 74 => ⟨S3200000, .i32⟩
  | 75 => ⟨S3200000x1, .i32⟩
  | 76 => ⟨S3200000x64, .bf16⟩
  | 77 => ⟨S3200000x64, .f32⟩
  | 78 => ⟨S3200000x64, .f32⟩
  | 79 => ⟨S3200000x64, .f32⟩
  | 80 => ⟨S_, .f32⟩
  | 81 => ⟨S100000x64, .f32⟩
  | 82 => ⟨S3200000x1, .i32⟩
  | 83 => ⟨S100000x64, .f32⟩
  | 84 => ⟨S1x64x64, .f32⟩
  | 85 => ⟨S64x64, .f32⟩
  | 86 => ⟨S1x1x64, .f32⟩
  | 87 => ⟨S1x64, .f32⟩
  | 88 => ⟨S1x64x64, .f32⟩
  | 89 => ⟨S64x64, .f32⟩
  | 90 => ⟨S1x1x64, .f32⟩
  | 91 => ⟨S1x64, .f32⟩
  | 92 => ⟨S100000x64, .f32⟩
  | 93 => ⟨S50000x64, .f32⟩
  | 94 => ⟨S_, .i32⟩
  | 95 => ⟨S4096, .i32⟩
  | 96 => ⟨S4096, .i1⟩
  | 97 => ⟨S_, .i32⟩
  | 98 => ⟨S4096, .i32⟩
  | 99 => ⟨S4096, .i32⟩
  | 100 => ⟨S4096, .i32⟩
  | 101 => ⟨S4096x1, .i32⟩
  | 102 => ⟨S1, .i32⟩
  | 103 => ⟨S_, .i32⟩
  | 104 => ⟨S4096x1, .i32⟩
  | 105 => ⟨S4096x1, .i1⟩
  | 106 => ⟨S1x1, .i32⟩
  | 107 => ⟨S4096x1, .i32⟩
  | 108 => ⟨S4096x1, .i1⟩
  | 109 => ⟨S4096x1, .i1⟩
  | 110 => ⟨S_, .i1⟩
  | 111 => ⟨S4096, .i1⟩
  | 112 => ⟨S4096x64, .f32⟩
  | 113 => ⟨S4096x64, .i1⟩
  | 114 => ⟨S_, .f32⟩
  | 115 => ⟨S4096x64, .f32⟩
  | 116 => ⟨S4096x64, .f32⟩
  | 117 => ⟨S50000x64, .f32⟩
  | 118 => ⟨S_, .i32⟩
  | 119 => ⟨S4096, .i32⟩
  | 120 => ⟨S4096, .i1⟩
  | 121 => ⟨S_, .i32⟩
  | 122 => ⟨S4096, .i32⟩
  | 123 => ⟨S4096, .i32⟩
  | 124 => ⟨S4096, .i32⟩
  | 125 => ⟨S4096x1, .i32⟩
  | 126 => ⟨S1, .i32⟩
  | 127 => ⟨S_, .i32⟩
  | _ => ⟨S4096, .i32⟩

abbrev hbmTy0_1 (i : Nat) : BufTy := match i % 128 with
  | 0 => ⟨S4096x1, .i32⟩
  | 1 => ⟨S4096x1, .i1⟩
  | 2 => ⟨S1x1, .i32⟩
  | 3 => ⟨S4096x1, .i32⟩
  | 4 => ⟨S4096x1, .i1⟩
  | 5 => ⟨S4096x1, .i1⟩
  | 6 => ⟨S_, .i1⟩
  | 7 => ⟨S4096, .i1⟩
  | 8 => ⟨S4096x64, .f32⟩
  | 9 => ⟨S4096x64, .i1⟩
  | 10 => ⟨S_, .f32⟩
  | 11 => ⟨S4096x64, .f32⟩
  | 12 => ⟨S4096x64, .f32⟩
  | 13 => ⟨S50000x64, .f32⟩
  | 14 => ⟨S_, .i32⟩
  | 15 => ⟨S4096, .i32⟩
  | 16 => ⟨S4096, .i1⟩
  | 17 => ⟨S_, .i32⟩
  | 18 => ⟨S4096, .i32⟩
  | 19 => ⟨S4096, .i32⟩
  | 20 => ⟨S4096, .i32⟩
  | 21 => ⟨S4096x1, .i32⟩
  | 22 => ⟨S1, .i32⟩
  | 23 => ⟨S_, .i32⟩
  | 24 => ⟨S4096x1, .i32⟩
  | 25 => ⟨S4096x1, .i1⟩
  | 26 => ⟨S1x1, .i32⟩
  | 27 => ⟨S4096x1, .i32⟩
  | 28 => ⟨S4096x1, .i1⟩
  | 29 => ⟨S4096x1, .i1⟩
  | 30 => ⟨S_, .i1⟩
  | 31 => ⟨S4096, .i1⟩
  | 32 => ⟨S4096x64, .f32⟩
  | 33 => ⟨S4096x64, .i1⟩
  | 34 => ⟨S_, .f32⟩
  | 35 => ⟨S4096x64, .f32⟩
  | 36 => ⟨S4096x64, .f32⟩
  | 37 => ⟨S50000x64, .f32⟩
  | 38 => ⟨S_, .i32⟩
  | 39 => ⟨S4096, .i32⟩
  | 40 => ⟨S4096, .i1⟩
  | 41 => ⟨S_, .i32⟩
  | 42 => ⟨S4096, .i32⟩
  | 43 => ⟨S4096, .i32⟩
  | 44 => ⟨S4096, .i32⟩
  | 45 => ⟨S4096x1, .i32⟩
  | 46 => ⟨S1, .i32⟩
  | 47 => ⟨S_, .i32⟩
  | 48 => ⟨S4096x1, .i32⟩
  | 49 => ⟨S4096x1, .i1⟩
  | 50 => ⟨S1x1, .i32⟩
  | 51 => ⟨S4096x1, .i32⟩
  | 52 => ⟨S4096x1, .i1⟩
  | 53 => ⟨S4096x1, .i1⟩
  | 54 => ⟨S_, .i1⟩
  | 55 => ⟨S4096, .i1⟩
  | 56 => ⟨S4096x64, .f32⟩
  | 57 => ⟨S4096x64, .i1⟩
  | 58 => ⟨S_, .f32⟩
  | 59 => ⟨S4096x64, .f32⟩
  | 60 => ⟨S4096x64, .f32⟩
  | 61 => ⟨S4096x64, .f32⟩
  | 62 => ⟨S_, .f32⟩
  | 63 => ⟨S4096, .f32⟩
  | 64 => ⟨S4096x1, .f32⟩
  | 65 => ⟨S4096x1, .f32⟩
  | 66 => ⟨S_, .f32⟩
  | 67 => ⟨S4096x1, .f32⟩
  | 68 => ⟨S4096x1, .f32⟩
  | 69 => ⟨S4096x64, .f32⟩
  | 70 => ⟨S4096x64, .f32⟩
  | 71 => ⟨S4096x64, .f32⟩
  | 72 => ⟨S_, .f32⟩
  | 73 => ⟨S4096, .f32⟩
  | 74 => ⟨S4096x1, .f32⟩
  | 75 => ⟨S4096x1, .f32⟩
  | 76 => ⟨S_, .f32⟩
  | 77 => ⟨S4096x1, .f32⟩
  | 78 => ⟨S4096x1, .f32⟩
  | 79 => ⟨S4096x64, .f32⟩
  | 80 => ⟨S4096x64, .f32⟩
  | 81 => ⟨S50000x64, .f32⟩
  | 82 => ⟨S_, .i32⟩
  | 83 => ⟨S4096, .i32⟩
  | 84 => ⟨S4096, .i1⟩
  | 85 => ⟨S_, .i32⟩
  | 86 => ⟨S4096, .i32⟩
  | 87 => ⟨S4096, .i32⟩
  | 88 => ⟨S4096, .i32⟩
  | 89 => ⟨S4096x1, .i32⟩
  | 90 => ⟨S1, .i32⟩
  | 91 => ⟨S_, .i32⟩
  | 92 => ⟨S4096x1, .i32⟩
  | 93 => ⟨S4096x1, .i1⟩
  | 94 => ⟨S1x1, .i32⟩
  | 95 => ⟨S4096x1, .i32⟩
  | 96 => ⟨S4096x1, .i1⟩
  | 97 => ⟨S4096x1, .i1⟩
  | 98 => ⟨S_, .i1⟩
  | 99 => ⟨S4096, .i1⟩
  | 100 => ⟨S4096x64, .f32⟩
  | 101 => ⟨S4096x64, .i1⟩
  | 102 => ⟨S_, .f32⟩
  | 103 => ⟨S4096x64, .f32⟩
  | 104 => ⟨S4096x64, .f32⟩
  | 105 => ⟨S50000x64, .f32⟩
  | 106 => ⟨S_, .i32⟩
  | 107 => ⟨S4096, .i32⟩
  | 108 => ⟨S4096, .i1⟩
  | 109 => ⟨S_, .i32⟩
  | 110 => ⟨S4096, .i32⟩
  | 111 => ⟨S4096, .i32⟩
  | 112 => ⟨S4096, .i32⟩
  | 113 => ⟨S4096x1, .i32⟩
  | 114 => ⟨S1, .i32⟩
  | 115 => ⟨S_, .i32⟩
  | 116 => ⟨S4096x1, .i32⟩
  | 117 => ⟨S4096x1, .i1⟩
  | 118 => ⟨S1x1, .i32⟩
  | 119 => ⟨S4096x1, .i32⟩
  | 120 => ⟨S4096x1, .i1⟩
  | 121 => ⟨S4096x1, .i1⟩
  | 122 => ⟨S_, .i1⟩
  | 123 => ⟨S4096, .i1⟩
  | 124 => ⟨S4096x64, .f32⟩
  | 125 => ⟨S4096x64, .i1⟩
  | 126 => ⟨S_, .f32⟩
  | 127 => ⟨S4096x64, .f32⟩
  | _ => ⟨S4096, .i32⟩

abbrev hbmTy0_2 (i : Nat) : BufTy := match i % 128 with
  | 0 => ⟨S4096x64, .f32⟩
  | 1 => ⟨S4096x64, .f32⟩
  | 2 => ⟨S_, .f32⟩
  | 3 => ⟨S4096, .f32⟩
  | 4 => ⟨S4096x1, .f32⟩
  | 5 => ⟨S4096x1, .f32⟩
  | 6 => ⟨S_, .f32⟩
  | 7 => ⟨S4096x1, .f32⟩
  | 8 => ⟨S4096x1, .f32⟩
  | 9 => ⟨S4096x64, .f32⟩
  | 10 => ⟨S4096x64, .f32⟩
  | 11 => ⟨S4096x64, .f32⟩
  | 12 => ⟨S_, .f32⟩
  | 13 => ⟨S4096, .f32⟩
  | 14 => ⟨S4096x1, .f32⟩
  | 15 => ⟨S4096x1, .f32⟩
  | 16 => ⟨S_, .f32⟩
  | 17 => ⟨S4096x1, .f32⟩
  | 18 => ⟨S4096x1, .f32⟩
  | 19 => ⟨S4096x64, .f32⟩
  | 20 => ⟨S4096x64, .f32⟩
  | 21 => ⟨S50000x64, .f32⟩
  | 22 => ⟨S_, .i32⟩
  | 23 => ⟨S4096, .i32⟩
  | 24 => ⟨S4096, .i1⟩
  | 25 => ⟨S_, .i32⟩
  | 26 => ⟨S4096, .i32⟩
  | 27 => ⟨S4096, .i32⟩
  | 28 => ⟨S4096, .i32⟩
  | 29 => ⟨S4096x1, .i32⟩
  | 30 => ⟨S1, .i32⟩
  | 31 => ⟨S_, .i32⟩
  | 32 => ⟨S4096x1, .i32⟩
  | 33 => ⟨S4096x1, .i1⟩
  | 34 => ⟨S1x1, .i32⟩
  | 35 => ⟨S4096x1, .i32⟩
  | 36 => ⟨S4096x1, .i1⟩
  | 37 => ⟨S4096x1, .i1⟩
  | 38 => ⟨S_, .i1⟩
  | 39 => ⟨S4096, .i1⟩
  | 40 => ⟨S4096x64, .f32⟩
  | 41 => ⟨S4096x64, .i1⟩
  | 42 => ⟨S_, .f32⟩
  | 43 => ⟨S4096x64, .f32⟩
  | 44 => ⟨S4096x64, .f32⟩
  | 45 => ⟨S50000x64, .f32⟩
  | 46 => ⟨S_, .i32⟩
  | 47 => ⟨S4096, .i32⟩
  | 48 => ⟨S4096, .i1⟩
  | 49 => ⟨S_, .i32⟩
  | 50 => ⟨S4096, .i32⟩
  | 51 => ⟨S4096, .i32⟩
  | 52 => ⟨S4096, .i32⟩
  | 53 => ⟨S4096x1, .i32⟩
  | 54 => ⟨S1, .i32⟩
  | 55 => ⟨S_, .i32⟩
  | 56 => ⟨S4096x1, .i32⟩
  | 57 => ⟨S4096x1, .i1⟩
  | 58 => ⟨S1x1, .i32⟩
  | 59 => ⟨S4096x1, .i32⟩
  | 60 => ⟨S4096x1, .i1⟩
  | 61 => ⟨S4096x1, .i1⟩
  | 62 => ⟨S_, .i1⟩
  | 63 => ⟨S4096, .i1⟩
  | 64 => ⟨S4096x64, .f32⟩
  | 65 => ⟨S4096x64, .i1⟩
  | 66 => ⟨S_, .f32⟩
  | 67 => ⟨S4096x64, .f32⟩
  | 68 => ⟨S4096x64, .f32⟩
  | 69 => ⟨S4096x64, .f32⟩
  | 70 => ⟨S_, .f32⟩
  | 71 => ⟨S4096, .f32⟩
  | 72 => ⟨S4096x1, .f32⟩
  | 73 => ⟨S4096x1, .f32⟩
  | 74 => ⟨S_, .f32⟩
  | 75 => ⟨S4096x1, .f32⟩
  | 76 => ⟨S4096x1, .f32⟩
  | 77 => ⟨S4096x64, .f32⟩
  | 78 => ⟨S4096x64, .f32⟩
  | 79 => ⟨S4096x64, .f32⟩
  | 80 => ⟨S_, .f32⟩
  | 81 => ⟨S4096, .f32⟩
  | 82 => ⟨S4096x1, .f32⟩
  | 83 => ⟨S4096x1, .f32⟩
  | 84 => ⟨S_, .f32⟩
  | 85 => ⟨S4096x1, .f32⟩
  | 86 => ⟨S4096x1, .f32⟩
  | 87 => ⟨S4096x64, .f32⟩
  | 88 => ⟨S4096x64, .f32⟩
  | 89 => ⟨S4096x256, .f32⟩
  | 90 => ⟨S4096x256, .f32⟩
  | 91 => ⟨S4096x256, .f32⟩
  | 92 => ⟨S_, .f32⟩
  | 93 => ⟨S4096, .f32⟩
  | _ => ⟨S4096, .i32⟩

abbrev hbmTy (i : Nat) : BufTy := match i / 128 with
  | 0 => hbmTy0_0 i
  | 1 => hbmTy0_1 i
  | 2 => hbmTy0_2 i
  | _ => ⟨S4096, .i32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S64x64, .f32⟩
  | .local _ .vmem, ⟨15, _⟩ => ⟨S1x64, .f32⟩
  | .local _ .vmem, ⟨16, _⟩ => ⟨S64x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S64x64, .f32⟩
  | .local _ .vmem, ⟨25, _⟩ => ⟨S1x64, .f32⟩
  | .local _ .vmem, ⟨26, _⟩ => ⟨S64x64, .f32⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | _, _ => ⟨S4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c : Ref sig .tc := ⟨.hbm, 14, rfl⟩
abbrev main_v3 : Ref sig .tc := ⟨.hbm, 15, rfl⟩
abbrev main_v4 : Ref sig .tc := ⟨.hbm, 16, rfl⟩
abbrev main_c_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_1 : Ref sig .tc := ⟨.hbm, 41, rfl⟩
abbrev main_v27 : Ref sig .tc := ⟨.hbm, 42, rfl⟩
abbrev main_v28 : Ref sig .tc := ⟨.hbm, 43, rfl⟩
abbrev main_c_2 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_3 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_c_4 : Ref sig .tc := ⟨.hbm, 68, rfl⟩
abbrev main_v51 : Ref sig .tc := ⟨.hbm, 69, rfl⟩
abbrev main_v52 : Ref sig .tc := ⟨.hbm, 70, rfl⟩
abbrev main_c_5 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_6 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_call0_c : Ref sig .tc := ⟨.hbm, 94, rfl⟩
abbrev main_call0_v0 : Ref sig .tc := ⟨.hbm, 95, rfl⟩
abbrev main_call0_v1 : Ref sig .tc := ⟨.hbm, 96, rfl⟩
abbrev main_call0_c_0 : Ref sig .tc := ⟨.hbm, 97, rfl⟩
abbrev main_call0_v2 : Ref sig .tc := ⟨.hbm, 98, rfl⟩
abbrev main_call0_v3 : Ref sig .tc := ⟨.hbm, 99, rfl⟩
abbrev main_call0_v4 : Ref sig .tc := ⟨.hbm, 100, rfl⟩
abbrev main_call0_v5 : Ref sig .tc := ⟨.hbm, 101, rfl⟩
abbrev main_call0_c_1 : Ref sig .tc := ⟨.hbm, 102, rfl⟩
abbrev main_call0_c_2 : Ref sig .tc := ⟨.hbm, 103, rfl⟩
abbrev main_call0_v6 : Ref sig .tc := ⟨.hbm, 104, rfl⟩
abbrev main_call0_v7 : Ref sig .tc := ⟨.hbm, 105, rfl⟩
abbrev main_call0_v8 : Ref sig .tc := ⟨.hbm, 106, rfl⟩
abbrev main_call0_v9 : Ref sig .tc := ⟨.hbm, 107, rfl⟩
abbrev main_call0_v10 : Ref sig .tc := ⟨.hbm, 108, rfl⟩
abbrev main_call0_v11 : Ref sig .tc := ⟨.hbm, 109, rfl⟩
abbrev main_call0_c_3 : Ref sig .tc := ⟨.hbm, 110, rfl⟩
abbrev main_call0_v12 : Ref sig .tc := ⟨.hbm, 111, rfl⟩
abbrev main_call0_v13 : Ref sig .tc := ⟨.hbm, 112, rfl⟩
abbrev main_call0_v14 : Ref sig .tc := ⟨.hbm, 113, rfl⟩
abbrev main_call0_cst : Ref sig .tc := ⟨.hbm, 114, rfl⟩
abbrev main_call0_v15 : Ref sig .tc := ⟨.hbm, 115, rfl⟩
abbrev main_v74 : Ref sig .tc := ⟨.hbm, 116, rfl⟩
abbrev main_v75 : Ref sig .tc := ⟨.hbm, 117, rfl⟩
abbrev main_call1_c : Ref sig .tc := ⟨.hbm, 118, rfl⟩
abbrev main_call1_v0 : Ref sig .tc := ⟨.hbm, 119, rfl⟩
abbrev main_call1_v1 : Ref sig .tc := ⟨.hbm, 120, rfl⟩
abbrev main_call1_c_0 : Ref sig .tc := ⟨.hbm, 121, rfl⟩
abbrev main_call1_v2 : Ref sig .tc := ⟨.hbm, 122, rfl⟩
abbrev main_call1_v3 : Ref sig .tc := ⟨.hbm, 123, rfl⟩
abbrev main_call1_v4 : Ref sig .tc := ⟨.hbm, 124, rfl⟩
abbrev main_call1_v5 : Ref sig .tc := ⟨.hbm, 125, rfl⟩
abbrev main_call1_c_1 : Ref sig .tc := ⟨.hbm, 126, rfl⟩
abbrev main_call1_c_2 : Ref sig .tc := ⟨.hbm, 127, rfl⟩
abbrev main_call1_v6 : Ref sig .tc := ⟨.hbm, 128, rfl⟩
abbrev main_call1_v7 : Ref sig .tc := ⟨.hbm, 129, rfl⟩
abbrev main_call1_v8 : Ref sig .tc := ⟨.hbm, 130, rfl⟩
abbrev main_call1_v9 : Ref sig .tc := ⟨.hbm, 131, rfl⟩
abbrev main_call1_v10 : Ref sig .tc := ⟨.hbm, 132, rfl⟩
abbrev main_call1_v11 : Ref sig .tc := ⟨.hbm, 133, rfl⟩
abbrev main_call1_c_3 : Ref sig .tc := ⟨.hbm, 134, rfl⟩
abbrev main_call1_v12 : Ref sig .tc := ⟨.hbm, 135, rfl⟩
abbrev main_call1_v13 : Ref sig .tc := ⟨.hbm, 136, rfl⟩
abbrev main_call1_v14 : Ref sig .tc := ⟨.hbm, 137, rfl⟩
abbrev main_call1_cst : Ref sig .tc := ⟨.hbm, 138, rfl⟩
abbrev main_call1_v15 : Ref sig .tc := ⟨.hbm, 139, rfl⟩
abbrev main_v76 : Ref sig .tc := ⟨.hbm, 140, rfl⟩
abbrev main_v77 : Ref sig .tc := ⟨.hbm, 141, rfl⟩
abbrev main_call2_c : Ref sig .tc := ⟨.hbm, 142, rfl⟩
abbrev main_call2_v0 : Ref sig .tc := ⟨.hbm, 143, rfl⟩
abbrev main_call2_v1 : Ref sig .tc := ⟨.hbm, 144, rfl⟩
abbrev main_call2_c_0 : Ref sig .tc := ⟨.hbm, 145, rfl⟩
abbrev main_call2_v2 : Ref sig .tc := ⟨.hbm, 146, rfl⟩
abbrev main_call2_v3 : Ref sig .tc := ⟨.hbm, 147, rfl⟩
abbrev main_call2_v4 : Ref sig .tc := ⟨.hbm, 148, rfl⟩
abbrev main_call2_v5 : Ref sig .tc := ⟨.hbm, 149, rfl⟩
abbrev main_call2_c_1 : Ref sig .tc := ⟨.hbm, 150, rfl⟩
abbrev main_call2_c_2 : Ref sig .tc := ⟨.hbm, 151, rfl⟩
abbrev main_call2_v6 : Ref sig .tc := ⟨.hbm, 152, rfl⟩
abbrev main_call2_v7 : Ref sig .tc := ⟨.hbm, 153, rfl⟩
abbrev main_call2_v8 : Ref sig .tc := ⟨.hbm, 154, rfl⟩
abbrev main_call2_v9 : Ref sig .tc := ⟨.hbm, 155, rfl⟩
abbrev main_call2_v10 : Ref sig .tc := ⟨.hbm, 156, rfl⟩
abbrev main_call2_v11 : Ref sig .tc := ⟨.hbm, 157, rfl⟩
abbrev main_call2_c_3 : Ref sig .tc := ⟨.hbm, 158, rfl⟩
abbrev main_call2_v12 : Ref sig .tc := ⟨.hbm, 159, rfl⟩
abbrev main_call2_v13 : Ref sig .tc := ⟨.hbm, 160, rfl⟩
abbrev main_call2_v14 : Ref sig .tc := ⟨.hbm, 161, rfl⟩
abbrev main_call2_cst : Ref sig .tc := ⟨.hbm, 162, rfl⟩
abbrev main_call2_v15 : Ref sig .tc := ⟨.hbm, 163, rfl⟩
abbrev main_v78 : Ref sig .tc := ⟨.hbm, 164, rfl⟩
abbrev main_v79 : Ref sig .tc := ⟨.hbm, 165, rfl⟩
abbrev main_call3_c : Ref sig .tc := ⟨.hbm, 166, rfl⟩
abbrev main_call3_v0 : Ref sig .tc := ⟨.hbm, 167, rfl⟩
abbrev main_call3_v1 : Ref sig .tc := ⟨.hbm, 168, rfl⟩
abbrev main_call3_c_0 : Ref sig .tc := ⟨.hbm, 169, rfl⟩
abbrev main_call3_v2 : Ref sig .tc := ⟨.hbm, 170, rfl⟩
abbrev main_call3_v3 : Ref sig .tc := ⟨.hbm, 171, rfl⟩
abbrev main_call3_v4 : Ref sig .tc := ⟨.hbm, 172, rfl⟩
abbrev main_call3_v5 : Ref sig .tc := ⟨.hbm, 173, rfl⟩
abbrev main_call3_c_1 : Ref sig .tc := ⟨.hbm, 174, rfl⟩
abbrev main_call3_c_2 : Ref sig .tc := ⟨.hbm, 175, rfl⟩
abbrev main_call3_v6 : Ref sig .tc := ⟨.hbm, 176, rfl⟩
abbrev main_call3_v7 : Ref sig .tc := ⟨.hbm, 177, rfl⟩
abbrev main_call3_v8 : Ref sig .tc := ⟨.hbm, 178, rfl⟩
abbrev main_call3_v9 : Ref sig .tc := ⟨.hbm, 179, rfl⟩
abbrev main_call3_v10 : Ref sig .tc := ⟨.hbm, 180, rfl⟩
abbrev main_call3_v11 : Ref sig .tc := ⟨.hbm, 181, rfl⟩
abbrev main_call3_c_3 : Ref sig .tc := ⟨.hbm, 182, rfl⟩
abbrev main_call3_v12 : Ref sig .tc := ⟨.hbm, 183, rfl⟩
abbrev main_call3_v13 : Ref sig .tc := ⟨.hbm, 184, rfl⟩
abbrev main_call3_v14 : Ref sig .tc := ⟨.hbm, 185, rfl⟩
abbrev main_call3_cst : Ref sig .tc := ⟨.hbm, 186, rfl⟩
abbrev main_call3_v15 : Ref sig .tc := ⟨.hbm, 187, rfl⟩
abbrev main_v80 : Ref sig .tc := ⟨.hbm, 188, rfl⟩
abbrev main_v81 : Ref sig .tc := ⟨.hbm, 189, rfl⟩
abbrev main_cst_7 : Ref sig .tc := ⟨.hbm, 190, rfl⟩
abbrev main_v82 : Ref sig .tc := ⟨.hbm, 191, rfl⟩
abbrev main_v83 : Ref sig .tc := ⟨.hbm, 192, rfl⟩
abbrev main_v84 : Ref sig .tc := ⟨.hbm, 193, rfl⟩
abbrev main_cst_8 : Ref sig .tc := ⟨.hbm, 194, rfl⟩
abbrev main_v85 : Ref sig .tc := ⟨.hbm, 195, rfl⟩
abbrev main_v86 : Ref sig .tc := ⟨.hbm, 196, rfl⟩
abbrev main_v87 : Ref sig .tc := ⟨.hbm, 197, rfl⟩
abbrev main_v88 : Ref sig .tc := ⟨.hbm, 198, rfl⟩
abbrev main_v89 : Ref sig .tc := ⟨.hbm, 199, rfl⟩
abbrev main_cst_9 : Ref sig .tc := ⟨.hbm, 200, rfl⟩
abbrev main_v90 : Ref sig .tc := ⟨.hbm, 201, rfl⟩
abbrev main_v91 : Ref sig .tc := ⟨.hbm, 202, rfl⟩
abbrev main_v92 : Ref sig .tc := ⟨.hbm, 203, rfl⟩
abbrev main_cst_10 : Ref sig .tc := ⟨.hbm, 204, rfl⟩
abbrev main_v93 : Ref sig .tc := ⟨.hbm, 205, rfl⟩
abbrev main_v94 : Ref sig .tc := ⟨.hbm, 206, rfl⟩
abbrev main_v95 : Ref sig .tc := ⟨.hbm, 207, rfl⟩
abbrev main_v96 : Ref sig .tc := ⟨.hbm, 208, rfl⟩
abbrev main_v97 : Ref sig .tc := ⟨.hbm, 209, rfl⟩
abbrev main_call4_c : Ref sig .tc := ⟨.hbm, 210, rfl⟩
abbrev main_call4_v0 : Ref sig .tc := ⟨.hbm, 211, rfl⟩
abbrev main_call4_v1 : Ref sig .tc := ⟨.hbm, 212, rfl⟩
abbrev main_call4_c_0 : Ref sig .tc := ⟨.hbm, 213, rfl⟩
abbrev main_call4_v2 : Ref sig .tc := ⟨.hbm, 214, rfl⟩
abbrev main_call4_v3 : Ref sig .tc := ⟨.hbm, 215, rfl⟩
abbrev main_call4_v4 : Ref sig .tc := ⟨.hbm, 216, rfl⟩
abbrev main_call4_v5 : Ref sig .tc := ⟨.hbm, 217, rfl⟩
abbrev main_call4_c_1 : Ref sig .tc := ⟨.hbm, 218, rfl⟩
abbrev main_call4_c_2 : Ref sig .tc := ⟨.hbm, 219, rfl⟩
abbrev main_call4_v6 : Ref sig .tc := ⟨.hbm, 220, rfl⟩
abbrev main_call4_v7 : Ref sig .tc := ⟨.hbm, 221, rfl⟩
abbrev main_call4_v8 : Ref sig .tc := ⟨.hbm, 222, rfl⟩
abbrev main_call4_v9 : Ref sig .tc := ⟨.hbm, 223, rfl⟩
abbrev main_call4_v10 : Ref sig .tc := ⟨.hbm, 224, rfl⟩
abbrev main_call4_v11 : Ref sig .tc := ⟨.hbm, 225, rfl⟩
abbrev main_call4_c_3 : Ref sig .tc := ⟨.hbm, 226, rfl⟩
abbrev main_call4_v12 : Ref sig .tc := ⟨.hbm, 227, rfl⟩
abbrev main_call4_v13 : Ref sig .tc := ⟨.hbm, 228, rfl⟩
abbrev main_call4_v14 : Ref sig .tc := ⟨.hbm, 229, rfl⟩
abbrev main_call4_cst : Ref sig .tc := ⟨.hbm, 230, rfl⟩
abbrev main_call4_v15 : Ref sig .tc := ⟨.hbm, 231, rfl⟩
abbrev main_v98 : Ref sig .tc := ⟨.hbm, 232, rfl⟩
abbrev main_v99 : Ref sig .tc := ⟨.hbm, 233, rfl⟩
abbrev main_call5_c : Ref sig .tc := ⟨.hbm, 234, rfl⟩
abbrev main_call5_v0 : Ref sig .tc := ⟨.hbm, 235, rfl⟩
abbrev main_call5_v1 : Ref sig .tc := ⟨.hbm, 236, rfl⟩
abbrev main_call5_c_0 : Ref sig .tc := ⟨.hbm, 237, rfl⟩
abbrev main_call5_v2 : Ref sig .tc := ⟨.hbm, 238, rfl⟩
abbrev main_call5_v3 : Ref sig .tc := ⟨.hbm, 239, rfl⟩
abbrev main_call5_v4 : Ref sig .tc := ⟨.hbm, 240, rfl⟩
abbrev main_call5_v5 : Ref sig .tc := ⟨.hbm, 241, rfl⟩
abbrev main_call5_c_1 : Ref sig .tc := ⟨.hbm, 242, rfl⟩
abbrev main_call5_c_2 : Ref sig .tc := ⟨.hbm, 243, rfl⟩
abbrev main_call5_v6 : Ref sig .tc := ⟨.hbm, 244, rfl⟩
abbrev main_call5_v7 : Ref sig .tc := ⟨.hbm, 245, rfl⟩
abbrev main_call5_v8 : Ref sig .tc := ⟨.hbm, 246, rfl⟩
abbrev main_call5_v9 : Ref sig .tc := ⟨.hbm, 247, rfl⟩
abbrev main_call5_v10 : Ref sig .tc := ⟨.hbm, 248, rfl⟩
abbrev main_call5_v11 : Ref sig .tc := ⟨.hbm, 249, rfl⟩
abbrev main_call5_c_3 : Ref sig .tc := ⟨.hbm, 250, rfl⟩
abbrev main_call5_v12 : Ref sig .tc := ⟨.hbm, 251, rfl⟩
abbrev main_call5_v13 : Ref sig .tc := ⟨.hbm, 252, rfl⟩
abbrev main_call5_v14 : Ref sig .tc := ⟨.hbm, 253, rfl⟩
abbrev main_call5_cst : Ref sig .tc := ⟨.hbm, 254, rfl⟩
abbrev main_call5_v15 : Ref sig .tc := ⟨.hbm, 255, rfl⟩
abbrev main_v100 : Ref sig .tc := ⟨.hbm, 256, rfl⟩
abbrev main_v101 : Ref sig .tc := ⟨.hbm, 257, rfl⟩
abbrev main_cst_11 : Ref sig .tc := ⟨.hbm, 258, rfl⟩
abbrev main_v102 : Ref sig .tc := ⟨.hbm, 259, rfl⟩
abbrev main_v103 : Ref sig .tc := ⟨.hbm, 260, rfl⟩
abbrev main_v104 : Ref sig .tc := ⟨.hbm, 261, rfl⟩
abbrev main_cst_12 : Ref sig .tc := ⟨.hbm, 262, rfl⟩
abbrev main_v105 : Ref sig .tc := ⟨.hbm, 263, rfl⟩
abbrev main_v106 : Ref sig .tc := ⟨.hbm, 264, rfl⟩
abbrev main_v107 : Ref sig .tc := ⟨.hbm, 265, rfl⟩
abbrev main_v108 : Ref sig .tc := ⟨.hbm, 266, rfl⟩
abbrev main_v109 : Ref sig .tc := ⟨.hbm, 267, rfl⟩
abbrev main_cst_13 : Ref sig .tc := ⟨.hbm, 268, rfl⟩
abbrev main_v110 : Ref sig .tc := ⟨.hbm, 269, rfl⟩
abbrev main_v111 : Ref sig .tc := ⟨.hbm, 270, rfl⟩
abbrev main_v112 : Ref sig .tc := ⟨.hbm, 271, rfl⟩
abbrev main_cst_14 : Ref sig .tc := ⟨.hbm, 272, rfl⟩
abbrev main_v113 : Ref sig .tc := ⟨.hbm, 273, rfl⟩
abbrev main_v114 : Ref sig .tc := ⟨.hbm, 274, rfl⟩
abbrev main_v115 : Ref sig .tc := ⟨.hbm, 275, rfl⟩
abbrev main_v116 : Ref sig .tc := ⟨.hbm, 276, rfl⟩
abbrev main_v117 : Ref sig .tc := ⟨.hbm, 277, rfl⟩
abbrev main_call6_c : Ref sig .tc := ⟨.hbm, 278, rfl⟩
abbrev main_call6_v0 : Ref sig .tc := ⟨.hbm, 279, rfl⟩
abbrev main_call6_v1 : Ref sig .tc := ⟨.hbm, 280, rfl⟩
abbrev main_call6_c_0 : Ref sig .tc := ⟨.hbm, 281, rfl⟩
abbrev main_call6_v2 : Ref sig .tc := ⟨.hbm, 282, rfl⟩
abbrev main_call6_v3 : Ref sig .tc := ⟨.hbm, 283, rfl⟩
abbrev main_call6_v4 : Ref sig .tc := ⟨.hbm, 284, rfl⟩
abbrev main_call6_v5 : Ref sig .tc := ⟨.hbm, 285, rfl⟩
abbrev main_call6_c_1 : Ref sig .tc := ⟨.hbm, 286, rfl⟩
abbrev main_call6_c_2 : Ref sig .tc := ⟨.hbm, 287, rfl⟩
abbrev main_call6_v6 : Ref sig .tc := ⟨.hbm, 288, rfl⟩
abbrev main_call6_v7 : Ref sig .tc := ⟨.hbm, 289, rfl⟩
abbrev main_call6_v8 : Ref sig .tc := ⟨.hbm, 290, rfl⟩
abbrev main_call6_v9 : Ref sig .tc := ⟨.hbm, 291, rfl⟩
abbrev main_call6_v10 : Ref sig .tc := ⟨.hbm, 292, rfl⟩
abbrev main_call6_v11 : Ref sig .tc := ⟨.hbm, 293, rfl⟩
abbrev main_call6_c_3 : Ref sig .tc := ⟨.hbm, 294, rfl⟩
abbrev main_call6_v12 : Ref sig .tc := ⟨.hbm, 295, rfl⟩
abbrev main_call6_v13 : Ref sig .tc := ⟨.hbm, 296, rfl⟩
abbrev main_call6_v14 : Ref sig .tc := ⟨.hbm, 297, rfl⟩
abbrev main_call6_cst : Ref sig .tc := ⟨.hbm, 298, rfl⟩
abbrev main_call6_v15 : Ref sig .tc := ⟨.hbm, 299, rfl⟩
abbrev main_v118 : Ref sig .tc := ⟨.hbm, 300, rfl⟩
abbrev main_v119 : Ref sig .tc := ⟨.hbm, 301, rfl⟩
abbrev main_call7_c : Ref sig .tc := ⟨.hbm, 302, rfl⟩
abbrev main_call7_v0 : Ref sig .tc := ⟨.hbm, 303, rfl⟩
abbrev main_call7_v1 : Ref sig .tc := ⟨.hbm, 304, rfl⟩
abbrev main_call7_c_0 : Ref sig .tc := ⟨.hbm, 305, rfl⟩
abbrev main_call7_v2 : Ref sig .tc := ⟨.hbm, 306, rfl⟩
abbrev main_call7_v3 : Ref sig .tc := ⟨.hbm, 307, rfl⟩
abbrev main_call7_v4 : Ref sig .tc := ⟨.hbm, 308, rfl⟩
abbrev main_call7_v5 : Ref sig .tc := ⟨.hbm, 309, rfl⟩
abbrev main_call7_c_1 : Ref sig .tc := ⟨.hbm, 310, rfl⟩
abbrev main_call7_c_2 : Ref sig .tc := ⟨.hbm, 311, rfl⟩
abbrev main_call7_v6 : Ref sig .tc := ⟨.hbm, 312, rfl⟩
abbrev main_call7_v7 : Ref sig .tc := ⟨.hbm, 313, rfl⟩
abbrev main_call7_v8 : Ref sig .tc := ⟨.hbm, 314, rfl⟩
abbrev main_call7_v9 : Ref sig .tc := ⟨.hbm, 315, rfl⟩
abbrev main_call7_v10 : Ref sig .tc := ⟨.hbm, 316, rfl⟩
abbrev main_call7_v11 : Ref sig .tc := ⟨.hbm, 317, rfl⟩
abbrev main_call7_c_3 : Ref sig .tc := ⟨.hbm, 318, rfl⟩
abbrev main_call7_v12 : Ref sig .tc := ⟨.hbm, 319, rfl⟩
abbrev main_call7_v13 : Ref sig .tc := ⟨.hbm, 320, rfl⟩
abbrev main_call7_v14 : Ref sig .tc := ⟨.hbm, 321, rfl⟩
abbrev main_call7_cst : Ref sig .tc := ⟨.hbm, 322, rfl⟩
abbrev main_call7_v15 : Ref sig .tc := ⟨.hbm, 323, rfl⟩
abbrev main_v120 : Ref sig .tc := ⟨.hbm, 324, rfl⟩
abbrev main_v121 : Ref sig .tc := ⟨.hbm, 325, rfl⟩
abbrev main_cst_15 : Ref sig .tc := ⟨.hbm, 326, rfl⟩
abbrev main_v122 : Ref sig .tc := ⟨.hbm, 327, rfl⟩
abbrev main_v123 : Ref sig .tc := ⟨.hbm, 328, rfl⟩
abbrev main_v124 : Ref sig .tc := ⟨.hbm, 329, rfl⟩
abbrev main_cst_16 : Ref sig .tc := ⟨.hbm, 330, rfl⟩
abbrev main_v125 : Ref sig .tc := ⟨.hbm, 331, rfl⟩
abbrev main_v126 : Ref sig .tc := ⟨.hbm, 332, rfl⟩
abbrev main_v127 : Ref sig .tc := ⟨.hbm, 333, rfl⟩
abbrev main_v128 : Ref sig .tc := ⟨.hbm, 334, rfl⟩
abbrev main_v129 : Ref sig .tc := ⟨.hbm, 335, rfl⟩
abbrev main_cst_17 : Ref sig .tc := ⟨.hbm, 336, rfl⟩
abbrev main_v130 : Ref sig .tc := ⟨.hbm, 337, rfl⟩
abbrev main_v131 : Ref sig .tc := ⟨.hbm, 338, rfl⟩
abbrev main_v132 : Ref sig .tc := ⟨.hbm, 339, rfl⟩
abbrev main_cst_18 : Ref sig .tc := ⟨.hbm, 340, rfl⟩
abbrev main_v133 : Ref sig .tc := ⟨.hbm, 341, rfl⟩
abbrev main_v134 : Ref sig .tc := ⟨.hbm, 342, rfl⟩
abbrev main_v135 : Ref sig .tc := ⟨.hbm, 343, rfl⟩
abbrev main_v136 : Ref sig .tc := ⟨.hbm, 344, rfl⟩
abbrev main_v137 : Ref sig .tc := ⟨.hbm, 345, rfl⟩
abbrev main_v138 : Ref sig .tc := ⟨.hbm, 346, rfl⟩
abbrev main_v139 : Ref sig .tc := ⟨.hbm, 347, rfl⟩
abbrev main_cst_19 : Ref sig .tc := ⟨.hbm, 348, rfl⟩
abbrev main_v140 : Ref sig .tc := ⟨.hbm, 349, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  concatenates_S50000x64_S50000x64_S100000x64_d0 : Shape.Concatenates [S50000x64, S50000x64] S100000x64 0
  bitsLt_bf16_f32 : FTy.bits .bf16 < FTy.bits .f32
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  slices_S3x64x64_S1x64x64_0_0_0 : S3x64x64.Slices ![0, 0, 0] S1x64x64
  shapeCasts_S1x64x64_S64x64 : S1x64x64.ShapeCasts S64x64
  slices_S3x1x64_S1x1x64_0_0_0 : S3x1x64.Slices ![0, 0, 0] S1x1x64
  shapeCasts_S1x1x64_S1x64 : S1x1x64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  slices_S3x64x64_S1x64x64_1_0_0 : S3x64x64.Slices ![1, 0, 0] S1x64x64
  slices_S3x1x64_S1x1x64_1_0_0 : S3x1x64.Slices ![1, 0, 0] S1x1x64
  slices_S3x64x64_S1x64x64_2_0_0 : S3x64x64.Slices ![2, 0, 0] S1x64x64
  slices_S3x1x64_S1x1x64_2_0_0 : S3x1x64.Slices ![2, 0, 0] S1x1x64
  slices_S100000x64_S50000x64_0_0 : S100000x64.Slices ![0, 0] S50000x64
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  reducesTo_S4096x1_S4096_d1 : S4096x1.ReducesTo [1] S4096
  h_S_ : 0 < S_.numel
  bcast_S4096_S4096x64_0 : S4096.BroadcastsInDim S4096x64 (![0] : Fin 1 → Fin S4096x64.rank)
  bcast_S_S4096x64 : S_.BroadcastsInDim S4096x64 (![] : Fin 0 → Fin S4096x64.rank)
  slices_S100000x64_S50000x64_50000_0 : S100000x64.Slices ![50000, 0] S50000x64
  reducesTo_S4096x64_S4096_d1 : S4096x64.ReducesTo [1] S4096
  bcast_S4096x1_S4096x64_0_1 : S4096x1.BroadcastsInDim S4096x64 (![0, 1] : Fin 2 → Fin S4096x64.rank)
  concatenates_S4096x64_S4096x64_S4096x64_S4096x64_S4096x256_d1 : Shape.Concatenates [S4096x64, S4096x64, S4096x64, S4096x64] S4096x256 1
  reducesTo_S4096x256_S4096_d1 : S4096x256.ReducesTo [1] S4096
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S5000x64_S64x64_S5000x64_1_0_0_1_n_n_wf : DotDims.WF S5000x64 S64x64 S5000x64 [1] [0] [0] [1] [] []
  gather_S50000x64_S4096x1_S4096x64_1_0_n_n_0_1_164_wf : GatherDims.WF S50000x64 S4096x1 S4096x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .f32 = 32 ∨ (Rect.block (s := S100000x64) S5000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .f32 = 32 ∨ (Rect.block (s := S100000x64) S5000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S100000x64.size a
  hwx2_6 : ∀ i : grid2.Coords, EltTy.bits .f32 = 32 ∨ (Rect.block (s := S100000x64) S5000x64.size (cc2_transform_6 i) (hinb2_6 i)).WholeWords (EltTy.packing .f32)

variable [Facts₀]

def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S4096x1_S4096x64_1_0_n_n_0_1_164 : GatherDims S50000x64 S4096x1 S4096x64 where
  offsetDims := [1]
  collapsedSliceDims := [0]
  operandBatchingDims := []
  startIndicesBatchingDims := []
  startIndexMap := [0]
  indexVectorDim := 1
  sliceSizes := ![1, 64]
  wf := gather_S50000x64_S4096x1_S4096x64_1_0_n_n_0_1_164_wf

abbrev win0_0 : Pipeline.Window sig grid0 :=
  Pipeline.Window.ofSpec (Memref.whole main_v0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v24) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v45) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v47) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v48) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v48) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v63) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v65) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v67) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v69) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v71) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v72) S5000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S4096 : Shape := ⟨1, ![4096]⟩
abbrev S3200000 : Shape := ⟨1, ![3200000]⟩
abbrev S50000x64 : Shape := ⟨2, ![50000, 64]⟩
abbrev S3x64x64 : Shape := ⟨3, ![3, 64, 64]⟩
abbrev S3x1x64 : Shape := ⟨3, ![3, 1, 64]⟩
abbrev S100000x64 : Shape := ⟨2, ![100000, 64]⟩
abbrev S3200000x1 : Shape := ⟨2, ![3200000, 1]⟩
abbrev S_ : Shape := ⟨0, ![]⟩
abbrev S3200000x64 : Shape := ⟨2, ![3200000, 64]⟩
abbrev S1x64x64 : Shape := ⟨3, ![1, 64, 64]⟩
abbrev S64x64 : Shape := ⟨2, ![64, 64]⟩
abbrev S1x1x64 : Shape := ⟨3, ![1, 1, 64]⟩
abbrev S1x64 : Shape := ⟨2, ![1, 64]⟩
abbrev S100000 : Shape := ⟨1, ![100000]⟩
abbrev S100000x1 : Shape := ⟨2, ![100000, 1]⟩
abbrev S100000x256 : Shape := ⟨2, ![100000, 256]⟩
abbrev S50000x256 : Shape := ⟨2, ![50000, 256]⟩
abbrev S4096x1 : Shape := ⟨2, ![4096, 1]⟩
abbrev S4096x256 : Shape := ⟨2, ![4096, 256]⟩

abbrev nBuf : Space → Nat
  | .hbm => 186
  | .vmem => 0
  | .smem => 0
  | _ => 0

abbrev hbmTy0_0 (i : Nat) : BufTy := match i % 128 with
  | 0 => ⟨S4096, .i32⟩
  | 1 => ⟨S4096, .i32⟩
  | 2 => ⟨S3200000, .i32⟩
  | 3 => ⟨S3200000, .i32⟩
  | 4 => ⟨S3200000, .f32⟩
  | 5 => ⟨S50000x64, .f32⟩
  | 6 => ⟨S50000x64, .f32⟩
  | 7 => ⟨S3x64x64, .f32⟩
  | 8 => ⟨S3x1x64, .f32⟩
  | 9 => ⟨S3x64x64, .f32⟩
  | 10 => ⟨S3x1x64, .f32⟩
  | 11 => ⟨S100000x64, .f32⟩
  | 12 => ⟨S3200000x1, .f32⟩
  | 13 => ⟨S_, .i32⟩
  | 14 => ⟨S3200000, .i32⟩
  | 15 => ⟨S3200000, .i1⟩
  | 16 => ⟨S_, .i32⟩
  | 17 => ⟨S3200000, .i32⟩
  | 18 => ⟨S3200000, .i32⟩
  | 19 => ⟨S3200000, .i32⟩
  | 20 => ⟨S3200000x1, .i32⟩
  | 21 => ⟨S3200000x64, .f32⟩
  | 22 => ⟨S3200000x64, .f32⟩
  | 23 => ⟨S3200000x64, .f32⟩
  | 24 => ⟨S_, .f32⟩
  | 25 => ⟨S100000x64, .f32⟩
  | 26 => ⟨S3200000x1, .i32⟩
  | 27 => ⟨S100000x64, .f32⟩
  | 28 => ⟨S1x64x64, .f32⟩
  | 29 => ⟨S64x64, .f32⟩
  | 30 => ⟨S100000x64, .f32⟩
  | 31 => ⟨S1x1x64, .f32⟩
  | 32 => ⟨S1x64, .f32⟩
  | 33 => ⟨S100000x64, .f32⟩
  | 34 => ⟨S100000x64, .f32⟩
  | 35 => ⟨S100000x64, .f32⟩
  | 36 => ⟨S1x64x64, .f32⟩
  | 37 => ⟨S64x64, .f32⟩
  | 38 => ⟨S100000x64, .f32⟩
  | 39 => ⟨S1x1x64, .f32⟩
  | 40 => ⟨S1x64, .f32⟩
  | 41 => ⟨S100000x64, .f32⟩
  | 42 => ⟨S100000x64, .f32⟩
  | 43 => ⟨S100000x64, .f32⟩
  | 44 => ⟨S_, .f32⟩
  | 45 => ⟨S_, .f32⟩
  | 46 => ⟨S100000x64, .f32⟩
  | 47 => ⟨S100000x64, .i1⟩
  | 48 => ⟨S_, .f32⟩
  | 49 => ⟨S100000x64, .f32⟩
  | 50 => ⟨S100000x64, .f32⟩
  | 51 => ⟨S100000x64, .f32⟩
  | 52 => ⟨S100000x64, .f32⟩
  | 53 => ⟨S_, .f32⟩
  | 54 => ⟨S100000, .f32⟩
  | 55 => ⟨S100000x1, .f32⟩
  | 56 => ⟨S100000x1, .f32⟩
  | 57 => ⟨S_, .f32⟩
  | 58 => ⟨S100000x1, .f32⟩
  | 59 => ⟨S100000x1, .f32⟩
  | 60 => ⟨S100000x64, .f32⟩
  | 61 => ⟨S100000x64, .f32⟩
  | 62 => ⟨S3200000x1, .f32⟩
  | 63 => ⟨S_, .i32⟩
  | 64 => ⟨S3200000, .i32⟩
  | 65 => ⟨S3200000, .i1⟩
  | 66 => ⟨S_, .i32⟩
  | 67 => ⟨S3200000, .i32⟩
  | 68 => ⟨S3200000, .i32⟩
  | 69 => ⟨S3200000, .i32⟩
  | 70 => ⟨S3200000x1, .i32⟩
  | 71 => ⟨S3200000x64, .f32⟩
  | 72 => ⟨S3200000x64, .f32⟩
  | 73 => ⟨S3200000x64, .f32⟩
  | 74 => ⟨S_, .f32⟩
  | 75 => ⟨S100000x64, .f32⟩
  | 76 => ⟨S3200000x1, .i32⟩
  | 77 => ⟨S100000x64, .f32⟩
  | 78 => ⟨S1x64x64, .f32⟩
  | 79 => ⟨S64x64, .f32⟩
  | 80 => ⟨S100000x64, .f32⟩
  | 81 => ⟨S1x1x64, .f32⟩
  | 82 => ⟨S1x64, .f32⟩
  | 83 => ⟨S100000x64, .f32⟩
  | 84 => ⟨S100000x64, .f32⟩
  | 85 => ⟨S100000x64, .f32⟩
  | 86 => ⟨S1x64x64, .f32⟩
  | 87 => ⟨S64x64, .f32⟩
  | 88 => ⟨S100000x64, .f32⟩
  | 89 => ⟨S1x1x64, .f32⟩
  | 90 => ⟨S1x64, .f32⟩
  | 91 => ⟨S100000x64, .f32⟩
  | 92 => ⟨S100000x64, .f32⟩
  | 93 => ⟨S100000x64, .f32⟩
  | 94 => ⟨S_, .f32⟩
  | 95 => ⟨S_, .f32⟩
  | 96 => ⟨S100000x64, .f32⟩
  | 97 => ⟨S100000x64, .i1⟩
  | 98 => ⟨S_, .f32⟩
  | 99 => ⟨S100000x64, .f32⟩
  | 100 => ⟨S100000x64, .f32⟩
  | 101 => ⟨S100000x64, .f32⟩
  | 102 => ⟨S100000x64, .f32⟩
  | 103 => ⟨S_, .f32⟩
  | 104 => ⟨S100000, .f32⟩
  | 105 => ⟨S100000x1, .f32⟩
  | 106 => ⟨S100000x1, .f32⟩
  | 107 => ⟨S_, .f32⟩
  | 108 => ⟨S100000x1, .f32⟩
  | 109 => ⟨S100000x1, .f32⟩
  | 110 => ⟨S100000x64, .f32⟩
  | 111 => ⟨S100000x64, .f32⟩
  | 112 => ⟨S3200000x1, .f32⟩
  | 113 => ⟨S_, .i32⟩
  | 114 => ⟨S3200000, .i32⟩
  | 115 => ⟨S3200000, .i1⟩
  | 116 => ⟨S_, .i32⟩
  | 117 => ⟨S3200000, .i32⟩
  | 118 => ⟨S3200000, .i32⟩
  | 119 => ⟨S3200000, .i32⟩
  | 120 => ⟨S3200000x1, .i32⟩
  | 121 => ⟨S3200000x64, .f32⟩
  | 122 => ⟨S3200000x64, .f32⟩
  | 123 => ⟨S3200000x64, .f32⟩
  | 124 => ⟨S_, .f32⟩
  | 125 => ⟨S100000x64, .f32⟩
  | 126 => ⟨S3200000x1, .i32⟩
  | 127 => ⟨S100000x64, .f32⟩
  | _ => ⟨S4096, .i32⟩

abbrev hbmTy0_1 (i : Nat) : BufTy := match i % 128 with
  | 0 => ⟨S1x64x64, .f32⟩
  | 1 => ⟨S64x64, .f32⟩
  | 2 => ⟨S100000x64, .f32⟩
  | 3 => ⟨S1x1x64, .f32⟩
  | 4 => ⟨S1x64, .f32⟩
  | 5 => ⟨S100000x64, .f32⟩
  | 6 => ⟨S100000x64, .f32⟩
  | 7 => ⟨S100000x64, .f32⟩
  | 8 => ⟨S1x64x64, .f32⟩
  | 9 => ⟨S64x64, .f32⟩
  | 10 => ⟨S100000x64, .f32⟩
  | 11 => ⟨S1x1x64, .f32⟩
  | 12 => ⟨S1x64, .f32⟩
  | 13 => ⟨S100000x64, .f32⟩
  | 14 => ⟨S100000x64, .f32⟩
  | 15 => ⟨S100000x64, .f32⟩
  | 16 => ⟨S_, .f32⟩
  | 17 => ⟨S_, .f32⟩
  | 18 => ⟨S100000x64, .f32⟩
  | 19 => ⟨S100000x64, .i1⟩
  | 20 => ⟨S_, .f32⟩
  | 21 => ⟨S100000x64, .f32⟩
  | 22 => ⟨S100000x64, .f32⟩
  | 23 => ⟨S100000x64, .f32⟩
  | 24 => ⟨S100000x64, .f32⟩
  | 25 => ⟨S_, .f32⟩
  | 26 => ⟨S100000, .f32⟩
  | 27 => ⟨S100000x1, .f32⟩
  | 28 => ⟨S100000x1, .f32⟩
  | 29 => ⟨S_, .f32⟩
  | 30 => ⟨S100000x1, .f32⟩
  | 31 => ⟨S100000x1, .f32⟩
  | 32 => ⟨S100000x64, .f32⟩
  | 33 => ⟨S100000x64, .f32⟩
  | 34 => ⟨S100000x256, .f32⟩
  | 35 => ⟨S50000x256, .f32⟩
  | 36 => ⟨S_, .i32⟩
  | 37 => ⟨S4096, .i32⟩
  | 38 => ⟨S4096, .i1⟩
  | 39 => ⟨S_, .i32⟩
  | 40 => ⟨S4096, .i32⟩
  | 41 => ⟨S4096, .i32⟩
  | 42 => ⟨S4096, .i32⟩
  | 43 => ⟨S4096x1, .i32⟩
  | 44 => ⟨S4096x256, .f32⟩
  | 45 => ⟨S50000x256, .f32⟩
  | 46 => ⟨S_, .i32⟩
  | 47 => ⟨S4096, .i32⟩
  | 48 => ⟨S4096, .i1⟩
  | 49 => ⟨S_, .i32⟩
  | 50 => ⟨S4096, .i32⟩
  | 51 => ⟨S4096, .i32⟩
  | 52 => ⟨S4096, .i32⟩
  | 53 => ⟨S4096x1, .i32⟩
  | 54 => ⟨S4096x256, .f32⟩
  | 55 => ⟨S4096x256, .f32⟩
  | 56 => ⟨S_, .f32⟩
  | 57 => ⟨S4096, .f32⟩
  | _ => ⟨S4096, .i32⟩

abbrev hbmTy (i : Nat) : BufTy := match i / 128 with
  | 0 => hbmTy0_0 i
  | 1 => hbmTy0_1 i
  | _ => ⟨S4096, .i32⟩

abbrev bufTy : (tb : Table) → Fin (tcTables nBuf tb) → BufTy
  | .hbm, ⟨i, _⟩ => hbmTy i
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_1 : Ref sig .tc := ⟨.hbm, 44, rfl⟩
abbrev main_call0_cst : Ref sig .tc := ⟨.hbm, 45, rfl⟩
abbrev main_call0_v0 : Ref sig .tc := ⟨.hbm, 46, rfl⟩
abbrev main_call0_v1 : Ref sig .tc := ⟨.hbm, 47, rfl⟩
abbrev main_call0_v2 : Ref sig .tc := ⟨.hbm, 48, rfl⟩
abbrev main_call0_v3 : Ref sig .tc := ⟨.hbm, 49, rfl⟩
abbrev main_call0_v4 : Ref sig .tc := ⟨.hbm, 50, rfl⟩
abbrev main_v30 : Ref sig .tc := ⟨.hbm, 51, rfl⟩
abbrev main_v31 : Ref sig .tc := ⟨.hbm, 52, rfl⟩
abbrev main_cst_2 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_3 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_c_4 : Ref sig .tc := ⟨.hbm, 63, rfl⟩
abbrev main_v40 : Ref sig .tc := ⟨.hbm, 64, rfl⟩
abbrev main_v41 : Ref sig .tc := ⟨.hbm, 65, rfl⟩
abbrev main_c_5 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_6 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_7 : Ref sig .tc := ⟨.hbm, 94, rfl⟩
abbrev main_call1_cst : Ref sig .tc := ⟨.hbm, 95, rfl⟩
abbrev main_call1_v0 : Ref sig .tc := ⟨.hbm, 96, rfl⟩
abbrev main_call1_v1 : Ref sig .tc := ⟨.hbm, 97, rfl⟩
abbrev main_call1_v2 : Ref sig .tc := ⟨.hbm, 98, rfl⟩
abbrev main_call1_v3 : Ref sig .tc := ⟨.hbm, 99, rfl⟩
abbrev main_call1_v4 : Ref sig .tc := ⟨.hbm, 100, rfl⟩
abbrev main_v68 : Ref sig .tc := ⟨.hbm, 101, rfl⟩
abbrev main_v69 : Ref sig .tc := ⟨.hbm, 102, rfl⟩
abbrev main_cst_8 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_cst_9 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_c_10 : Ref sig .tc := ⟨.hbm, 113, rfl⟩
abbrev main_v78 : Ref sig .tc := ⟨.hbm, 114, rfl⟩
abbrev main_v79 : Ref sig .tc := ⟨.hbm, 115, rfl⟩
abbrev main_c_11 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_cst_12 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_cst_13 : Ref sig .tc := ⟨.hbm, 144, rfl⟩
abbrev main_call2_cst : Ref sig .tc := ⟨.hbm, 145, rfl⟩
abbrev main_call2_v0 : Ref sig .tc := ⟨.hbm, 146, rfl⟩
abbrev main_call2_v1 : Ref sig .tc := ⟨.hbm, 147, rfl⟩
abbrev main_call2_v2 : Ref sig .tc := ⟨.hbm, 148, rfl⟩
abbrev main_call2_v3 : Ref sig .tc := ⟨.hbm, 149, rfl⟩
abbrev main_call2_v4 : Ref sig .tc := ⟨.hbm, 150, rfl⟩
abbrev main_v106 : Ref sig .tc := ⟨.hbm, 151, rfl⟩
abbrev main_v107 : Ref sig .tc := ⟨.hbm, 152, rfl⟩
abbrev main_cst_14 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_cst_15 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_c_16 : Ref sig .tc := ⟨.hbm, 164, rfl⟩
abbrev main_v117 : Ref sig .tc := ⟨.hbm, 165, rfl⟩
abbrev main_v118 : Ref sig .tc := ⟨.hbm, 166, rfl⟩
abbrev main_c_17 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_c_18 : Ref sig .tc := ⟨.hbm, 174, rfl⟩
abbrev main_v125 : Ref sig .tc := ⟨.hbm, 175, rfl⟩
abbrev main_v126 : Ref sig .tc := ⟨.hbm, 176, rfl⟩
abbrev main_c_19 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_cst_20 : Ref sig .tc := ⟨.hbm, 184, rfl⟩
abbrev main_v133 : Ref sig .tc := ⟨.hbm, 185, rfl⟩

abbrev nD : Nat := 1
abbrev τ : Topo := Topo.v7x

variable {F : FTy → Type} [FloatOps F]

class Facts₀ : Prop where
  concatenates_S50000x64_S50000x64_S100000x64_d0 : Shape.Concatenates [S50000x64, S50000x64] S100000x64 0
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  slices_S3x64x64_S1x64x64_0_0_0 : S3x64x64.Slices ![0, 0, 0] S1x64x64
  shapeCasts_S1x64x64_S64x64 : S1x64x64.ShapeCasts S64x64
  slices_S3x1x64_S1x1x64_0_0_0 : S3x1x64.Slices ![0, 0, 0] S1x1x64
  shapeCasts_S1x1x64_S1x64 : S1x1x64.ShapeCasts S1x64
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  slices_S3x64x64_S1x64x64_1_0_0 : S3x64x64.Slices ![1, 0, 0] S1x64x64
  slices_S3x1x64_S1x1x64_1_0_0 : S3x1x64.Slices ![1, 0, 0] S1x1x64
  slices_S3x64x64_S1x64x64_2_0_0 : S3x64x64.Slices ![2, 0, 0] S1x64x64
  slices_S3x1x64_S1x1x64_2_0_0 : S3x1x64.Slices ![2, 0, 0] S1x1x64
  concatenates_S100000x64_S100000x64_S100000x64_S100000x64_S100000x256_d1 : Shape.Concatenates [S100000x64, S100000x64, S100000x64, S100000x64] S100000x256 1
  slices_S100000x256_S50000x256_0_0 : S100000x256.Slices ![0, 0] S50000x256
  bcast_S_S4096 : S_.BroadcastsInDim S4096 (![] : Fin 0 → Fin S4096.rank)
  bcast_S4096_S4096x1_0 : S4096.BroadcastsInDim S4096x1 (![0] : Fin 1 → Fin S4096x1.rank)
  slices_S100000x256_S50000x256_50000_0 : S100000x256.Slices ![50000, 0] S50000x256
  reducesTo_S4096x256_S4096_d1 : S4096x256.ReducesTo [1] S4096
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S100000x64_S64x64_S100000x64_1_0_0_1_n_n_wf : DotDims.WF S100000x64 S64x64 S100000x64 [1] [0] [0] [1] [] []
  gather_S50000x256_S4096x1_S4096x256_1_0_n_n_0_1_1256_wf : GatherDims.WF S50000x256 S4096x1 S4096x256 [1] [0] [] [0] [] 1 ![1, 256]

variable [Facts₀]

def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S50000x256_S4096x1_S4096x256_1_0_n_n_0_1_1256 : GatherDims S50000x256 S4096x1 S4096x256 where
  offsetDims := [1]
  collapsedSliceDims := [0]
  operandBatchingDims := []
  startIndicesBatchingDims := []
  startIndexMap := [0]
  indexVectorDim := 1
  sliceSizes := ![1, 256]
  wf := gather_S50000x256_S4096x1_S4096x256_1_0_n_n_0_1_1256_wf

class Facts : Prop extends Facts₀ where

variable [Facts]
-- ==== Proof.K.Region0.lean ====
import proofs.«424767_j70944269795902_3_alg».proof.Proof.Gen.Kernel.Launch
import proofs.«424767_j70944269795902_3_alg».proof.Proof.Gen.Kernel.Skeleton
import proofs.«424767_j70944269795902_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! One layer's kernel body at one grid point, and the proof data of its pipeline, at any float family.

The pipeline walks 20 row blocks of 5000 rows. At a point it holds, in staging buffers, the block of the
embedding rows (window 0), the block of the aggregated neighbour rows (window 1), the two 64x64 weight
matrices (windows 2 and 4) and the two 1x64 bias rows (windows 3 and 5); the body reads the six whole and
writes one whole 5000x64 block (window 6): the leaky-ReLU of the sum of the two affine maps. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- what the TensorCore's buffers hold when the region is entered
variable (V : (c : Dev nD) → (b : Ref sig .tc) → Buf (Elt F) ((c : Thread nD τ).loc b))

/-! ## The windows' blocks -/

/-- Window `w`'s block at point `t`: the rows of its array (as the region finds it) that the window's index map
    selects there. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether the pipeline fetched it there
    or left the earlier fetch in place (the block index has not moved since), for any proof data whose array is the
    entry contents (`hA`) and whose body leaves the block as it found it (`hafter`). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, whether the pipeline fetched it there
    or left the earlier fetch in place (the block index has not moved since), for any proof data whose array is the
    entry contents (`hA`) and whose body leaves the block as it found it (`hafter`). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, whether the pipeline fetched it there
    or left the earlier fetch in place (the block index has not moved since), for any proof data whose array is the
    entry contents (`hA`) and whose body leaves the block as it found it (`hafter`). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, whether the pipeline fetched it there
    or left the earlier fetch in place (the block index has not moved since), for any proof data whose array is the
    entry contents (`hA`) and whose body leaves the block as it found it (`hafter`). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, whether the pipeline fetched it there
    or left the earlier fetch in place (the block index has not moved since), for any proof data whose array is the
    entry contents (`hA`) and whose body leaves the block as it found it (`hafter`). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, whether the pipeline fetched it there
    or left the earlier fetch in place (the block index has not moved since), for any proof data whose array is the
    entry contents (`hA`) and whose body leaves the block as it found it (`hafter`). -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole 5000x64 block, the whole 64x64 matrix, the whole 1x64 row: every load and the store is of one of these. -/
abbrev rA : Rect S5000x64 := Rect.unit (s := S5000x64) ![0, 0] S5000x64.size inb_S5000x64_S5000x64_0_0
abbrev rW : Rect S64x64 := Rect.unit (s := S64x64) ![0, 0] S64x64.size inb_S64x64_S64x64_0_0
abbrev rB : Rect S1x64 := Rect.unit (s := S1x64) ![0, 0] S1x64.size inb_S1x64_S1x64_0_0

/-! ## What the body leaves in the output window's buffer -/

/-- Window 6's staging buffer after the body, from the six input blocks `x_w` (window `w`'s): one store of the whole
    block, whose value reads the embedding block, the neighbour block, the first weight matrix (window 2), the second
    (window 4), the first bias row (window 3) and the second (window 5), in that order. -/
def out0_6 (x0 x1 : Vec F S5000x64 .f32) (x2 : Vec F S64x64 .f32) (x3 : Vec F S1x64 .f32) (x4 : Vec F S64x64 .f32) (x5 : Vec F S1x64 .f32) : Vec F S5000x64 .f32 :=
  View.canon [⟨rA, k0_pay1 (View.ld x0 rA) (View.ld x1 rA) (View.ld x2 rW) (View.ld x4 rW) (View.ld x3 rB) (View.ld x5 rB)⟩]

/-- The one store is of the whole block, so it covers the buffer. -/
theorem cover0_6 (p : Vec F S5000x64 .f32) (y : S5000x64.Idx) :
    ∃ pc ∈ ([⟨rA, p⟩] : List (View.Piece (Elt F) S5000x64 .f32)), y ∈ pc.1.set :=
  View.cover_of_tiled [⟨rA, p⟩] S5000x64.size (by rfl) y

/-! ## The body's triple -/

set_option maxHeartbeats 1000000 in
/-- The body on whole staging memrefs, the six inputs' at contents `x_w` and the output's at anything, runs to the
    continuation with the inputs' as they were and the output's at `out0_6` of the inputs'. -/
theorem sound_kernel0 (c : Dev nD) (E : Set ℕ) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole)
    (x_0 x_1 : Vec F S5000x64 .f32) (x_2 : Vec F S64x64 .f32) (x_3 : Vec F S1x64 .f32) (x_4 : Vec F S64x64 .f32) (x_5 : Vec F S1x64 .f32) (K : PUnit → sProp 𝕄) :
    iprop(owns (c : Thread nD τ) arg1 fullShare x_0 ∗ owns (c : Thread nD τ) arg2 fullShare x_1 ∗ owns (c : Thread nD τ) arg3 fullShare x_2 ∗ owns (c : Thread nD τ) arg4 fullShare x_3 ∗ owns (c : Thread nD τ) arg5 fullShare x_4 ∗ owns (c : Thread nD τ) arg6 fullShare x_5 ∗ (∃ d, owns (c : Thread nD τ) arg7 fullShare d)
        ∗ (iprop(owns (c : Thread nD τ) arg1 fullShare x_0 ∗ owns (c : Thread nD τ) arg2 fullShare x_1 ∗ owns (c : Thread nD τ) arg3 fullShare x_2 ∗ owns (c : Thread nD τ) arg4 fullShare x_3 ∗ owns (c : Thread nD τ) arg5 fullShare x_4 ∗ owns (c : Thread nD τ) arg6 fullShare x_5 ∗ owns (c : Thread nD τ) arg7 fullShare (out0_6 x_0 x_1 x_2 x_3 x_4 x_5)) -∗ K ⟨⟩))
      ⊢ wp frame (wpE (defs₀ (F := F)) Variants.none c none) E (cc0__layer_kernel i arg1 harg1 arg2 harg2 arg3 harg3 arg4 harg4 arg5 harg5 arg6 harg6 arg7 harg7) K := by
  simp only [cc0__layer_kernel_eq_skeleton]; unfold cc0__layer_kernel_skel
  unfold owns
  iintro ⟨⟨%f_0, %hf_0, H_0⟩, ⟨%f_1, %hf_1, H_1⟩, ⟨%f_2, %hf_2, H_2⟩, ⟨%f_3, %hf_3, H_3⟩, ⟨%f_4, %hf_4, H_4⟩, ⟨%f_5, %hf_5, H_5⟩, ⟨%d_6, %f_6, -, H_6⟩, Hk⟩
  subst hf_0 hf_1 hf_2 hf_3 hf_4 hf_5
  sl_exec
  sl_step
  iapply Hk
  isplitl [H_0]
  · iexists f_0; isplitr; · ipureintro; rfl
    iexact H_0
  isplitl [H_1]
  · iexists f_1; isplitr; · ipureintro; rfl
    iexact H_1
  isplitl [H_2]
  · iexists f_2; isplitr; · ipureintro; rfl
    iexact H_2
  isplitl [H_3]
  · iexists f_3; isplitr; · ipureintro; rfl
    iexact H_3
  isplitl [H_4]
  · iexists f_4; isplitr; · ipureintro; rfl
    iexact H_4
  isplitl [H_5]
  · iexists f_5; isplitr; · ipureintro; rfl
    iexact H_5
  iexists _; isplitr
  swap; · iexact H_6
  ipureintro
  exact View.read_writes_eq_canon _ _ _ (cover0_6 _)

/-! ## The pipeline's proof data -/

/-- The proof data of the pipeline on core `c`: the arrays as the region finds them; after the body at point `t` each
    input's buffer still at its block and the output's at `out0_6` of the six input blocks; the invariant that of a
    body which touches its windows only; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d_0, H_0⟩, ⟨%d_1, H_1⟩, ⟨%d_2, H_2⟩, ⟨%d_3, H_3⟩, ⟨%d_4, H_4⟩, ⟨%d_5, H_5⟩, ⟨%d_6, H_6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H_0]; · iexact H_0
  isplitl [H_1]; · iexact H_1
  isplitl [H_2]; · iexact H_2
  isplitl [H_3]; · iexact H_3
  isplitl [H_4]; · iexact H_4
  isplitl [H_5]; · iexact H_5
  isplitl [H_6]; · iexists _; iexact H_6
  iintro ⟨H_0, H_1, H_2, H_3, H_4, H_5, H_6⟩
  isplitl [HΦ]; · iexact HΦ
  isplitl [Ho]; · iexact Ho
  isplitl [H_0]; · iexact H_0
  isplitl [H_1]; · iexact H_1
  isplitl [H_2]; · iexact H_2
  isplitl [H_3]; · iexact H_3
  isplitl [H_4]; · iexact H_4
  isplitl [H_5]; · iexact H_5
  iexact H_6

/-- The body obligation of the pipeline, at every point. -/
theorem body_obligation0 (c : Dev nD) : BodyObligation (dat0 (F := F) V c) (defs₀ (F := F)) Variants.none () Set.univ := fun t => by
  rw [bigSep_W0, bigSep_W0]
  exact sound_body0 V c t

end Regions

end Cert.Kernel.Hand

end
-- ==== Proof.K.Region1.lean ====
import proofs.«424767_j70944269795902_3_alg».proof.Proof.Gen.Kernel.Launch
import proofs.«424767_j70944269795902_3_alg».proof.Proof.Gen.Kernel.Skeleton
import proofs.«424767_j70944269795902_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! One layer's kernel body at one grid point, and the proof data of its pipeline, at any float family.

The pipeline walks 20 row blocks of 5000 rows. At a point it holds, in staging buffers, the block of the
embedding rows (window 0), the block of the aggregated neighbour rows (window 1), the two 64x64 weight
matrices (windows 2 and 4) and the two 1x64 bias rows (windows 3 and 5); the body reads the six whole and
writes one whole 5000x64 block (window 6): the leaky-ReLU of the sum of the two affine maps. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- what the TensorCore's buffers hold when the region is entered
variable (V : (c : Dev nD) → (b : Ref sig .tc) → Buf (Elt F) ((c : Thread nD τ).loc b))

/-! ## The windows' blocks -/

/-- Window `w`'s block at point `t`: the rows of its array (as the region finds it) that the window's index map
    selects there. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether the pipeline fetched it there
    or left the earlier fetch in place (the block index has not moved since), for any proof data whose array is the
    entry contents (`hA`) and whose body leaves the block as it found it (`hafter`). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, whether the pipeline fetched it there
    or left the earlier fetch in place (the block index has not moved since), for any proof data whose array is the
    entry contents (`hA`) and whose body leaves the block as it found it (`hafter`). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, whether the pipeline fetched it there
    or left the earlier fetch in place (the block index has not moved since), for any proof data whose array is the
    entry contents (`hA`) and whose body leaves the block as it found it (`hafter`). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, whether the pipeline fetched it there
    or left the earlier fetch in place (the block index has not moved since), for any proof data whose array is the
    entry contents (`hA`) and whose body leaves the block as it found it (`hafter`). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, whether the pipeline fetched it there
    or left the earlier fetch in place (the block index has not moved since), for any proof data whose array is the
    entry contents (`hA`) and whose body leaves the block as it found it (`hafter`). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, whether the pipeline fetched it there
    or left the earlier fetch in place (the block index has not moved since), for any proof data whose array is the
    entry contents (`hA`) and whose body leaves the block as it found it (`hafter`). -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole 5000x64 block, the whole 64x64 matrix, the whole 1x64 row: every load and the store is of one of these. -/
abbrev rA1 : Rect S5000x64 := Rect.unit (s := S5000x64) ![0, 0] S5000x64.size inb_S5000x64_S5000x64_0_0
abbrev rW1 : Rect S64x64 := Rect.unit (s := S64x64) ![0, 0] S64x64.size inb_S64x64_S64x64_0_0
abbrev rB1 : Rect S1x64 := Rect.unit (s := S1x64) ![0, 0] S1x64.size inb_S1x64_S1x64_0_0

/-! ## What the body leaves in the output window's buffer -/

/-- Window 6's staging buffer after the body, from the six input blocks `x_w` (window `w`'s): one store of the whole
    block, whose value reads the embedding block, the neighbour block, the first weight matrix (window 2), the second
    (window 4), the first bias row (window 3) and the second (window 5), in that order. -/
def out1_6 (x0 x1 : Vec F S5000x64 .f32) (x2 : Vec F S64x64 .f32) (x3 : Vec F S1x64 .f32) (x4 : Vec F S64x64 .f32) (x5 : Vec F S1x64 .f32) : Vec F S5000x64 .f32 :=
  View.canon [⟨rA1, k1_pay1 (View.ld x0 rA1) (View.ld x1 rA1) (View.ld x2 rW1) (View.ld x4 rW1) (View.ld x3 rB1) (View.ld x5 rB1)⟩]

/-- The one store is of the whole block, so it covers the buffer. -/
theorem cover1_6 (p : Vec F S5000x64 .f32) (y : S5000x64.Idx) :
    ∃ pc ∈ ([⟨rA1, p⟩] : List (View.Piece (Elt F) S5000x64 .f32)), y ∈ pc.1.set :=
  View.cover_of_tiled [⟨rA1, p⟩] S5000x64.size (by rfl) y

/-! ## The body's triple -/

set_option maxHeartbeats 1000000 in
/-- The body on whole staging memrefs, the six inputs' at contents `x_w` and the output's at anything, runs to the
    continuation with the inputs' as they were and the output's at `out1_6` of the inputs'. -/
theorem sound_kernel1 (c : Dev nD) (E : Set ℕ) (i : grid1.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole)
    (x_0 x_1 : Vec F S5000x64 .f32) (x_2 : Vec F S64x64 .f32) (x_3 : Vec F S1x64 .f32) (x_4 : Vec F S64x64 .f32) (x_5 : Vec F S1x64 .f32) (K : PUnit → sProp 𝕄) :
    iprop(owns (c : Thread nD τ) arg1 fullShare x_0 ∗ owns (c : Thread nD τ) arg2 fullShare x_1 ∗ owns (c : Thread nD τ) arg3 fullShare x_2 ∗ owns (c : Thread nD τ) arg4 fullShare x_3 ∗ owns (c : Thread nD τ) arg5 fullShare x_4 ∗ owns (c : Thread nD τ) arg6 fullShare x_5 ∗ (∃ d, owns (c : Thread nD τ) arg7 fullShare d)
        ∗ (iprop(owns (c : Thread nD τ) arg1 fullShare x_0 ∗ owns (c : Thread nD τ) arg2 fullShare x_1 ∗ owns (c : Thread nD τ) arg3 fullShare x_2 ∗ owns (c : Thread nD τ) arg4 fullShare x_3 ∗ owns (c : Thread nD τ) arg5 fullShare x_4 ∗ owns (c : Thread nD τ) arg6 fullShare x_5 ∗ owns (c : Thread nD τ) arg7 fullShare (out1_6 x_0 x_1 x_2 x_3 x_4 x_5)) -∗ K ⟨⟩))
      ⊢ wp frame (wpE (defs₀ (F := F)) Variants.none c none) E (cc1__layer_kernel i arg1 harg1 arg2 harg2 arg3 harg3 arg4 harg4 arg5 harg5 arg6 harg6 arg7 harg7) K := by
  simp only [cc1__layer_kernel_eq_skeleton]; unfold cc1__layer_kernel_skel
  unfold owns
  iintro ⟨⟨%f_0, %hf_0, H_0⟩, ⟨%f_1, %hf_1, H_1⟩, ⟨%f_2, %hf_2, H_2⟩, ⟨%f_3, %hf_3, H_3⟩, ⟨%f_4, %hf_4, H_4⟩, ⟨%f_5, %hf_5, H_5⟩, ⟨%d_6, %f_6, -, H_6⟩, Hk⟩
  subst hf_0 hf_1 hf_2 hf_3 hf_4 hf_5
  sl_exec
  sl_step
  iapply Hk
  isplitl [H_0]
  · iexists f_0; isplitr; · ipureintro; rfl
    iexact H_0
  isplitl [H_1]
  · iexists f_1; isplitr; · ipureintro; rfl
    iexact H_1
  isplitl [H_2]
  · iexists f_2; isplitr; · ipureintro; rfl
    iexact H_2
  isplitl [H_3]
  · iexists f_3; isplitr; · ipureintro; rfl
    iexact H_3
  isplitl [H_4]
  · iexists f_4; isplitr; · ipureintro; rfl
    iexact H_4
  isplitl [H_5]
  · iexists f_5; isplitr; · ipureintro; rfl
    iexact H_5
  iexists _; isplitr
  swap; · iexact H_6
  ipureintro
  exact View.read_writes_eq_canon _ _ _ (cover1_6 _)

/-! ## The pipeline's proof data -/

/-- The proof data of the pipeline on core `c`: the arrays as the region finds them; after the body at point `t` each
    input's buffer still at its block and the output's at `out1_6` of the six input blocks; the invariant that of a
    body which touches its windows only; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d_0, H_0⟩, ⟨%d_1, H_1⟩, ⟨%d_2, H_2⟩, ⟨%d_3, H_3⟩, ⟨%d_4, H_4⟩, ⟨%d_5, H_5⟩, ⟨%d_6, H_6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H_0]; · iexact H_0
  isplitl [H_1]; · iexact H_1
  isplitl [H_2]; · iexact H_2
  isplitl [H_3]; · iexact H_3
  isplitl [H_4]; · iexact H_4
  isplitl [H_5]; · iexact H_5
  isplitl [H_6]; · iexists _; iexact H_6
  iintro ⟨H_0, H_1, H_2, H_3, H_4, H_5, H_6⟩
  isplitl [HΦ]; · iexact HΦ
  isplitl [Ho]; · iexact Ho
  isplitl [H_0]; · iexact H_0
  isplitl [H_1]; · iexact H_1
  isplitl [H_2]; · iexact H_2
  isplitl [H_3]; · iexact H_3
  isplitl [H_4]; · iexact H_4
  isplitl [H_5]; · iexact H_5
  iexact H_6

/-- The body obligation of the pipeline, at every point. -/
theorem body_obligation1 (c : Dev nD) : BodyObligation (dat1 (F := F) V c) (defs₀ (F := F)) Variants.none () Set.univ := fun t => by
  rw [bigSep_W1, bigSep_W1]
  exact sound_body1 V c t

end Regions

end Cert.Kernel.Hand

end
-- ==== Proof.K.Region2.lean ====
import proofs.«424767_j70944269795902_3_alg».proof.Proof.Gen.Kernel.Launch
import proofs.«424767_j70944269795902_3_alg».proof.Proof.Gen.Kernel.Skeleton
import proofs.«424767_j70944269795902_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! One layer's kernel body at one grid point, and the proof data of its pipeline, at any float family.

The pipeline walks 20 row blocks of 5000 rows. At a point it holds, in staging buffers, the block of the
embedding rows (window 0), the block of the aggregated neighbour rows (window 1), the two 64x64 weight
matrices (windows 2 and 4) and the two 1x64 bias rows (windows 3 and 5); the body reads the six whole and
writes one whole 5000x64 block (window 6): the leaky-ReLU of the sum of the two affine maps. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- what the TensorCore's buffers hold when the region is entered
variable (V : (c : Dev nD) → (b : Ref sig .tc) → Buf (Elt F) ((c : Thread nD τ).loc b))

/-! ## The windows' blocks -/

/-- Window `w`'s block at point `t`: the rows of its array (as the region finds it) that the window's index map
    selects there. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, whether the pipeline fetched it there
    or left the earlier fetch in place (the block index has not moved since), for any proof data whose array is the
    entry contents (`hA`) and whose body leaves the block as it found it (`hafter`). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, whether the pipeline fetched it there
    or left the earlier fetch in place (the block index has not moved since), for any proof data whose array is the
    entry contents (`hA`) and whose body leaves the block as it found it (`hafter`). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, whether the pipeline fetched it there
    or left the earlier fetch in place (the block index has not moved since), for any proof data whose array is the
    entry contents (`hA`) and whose body leaves the block as it found it (`hafter`). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, whether the pipeline fetched it there
    or left the earlier fetch in place (the block index has not moved since), for any proof data whose array is the
    entry contents (`hA`) and whose body leaves the block as it found it (`hafter`). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, whether the pipeline fetched it there
    or left the earlier fetch in place (the block index has not moved since), for any proof data whose array is the
    entry contents (`hA`) and whose body leaves the block as it found it (`hafter`). -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's current staging buffer holds its block at every point, whether the pipeline fetched it there
    or left the earlier fetch in place (the block index has not moved since), for any proof data whose array is the
    entry contents (`hA`) and whose body leaves the block as it found it (`hafter`). -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The whole 5000x64 block, the whole 64x64 matrix, the whole 1x64 row: every load and the store is of one of these. -/
abbrev rA2 : Rect S5000x64 := Rect.unit (s := S5000x64) ![0, 0] S5000x64.size inb_S5000x64_S5000x64_0_0
abbrev rW2 : Rect S64x64 := Rect.unit (s := S64x64) ![0, 0] S64x64.size inb_S64x64_S64x64_0_0
abbrev rB2 : Rect S1x64 := Rect.unit (s := S1x64) ![0, 0] S1x64.size inb_S1x64_S1x64_0_0

/-! ## What the body leaves in the output window's buffer -/

/-- Window 6's staging buffer after the body, from the six input blocks `x_w` (window `w`'s): one store of the whole
    block, whose value reads the embedding block, the neighbour block, the first weight matrix (window 2), the second
    (window 4), the first bias row (window 3) and the second (window 5), in that order. -/
def out2_6 (x0 x1 : Vec F S5000x64 .f32) (x2 : Vec F S64x64 .f32) (x3 : Vec F S1x64 .f32) (x4 : Vec F S64x64 .f32) (x5 : Vec F S1x64 .f32) : Vec F S5000x64 .f32 :=
  View.canon [⟨rA2, k2_pay1 (View.ld x0 rA2) (View.ld x1 rA2) (View.ld x2 rW2) (View.ld x4 rW2) (View.ld x3 rB2) (View.ld x5 rB2)⟩]

/-- The one store is of the whole block, so it covers the buffer. -/
theorem cover2_6 (p : Vec F S5000x64 .f32) (y : S5000x64.Idx) :
    ∃ pc ∈ ([⟨rA2, p⟩] : List (View.Piece (Elt F) S5000x64 .f32)), y ∈ pc.1.set :=
  View.cover_of_tiled [⟨rA2, p⟩] S5000x64.size (by rfl) y

/-! ## The body's triple -/

set_option maxHeartbeats 1000000 in
/-- The body on whole staging memrefs, the six inputs' at contents `x_w` and the output's at anything, runs to the
    continuation with the inputs' as they were and the output's at `out2_6` of the inputs'. -/
theorem sound_kernel2 (c : Dev nD) (E : Set ℕ) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole)
    (x_0 x_1 : Vec F S5000x64 .f32) (x_2 : Vec F S64x64 .f32) (x_3 : Vec F S1x64 .f32) (x_4 : Vec F S64x64 .f32) (x_5 : Vec F S1x64 .f32) (K : PUnit → sProp 𝕄) :
    iprop(owns (c : Thread nD τ) arg1 fullShare x_0 ∗ owns (c : Thread nD τ) arg2 fullShare x_1 ∗ owns (c : Thread nD τ) arg3 fullShare x_2 ∗ owns (c : Thread nD τ) arg4 fullShare x_3 ∗ owns (c : Thread nD τ) arg5 fullShare x_4 ∗ owns (c : Thread nD τ) arg6 fullShare x_5 ∗ (∃ d, owns (c : Thread nD τ) arg7 fullShare d)
        ∗ (iprop(owns (c : Thread nD τ) arg1 fullShare x_0 ∗ owns (c : Thread nD τ) arg2 fullShare x_1 ∗ owns (c : Thread nD τ) arg3 fullShare x_2 ∗ owns (c : Thread nD τ) arg4 fullShare x_3 ∗ owns (c : Thread nD τ) arg5 fullShare x_4 ∗ owns (c : Thread nD τ) arg6 fullShare x_5 ∗ owns (c : Thread nD τ) arg7 fullShare (out2_6 x_0 x_1 x_2 x_3 x_4 x_5)) -∗ K ⟨⟩))
      ⊢ wp frame (wpE (defs₀ (F := F)) Variants.none c none) E (cc2__layer_kernel i arg1 harg1 arg2 harg2 arg3 harg3 arg4 harg4 arg5 harg5 arg6 harg6 arg7 harg7) K := by
  simp only [cc2__layer_kernel_eq_skeleton]; unfold cc2__layer_kernel_skel
  unfold owns
  iintro ⟨⟨%f_0, %hf_0, H_0⟩, ⟨%f_1, %hf_1, H_1⟩, ⟨%f_2, %hf_2, H_2⟩, ⟨%f_3, %hf_3, H_3⟩, ⟨%f_4, %hf_4, H_4⟩, ⟨%f_5, %hf_5, H_5⟩, ⟨%d_6, %f_6, -, H_6⟩, Hk⟩
  subst hf_0 hf_1 hf_2 hf_3 hf_4 hf_5
  sl_exec
  sl_step
  iapply Hk
  isplitl [H_0]
  · iexists f_0; isplitr; · ipureintro; rfl
    iexact H_0
  isplitl [H_1]
  · iexists f_1; isplitr; · ipureintro; rfl
    iexact H_1
  isplitl [H_2]
  · iexists f_2; isplitr; · ipureintro; rfl
    iexact H_2
  isplitl [H_3]
  · iexists f_3; isplitr; · ipureintro; rfl
    iexact H_3
  isplitl [H_4]
  · iexists f_4; isplitr; · ipureintro; rfl
    iexact H_4
  isplitl [H_5]
  · iexists f_5; isplitr; · ipureintro; rfl
    iexact H_5
  iexists _; isplitr
  swap; · iexact H_6
  ipureintro
  exact View.read_writes_eq_canon _ _ _ (cover2_6 _)

/-! ## The pipeline's proof data -/

/-- The proof data of the pipeline on core `c`: the arrays as the region finds them; after the body at point `t` each
    input's buffer still at its block and the output's at `out2_6` of the six input blocks; the invariant that of a
    body which touches its windows only; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' memrefs hold their blocks, so the body's triple applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d_0, H_0⟩, ⟨%d_1, H_1⟩, ⟨%d_2, H_2⟩, ⟨%d_3, H_3⟩, ⟨%d_4, H_4⟩, ⟨%d_5, H_5⟩, ⟨%d_6, H_6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H_0]; · iexact H_0
  isplitl [H_1]; · iexact H_1
  isplitl [H_2]; · iexact H_2
  isplitl [H_3]; · iexact H_3
  isplitl [H_4]; · iexact H_4
  isplitl [H_5]; · iexact H_5
  isplitl [H_6]; · iexists _; iexact H_6
  iintro ⟨H_0, H_1, H_2, H_3, H_4, H_5, H_6⟩
  isplitl [HΦ]; · iexact HΦ
  isplitl [Ho]; · iexact Ho
  isplitl [H_0]; · iexact H_0
  isplitl [H_1]; · iexact H_1
  isplitl [H_2]; · iexact H_2
  isplitl [H_3]; · iexact H_3
  isplitl [H_4]; · iexact H_4
  isplitl [H_5]; · iexact H_5
  iexact H_6

/-- The body obligation of the pipeline, at every point. -/
theorem body_obligation2 (c : Dev nD) : BodyObligation (dat2 (F := F) V c) (defs₀ (F := F)) Variants.none () Set.univ := fun t => by
  rw [bigSep_W2, bigSep_W2]
  exact sound_body2 V c t

end Regions

end Cert.Kernel.Hand

end
-- ==== Proof.K.Launch.lean ====
import proofs.«424767_j70944269795902_3_alg».proof.Proof.K.Region0
import proofs.«424767_j70944269795902_3_alg».proof.Proof.K.Region1
import proofs.«424767_j70944269795902_3_alg».proof.Proof.K.Region2
import proofs.«424767_j70944269795902_3_alg».proof.Proof.K.RunCond
import Idealize.ShloMosaic.Lib.Pipeline.Frame
import Idealize.ShloMosaic.Lib.Pipeline.Regions
import Idealize.ShloMosaic.Lib.Pipeline.RegionsLoop
import Idealize.ShloMosaic.Lib.Tactic

/-! The whole run of the program: three layer pipelines among stretches of host operations, at any float family.

Between two items a core holds every unscoped buffer whole. A host stretch changes the buffers it writes; a layer's
pipeline changes exactly one buffer, its output array, which ends holding the twenty row blocks the body left, written
back in point order. Naming those three arrays one after the other (each is computed from the buffers as the
pipeline before it left them) fixes every buffer's contents at every boundary, down to the return. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The three layers' arrays, one after the other -/

/-- A core's buffers at launch, read at the TensorCore's references. -/
abbrev base (c : Dev nD) : (r : Ref sig .tc) → Buf (Elt F) ((c : Thread nD τ).loc r) := fun r => m ((c : Thread nD τ).loc r)

/-- The first layer's array: what its pipeline leaves in its output buffer, entered after the first host stretch. -/
def lay1 (c : Dev nD) : Buf (Elt F) ((c : Thread nD τ).loc main_v24) :=
  (dat0 (fun c b => V1 m c b) c).arrAt 6 cfg0.N

/-- The regions' leavings with the first layer's array in place (the other two entries not yet meant). -/
def outsA : Outs (F := F) := fun _ r c => Function.update (base m c) main_v24 (lay1 m c) r

/-- The second layer's array: its pipeline entered after the second host stretch, which has read the first layer's. -/
def lay2 (c : Dev nD) : Buf (Elt F) ((c : Thread nD τ).loc main_v48) :=
  (dat1 (fun c b => V3 m (outsA m) c b) c).arrAt 6 cfg1.N

/-- The regions' leavings with the first two layers' arrays in place. -/
def outsB : Outs (F := F) := fun _ r c =>
  Function.update (Function.update (base m c) main_v24 (lay1 m c)) main_v48 (lay2 m c) r

/-- The third layer's array: its pipeline entered after the third host stretch. -/
def lay3 (c : Dev nD) : Buf (Elt F) ((c : Thread nD τ).loc main_v72) :=
  (dat2 (fun c b => V5 m (outsB m) c b) c).arrAt 6 cfg2.N

/-- What the three regions leave: each layer's array in its pipeline's output buffer (the item index is not read: a
    buffer is written by one region only). -/
def outs : Outs (F := F) := fun _ r c =>
  Function.update (Function.update (Function.update (base m c) main_v24 (lay1 m c)) main_v48 (lay2 m c)) main_v72 (lay3 m c) r

/-! ### The stages agree where they are read -/

theorem outsA_v24 (J : ℕ) (c : Dev nD) : outsA m J main_v24 c = lay1 m c := by
  unfold outsA; exact Function.update_self _ _ _
theorem outsB_v24 (J : ℕ) (c : Dev nD) : outsB m J main_v24 c = lay1 m c := by
  unfold outsB
  rw [Function.update_of_ne (show (main_v24 : Ref sig .tc) ≠ main_v48 by decide)]; exact Function.update_self _ _ _
theorem outsB_v48 (J : ℕ) (c : Dev nD) : outsB m J main_v48 c = lay2 m c := by
  unfold outsB; exact Function.update_self _ _ _
theorem outs_v24 (J : ℕ) (c : Dev nD) : outs m J main_v24 c = lay1 m c := by
  unfold outs
  rw [Function.update_of_ne (show (main_v24 : Ref sig .tc) ≠ main_v72 by decide),
    Function.update_of_ne (show (main_v24 : Ref sig .tc) ≠ main_v48 by decide)]; exact Function.update_self _ _ _
theorem outs_v48 (J : ℕ) (c : Dev nD) : outs m J main_v48 c = lay2 m c := by
  unfold outs
  rw [Function.update_of_ne (show (main_v48 : Ref sig .tc) ≠ main_v72 by decide)]; exact Function.update_self _ _ _
theorem outs_v72 (J : ℕ) (c : Dev nD) : outs m J main_v72 c = lay3 m c := by
  unfold outs; exact Function.update_self _ _ _

/-- The buffers after the second host stretch read the regions' leavings at the first layer's array only, -/
theorem V3_congr (o o' : Outs (F := F)) (c : Dev nD) (h : o 2 main_v24 c = o' 2 main_v24 c) : V3 m o c = V3 m o' c :=
  congrArg (fun x => StableHlo.after hostOps1 (Function.update (V1 m c) (main_v24 : DevRef τ sig) x)) h
/-- and after the third at the first two layers' arrays only. -/
theorem V5_congr (o o' : Outs (F := F)) (c : Dev nD) (h2 : o 2 main_v24 c = o' 2 main_v24 c) (h4 : o 4 main_v48 c = o' 4 main_v48 c) :
    V5 m o c = V5 m o' c := by
  show StableHlo.after hostOps2 (Function.update (V3 m o c) (main_v48 : DevRef τ sig) (o 4 main_v48 c))
    = StableHlo.after hostOps2 (Function.update (V3 m o' c) (main_v48 : DevRef τ sig) (o' 4 main_v48 c))
  rw [V3_congr m o o' c h2, h4]

theorem entry1_eq : (fun (c : Dev nD) (b : Ref sig .tc) => V3 m (outsA m) c b) = (fun (c : Dev nD) (b : Ref sig .tc) => V3 m (outs m) c b) :=
  funext fun c => funext fun b => congrFun (V3_congr m _ _ c ((outsA_v24 m 2 c).trans (outs_v24 m 2 c).symm)) b
theorem entry2_eq : (fun (c : Dev nD) (b : Ref sig .tc) => V5 m (outsB m) c b) = (fun (c : Dev nD) (b : Ref sig .tc) => V5 m (outs m) c b) :=
  funext fun c => funext fun b => congrFun (V5_congr m _ _ c ((outsB_v24 m 2 c).trans (outs_v24 m 2 c).symm)
    ((outsB_v48 m 4 c).trans (outs_v48 m 4 c).symm)) b

/-- Each region's output buffer ends at the array its pipeline leaves, entered from the buffers as the run has them there. -/
theorem outs2 (c : Dev nD) : outs m 2 main_v24 c = (dat0 (fun c b => V1 m c b) c).arrAt 6 cfg0.N :=
  outs_v24 m 2 c
theorem outs4 (c : Dev nD) : outs m 4 main_v48 c = (dat1 (fun c b => V3 m (outs m) c b) c).arrAt 6 cfg1.N :=
  (outs_v48 m 4 c).trans (congrArg (fun V => (dat1 V c).arrAt 6 cfg1.N) (entry1_eq m))
theorem outs6 (c : Dev nD) : outs m 6 main_v72 c = (dat2 (fun c b => V5 m (outs m) c b) c).arrAt 6 cfg2.N :=
  (outs_v72 m 6 c).trans (congrArg (fun V => (dat2 V c).arrAt 6 cfg2.N) (entry2_eq m))

/-! ## The buffers at the regions' boundaries, read at the TensorCore's references -/

/-- Layer 1's pipeline is entered from these contents and left at those; -/
abbrev in0 : (c : Dev nD) → (b : Ref sig .tc) → Buf (Elt F) ((c : Thread nD τ).loc b) := fun c b => V1 m c b
abbrev ex0 : (c : Dev nD) → (b : Ref sig .tc) → Buf (Elt F) ((c : Thread nD τ).loc b) := fun c b => V2 m (outs m) c b
/-- layer 2's; -/
abbrev in1 : (c : Dev nD) → (b : Ref sig .tc) → Buf (Elt F) ((c : Thread nD τ).loc b) := fun c b => V3 m (outs m) c b
abbrev ex1 : (c : Dev nD) → (b : Ref sig .tc) → Buf (Elt F) ((c : Thread nD τ).loc b) := fun c b => V4 m (outs m) c b
/-- layer 3's. -/
abbrev in2 : (c : Dev nD) → (b : Ref sig .tc) → Buf (Elt F) ((c : Thread nD τ).loc b) := fun c b => V5 m (outs m) c b
abbrev ex2 : (c : Dev nD) → (b : Ref sig .tc) → Buf (Elt F) ((c : Thread nD τ).loc b) := fun c b => V6 m (outs m) c b

/-! ## The proof data family and the thread state -/

/-- Every pipeline's proof data, each at its region's entry contents. -/
def pdats : (p : Fin 3) → (c : Dev nD) → Dat τ (Elt F) Unit ℕ (UR sig nD τ) ℕ (cfgs p) c
  | ⟨0, _⟩ => fun c => dat0 (fun c b => V1 m c b) c
  | ⟨1, _⟩ => fun c => dat1 (fun c b => V3 m (outs m) c b) c
  | ⟨2, _⟩ => fun c => dat2 (fun c b => V5 m (outs m) c b) c

theorem pdats_0 (c : Dev nD) : pdats m 0 c = dat0 (fun c b => V1 m c b) c := rfl
theorem pdats_1 (c : Dev nD) : pdats m 1 c = dat1 (fun c b => V3 m (outs m) c b) c := rfl
theorem pdats_2 (c : Dev nD) : pdats m 2 c = dat2 (fun c b => V5 m (outs m) c b) c := rfl

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state (a pipeline's
    invariant takes it in and gives it back) and what the core owes, nothing. -/
abbrev R (c : Dev nD) : sProp 𝕄 := iprop((∃ r, prngReg c r) ∗ ∃ W, owes (c : Thread nD τ) (0 : CellTallies nD τ sig Unit) W)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## What a region leaves in its arrays and beside them -/

/-- At layer 1's exit the output buffer holds what the region leaves there; -/
theorem ex0_out (c : Dev nD) : ex0 m c main_v24 = outs m 2 main_v24 c := Function.update_self _ _ _
/-- an input window's array is never written back, and its buffer is not the output buffer, -/
theorem hF0_in (c : Dev nD) (w : Fin cfg0.W) (hin : (cfg0.win w).isOut = false)
    (hne : Pipeline.arrRef spec0 w ∉ ([main_v24] : List (Ref sig .tc))) :
    (pdats m 0 c).arrAt w cfg0.N = ex0 m c (Pipeline.arrRef spec0 w) :=
  ((dat0 (in0 m) c).arrAt_in w hin _).trans ((A_eq0 (in0 m) c w).trans (V2_of m (outs m) c _ hne).symm)
/-- so each of the pipeline's arrays holds what the pipeline leaves (the output buffer the layer's array), -/
theorem hF0 (c : Dev nD) (w : Fin cfg0.W) : (pdats m 0 c).arrAt w cfg0.N = ex0 m c (Pipeline.arrRef spec0 w) :=
  match w with
  | ⟨0, _⟩ => hF0_in m c 0 rfl (by decide)
  | ⟨1, _⟩ => hF0_in m c 1 rfl (by decide)
  | ⟨2, _⟩ => hF0_in m c 2 rfl (by decide)
  | ⟨3, _⟩ => hF0_in m c 3 rfl (by decide)
  | ⟨4, _⟩ => hF0_in m c 4 rfl (by decide)
  | ⟨5, _⟩ => hF0_in m c 5 rfl (by decide)
  | ⟨6, _⟩ => (outs2 m c).symm.trans (ex0_out m c).symm
/-- and every other buffer what it held at entry. -/
theorem hrest0 (c : Dev nD) : ∀ b : Ref sig .tc, b ∉ Finset.univ.image (Pipeline.arrRef spec0) → ex0 m c b = in0 m c b :=
  fun b hb => V2_of m (outs m) c b fun hmem => hb (Finset.mem_image.mpr ⟨6, Finset.mem_univ _, (List.mem_singleton.mp hmem).symm⟩)

/-- At layer 2's exit the output buffer holds what the region leaves there; -/
theorem ex1_out (c : Dev nD) : ex1 m c main_v48 = outs m 4 main_v48 c := Function.update_self _ _ _
/-- an input window's array is never written back, and its buffer is not the output buffer, -/
theorem hF1_in (c : Dev nD) (w : Fin cfg1.W) (hin : (cfg1.win w).isOut = false)
    (hne : Pipeline.arrRef spec1 w ∉ ([main_v48] : List (Ref sig .tc))) :
    (pdats m 1 c).arrAt w cfg1.N = ex1 m c (Pipeline.arrRef spec1 w) :=
  ((dat1 (in1 m) c).arrAt_in w hin _).trans ((A_eq1 (in1 m) c w).trans (V4_of m (outs m) c _ hne).symm)
/-- so each of the pipeline's arrays holds what the pipeline leaves (the output buffer the layer's array), -/
theorem hF1 (c : Dev nD) (w : Fin cfg1.W) : (pdats m 1 c).arrAt w cfg1.N = ex1 m c (Pipeline.arrRef spec1 w) :=
  match w with
  | ⟨0, _⟩ => hF1_in m c 0 rfl (by decide)
  | ⟨1, _⟩ => hF1_in m c 1 rfl (by decide)
  | ⟨2, _⟩ => hF1_in m c 2 rfl (by decide)
  | ⟨3, _⟩ => hF1_in m c 3 rfl (by decide)
  | ⟨4, _⟩ => hF1_in m c 4 rfl (by decide)
  | ⟨5, _⟩ => hF1_in m c 5 rfl (by decide)
  | ⟨6, _⟩ => (outs4 m c).symm.trans (ex1_out m c).symm
/-- and every other buffer what it held at entry. -/
theorem hrest1 (c : Dev nD) : ∀ b : Ref sig .tc, b ∉ Finset.univ.image (Pipeline.arrRef spec1) → ex1 m c b = in1 m c b :=
  fun b hb => V4_of m (outs m) c b fun hmem => hb (Finset.mem_image.mpr ⟨6, Finset.mem_univ _, (List.mem_singleton.mp hmem).symm⟩)

/-- At layer 3's exit the output buffer holds what the region leaves there; -/
theorem ex2_out (c : Dev nD) : ex2 m c main_v72 = outs m 6 main_v72 c := Function.update_self _ _ _
/-- an input window's array is never written back, and its buffer is not the output buffer, -/
theorem hF2_in (c : Dev nD) (w : Fin cfg2.W) (hin : (cfg2.win w).isOut = false)
    (hne : Pipeline.arrRef spec2 w ∉ ([main_v72] : List (Ref sig .tc))) :
    (pdats m 2 c).arrAt w cfg2.N = ex2 m c (Pipeline.arrRef spec2 w) :=
  ((dat2 (in2 m) c).arrAt_in w hin _).trans ((A_eq2 (in2 m) c w).trans (V6_of m (outs m) c _ hne).symm)
/-- so each of the pipeline's arrays holds what the pipeline leaves (the output buffer the layer's array), -/
theorem hF2 (c : Dev nD) (w : Fin cfg2.W) : (pdats m 2 c).arrAt w cfg2.N = ex2 m c (Pipeline.arrRef spec2 w) :=
  match w with
  | ⟨0, _⟩ => hF2_in m c 0 rfl (by decide)
  | ⟨1, _⟩ => hF2_in m c 1 rfl (by decide)
  | ⟨2, _⟩ => hF2_in m c 2 rfl (by decide)
  | ⟨3, _⟩ => hF2_in m c 3 rfl (by decide)
  | ⟨4, _⟩ => hF2_in m c 4 rfl (by decide)
  | ⟨5, _⟩ => hF2_in m c 5 rfl (by decide)
  | ⟨6, _⟩ => (outs6 m c).symm.trans (ex2_out m c).symm
/-- and every other buffer what it held at entry. -/
theorem hrest2 (c : Dev nD) : ∀ b : Ref sig .tc, b ∉ Finset.univ.image (Pipeline.arrRef spec2) → ex2 m c b = in2 m c b :=
  fun b hb => V6_of m (outs m) c b fun hmem => hb (Finset.mem_image.mpr ⟨6, Finset.mem_univ _, (List.mem_singleton.mp hmem).symm⟩)

/-! ## The regions as segments -/

set_option backward.isDefEq.respectTransparency.types false in
/-- Layer 1's pipeline over the thread state: entered from every unscoped buffer at the contents the run has there,
    left with the output buffer at the layer's array and every other buffer as entered. Its arrays are split out of the
    unscoped buffers and put back; the generator register goes into the pipeline's invariant and comes out; nothing is
    owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (in0 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (in0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (in0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (in0 m c) (ex0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 2's pipeline over the thread state: entered from every unscoped buffer at the contents the run has there,
    left with the output buffer at the layer's array and every other buffer as entered. Its arrays are split out of the
    unscoped buffers and put back; the generator register goes into the pipeline's invariant and comes out; nothing is
    owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (in1 m) c).loose
  hwaits := Pipeline.hwaits_of_owed_zero _ _ _ _ L lv 1 fun _ _ => rfl
  pre c := iprop(StableHlo.held (c : Thread nD τ) (Pipeline.ucRefs τ sig) (V3 m (outs m) c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (in1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (in1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (in1 m c) (ex1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 3's pipeline over the thread state: entered from every unscoped buffer at the contents the run has there,
    left with the output buffer at the layer's array and every other buffer as entered. Its arrays are split out of the
    unscoped buffers and put back; the generator register goes into the pipeline's invariant and comes out; nothing is
    owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (in2 m) c).loose
  hwaits := Pipeline.hwaits_of_owed_zero _ _ _ _ L lv 2 fun _ _ => rfl
  pre c := iprop(StableHlo.held (c : Thread nD τ) (Pipeline.ucRefs τ sig) (V5 m (outs m) c) ∗ R c)
  post c := iprop(StableHlo.held (c : Thread nD τ) (Pipeline.ucRefs τ sig) (V6 m (outs m) c) ∗ R c)
  X c := iprop(∃ r, prngReg c r)
  Y c := iprop(∃ r, prngReg c r)
  Z c := Pipeline.unscopedRest (Ix := Unit) (Name := ℕ) (U := UR sig nD τ) (Lvl := ℕ) spec2 c (in2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (in2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (in2 m c) (ex2 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

/-- The launch's ghost state is the cells' first tokens, and nothing per core beside them. -/
theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ fun _ : Dev nD => (iprop(emp) : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- Each core makes the rest of its first thread state from what the launch deals it: the generator register as set, and
    owing nothing. -/
theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts L lv)
      ⊢ (|={Set.univ}=> bigSep Finset.univ (fun c : Dev nD => R c) : sProp 𝕄) := by
  refine Pipeline.initEach L lv fun c => ?_
  iintro ⟨⟨-, HO, -, Hp, -⟩, -⟩
  imodintro
  isplitl [Hp]; · iexists _; iexact Hp
  iexists ∅; iexact HO

/-- The last rest state owes nothing. -/
theorem hE3 (c : Dev nD) : R c ⊢ (iprop(∃ W, owes (c : Thread nD τ) (0 : CellTallies nD τ sig Unit) W) : sProp 𝕄) := by
  iintro ⟨-, HO⟩; iexact HO

/-! ## The run -/

set_option backward.isDefEq.respectTransparency.types false in
/-- THE RUN: from any memory with zero counters, every weakly fair execution of @main on the TensorCores terminates,
    nothing faulting, and every final memory holds each unscoped buffer of each core at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = V23 m (outs m) c b) :=
  GenP.run_cond m (EP := emb₁) (ι := ()) (𝒱₀ := 𝒱₀) (L := L) (lv := lv) (hL := fun _ _ => rfl) (ρ := ρ) (outs := outs m) (pdats := pdats m)
    (O₀ := 0) (G := fun _ => iprop(emp))
    (u₀ := initOf (Pipeline.cells cfgs cellOf_inj) (Pipeline.launchToks cfgs cellOf_inj)) (hu₀ := hu₀)
    (E := fun _ c => R c) (hE0 := hE0 ρ) (hE3 := hE3)
    (R0 := reg0 m) (hpre0 := fun _ => .rfl) (hpost0 := fun _ => .rfl)
    (R1 := reg1 m) (hpre1 := fun _ => .rfl) (hpost1 := fun _ => .rfl)
    (R2 := reg2 m) (hpre2 := fun _ => .rfl) (hpost2 := fun _ => .rfl)

set_option backward.isDefEq.respectTransparency.types false in
/-- THE FRAME: the same executions leave every argument array as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Gen.frame_cond m (EP := emb₁) (ι := ()) (𝒱₀ := 𝒱₀) (L := L) (lv := lv) (hL := fun _ _ => rfl) (ρ := ρ) (outs := outs m) (pdats := pdats m)
    (O₀ := 0) (G := fun _ => iprop(emp))
    (u₀ := initOf (Pipeline.cells cfgs cellOf_inj) (Pipeline.launchToks cfgs cellOf_inj)) (hu₀ := hu₀)
    (E := fun _ c => R c) (hE0 := hE0 ρ) (hE3 := hE3)
    (R0 := reg0 m) (hpre0 := fun _ => .rfl) (hpost0 := fun _ => .rfl)
    (R1 := reg1 m) (hpre1 := fun _ => .rfl) (hpost1 := fun _ => .rfl)
    (R2 := reg2 m) (hpre2 := fun _ => .rfl) (hpost2 := fun _ => .rfl)

/-- info: 'Cert.Kernel.Hand.run_all' depends on axioms: [propext, Classical.choice, Quot.sound] -/
#guard_msgs in #print axioms run_all
/-- info: 'Cert.Kernel.Hand.frame' depends on axioms: [propext, Classical.choice, Quot.sound] -/
#guard_msgs in #print axioms frame

end Cert.Kernel.Hand

end
-- ==== Proof.Spec.lean ====
/-
  One message-passing layer, entry by entry, over the extended reals.

  For node `r` and feature `q` the layer's pre-activation is
      (∑ₖ side[r,k] · W_gc[k,q] + b_gc[q]) + (∑ₖ (ego[r,k] · side[r,k]) · W_bi[k,q] + b_bi[q]),
  the two sums over the 64 features, and the layer's output is that value passed through the leaky
  rectifier: the value itself where it compares ≥ 0 and the slope word times it elsewhere. Both programs
  spell the rectifier as a compare against the zero word and a select, so it is kept in that form.
-/
import Idealize.ShloMosaic.PureOps.Ideal
import Idealize.ShloMosaic.Lib.ValueIdx

noncomputable section

namespace Cert.Spec

open Idealize.ShloMosaic Idealize.ShloMosaic.ValueIdx

/-- The node-feature arrays: 100000 nodes, 64 features. -/
abbrev SN : Shape := ⟨2, ![100000, 64]⟩
/-- A layer's weight matrix. -/
abbrev SW : Shape := ⟨2, ![64, 64]⟩
/-- A layer's bias row. -/
abbrev SB : Shape := ⟨2, ![1, 64]⟩

/-- The pre-activation of a layer at node `r`, feature `q`. -/
def preAct (ego side : FVec Ideal SN .f32) (wgc : FVec Ideal SW .f32) (bgc : FVec Ideal SB .f32)
    (wbi : FVec Ideal SW .f32) (bbi : FVec Ideal SB .f32) (r : Fin 100000) (q : Fin 64) : EReal :=
  ((∑ k : Fin 64, side (ix2 r k) * wgc (ix2 k q)) + bgc (ix2 0 q))
    + ((∑ k : Fin 64, (ego (ix2 r k) * side (ix2 r k)) * wbi (ix2 k q)) + bbi (ix2 0 q))

/-- The leaky rectifier as both programs compute it: compare with the zero word, then select. -/
def leaky (x : EReal) : EReal :=
  Scalar.select (FloatOps.cmpf (F := Ideal) (φ := .f32) .oge x (Scalar.ofBits (F := Ideal) .f32 0x00000000#32)) x
    ((Scalar.ofBits (F := Ideal) .f32 0x3E4CCCCD#32 : EReal) * x)

/-- A layer's output at node `r`, feature `q`. -/
def layerAt (ego side : FVec Ideal SN .f32) (wgc : FVec Ideal SW .f32) (bgc : FVec Ideal SB .f32)
    (wbi : FVec Ideal SW .f32) (bbi : FVec Ideal SB .f32) (r : Fin 100000) (q : Fin 64) : EReal :=
  leaky (preAct ego side wgc bgc wbi bbi r q)

end Cert.Spec

end
-- ==== Proof.KI.Region0.lean ====
import proofs.«424767_j70944269795902_3_alg».proof.Proof.Gen.KernelIdeal.Launch
import proofs.«424767_j70944269795902_3_alg».proof.Proof.Gen.KernelIdeal.Skeleton
import proofs.«424767_j70944269795902_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! One layer's kernel body at one grid point, and the proof data of its pipeline, at any float family.

The pipeline walks 20 row blocks of 5000 rows. At a point it holds, in staging buffers, the block of the
embedding rows (window 0), the block of the aggregated neighbour rows (window 1), the two 64x64 weight
matrices (windows 2 and 4) and the two 1x64 bias rows (windows 3 and 5); the body reads the six whole and
writes one whole 5000x64 block (window 6): the leaky-ReLU of the sum of the two affine maps. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- what the TensorCore's buffers hold when the region is entered
variable (V : (c : Dev nD) → (b : Ref sig .tc) → Buf (Elt F) ((c : Thread nD τ).loc b))

/-! ## The windows' blocks -/

/-- Window `w`'s block at point `t`: the rows of its array (as the region finds it) that the window's index map
    selects there. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether the pipeline fetched it there
    or left the earlier fetch in place (the block index has not moved since), for any proof data whose array is the
    entry contents (`hA`) and whose body leaves the block as it found it (`hafter`). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, whether the pipeline fetched it there
    or left the earlier fetch in place (the block index has not moved since), for any proof data whose array is the
    entry contents (`hA`) and whose body leaves the block as it found it (`hafter`). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, whether the pipeline fetched it there
    or left the earlier fetch in place (the block index has not moved since), for any proof data whose array is the
    entry contents (`hA`) and whose body leaves the block as it found it (`hafter`). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, whether the pipeline fetched it there
    or left the earlier fetch in place (the block index has not moved since), for any proof data whose array is the
    entry contents (`hA`) and whose body leaves the block as it found it (`hafter`). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, whether the pipeline fetched it there
    or left the earlier fetch in place (the block index has not moved since), for any proof data whose array is the
    entry contents (`hA`) and whose body leaves the block as it found it (`hafter`). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, whether the pipeline fetched it there
    or left the earlier fetch in place (the block index has not moved since), for any proof data whose array is the
    entry contents (`hA`) and whose body leaves the block as it found it (`hafter`). -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole 5000x64 block, the whole 64x64 matrix, the whole 1x64 row: every load and the store is of one of these. -/
abbrev rA : Rect S5000x64 := Rect.unit (s := S5000x64) ![0, 0] S5000x64.size inb_S5000x64_S5000x64_0_0
abbrev rW : Rect S64x64 := Rect.unit (s := S64x64) ![0, 0] S64x64.size inb_S64x64_S64x64_0_0
abbrev rB : Rect S1x64 := Rect.unit (s := S1x64) ![0, 0] S1x64.size inb_S1x64_S1x64_0_0

/-! ## What the body leaves in the output window's buffer -/

/-- Window 6's staging buffer after the body, from the six input blocks `x_w` (window `w`'s): one store of the whole
    block, whose value reads the embedding block, the neighbour block, the first weight matrix (window 2), the second
    (window 4), the first bias row (window 3) and the second (window 5), in that order. -/
def out0_6 (x0 x1 : Vec F S5000x64 .f32) (x2 : Vec F S64x64 .f32) (x3 : Vec F S1x64 .f32) (x4 : Vec F S64x64 .f32) (x5 : Vec F S1x64 .f32) : Vec F S5000x64 .f32 :=
  View.canon [⟨rA, k0_pay1 (View.ld x0 rA) (View.ld x1 rA) (View.ld x2 rW) (View.ld x4 rW) (View.ld x3 rB) (View.ld x5 rB)⟩]

/-- The one store is of the whole block, so it covers the buffer. -/
theorem cover0_6 (p : Vec F S5000x64 .f32) (y : S5000x64.Idx) :
    ∃ pc ∈ ([⟨rA, p⟩] : List (View.Piece (Elt F) S5000x64 .f32)), y ∈ pc.1.set :=
  View.cover_of_tiled [⟨rA, p⟩] S5000x64.size (by rfl) y

/-! ## The body's triple -/

set_option maxHeartbeats 1000000 in
/-- The body on whole staging memrefs, the six inputs' at contents `x_w` and the output's at anything, runs to the
    continuation with the inputs' as they were and the output's at `out0_6` of the inputs'. -/
theorem sound_kernel0 (c : Dev nD) (E : Set ℕ) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole)
    (x_0 x_1 : Vec F S5000x64 .f32) (x_2 : Vec F S64x64 .f32) (x_3 : Vec F S1x64 .f32) (x_4 : Vec F S64x64 .f32) (x_5 : Vec F S1x64 .f32) (K : PUnit → sProp 𝕄) :
    iprop(owns (c : Thread nD τ) arg1 fullShare x_0 ∗ owns (c : Thread nD τ) arg2 fullShare x_1 ∗ owns (c : Thread nD τ) arg3 fullShare x_2 ∗ owns (c : Thread nD τ) arg4 fullShare x_3 ∗ owns (c : Thread nD τ) arg5 fullShare x_4 ∗ owns (c : Thread nD τ) arg6 fullShare x_5 ∗ (∃ d, owns (c : Thread nD τ) arg7 fullShare d)
        ∗ (iprop(owns (c : Thread nD τ) arg1 fullShare x_0 ∗ owns (c : Thread nD τ) arg2 fullShare x_1 ∗ owns (c : Thread nD τ) arg3 fullShare x_2 ∗ owns (c : Thread nD τ) arg4 fullShare x_3 ∗ owns (c : Thread nD τ) arg5 fullShare x_4 ∗ owns (c : Thread nD τ) arg6 fullShare x_5 ∗ owns (c : Thread nD τ) arg7 fullShare (out0_6 x_0 x_1 x_2 x_3 x_4 x_5)) -∗ K ⟨⟩))
      ⊢ wp frame (wpE (defs₀ (F := F)) Variants.none c none) E (cc0__layer_kernel i arg1 harg1 arg2 harg2 arg3 harg3 arg4 harg4 arg5 harg5 arg6 harg6 arg7 harg7) K := by
  simp only [cc0__layer_kernel_eq_skeleton]; unfold cc0__layer_kernel_skel
  unfold owns
  iintro ⟨⟨%f_0, %hf_0, H_0⟩, ⟨%f_1, %hf_1, H_1⟩, ⟨%f_2, %hf_2, H_2⟩, ⟨%f_3, %hf_3, H_3⟩, ⟨%f_4, %hf_4, H_4⟩, ⟨%f_5, %hf_5, H_5⟩, ⟨%d_6, %f_6, -, H_6⟩, Hk⟩
  subst hf_0 hf_1 hf_2 hf_3 hf_4 hf_5
  sl_exec
  sl_step
  iapply Hk
  isplitl [H_0]
  · iexists f_0; isplitr; · ipureintro; rfl
    iexact H_0
  isplitl [H_1]
  · iexists f_1; isplitr; · ipureintro; rfl
    iexact H_1
  isplitl [H_2]
  · iexists f_2; isplitr; · ipureintro; rfl
    iexact H_2
  isplitl [H_3]
  · iexists f_3; isplitr; · ipureintro; rfl
    iexact H_3
  isplitl [H_4]
  · iexists f_4; isplitr; · ipureintro; rfl
    iexact H_4
  isplitl [H_5]
  · iexists f_5; isplitr; · ipureintro; rfl
    iexact H_5
  iexists _; isplitr
  swap; · iexact H_6
  ipureintro
  exact View.read_writes_eq_canon _ _ _ (cover0_6 _)

/-! ## The pipeline's proof data -/

/-- The proof data of the pipeline on core `c`: the arrays as the region finds them; after the body at point `t` each
    input's buffer still at its block and the output's at `out0_6` of the six input blocks; the invariant that of a
    body which touches its windows only; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d_0, H_0⟩, ⟨%d_1, H_1⟩, ⟨%d_2, H_2⟩, ⟨%d_3, H_3⟩, ⟨%d_4, H_4⟩, ⟨%d_5, H_5⟩, ⟨%d_6, H_6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H_0]; · iexact H_0
  isplitl [H_1]; · iexact H_1
  isplitl [H_2]; · iexact H_2
  isplitl [H_3]; · iexact H_3
  isplitl [H_4]; · iexact H_4
  isplitl [H_5]; · iexact H_5
  isplitl [H_6]; · iexists _; iexact H_6
  iintro ⟨H_0, H_1, H_2, H_3, H_4, H_5, H_6⟩
  isplitl [HΦ]; · iexact HΦ
  isplitl [Ho]; · iexact Ho
  isplitl [H_0]; · iexact H_0
  isplitl [H_1]; · iexact H_1
  isplitl [H_2]; · iexact H_2
  isplitl [H_3]; · iexact H_3
  isplitl [H_4]; · iexact H_4
  isplitl [H_5]; · iexact H_5
  iexact H_6

/-- The body obligation of the pipeline, at every point. -/
theorem body_obligation0 (c : Dev nD) : BodyObligation (dat0 (F := F) V c) (defs₀ (F := F)) Variants.none () Set.univ := fun t => by
  rw [bigSep_W0, bigSep_W0]
  exact sound_body0 V c t

end Regions

end Cert.KernelIdeal.Hand

end
-- ==== Proof.KI.Region1.lean ====
import proofs.«424767_j70944269795902_3_alg».proof.Proof.Gen.KernelIdeal.Launch
import proofs.«424767_j70944269795902_3_alg».proof.Proof.Gen.KernelIdeal.Skeleton
import proofs.«424767_j70944269795902_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! One layer's kernel body at one grid point, and the proof data of its pipeline, at any float family.

The pipeline walks 20 row blocks of 5000 rows. At a point it holds, in staging buffers, the block of the
embedding rows (window 0), the block of the aggregated neighbour rows (window 1), the two 64x64 weight
matrices (windows 2 and 4) and the two 1x64 bias rows (windows 3 and 5); the body reads the six whole and
writes one whole 5000x64 block (window 6): the leaky-ReLU of the sum of the two affine maps. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- what the TensorCore's buffers hold when the region is entered
variable (V : (c : Dev nD) → (b : Ref sig .tc) → Buf (Elt F) ((c : Thread nD τ).loc b))

/-! ## The windows' blocks -/

/-- Window `w`'s block at point `t`: the rows of its array (as the region finds it) that the window's index map
    selects there. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether the pipeline fetched it there
    or left the earlier fetch in place (the block index has not moved since), for any proof data whose array is the
    entry contents (`hA`) and whose body leaves the block as it found it (`hafter`). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, whether the pipeline fetched it there
    or left the earlier fetch in place (the block index has not moved since), for any proof data whose array is the
    entry contents (`hA`) and whose body leaves the block as it found it (`hafter`). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, whether the pipeline fetched it there
    or left the earlier fetch in place (the block index has not moved since), for any proof data whose array is the
    entry contents (`hA`) and whose body leaves the block as it found it (`hafter`). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, whether the pipeline fetched it there
    or left the earlier fetch in place (the block index has not moved since), for any proof data whose array is the
    entry contents (`hA`) and whose body leaves the block as it found it (`hafter`). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, whether the pipeline fetched it there
    or left the earlier fetch in place (the block index has not moved since), for any proof data whose array is the
    entry contents (`hA`) and whose body leaves the block as it found it (`hafter`). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, whether the pipeline fetched it there
    or left the earlier fetch in place (the block index has not moved since), for any proof data whose array is the
    entry contents (`hA`) and whose body leaves the block as it found it (`hafter`). -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole 5000x64 block, the whole 64x64 matrix, the whole 1x64 row: every load and the store is of one of these. -/
abbrev rA1 : Rect S5000x64 := Rect.unit (s := S5000x64) ![0, 0] S5000x64.size inb_S5000x64_S5000x64_0_0
abbrev rW1 : Rect S64x64 := Rect.unit (s := S64x64) ![0, 0] S64x64.size inb_S64x64_S64x64_0_0
abbrev rB1 : Rect S1x64 := Rect.unit (s := S1x64) ![0, 0] S1x64.size inb_S1x64_S1x64_0_0

/-! ## What the body leaves in the output window's buffer -/

/-- Window 6's staging buffer after the body, from the six input blocks `x_w` (window `w`'s): one store of the whole
    block, whose value reads the embedding block, the neighbour block, the first weight matrix (window 2), the second
    (window 4), the first bias row (window 3) and the second (window 5), in that order. -/
def out1_6 (x0 x1 : Vec F S5000x64 .f32) (x2 : Vec F S64x64 .f32) (x3 : Vec F S1x64 .f32) (x4 : Vec F S64x64 .f32) (x5 : Vec F S1x64 .f32) : Vec F S5000x64 .f32 :=
  View.canon [⟨rA1, k1_pay1 (View.ld x0 rA1) (View.ld x1 rA1) (View.ld x2 rW1) (View.ld x4 rW1) (View.ld x3 rB1) (View.ld x5 rB1)⟩]

/-- The one store is of the whole block, so it covers the buffer. -/
theorem cover1_6 (p : Vec F S5000x64 .f32) (y : S5000x64.Idx) :
    ∃ pc ∈ ([⟨rA1, p⟩] : List (View.Piece (Elt F) S5000x64 .f32)), y ∈ pc.1.set :=
  View.cover_of_tiled [⟨rA1, p⟩] S5000x64.size (by rfl) y

/-! ## The body's triple -/

set_option maxHeartbeats 1000000 in
/-- The body on whole staging memrefs, the six inputs' at contents `x_w` and the output's at anything, runs to the
    continuation with the inputs' as they were and the output's at `out1_6` of the inputs'. -/
theorem sound_kernel1 (c : Dev nD) (E : Set ℕ) (i : grid1.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole)
    (x_0 x_1 : Vec F S5000x64 .f32) (x_2 : Vec F S64x64 .f32) (x_3 : Vec F S1x64 .f32) (x_4 : Vec F S64x64 .f32) (x_5 : Vec F S1x64 .f32) (K : PUnit → sProp 𝕄) :
    iprop(owns (c : Thread nD τ) arg1 fullShare x_0 ∗ owns (c : Thread nD τ) arg2 fullShare x_1 ∗ owns (c : Thread nD τ) arg3 fullShare x_2 ∗ owns (c : Thread nD τ) arg4 fullShare x_3 ∗ owns (c : Thread nD τ) arg5 fullShare x_4 ∗ owns (c : Thread nD τ) arg6 fullShare x_5 ∗ (∃ d, owns (c : Thread nD τ) arg7 fullShare d)
        ∗ (iprop(owns (c : Thread nD τ) arg1 fullShare x_0 ∗ owns (c : Thread nD τ) arg2 fullShare x_1 ∗ owns (c : Thread nD τ) arg3 fullShare x_2 ∗ owns (c : Thread nD τ) arg4 fullShare x_3 ∗ owns (c : Thread nD τ) arg5 fullShare x_4 ∗ owns (c : Thread nD τ) arg6 fullShare x_5 ∗ owns (c : Thread nD τ) arg7 fullShare (out1_6 x_0 x_1 x_2 x_3 x_4 x_5)) -∗ K ⟨⟩))
      ⊢ wp frame (wpE (defs₀ (F := F)) Variants.none c none) E (cc1__layer_kernel i arg1 harg1 arg2 harg2 arg3 harg3 arg4 harg4 arg5 harg5 arg6 harg6 arg7 harg7) K := by
  simp only [cc1__layer_kernel_eq_skeleton]; unfold cc1__layer_kernel_skel
  unfold owns
  iintro ⟨⟨%f_0, %hf_0, H_0⟩, ⟨%f_1, %hf_1, H_1⟩, ⟨%f_2, %hf_2, H_2⟩, ⟨%f_3, %hf_3, H_3⟩, ⟨%f_4, %hf_4, H_4⟩, ⟨%f_5, %hf_5, H_5⟩, ⟨%d_6, %f_6, -, H_6⟩, Hk⟩
  subst hf_0 hf_1 hf_2 hf_3 hf_4 hf_5
  sl_exec
  sl_step
  iapply Hk
  isplitl [H_0]
  · iexists f_0; isplitr; · ipureintro; rfl
    iexact H_0
  isplitl [H_1]
  · iexists f_1; isplitr; · ipureintro; rfl
    iexact H_1
  isplitl [H_2]
  · iexists f_2; isplitr; · ipureintro; rfl
    iexact H_2
  isplitl [H_3]
  · iexists f_3; isplitr; · ipureintro; rfl
    iexact H_3
  isplitl [H_4]
  · iexists f_4; isplitr; · ipureintro; rfl
    iexact H_4
  isplitl [H_5]
  · iexists f_5; isplitr; · ipureintro; rfl
    iexact H_5
  iexists _; isplitr
  swap; · iexact H_6
  ipureintro
  exact View.read_writes_eq_canon _ _ _ (cover1_6 _)

/-! ## The pipeline's proof data -/

/-- The proof data of the pipeline on core `c`: the arrays as the region finds them; after the body at point `t` each
    input's buffer still at its block and the output's at `out1_6` of the six input blocks; the invariant that of a
    body which touches its windows only; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d_0, H_0⟩, ⟨%d_1, H_1⟩, ⟨%d_2, H_2⟩, ⟨%d_3, H_3⟩, ⟨%d_4, H_4⟩, ⟨%d_5, H_5⟩, ⟨%d_6, H_6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H_0]; · iexact H_0
  isplitl [H_1]; · iexact H_1
  isplitl [H_2]; · iexact H_2
  isplitl [H_3]; · iexact H_3
  isplitl [H_4]; · iexact H_4
  isplitl [H_5]; · iexact H_5
  isplitl [H_6]; · iexists _; iexact H_6
  iintro ⟨H_0, H_1, H_2, H_3, H_4, H_5, H_6⟩
  isplitl [HΦ]; · iexact HΦ
  isplitl [Ho]; · iexact Ho
  isplitl [H_0]; · iexact H_0
  isplitl [H_1]; · iexact H_1
  isplitl [H_2]; · iexact H_2
  isplitl [H_3]; · iexact H_3
  isplitl [H_4]; · iexact H_4
  isplitl [H_5]; · iexact H_5
  iexact H_6

/-- The body obligation of the pipeline, at every point. -/
theorem body_obligation1 (c : Dev nD) : BodyObligation (dat1 (F := F) V c) (defs₀ (F := F)) Variants.none () Set.univ := fun t => by
  rw [bigSep_W1, bigSep_W1]
  exact sound_body1 V c t

end Regions

end Cert.KernelIdeal.Hand

end
-- ==== Proof.KI.Region2.lean ====
import proofs.«424767_j70944269795902_3_alg».proof.Proof.Gen.KernelIdeal.Launch
import proofs.«424767_j70944269795902_3_alg».proof.Proof.Gen.KernelIdeal.Skeleton
import proofs.«424767_j70944269795902_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! One layer's kernel body at one grid point, and the proof data of its pipeline, at any float family.

The pipeline walks 20 row blocks of 5000 rows. At a point it holds, in staging buffers, the block of the
embedding rows (window 0), the block of the aggregated neighbour rows (window 1), the two 64x64 weight
matrices (windows 2 and 4) and the two 1x64 bias rows (windows 3 and 5); the body reads the six whole and
writes one whole 5000x64 block (window 6): the leaky-ReLU of the sum of the two affine maps. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- what the TensorCore's buffers hold when the region is entered
variable (V : (c : Dev nD) → (b : Ref sig .tc) → Buf (Elt F) ((c : Thread nD τ).loc b))

/-! ## The windows' blocks -/

/-- Window `w`'s block at point `t`: the rows of its array (as the region finds it) that the window's index map
    selects there. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, whether the pipeline fetched it there
    or left the earlier fetch in place (the block index has not moved since), for any proof data whose array is the
    entry contents (`hA`) and whose body leaves the block as it found it (`hafter`). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, whether the pipeline fetched it there
    or left the earlier fetch in place (the block index has not moved since), for any proof data whose array is the
    entry contents (`hA`) and whose body leaves the block as it found it (`hafter`). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, whether the pipeline fetched it there
    or left the earlier fetch in place (the block index has not moved since), for any proof data whose array is the
    entry contents (`hA`) and whose body leaves the block as it found it (`hafter`). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, whether the pipeline fetched it there
    or left the earlier fetch in place (the block index has not moved since), for any proof data whose array is the
    entry contents (`hA`) and whose body leaves the block as it found it (`hafter`). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, whether the pipeline fetched it there
    or left the earlier fetch in place (the block index has not moved since), for any proof data whose array is the
    entry contents (`hA`) and whose body leaves the block as it found it (`hafter`). -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's current staging buffer holds its block at every point, whether the pipeline fetched it there
    or left the earlier fetch in place (the block index has not moved since), for any proof data whose array is the
    entry contents (`hA`) and whose body leaves the block as it found it (`hafter`). -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The whole 5000x64 block, the whole 64x64 matrix, the whole 1x64 row: every load and the store is of one of these. -/
abbrev rA2 : Rect S5000x64 := Rect.unit (s := S5000x64) ![0, 0] S5000x64.size inb_S5000x64_S5000x64_0_0
abbrev rW2 : Rect S64x64 := Rect.unit (s := S64x64) ![0, 0] S64x64.size inb_S64x64_S64x64_0_0
abbrev rB2 : Rect S1x64 := Rect.unit (s := S1x64) ![0, 0] S1x64.size inb_S1x64_S1x64_0_0

/-! ## What the body leaves in the output window's buffer -/

/-- Window 6's staging buffer after the body, from the six input blocks `x_w` (window `w`'s): one store of the whole
    block, whose value reads the embedding block, the neighbour block, the first weight matrix (window 2), the second
    (window 4), the first bias row (window 3) and the second (window 5), in that order. -/
def out2_6 (x0 x1 : Vec F S5000x64 .f32) (x2 : Vec F S64x64 .f32) (x3 : Vec F S1x64 .f32) (x4 : Vec F S64x64 .f32) (x5 : Vec F S1x64 .f32) : Vec F S5000x64 .f32 :=
  View.canon [⟨rA2, k2_pay1 (View.ld x0 rA2) (View.ld x1 rA2) (View.ld x2 rW2) (View.ld x4 rW2) (View.ld x3 rB2) (View.ld x5 rB2)⟩]

/-- The one store is of the whole block, so it covers the buffer. -/
theorem cover2_6 (p : Vec F S5000x64 .f32) (y : S5000x64.Idx) :
    ∃ pc ∈ ([⟨rA2, p⟩] : List (View.Piece (Elt F) S5000x64 .f32)), y ∈ pc.1.set :=
  View.cover_of_tiled [⟨rA2, p⟩] S5000x64.size (by rfl) y

/-! ## The body's triple -/

set_option maxHeartbeats 1000000 in
/-- The body on whole staging memrefs, the six inputs' at contents `x_w` and the output's at anything, runs to the
    continuation with the inputs' as they were and the output's at `out2_6` of the inputs'. -/
theorem sound_kernel2 (c : Dev nD) (E : Set ℕ) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole)
    (x_0 x_1 : Vec F S5000x64 .f32) (x_2 : Vec F S64x64 .f32) (x_3 : Vec F S1x64 .f32) (x_4 : Vec F S64x64 .f32) (x_5 : Vec F S1x64 .f32) (K : PUnit → sProp 𝕄) :
    iprop(owns (c : Thread nD τ) arg1 fullShare x_0 ∗ owns (c : Thread nD τ) arg2 fullShare x_1 ∗ owns (c : Thread nD τ) arg3 fullShare x_2 ∗ owns (c : Thread nD τ) arg4 fullShare x_3 ∗ owns (c : Thread nD τ) arg5 fullShare x_4 ∗ owns (c : Thread nD τ) arg6 fullShare x_5 ∗ (∃ d, owns (c : Thread nD τ) arg7 fullShare d)
        ∗ (iprop(owns (c : Thread nD τ) arg1 fullShare x_0 ∗ owns (c : Thread nD τ) arg2 fullShare x_1 ∗ owns (c : Thread nD τ) arg3 fullShare x_2 ∗ owns (c : Thread nD τ) arg4 fullShare x_3 ∗ owns (c : Thread nD τ) arg5 fullShare x_4 ∗ owns (c : Thread nD τ) arg6 fullShare x_5 ∗ owns (c : Thread nD τ) arg7 fullShare (out2_6 x_0 x_1 x_2 x_3 x_4 x_5)) -∗ K ⟨⟩))
      ⊢ wp frame (wpE (defs₀ (F := F)) Variants.none c none) E (cc2__layer_kernel i arg1 harg1 arg2 harg2 arg3 harg3 arg4 harg4 arg5 harg5 arg6 harg6 arg7 harg7) K := by
  simp only [cc2__layer_kernel_eq_skeleton]; unfold cc2__layer_kernel_skel
  unfold owns
  iintro ⟨⟨%f_0, %hf_0, H_0⟩, ⟨%f_1, %hf_1, H_1⟩, ⟨%f_2, %hf_2, H_2⟩, ⟨%f_3, %hf_3, H_3⟩, ⟨%f_4, %hf_4, H_4⟩, ⟨%f_5, %hf_5, H_5⟩, ⟨%d_6, %f_6, -, H_6⟩, Hk⟩
  subst hf_0 hf_1 hf_2 hf_3 hf_4 hf_5
  sl_exec
  sl_step
  iapply Hk
  isplitl [H_0]
  · iexists f_0; isplitr; · ipureintro; rfl
    iexact H_0
  isplitl [H_1]
  · iexists f_1; isplitr; · ipureintro; rfl
    iexact H_1
  isplitl [H_2]
  · iexists f_2; isplitr; · ipureintro; rfl
    iexact H_2
  isplitl [H_3]
  · iexists f_3; isplitr; · ipureintro; rfl
    iexact H_3
  isplitl [H_4]
  · iexists f_4; isplitr; · ipureintro; rfl
    iexact H_4
  isplitl [H_5]
  · iexists f_5; isplitr; · ipureintro; rfl
    iexact H_5
  iexists _; isplitr
  swap; · iexact H_6
  ipureintro
  exact View.read_writes_eq_canon _ _ _ (cover2_6 _)

/-! ## The pipeline's proof data -/

/-- The proof data of the pipeline on core `c`: the arrays as the region finds them; after the body at point `t` each
    input's buffer still at its block and the output's at `out2_6` of the six input blocks; the invariant that of a
    body which touches its windows only; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' memrefs hold their blocks, so the body's triple applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d_0, H_0⟩, ⟨%d_1, H_1⟩, ⟨%d_2, H_2⟩, ⟨%d_3, H_3⟩, ⟨%d_4, H_4⟩, ⟨%d_5, H_5⟩, ⟨%d_6, H_6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H_0]; · iexact H_0
  isplitl [H_1]; · iexact H_1
  isplitl [H_2]; · iexact H_2
  isplitl [H_3]; · iexact H_3
  isplitl [H_4]; · iexact H_4
  isplitl [H_5]; · iexact H_5
  isplitl [H_6]; · iexists _; iexact H_6
  iintro ⟨H_0, H_1, H_2, H_3, H_4, H_5, H_6⟩
  isplitl [HΦ]; · iexact HΦ
  isplitl [Ho]; · iexact Ho
  isplitl [H_0]; · iexact H_0
  isplitl [H_1]; · iexact H_1
  isplitl [H_2]; · iexact H_2
  isplitl [H_3]; · iexact H_3
  isplitl [H_4]; · iexact H_4
  isplitl [H_5]; · iexact H_5
  iexact H_6

/-- The body obligation of the pipeline, at every point. -/
theorem body_obligation2 (c : Dev nD) : BodyObligation (dat2 (F := F) V c) (defs₀ (F := F)) Variants.none () Set.univ := fun t => by
  rw [bigSep_W2, bigSep_W2]
  exact sound_body2 V c t

end Regions

end Cert.KernelIdeal.Hand

end
-- ==== Proof.KI.Launch.lean ====
import proofs.«424767_j70944269795902_3_alg».proof.Proof.KI.Region0
import proofs.«424767_j70944269795902_3_alg».proof.Proof.KI.Region1
import proofs.«424767_j70944269795902_3_alg».proof.Proof.KI.Region2
import proofs.«424767_j70944269795902_3_alg».proof.Proof.KI.RunCond
import Idealize.ShloMosaic.Lib.Pipeline.Frame
import Idealize.ShloMosaic.Lib.Pipeline.Regions
import Idealize.ShloMosaic.Lib.Pipeline.RegionsLoop
import Idealize.ShloMosaic.Lib.Tactic

/-! The whole run of the program: three layer pipelines among stretches of host operations, at any float family.

Between two items a core holds every unscoped buffer whole. A host stretch changes the buffers it writes; a layer's
pipeline changes exactly one buffer, its output array, which ends holding the twenty row blocks the body left, written
back in point order. Naming those three arrays one after the other (each is computed from the buffers as the
pipeline before it left them) fixes every buffer's contents at every boundary, down to the return. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The three layers' arrays, one after the other -/

/-- A core's buffers at launch, read at the TensorCore's references. -/
abbrev base (c : Dev nD) : (r : Ref sig .tc) → Buf (Elt F) ((c : Thread nD τ).loc r) := fun r => m ((c : Thread nD τ).loc r)

/-- The first layer's array: what its pipeline leaves in its output buffer, entered after the first host stretch. -/
def lay1 (c : Dev nD) : Buf (Elt F) ((c : Thread nD τ).loc main_v24) :=
  (dat0 (fun c b => V1 m c b) c).arrAt 6 cfg0.N

/-- The regions' leavings with the first layer's array in place (the other two entries not yet meant). -/
def outsA : Outs (F := F) := fun _ r c => Function.update (base m c) main_v24 (lay1 m c) r

/-- The second layer's array: its pipeline entered after the second host stretch, which has read the first layer's. -/
def lay2 (c : Dev nD) : Buf (Elt F) ((c : Thread nD τ).loc main_v48) :=
  (dat1 (fun c b => V3 m (outsA m) c b) c).arrAt 6 cfg1.N

/-- The regions' leavings with the first two layers' arrays in place. -/
def outsB : Outs (F := F) := fun _ r c =>
  Function.update (Function.update (base m c) main_v24 (lay1 m c)) main_v48 (lay2 m c) r

/-- The third layer's array: its pipeline entered after the third host stretch. -/
def lay3 (c : Dev nD) : Buf (Elt F) ((c : Thread nD τ).loc main_v72) :=
  (dat2 (fun c b => V5 m (outsB m) c b) c).arrAt 6 cfg2.N

/-- What the three regions leave: each layer's array in its pipeline's output buffer (the item index is not read: a
    buffer is written by one region only). -/
def outs : Outs (F := F) := fun _ r c =>
  Function.update (Function.update (Function.update (base m c) main_v24 (lay1 m c)) main_v48 (lay2 m c)) main_v72 (lay3 m c) r

/-! ### The stages agree where they are read -/

theorem outsA_v24 (J : ℕ) (c : Dev nD) : outsA m J main_v24 c = lay1 m c := by
  unfold outsA; exact Function.update_self _ _ _
theorem outsB_v24 (J : ℕ) (c : Dev nD) : outsB m J main_v24 c = lay1 m c := by
  unfold outsB
  rw [Function.update_of_ne (show (main_v24 : Ref sig .tc) ≠ main_v48 by decide)]; exact Function.update_self _ _ _
theorem outsB_v48 (J : ℕ) (c : Dev nD) : outsB m J main_v48 c = lay2 m c := by
  unfold outsB; exact Function.update_self _ _ _
theorem outs_v24 (J : ℕ) (c : Dev nD) : outs m J main_v24 c = lay1 m c := by
  unfold outs
  rw [Function.update_of_ne (show (main_v24 : Ref sig .tc) ≠ main_v72 by decide),
    Function.update_of_ne (show (main_v24 : Ref sig .tc) ≠ main_v48 by decide)]; exact Function.update_self _ _ _
theorem outs_v48 (J : ℕ) (c : Dev nD) : outs m J main_v48 c = lay2 m c := by
  unfold outs
  rw [Function.update_of_ne (show (main_v48 : Ref sig .tc) ≠ main_v72 by decide)]; exact Function.update_self _ _ _
theorem outs_v72 (J : ℕ) (c : Dev nD) : outs m J main_v72 c = lay3 m c := by
  unfold outs; exact Function.update_self _ _ _

/-- The buffers after the second host stretch read the regions' leavings at the first layer's array only, -/
theorem V3_congr (o o' : Outs (F := F)) (c : Dev nD) (h : o 2 main_v24 c = o' 2 main_v24 c) : V3 m o c = V3 m o' c :=
  congrArg (fun x => StableHlo.after hostOps1 (Function.update (V1 m c) (main_v24 : DevRef τ sig) x)) h
/-- and after the third at the first two layers' arrays only. -/
theorem V5_congr (o o' : Outs (F := F)) (c : Dev nD) (h2 : o 2 main_v24 c = o' 2 main_v24 c) (h4 : o 4 main_v48 c = o' 4 main_v48 c) :
    V5 m o c = V5 m o' c := by
  show StableHlo.after hostOps2 (Function.update (V3 m o c) (main_v48 : DevRef τ sig) (o 4 main_v48 c))
    = StableHlo.after hostOps2 (Function.update (V3 m o' c) (main_v48 : DevRef τ sig) (o' 4 main_v48 c))
  rw [V3_congr m o o' c h2, h4]

theorem entry1_eq : (fun (c : Dev nD) (b : Ref sig .tc) => V3 m (outsA m) c b) = (fun (c : Dev nD) (b : Ref sig .tc) => V3 m (outs m) c b) :=
  funext fun c => funext fun b => congrFun (V3_congr m _ _ c ((outsA_v24 m 2 c).trans (outs_v24 m 2 c).symm)) b
theorem entry2_eq : (fun (c : Dev nD) (b : Ref sig .tc) => V5 m (outsB m) c b) = (fun (c : Dev nD) (b : Ref sig .tc) => V5 m (outs m) c b) :=
  funext fun c => funext fun b => congrFun (V5_congr m _ _ c ((outsB_v24 m 2 c).trans (outs_v24 m 2 c).symm)
    ((outsB_v48 m 4 c).trans (outs_v48 m 4 c).symm)) b

/-- Each region's output buffer ends at the array its pipeline leaves, entered from the buffers as the run has them there. -/
theorem outs2 (c : Dev nD) : outs m 2 main_v24 c = (dat0 (fun c b => V1 m c b) c).arrAt 6 cfg0.N :=
  outs_v24 m 2 c
theorem outs4 (c : Dev nD) : outs m 4 main_v48 c = (dat1 (fun c b => V3 m (outs m) c b) c).arrAt 6 cfg1.N :=
  (outs_v48 m 4 c).trans (congrArg (fun V => (dat1 V c).arrAt 6 cfg1.N) (entry1_eq m))
theorem outs6 (c : Dev nD) : outs m 6 main_v72 c = (dat2 (fun c b => V5 m (outs m) c b) c).arrAt 6 cfg2.N :=
  (outs_v72 m 6 c).trans (congrArg (fun V => (dat2 V c).arrAt 6 cfg2.N) (entry2_eq m))

/-! ## The buffers at the regions' boundaries, read at the TensorCore's references -/

/-- Layer 1's pipeline is entered from these contents and left at those; -/
abbrev in0 : (c : Dev nD) → (b : Ref sig .tc) → Buf (Elt F) ((c : Thread nD τ).loc b) := fun c b => V1 m c b
abbrev ex0 : (c : Dev nD) → (b : Ref sig .tc) → Buf (Elt F) ((c : Thread nD τ).loc b) := fun c b => V2 m (outs m) c b
/-- layer 2's; -/
abbrev in1 : (c : Dev nD) → (b : Ref sig .tc) → Buf (Elt F) ((c : Thread nD τ).loc b) := fun c b => V3 m (outs m) c b
abbrev ex1 : (c : Dev nD) → (b : Ref sig .tc) → Buf (Elt F) ((c : Thread nD τ).loc b) := fun c b => V4 m (outs m) c b
/-- layer 3's. -/
abbrev in2 : (c : Dev nD) → (b : Ref sig .tc) → Buf (Elt F) ((c : Thread nD τ).loc b) := fun c b => V5 m (outs m) c b
abbrev ex2 : (c : Dev nD) → (b : Ref sig .tc) → Buf (Elt F) ((c : Thread nD τ).loc b) := fun c b => V6 m (outs m) c b

/-! ## The proof data family and the thread state -/

/-- Every pipeline's proof data, each at its region's entry contents. -/
def pdats : (p : Fin 3) → (c : Dev nD) → Dat τ (Elt F) Unit ℕ (UR sig nD τ) ℕ (cfgs p) c
  | ⟨0, _⟩ => fun c => dat0 (fun c b => V1 m c b) c
  | ⟨1, _⟩ => fun c => dat1 (fun c b => V3 m (outs m) c b) c
  | ⟨2, _⟩ => fun c => dat2 (fun c b => V5 m (outs m) c b) c

theorem pdats_0 (c : Dev nD) : pdats m 0 c = dat0 (fun c b => V1 m c b) c := rfl
theorem pdats_1 (c : Dev nD) : pdats m 1 c = dat1 (fun c b => V3 m (outs m) c b) c := rfl
theorem pdats_2 (c : Dev nD) : pdats m 2 c = dat2 (fun c b => V5 m (outs m) c b) c := rfl

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state (a pipeline's
    invariant takes it in and gives it back) and what the core owes, nothing. -/
abbrev R (c : Dev nD) : sProp 𝕄 := iprop((∃ r, prngReg c r) ∗ ∃ W, owes (c : Thread nD τ) (0 : CellTallies nD τ sig Unit) W)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## What a region leaves in its arrays and beside them -/

/-- At layer 1's exit the output buffer holds what the region leaves there; -/
theorem ex0_out (c : Dev nD) : ex0 m c main_v24 = outs m 2 main_v24 c := Function.update_self _ _ _
/-- an input window's array is never written back, and its buffer is not the output buffer, -/
theorem hF0_in (c : Dev nD) (w : Fin cfg0.W) (hin : (cfg0.win w).isOut = false)
    (hne : Pipeline.arrRef spec0 w ∉ ([main_v24] : List (Ref sig .tc))) :
    (pdats m 0 c).arrAt w cfg0.N = ex0 m c (Pipeline.arrRef spec0 w) :=
  ((dat0 (in0 m) c).arrAt_in w hin _).trans ((A_eq0 (in0 m) c w).trans (V2_of m (outs m) c _ hne).symm)
/-- so each of the pipeline's arrays holds what the pipeline leaves (the output buffer the layer's array), -/
theorem hF0 (c : Dev nD) (w : Fin cfg0.W) : (pdats m 0 c).arrAt w cfg0.N = ex0 m c (Pipeline.arrRef spec0 w) :=
  match w with
  | ⟨0, _⟩ => hF0_in m c 0 rfl (by decide)
  | ⟨1, _⟩ => hF0_in m c 1 rfl (by decide)
  | ⟨2, _⟩ => hF0_in m c 2 rfl (by decide)
  | ⟨3, _⟩ => hF0_in m c 3 rfl (by decide)
  | ⟨4, _⟩ => hF0_in m c 4 rfl (by decide)
  | ⟨5, _⟩ => hF0_in m c 5 rfl (by decide)
  | ⟨6, _⟩ => (outs2 m c).symm.trans (ex0_out m c).symm
/-- and every other buffer what it held at entry. -/
theorem hrest0 (c : Dev nD) : ∀ b : Ref sig .tc, b ∉ Finset.univ.image (Pipeline.arrRef spec0) → ex0 m c b = in0 m c b :=
  fun b hb => V2_of m (outs m) c b fun hmem => hb (Finset.mem_image.mpr ⟨6, Finset.mem_univ _, (List.mem_singleton.mp hmem).symm⟩)

/-- At layer 2's exit the output buffer holds what the region leaves there; -/
theorem ex1_out (c : Dev nD) : ex1 m c main_v48 = outs m 4 main_v48 c := Function.update_self _ _ _
/-- an input window's array is never written back, and its buffer is not the output buffer, -/
theorem hF1_in (c : Dev nD) (w : Fin cfg1.W) (hin : (cfg1.win w).isOut = false)
    (hne : Pipeline.arrRef spec1 w ∉ ([main_v48] : List (Ref sig .tc))) :
    (pdats m 1 c).arrAt w cfg1.N = ex1 m c (Pipeline.arrRef spec1 w) :=
  ((dat1 (in1 m) c).arrAt_in w hin _).trans ((A_eq1 (in1 m) c w).trans (V4_of m (outs m) c _ hne).symm)
/-- so each of the pipeline's arrays holds what the pipeline leaves (the output buffer the layer's array), -/
theorem hF1 (c : Dev nD) (w : Fin cfg1.W) : (pdats m 1 c).arrAt w cfg1.N = ex1 m c (Pipeline.arrRef spec1 w) :=
  match w with
  | ⟨0, _⟩ => hF1_in m c 0 rfl (by decide)
  | ⟨1, _⟩ => hF1_in m c 1 rfl (by decide)
  | ⟨2, _⟩ => hF1_in m c 2 rfl (by decide)
  | ⟨3, _⟩ => hF1_in m c 3 rfl (by decide)
  | ⟨4, _⟩ => hF1_in m c 4 rfl (by decide)
  | ⟨5, _⟩ => hF1_in m c 5 rfl (by decide)
  | ⟨6, _⟩ => (outs4 m c).symm.trans (ex1_out m c).symm
/-- and every other buffer what it held at entry. -/
theorem hrest1 (c : Dev nD) : ∀ b : Ref sig .tc, b ∉ Finset.univ.image (Pipeline.arrRef spec1) → ex1 m c b = in1 m c b :=
  fun b hb => V4_of m (outs m) c b fun hmem => hb (Finset.mem_image.mpr ⟨6, Finset.mem_univ _, (List.mem_singleton.mp hmem).symm⟩)

/-- At layer 3's exit the output buffer holds what the region leaves there; -/
theorem ex2_out (c : Dev nD) : ex2 m c main_v72 = outs m 6 main_v72 c := Function.update_self _ _ _
/-- an input window's array is never written back, and its buffer is not the output buffer, -/
theorem hF2_in (c : Dev nD) (w : Fin cfg2.W) (hin : (cfg2.win w).isOut = false)
    (hne : Pipeline.arrRef spec2 w ∉ ([main_v72] : List (Ref sig .tc))) :
    (pdats m 2 c).arrAt w cfg2.N = ex2 m c (Pipeline.arrRef spec2 w) :=
  ((dat2 (in2 m) c).arrAt_in w hin _).trans ((A_eq2 (in2 m) c w).trans (V6_of m (outs m) c _ hne).symm)
/-- so each of the pipeline's arrays holds what the pipeline leaves (the output buffer the layer's array), -/
theorem hF2 (c : Dev nD) (w : Fin cfg2.W) : (pdats m 2 c).arrAt w cfg2.N = ex2 m c (Pipeline.arrRef spec2 w) :=
  match w with
  | ⟨0, _⟩ => hF2_in m c 0 rfl (by decide)
  | ⟨1, _⟩ => hF2_in m c 1 rfl (by decide)
  | ⟨2, _⟩ => hF2_in m c 2 rfl (by decide)
  | ⟨3, _⟩ => hF2_in m c 3 rfl (by decide)
  | ⟨4, _⟩ => hF2_in m c 4 rfl (by decide)
  | ⟨5, _⟩ => hF2_in m c 5 rfl (by decide)
  | ⟨6, _⟩ => (outs6 m c).symm.trans (ex2_out m c).symm
/-- and every other buffer what it held at entry. -/
theorem hrest2 (c : Dev nD) : ∀ b : Ref sig .tc, b ∉ Finset.univ.image (Pipeline.arrRef spec2) → ex2 m c b = in2 m c b :=
  fun b hb => V6_of m (outs m) c b fun hmem => hb (Finset.mem_image.mpr ⟨6, Finset.mem_univ _, (List.mem_singleton.mp hmem).symm⟩)

/-! ## The regions as segments -/

set_option backward.isDefEq.respectTransparency.types false in
/-- Layer 1's pipeline over the thread state: entered from every unscoped buffer at the contents the run has there,
    left with the output buffer at the layer's array and every other buffer as entered. Its arrays are split out of the
    unscoped buffers and put back; the generator register goes into the pipeline's invariant and comes out; nothing is
    owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (in0 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (in0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (in0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (in0 m c) (ex0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 2's pipeline over the thread state: entered from every unscoped buffer at the contents the run has there,
    left with the output buffer at the layer's array and every other buffer as entered. Its arrays are split out of the
    unscoped buffers and put back; the generator register goes into the pipeline's invariant and comes out; nothing is
    owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (in1 m) c).loose
  hwaits := Pipeline.hwaits_of_owed_zero _ _ _ _ L lv 1 fun _ _ => rfl
  pre c := iprop(StableHlo.held (c : Thread nD τ) (Pipeline.ucRefs τ sig) (V3 m (outs m) c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (in1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (in1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (in1 m c) (ex1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 3's pipeline over the thread state: entered from every unscoped buffer at the contents the run has there,
    left with the output buffer at the layer's array and every other buffer as entered. Its arrays are split out of the
    unscoped buffers and put back; the generator register goes into the pipeline's invariant and comes out; nothing is
    owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (in2 m) c).loose
  hwaits := Pipeline.hwaits_of_owed_zero _ _ _ _ L lv 2 fun _ _ => rfl
  pre c := iprop(StableHlo.held (c : Thread nD τ) (Pipeline.ucRefs τ sig) (V5 m (outs m) c) ∗ R c)
  post c := iprop(StableHlo.held (c : Thread nD τ) (Pipeline.ucRefs τ sig) (V6 m (outs m) c) ∗ R c)
  X c := iprop(∃ r, prngReg c r)
  Y c := iprop(∃ r, prngReg c r)
  Z c := Pipeline.unscopedRest (Ix := Unit) (Name := ℕ) (U := UR sig nD τ) (Lvl := ℕ) spec2 c (in2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (in2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (in2 m c) (ex2 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

/-- The launch's ghost state is the cells' first tokens, and nothing per core beside them. -/
theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ fun _ : Dev nD => (iprop(emp) : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- Each core makes the rest of its first thread state from what the launch deals it: the generator register as set, and
    owing nothing. -/
theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts L lv)
      ⊢ (|={Set.univ}=> bigSep Finset.univ (fun c : Dev nD => R c) : sProp 𝕄) := by
  refine Pipeline.initEach L lv fun c => ?_
  iintro ⟨⟨-, HO, -, Hp, -⟩, -⟩
  imodintro
  isplitl [Hp]; · iexists _; iexact Hp
  iexists ∅; iexact HO

/-- The last rest state owes nothing. -/
theorem hE3 (c : Dev nD) : R c ⊢ (iprop(∃ W, owes (c : Thread nD τ) (0 : CellTallies nD τ sig Unit) W) : sProp 𝕄) := by
  iintro ⟨-, HO⟩; iexact HO

/-! ## The run -/

set_option backward.isDefEq.respectTransparency.types false in
/-- THE RUN: from any memory with zero counters, every weakly fair execution of @main on the TensorCores terminates,
    nothing faulting, and every final memory holds each unscoped buffer of each core at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = V23 m (outs m) c b) :=
  GenP.run_cond m (EP := emb₁) (ι := ()) (𝒱₀ := 𝒱₀) (L := L) (lv := lv) (hL := fun _ _ => rfl) (ρ := ρ) (outs := outs m) (pdats := pdats m)
    (O₀ := 0) (G := fun _ => iprop(emp))
    (u₀ := initOf (Pipeline.cells cfgs cellOf_inj) (Pipeline.launchToks cfgs cellOf_inj)) (hu₀ := hu₀)
    (E := fun _ c => R c) (hE0 := hE0 ρ) (hE3 := hE3)
    (R0 := reg0 m) (hpre0 := fun _ => .rfl) (hpost0 := fun _ => .rfl)
    (R1 := reg1 m) (hpre1 := fun _ => .rfl) (hpost1 := fun _ => .rfl)
    (R2 := reg2 m) (hpre2 := fun _ => .rfl) (hpost2 := fun _ => .rfl)

set_option backward.isDefEq.respectTransparency.types false in
/-- THE FRAME: the same executions leave every argument array as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Gen.frame_cond m (EP := emb₁) (ι := ()) (𝒱₀ := 𝒱₀) (L := L) (lv := lv) (hL := fun _ _ => rfl) (ρ := ρ) (outs := outs m) (pdats := pdats m)
    (O₀ := 0) (G := fun _ => iprop(emp))
    (u₀ := initOf (Pipeline.cells cfgs cellOf_inj) (Pipeline.launchToks cfgs cellOf_inj)) (hu₀ := hu₀)
    (E := fun _ c => R c) (hE0 := hE0 ρ) (hE3 := hE3)
    (R0 := reg0 m) (hpre0 := fun _ => .rfl) (hpost0 := fun _ => .rfl)
    (R1 := reg1 m) (hpre1 := fun _ => .rfl) (hpost1 := fun _ => .rfl)
    (R2 := reg2 m) (hpre2 := fun _ => .rfl) (hpost2 := fun _ => .rfl)

/-- info: 'Cert.KernelIdeal.Hand.run_all' depends on axioms: [propext, Classical.choice, Quot.sound] -/
#guard_msgs in #print axioms run_all
/-- info: 'Cert.KernelIdeal.Hand.frame' depends on axioms: [propext, Classical.choice, Quot.sound] -/
#guard_msgs in #print axioms frame

end Cert.KernelIdeal.Hand

end
-- ==== Proof.KI.LayerVal0.lean ====
import proofs.«424767_j70944269795902_3_alg».proof.Proof.KI.Region0
import proofs.«424767_j70944269795902_3_alg».proof.Proof.Spec
import Idealize.ShloMosaic.Lib.Pipeline.Value
import Idealize.ShloMosaic.Lib.ValueIdx
import Idealize.ShloMosaic.Lib.ValueLayout
import Idealize.ShloMosaic.PureOps.Ideal.Laws

/-! What one layer's pipeline leaves in its output array, entry by entry, over the extended reals.

The pipeline walks 20 blocks of 5000 rows. At a point the body holds the point's 5000 rows of the embedding array and of
the aggregated-neighbour array, the two 64x64 weight matrices and the two bias rows, and stores the leaky rectifier of
`side · W_gc + b_gc + (ego ∘ side) · W_bi + b_bi` for those rows; each point writes its rows back, and the 20 blocks tile
the 100000 rows. So entry `(r, q)` of the output array is the layer's output `Cert.Spec.layerAt` of the six arrays at node
`r`, feature `q`. -/

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

/-! ## The product's operand indices, axis by axis -/

/-- The left operand is read in the output's row … -/
theorem lhs_row0 (i : S5000x64.Idx) (k : dot_S5000x64_S64x64_S5000x64_1_0_0_1_n_n.contr.Idx) :
    (dot_S5000x64_S64x64_S5000x64_1_0_0_1_n_n.lhsIdx i k 0).val = (i 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl
/-- … at the summation position; -/
theorem lhs_contr0 (i : S5000x64.Idx) (k : dot_S5000x64_S64x64_S5000x64_1_0_0_1_n_n.contr.Idx) :
    (dot_S5000x64_S64x64_S5000x64_1_0_0_1_n_n.lhsIdx i k 1).val = (k ⟨0, by decide⟩).val :=
  dot_S5000x64_S64x64_S5000x64_1_0_0_1_n_n.lhsIdx_val_of_single rfl i k
/-- the right operand at the summation position … -/
theorem rhs_contr0 (i : S5000x64.Idx) (k : dot_S5000x64_S64x64_S5000x64_1_0_0_1_n_n.contr.Idx) :
    (dot_S5000x64_S64x64_S5000x64_1_0_0_1_n_n.rhsIdx i k 0).val = (k ⟨0, by decide⟩).val :=
  dot_S5000x64_S64x64_S5000x64_1_0_0_1_n_n.rhsIdx_val_of_single rfl i k
/-- … in the output's column. -/
theorem rhs_col0 (i : S5000x64.Idx) (k : dot_S5000x64_S64x64_S5000x64_1_0_0_1_n_n.contr.Idx) :
    (dot_S5000x64_S64x64_S5000x64_1_0_0_1_n_n.rhsIdx i k 1).val = (i 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- A 5000x64 by 64x64 product into the zero accumulator, at row `p` and column `q`: the sum over the 64 features of
    row `p` of the left operand times column `q` of the right. -/
theorem matmul_apply0 (a : FVec Ideal S5000x64 .bf16) (b : FVec Ideal S64x64 .bf16) (p : Fin 5000) (q : Fin 64) :
    matmul dot_S5000x64_S64x64_S5000x64_1_0_0_1_n_n none a b (constant (F := Ideal) S5000x64 .f32 0#32) (ix2 p q)
      = ∑ k : Fin 64, a (ix2 p k) * b (ix2 k q) := by
  rw [show matmul dot_S5000x64_S64x64_S5000x64_1_0_0_1_n_n none a b (constant (F := Ideal) S5000x64 .f32 0#32) (ix2 p q)
      = ∑ k : dot_S5000x64_S64x64_S5000x64_1_0_0_1_n_n.contr.Idx, a (dot_S5000x64_S64x64_S5000x64_1_0_0_1_n_n.lhsIdx (ix2 p q) k) * b (dot_S5000x64_S64x64_S5000x64_1_0_0_1_n_n.rhsIdx (ix2 p q) k) from
        Ideal.matmul_constant_zero_apply dot_S5000x64_S64x64_S5000x64_1_0_0_1_n_n none a b (ix2 p q),
    ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k :=
    funext fun ax => Fin.ext (by
      match ax with
      | ⟨0, _⟩ => exact lhs_row0 _ _
      | ⟨1, _⟩ => exact (lhs_contr0 _ _).trans hk)
  have er : dot_S5000x64_S64x64_S5000x64_1_0_0_1_n_n.rhsIdx (ix2 p q) ((contrEquiv1 dot_S5000x64_S64x64_S5000x64_1_0_0_1_n_n 64 rfl rfl).symm k) = ix2 k q :=
    funext fun ax => Fin.ext (by
      match ax with
      | ⟨0, _⟩ => exact (rhs_contr0 _ _).trans hk
      | ⟨1, _⟩ => exact rhs_col0 _ _)
  rw [el, er]

/-! ## The body's value at an entry -/

/-- Row `p`, column `q` of what the body stores, from its six operand blocks: the leaky rectifier of the sum of the
    two affine maps' entries there. The format changes around the products are the identity on extended reals, the
    bias rows are read in their one row, and each product into the zero accumulator is the sum over the features. -/
theorem pay_apply0 (ego side : Vec Ideal S5000x64 .f32) (wgc wbi : Vec Ideal S64x64 .f32) (bgc bbi : Vec Ideal S1x64 .f32)
    (p : Fin 5000) (q : Fin 64) :
    k0_pay1 (F := Ideal) ego side wgc wbi bgc bbi (ix2 p q)
      = Cert.Spec.leaky (((∑ k : Fin 64, side (ix2 p k) * wgc (ix2 k q)) + bgc (ix2 0 q))
          + ((∑ k : Fin 64, (ego (ix2 p k) * side (ix2 p k)) * wbi (ix2 k q)) + bbi (ix2 0 q))) := by
  unfold k0_pay1
  simp only [shapeCast_self]
  simp only [select_apply, cmpf_apply, mulf_apply, addf_apply, broadcast_apply, matmul_apply0, truncf_apply,
    broadcastTo_1b_ab_apply]
  rfl

/-- The same entry from the six whole arrays, when the embedding and neighbour blocks hold node `r`'s rows in their row
    `p` and the weight and bias blocks are the arrays. -/
theorem pay_layer0 (egoB sideB : Vec Ideal S5000x64 .f32) (wgcB wbiB : Vec Ideal S64x64 .f32) (bgcB bbiB : Vec Ideal S1x64 .f32)
    (ego side : FVec Ideal Cert.Spec.SN .f32) (wgc : FVec Ideal Cert.Spec.SW .f32) (bgc : FVec Ideal Cert.Spec.SB .f32)
    (wbi : FVec Ideal Cert.Spec.SW .f32) (bbi : FVec Ideal Cert.Spec.SB .f32)
    (p : Fin 5000) (q : Fin 64) (r : Fin 100000)
    (hego : ∀ k : Fin 64, egoB (ix2 p k) = ego (ix2 r k)) (hside : ∀ k : Fin 64, sideB (ix2 p k) = side (ix2 r k))
    (hwgc : ∀ k : Fin 64, wgcB (ix2 k q) = wgc (ix2 k q)) (hwbi : ∀ k : Fin 64, wbiB (ix2 k q) = wbi (ix2 k q))
    (hbgc : bgcB (ix2 0 q) = bgc (ix2 0 q)) (hbbi : bbiB (ix2 0 q) = bbi (ix2 0 q)) :
    k0_pay1 (F := Ideal) egoB sideB wgcB wbiB bgcB bbiB (ix2 p q) = Cert.Spec.layerAt ego side wgc bgc wbi bbi r q := by
  rw [pay_apply0]
  unfold Cert.Spec.layerAt Cert.Spec.preAct
  simp only [hego, hside, hwgc, hwbi, hbgc, hbbi]

section LayerValue
variable (V : (c : Dev nD) → (b : Ref sig .tc) → Buf (Elt Ideal) ((c : Thread nD τ).loc b))

/-! ## Where each window's block sits in its array -/

/-- The offsets of an access to a whole buffer are zero on both axes. -/
theorem hz0 : (![0, 0] : Fin 2 → Nat) = fun _ => 0 := funext fun a => by fin_cases a <;> rfl

/-- The index maps over the grid: the embedding, neighbour and output windows are at row block `t` at point `t`, the
    weight and bias windows at their one block throughout. -/
theorem idx_facts0 : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0) :=
  (by decide +kernel : ∀ t : Fin grid0.N, _)

/-- Row `p` of the embedding block at point `t` is row `5000 t + p` of the embedding array. -/
theorem blk_ego0 (c : Dev nD) (t : Fin cfg0.N) (p : Fin 5000) (k : Fin 64) (r : Fin 100000) (hr : r.val = t.val * 5000 + p.val) :
    iblk0 V c 0 t (ix2 p k) = V c (Pipeline.arrRef spec0 0) (ix2 r k) := by
  show V c (Pipeline.arrRef spec0 0) (((cfg0.win 0).blk t).view.emb (ix2 p k)) = V c (Pipeline.arrRef spec0 0) (ix2 r k)
  refine congrArg _ (funext fun a => Fin.ext ?_)
  match a with
  | ⟨0, _⟩ => show win0_0.index t (0 : Fin 2) * 5000 + 1 * p.val = r.val; rw [(idx_facts0 t).1.1]; omega
  | ⟨1, _⟩ => show win0_0.index t (1 : Fin 2) * 64 + 1 * k.val = k.val; rw [(idx_facts0 t).1.2]; omega

/-- Row `p` of the neighbour block at point `t` is row `5000 t + p` of the neighbour array. -/
theorem blk_side0 (c : Dev nD) (t : Fin cfg0.N) (p : Fin 5000) (k : Fin 64) (r : Fin 100000) (hr : r.val = t.val * 5000 + p.val) :
    iblk0 V c 1 t (ix2 p k) = V c (Pipeline.arrRef spec0 1) (ix2 r k) := by
  show V c (Pipeline.arrRef spec0 1) (((cfg0.win 1).blk t).view.emb (ix2 p k)) = V c (Pipeline.arrRef spec0 1) (ix2 r k)
  refine congrArg _ (funext fun a => Fin.ext ?_)
  match a with
  | ⟨0, _⟩ => show win0_1.index t (0 : Fin 2) * 5000 + 1 * p.val = r.val; rw [(idx_facts0 t).2.1.1]; omega
  | ⟨1, _⟩ => show win0_1.index t (1 : Fin 2) * 64 + 1 * k.val = k.val; rw [(idx_facts0 t).2.1.2]; omega

/-- The first weight block is the first weight matrix at every point. -/
theorem blk_wgc0 (c : Dev nD) (t : Fin cfg0.N) (k q : Fin 64) :
    iblk0 V c 2 t (ix2 k q) = V c (Pipeline.arrRef spec0 2) (ix2 k q) := by
  show V c (Pipeline.arrRef spec0 2) (((cfg0.win 2).blk t).view.emb (ix2 k q)) = V c (Pipeline.arrRef spec0 2) (ix2 k q)
  refine congrArg _ (funext fun a => Fin.ext ?_)
  match a with
  | ⟨0, _⟩ => show win0_2.index t (0 : Fin 2) * 64 + 1 * k.val = k.val; rw [(idx_facts0 t).2.2.1.1]; omega
  | ⟨1, _⟩ => show win0_2.index t (1 : Fin 2) * 64 + 1 * q.val = q.val; rw [(idx_facts0 t).2.2.1.2]; omega

/-- The first bias block is the first bias row at every point. -/
theorem blk_bgc0 (c : Dev nD) (t : Fin cfg0.N) (q : Fin 64) :
    iblk0 V c 3 t (ix2 0 q) = V c (Pipeline.arrRef spec0 3) (ix2 0 q) := by
  show V c (Pipeline.arrRef spec0 3) (((cfg0.win 3).blk t).view.emb (ix2 0 q)) = V c (Pipeline.arrRef spec0 3) (ix2 0 q)
  refine congrArg _ (funext fun a => Fin.ext ?_)
  match a with
  | ⟨0, _⟩ => show win0_3.index t (0 : Fin 2) * 1 + 1 * 0 = 0; rw [(idx_facts0 t).2.2.2.1.1]
  | ⟨1, _⟩ => show win0_3.index t (1 : Fin 2) * 64 + 1 * q.val = q.val; rw [(idx_facts0 t).2.2.2.1.2]; omega

/-- The second weight block is the second weight matrix at every point. -/
theorem blk_wbi0 (c : Dev nD) (t : Fin cfg0.N) (k q : Fin 64) :
    iblk0 V c 4 t (ix2 k q) = V c (Pipeline.arrRef spec0 4) (ix2 k q) := by
  show V c (Pipeline.arrRef spec0 4) (((cfg0.win 4).blk t).view.emb (ix2 k q)) = V c (Pipeline.arrRef spec0 4) (ix2 k q)
  refine congrArg _ (funext fun a => Fin.ext ?_)
  match a with
  | ⟨0, _⟩ => show win0_4.index t (0 : Fin 2) * 64 + 1 * k.val = k.val; rw [(idx_facts0 t).2.2.2.2.1.1]; omega
  | ⟨1, _⟩ => show win0_4.index t (1 : Fin 2) * 64 + 1 * q.val = q.val; rw [(idx_facts0 t).2.2.2.2.1.2]; omega

/-- The second bias block is the second bias row at every point. -/
theorem blk_bbi0 (c : Dev nD) (t : Fin cfg0.N) (q : Fin 64) :
    iblk0 V c 5 t (ix2 0 q) = V c (Pipeline.arrRef spec0 5) (ix2 0 q) := by
  show V c (Pipeline.arrRef spec0 5) (((cfg0.win 5).blk t).view.emb (ix2 0 q)) = V c (Pipeline.arrRef spec0 5) (ix2 0 q)
  refine congrArg _ (funext fun a => Fin.ext ?_)
  match a with
  | ⟨0, _⟩ => show win0_5.index t (0 : Fin 2) * 1 + 1 * 0 = 0; rw [(idx_facts0 t).2.2.2.2.2.1.1]
  | ⟨1, _⟩ => show win0_5.index t (1 : Fin 2) * 64 + 1 * q.val = q.val; rw [(idx_facts0 t).2.2.2.2.2.1.2]; omega

/-- Entry `(p, q)` of the output block at point `t` sits at row `5000 t + p`, column `q` of the output array. -/
theorem emb_out0 (t : Fin cfg0.N) (p : Fin 5000) (q : Fin 64) (r : Fin 100000) (hr : r.val = t.val * 5000 + p.val) :
    ((cfg0.win 6).blk t).view.emb (ix2 p q) = ix2 r q := by
  refine funext fun a => Fin.ext ?_
  match a with
  | ⟨0, _⟩ => show win0_6.index t (0 : Fin 2) * 5000 + 1 * p.val = r.val; rw [(idx_facts0 t).2.2.2.2.2.2.1]; omega
  | ⟨1, _⟩ => show win0_6.index t (1 : Fin 2) * 64 + 1 * q.val = q.val; rw [(idx_facts0 t).2.2.2.2.2.2.2]; omega

/-! ## What a point writes back -/

/-- The layer's output array as one function of the six arrays the region reads. -/
def layerArr0 (c : Dev nD) : Vec Ideal S100000x64 .f32 := fun i =>
  Cert.Spec.layerAt (V c (Pipeline.arrRef spec0 0)) (V c (Pipeline.arrRef spec0 1)) (V c (Pipeline.arrRef spec0 2))
    (V c (Pipeline.arrRef spec0 3)) (V c (Pipeline.arrRef spec0 4)) (V c (Pipeline.arrRef spec0 5)) (i 0) (i 1)

/-- Point `t` writes back rows `5000 t … 5000 t + 4999` of the layer's output array: the body's one store covers its
    block, its loads read the six blocks whole, and each block is the part of its array that the output's rows need. -/
theorem flushed_eq0 (c : Dev nD) (t : Fin cfg0.N) :
    (dat0 (F := Ideal) V c).flushed 6 t = ((cfg0.win 6).blk t).view.read (Elt Ideal) (layerArr0 V c) := by
  show (cfg0.win 6).cut (grid0.coords t) ((dat0 (F := Ideal) V c).after 6 t) = _
  rw [after0_6]
  unfold out0_6
  rw [View.canon_unit_zero hz0]
  simp only [View.ld_unit_zero (S := S5000x64) hz0, View.ld_unit_zero (S := S64x64) hz0, View.ld_unit_zero (S := S1x64) hz0]
  funext j
  have hN : grid0.N = 20 := N_0
  have ht : t.val < 20 := hN ▸ t.isLt
  have hp : (j 0).val < 5000 := (j 0).isLt
  have hq : (j 1).val < 64 := (j 1).isLt
  show k0_pay1 (F := Ideal) (iblk0 V c 0 t) (iblk0 V c 1 t) (iblk0 V c 2 t) (iblk0 V c 4 t) (iblk0 V c 3 t) (iblk0 V c 5 t)
      (ix2 (⟨(j 0).val, hp⟩ : Fin 5000) (⟨(j 1).val, hq⟩ : Fin 64))
    = layerArr0 V c (((cfg0.win 6).blk t).view.emb (ix2 (⟨(j 0).val, hp⟩ : Fin 5000) (⟨(j 1).val, hq⟩ : Fin 64)))
  rw [emb_out0 t ⟨(j 0).val, hp⟩ ⟨(j 1).val, hq⟩ ⟨t.val * 5000 + (j 0).val, by omega⟩ rfl]
  exact pay_layer0 (iblk0 V c 0 t) (iblk0 V c 1 t) (iblk0 V c 2 t) (iblk0 V c 4 t) (iblk0 V c 3 t) (iblk0 V c 5 t)
    (V c (Pipeline.arrRef spec0 0)) (V c (Pipeline.arrRef spec0 1)) (V c (Pipeline.arrRef spec0 2))
    (V c (Pipeline.arrRef spec0 3)) (V c (Pipeline.arrRef spec0 4)) (V c (Pipeline.arrRef spec0 5))
    ⟨(j 0).val, hp⟩ ⟨(j 1).val, hq⟩ ⟨t.val * 5000 + (j 0).val, by omega⟩
    (fun k => blk_ego0 V c t _ k _ rfl) (fun k => blk_side0 V c t _ k _ rfl)
    (fun k => blk_wgc0 V c t k _) (fun k => blk_wbi0 V c t k _) (blk_bgc0 V c t _) (blk_bbi0 V c t _)

/-! ## The blocks tile the rows -/

/-- An index of the output array is in point `t`'s block iff each coordinate is in the block's range on its axis. -/
theorem mem_blk0 (t : Fin cfg0.N) (i : S100000x64.Idx) :
    i ∈ ((cfg0.win 6).blk t).view.set ↔ ∀ a : Fin 2, win0_6.index t a * S5000x64.size a ≤ (i a).val ∧ (i a).val < win0_6.index t a * S5000x64.size a + S5000x64.size a := by
  show i ∈ ((View.whole (Pipeline.arrRef spec0 6)).slice (win0_6.rect t)).set ↔ _
  rw [View.set_slice_whole, Rect.mem_set_unit]
  exact Iff.rfl

/-- Row `r` lies in the block of point `r / 5000`, which writes back. -/
theorem cover0 (i : S100000x64.Idx) :
    ∃ t : Fin cfg0.N, (cfg0.win 6).flush t = true ∧ i ∈ ((cfg0.win 6).blk t).view.set := by
  have hr : (i 0).val < 100000 := (i 0).isLt
  have hq : (i 1).val < 64 := (i 1).isLt
  have hN : grid0.N = 20 := N_0
  refine ⟨⟨(i 0).val / 5000, (show (i 0).val / 5000 < 20 by omega).trans_eq hN.symm⟩, flush0_6 _, ?_⟩
  rw [mem_blk0]
  intro a
  match a with
  | ⟨0, _⟩ =>
    show win0_6.index _ (0 : Fin 2) * 5000 ≤ (i 0).val ∧ (i 0).val < win0_6.index _ (0 : Fin 2) * 5000 + 5000
    rw [(idx_facts0 _).2.2.2.2.2.2.1]
    show (i 0).val / 5000 * 5000 ≤ (i 0).val ∧ (i 0).val < (i 0).val / 5000 * 5000 + 5000
    omega
  | ⟨1, _⟩ =>
    show win0_6.index _ (1 : Fin 2) * 64 ≤ (i 1).val ∧ (i 1).val < win0_6.index _ (1 : Fin 2) * 64 + 64
    rw [(idx_facts0 _).2.2.2.2.2.2.2]
    omega

/-! ## The output array after the region -/

/-- The output array after the last point is the layer's output array. -/
theorem out_eq0 (c : Dev nD) : (dat0 (F := Ideal) V c).arrAt 6 cfg0.N = layerArr0 V c :=
  (dat0 (F := Ideal) V c).arrAt_eq_of_cover 6 (layerArr0 V c) (fun t _ => flushed_eq0 V c t) cover0

/-- Entry `(r, q)` of the output array after the region: the layer's output at node `r`, feature `q`, of the six arrays
    the region reads. -/
theorem out_apply0 (c : Dev nD) (r : Fin 100000) (q : Fin 64) :
    (dat0 (F := Ideal) V c).arrAt 6 cfg0.N (ix2 r q)
      = Cert.Spec.layerAt (V c (Pipeline.arrRef spec0 0)) (V c (Pipeline.arrRef spec0 1)) (V c (Pipeline.arrRef spec0 2))
          (V c (Pipeline.arrRef spec0 3)) (V c (Pipeline.arrRef spec0 4)) (V c (Pipeline.arrRef spec0 5)) r q := by
  rw [out_eq0]
  rfl

end LayerValue

end Cert.KernelIdeal.Hand

end
-- ==== Proof.KI.LayerVal1.lean ====
import proofs.«424767_j70944269795902_3_alg».proof.Proof.KI.Region1
import proofs.«424767_j70944269795902_3_alg».proof.Proof.Spec
import Idealize.ShloMosaic.Lib.Pipeline.Value
import Idealize.ShloMosaic.Lib.ValueIdx
import Idealize.ShloMosaic.Lib.ValueLayout
import Idealize.ShloMosaic.PureOps.Ideal.Laws

/-! What one layer's pipeline leaves in its output array, entry by entry, over the extended reals.

The pipeline walks 20 blocks of 5000 rows. At a point the body holds the point's 5000 rows of the embedding array and of
the aggregated-neighbour array, the two 64x64 weight matrices and the two bias rows, and stores the leaky rectifier of
`side · W_gc + b_gc + (ego ∘ side) · W_bi + b_bi` for those rows; each point writes its rows back, and the 20 blocks tile
the 100000 rows. So entry `(r, q)` of the output array is the layer's output `Cert.Spec.layerAt` of the six arrays at node
`r`, feature `q`. -/

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

/-! ## The product's operand indices, axis by axis -/

/-- The left operand is read in the output's row … -/
theorem lhs_row1 (i : S5000x64.Idx) (k : dot_S5000x64_S64x64_S5000x64_1_0_0_1_n_n.contr.Idx) :
    (dot_S5000x64_S64x64_S5000x64_1_0_0_1_n_n.lhsIdx i k 0).val = (i 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl
/-- … at the summation position; -/
theorem lhs_contr1 (i : S5000x64.Idx) (k : dot_S5000x64_S64x64_S5000x64_1_0_0_1_n_n.contr.Idx) :
    (dot_S5000x64_S64x64_S5000x64_1_0_0_1_n_n.lhsIdx i k 1).val = (k ⟨0, by decide⟩).val :=
  dot_S5000x64_S64x64_S5000x64_1_0_0_1_n_n.lhsIdx_val_of_single rfl i k
/-- the right operand at the summation position … -/
theorem rhs_contr1 (i : S5000x64.Idx) (k : dot_S5000x64_S64x64_S5000x64_1_0_0_1_n_n.contr.Idx) :
    (dot_S5000x64_S64x64_S5000x64_1_0_0_1_n_n.rhsIdx i k 0).val = (k ⟨0, by decide⟩).val :=
  dot_S5000x64_S64x64_S5000x64_1_0_0_1_n_n.rhsIdx_val_of_single rfl i k
/-- … in the output's column. -/
theorem rhs_col1 (i : S5000x64.Idx) (k : dot_S5000x64_S64x64_S5000x64_1_0_0_1_n_n.contr.Idx) :
    (dot_S5000x64_S64x64_S5000x64_1_0_0_1_n_n.rhsIdx i k 1).val = (i 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- A 5000x64 by 64x64 product into the zero accumulator, at row `p` and column `q`: the sum over the 64 features of
    row `p` of the left operand times column `q` of the right. -/
theorem matmul_apply1 (a : FVec Ideal S5000x64 .bf16) (b : FVec Ideal S64x64 .bf16) (p : Fin 5000) (q : Fin 64) :
    matmul dot_S5000x64_S64x64_S5000x64_1_0_0_1_n_n none a b (constant (F := Ideal) S5000x64 .f32 0#32) (ix2 p q)
      = ∑ k : Fin 64, a (ix2 p k) * b (ix2 k q) := by
  rw [show matmul dot_S5000x64_S64x64_S5000x64_1_0_0_1_n_n none a b (constant (F := Ideal) S5000x64 .f32 0#32) (ix2 p q)
      = ∑ k : dot_S5000x64_S64x64_S5000x64_1_0_0_1_n_n.contr.Idx, a (dot_S5000x64_S64x64_S5000x64_1_0_0_1_n_n.lhsIdx (ix2 p q) k) * b (dot_S5000x64_S64x64_S5000x64_1_0_0_1_n_n.rhsIdx (ix2 p q) k) from
        Ideal.matmul_constant_zero_apply dot_S5000x64_S64x64_S5000x64_1_0_0_1_n_n none a b (ix2 p q),
    ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k :=
    funext fun ax => Fin.ext (by
      match ax with
      | ⟨0, _⟩ => exact lhs_row1 _ _
      | ⟨1, _⟩ => exact (lhs_contr1 _ _).trans hk)
  have er : dot_S5000x64_S64x64_S5000x64_1_0_0_1_n_n.rhsIdx (ix2 p q) ((contrEquiv1 dot_S5000x64_S64x64_S5000x64_1_0_0_1_n_n 64 rfl rfl).symm k) = ix2 k q :=
    funext fun ax => Fin.ext (by
      match ax with
      | ⟨0, _⟩ => exact (rhs_contr1 _ _).trans hk
      | ⟨1, _⟩ => exact rhs_col1 _ _)
  rw [el, er]

/-! ## The body's value at an entry -/

/-- Row `p`, column `q` of what the body stores, from its six operand blocks: the leaky rectifier of the sum of the
    two affine maps' entries there. The format changes around the products are the identity on extended reals, the
    bias rows are read in their one row, and each product into the zero accumulator is the sum over the features. -/
theorem pay_apply1 (ego side : Vec Ideal S5000x64 .f32) (wgc wbi : Vec Ideal S64x64 .f32) (bgc bbi : Vec Ideal S1x64 .f32)
    (p : Fin 5000) (q : Fin 64) :
    k1_pay1 (F := Ideal) ego side wgc wbi bgc bbi (ix2 p q)
      = Cert.Spec.leaky (((∑ k : Fin 64, side (ix2 p k) * wgc (ix2 k q)) + bgc (ix2 0 q))
          + ((∑ k : Fin 64, (ego (ix2 p k) * side (ix2 p k)) * wbi (ix2 k q)) + bbi (ix2 0 q))) := by
  unfold k1_pay1
  simp only [shapeCast_self]
  simp only [select_apply, cmpf_apply, mulf_apply, addf_apply, broadcast_apply, matmul_apply1, truncf_apply,
    broadcastTo_1b_ab_apply]
  rfl

/-- The same entry from the six whole arrays, when the embedding and neighbour blocks hold node `r`'s rows in their row
    `p` and the weight and bias blocks are the arrays. -/
theorem pay_layer1 (egoB sideB : Vec Ideal S5000x64 .f32) (wgcB wbiB : Vec Ideal S64x64 .f32) (bgcB bbiB : Vec Ideal S1x64 .f32)
    (ego side : FVec Ideal Cert.Spec.SN .f32) (wgc : FVec Ideal Cert.Spec.SW .f32) (bgc : FVec Ideal Cert.Spec.SB .f32)
    (wbi : FVec Ideal Cert.Spec.SW .f32) (bbi : FVec Ideal Cert.Spec.SB .f32)
    (p : Fin 5000) (q : Fin 64) (r : Fin 100000)
    (hego : ∀ k : Fin 64, egoB (ix2 p k) = ego (ix2 r k)) (hside : ∀ k : Fin 64, sideB (ix2 p k) = side (ix2 r k))
    (hwgc : ∀ k : Fin 64, wgcB (ix2 k q) = wgc (ix2 k q)) (hwbi : ∀ k : Fin 64, wbiB (ix2 k q) = wbi (ix2 k q))
    (hbgc : bgcB (ix2 0 q) = bgc (ix2 0 q)) (hbbi : bbiB (ix2 0 q) = bbi (ix2 0 q)) :
    k1_pay1 (F := Ideal) egoB sideB wgcB wbiB bgcB bbiB (ix2 p q) = Cert.Spec.layerAt ego side wgc bgc wbi bbi r q := by
  rw [pay_apply1]
  unfold Cert.Spec.layerAt Cert.Spec.preAct
  simp only [hego, hside, hwgc, hwbi, hbgc, hbbi]

section LayerValue
variable (V : (c : Dev nD) → (b : Ref sig .tc) → Buf (Elt Ideal) ((c : Thread nD τ).loc b))

/-! ## Where each window's block sits in its array -/

/-- The offsets of an access to a whole buffer are zero on both axes. -/
theorem hz1 : (![0, 0] : Fin 2 → Nat) = fun _ => 0 := funext fun a => by fin_cases a <;> rfl

/-- The index maps over the grid: the embedding, neighbour and output windows are at row block `t` at point `t`, the
    weight and bias windows at their one block throughout. -/
theorem idx_facts1 : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = t.val ∧ win1_6.index t (1 : Fin 2) = 0) :=
  (by decide +kernel : ∀ t : Fin grid1.N, _)

/-- Row `p` of the embedding block at point `t` is row `5000 t + p` of the embedding array. -/
theorem blk_ego1 (c : Dev nD) (t : Fin cfg1.N) (p : Fin 5000) (k : Fin 64) (r : Fin 100000) (hr : r.val = t.val * 5000 + p.val) :
    iblk1 V c 0 t (ix2 p k) = V c (Pipeline.arrRef spec1 0) (ix2 r k) := by
  show V c (Pipeline.arrRef spec1 0) (((cfg1.win 0).blk t).view.emb (ix2 p k)) = V c (Pipeline.arrRef spec1 0) (ix2 r k)
  refine congrArg _ (funext fun a => Fin.ext ?_)
  match a with
  | ⟨0, _⟩ => show win1_0.index t (0 : Fin 2) * 5000 + 1 * p.val = r.val; rw [(idx_facts1 t).1.1]; omega
  | ⟨1, _⟩ => show win1_0.index t (1 : Fin 2) * 64 + 1 * k.val = k.val; rw [(idx_facts1 t).1.2]; omega

/-- Row `p` of the neighbour block at point `t` is row `5000 t + p` of the neighbour array. -/
theorem blk_side1 (c : Dev nD) (t : Fin cfg1.N) (p : Fin 5000) (k : Fin 64) (r : Fin 100000) (hr : r.val = t.val * 5000 + p.val) :
    iblk1 V c 1 t (ix2 p k) = V c (Pipeline.arrRef spec1 1) (ix2 r k) := by
  show V c (Pipeline.arrRef spec1 1) (((cfg1.win 1).blk t).view.emb (ix2 p k)) = V c (Pipeline.arrRef spec1 1) (ix2 r k)
  refine congrArg _ (funext fun a => Fin.ext ?_)
  match a with
  | ⟨0, _⟩ => show win1_1.index t (0 : Fin 2) * 5000 + 1 * p.val = r.val; rw [(idx_facts1 t).2.1.1]; omega
  | ⟨1, _⟩ => show win1_1.index t (1 : Fin 2) * 64 + 1 * k.val = k.val; rw [(idx_facts1 t).2.1.2]; omega

/-- The first weight block is the first weight matrix at every point. -/
theorem blk_wgc1 (c : Dev nD) (t : Fin cfg1.N) (k q : Fin 64) :
    iblk1 V c 2 t (ix2 k q) = V c (Pipeline.arrRef spec1 2) (ix2 k q) := by
  show V c (Pipeline.arrRef spec1 2) (((cfg1.win 2).blk t).view.emb (ix2 k q)) = V c (Pipeline.arrRef spec1 2) (ix2 k q)
  refine congrArg _ (funext fun a => Fin.ext ?_)
  match a with
  | ⟨0, _⟩ => show win1_2.index t (0 : Fin 2) * 64 + 1 * k.val = k.val; rw [(idx_facts1 t).2.2.1.1]; omega
  | ⟨1, _⟩ => show win1_2.index t (1 : Fin 2) * 64 + 1 * q.val = q.val; rw [(idx_facts1 t).2.2.1.2]; omega

/-- The first bias block is the first bias row at every point. -/
theorem blk_bgc1 (c : Dev nD) (t : Fin cfg1.N) (q : Fin 64) :
    iblk1 V c 3 t (ix2 0 q) = V c (Pipeline.arrRef spec1 3) (ix2 0 q) := by
  show V c (Pipeline.arrRef spec1 3) (((cfg1.win 3).blk t).view.emb (ix2 0 q)) = V c (Pipeline.arrRef spec1 3) (ix2 0 q)
  refine congrArg _ (funext fun a => Fin.ext ?_)
  match a with
  | ⟨0, _⟩ => show win1_3.index t (0 : Fin 2) * 1 + 1 * 0 = 0; rw [(idx_facts1 t).2.2.2.1.1]
  | ⟨1, _⟩ => show win1_3.index t (1 : Fin 2) * 64 + 1 * q.val = q.val; rw [(idx_facts1 t).2.2.2.1.2]; omega

/-- The second weight block is the second weight matrix at every point. -/
theorem blk_wbi1 (c : Dev nD) (t : Fin cfg1.N) (k q : Fin 64) :
    iblk1 V c 4 t (ix2 k q) = V c (Pipeline.arrRef spec1 4) (ix2 k q) := by
  show V c (Pipeline.arrRef spec1 4) (((cfg1.win 4).blk t).view.emb (ix2 k q)) = V c (Pipeline.arrRef spec1 4) (ix2 k q)
  refine congrArg _ (funext fun a => Fin.ext ?_)
  match a with
  | ⟨0, _⟩ => show win1_4.index t (0 : Fin 2) * 64 + 1 * k.val = k.val; rw [(idx_facts1 t).2.2.2.2.1.1]; omega
  | ⟨1, _⟩ => show win1_4.index t (1 : Fin 2) * 64 + 1 * q.val = q.val; rw [(idx_facts1 t).2.2.2.2.1.2]; omega

/-- The second bias block is the second bias row at every point. -/
theorem blk_bbi1 (c : Dev nD) (t : Fin cfg1.N) (q : Fin 64) :
    iblk1 V c 5 t (ix2 0 q) = V c (Pipeline.arrRef spec1 5) (ix2 0 q) := by
  show V c (Pipeline.arrRef spec1 5) (((cfg1.win 5).blk t).view.emb (ix2 0 q)) = V c (Pipeline.arrRef spec1 5) (ix2 0 q)
  refine congrArg _ (funext fun a => Fin.ext ?_)
  match a with
  | ⟨0, _⟩ => show win1_5.index t (0 : Fin 2) * 1 + 1 * 0 = 0; rw [(idx_facts1 t).2.2.2.2.2.1.1]
  | ⟨1, _⟩ => show win1_5.index t (1 : Fin 2) * 64 + 1 * q.val = q.val; rw [(idx_facts1 t).2.2.2.2.2.1.2]; omega

/-- Entry `(p, q)` of the output block at point `t` sits at row `5000 t + p`, column `q` of the output array. -/
theorem emb_out1 (t : Fin cfg1.N) (p : Fin 5000) (q : Fin 64) (r : Fin 100000) (hr : r.val = t.val * 5000 + p.val) :
    ((cfg1.win 6).blk t).view.emb (ix2 p q) = ix2 r q := by
  refine funext fun a => Fin.ext ?_
  match a with
  | ⟨0, _⟩ => show win1_6.index t (0 : Fin 2) * 5000 + 1 * p.val = r.val; rw [(idx_facts1 t).2.2.2.2.2.2.1]; omega
  | ⟨1, _⟩ => show win1_6.index t (1 : Fin 2) * 64 + 1 * q.val = q.val; rw [(idx_facts1 t).2.2.2.2.2.2.2]; omega

/-! ## What a point writes back -/

/-- The layer's output array as one function of the six arrays the region reads. -/
def layerArr1 (c : Dev nD) : Vec Ideal S100000x64 .f32 := fun i =>
  Cert.Spec.layerAt (V c (Pipeline.arrRef spec1 0)) (V c (Pipeline.arrRef spec1 1)) (V c (Pipeline.arrRef spec1 2))
    (V c (Pipeline.arrRef spec1 3)) (V c (Pipeline.arrRef spec1 4)) (V c (Pipeline.arrRef spec1 5)) (i 0) (i 1)

/-- Point `t` writes back rows `5000 t … 5000 t + 4999` of the layer's output array: the body's one store covers its
    block, its loads read the six blocks whole, and each block is the part of its array that the output's rows need. -/
theorem flushed_eq1 (c : Dev nD) (t : Fin cfg1.N) :
    (dat1 (F := Ideal) V c).flushed 6 t = ((cfg1.win 6).blk t).view.read (Elt Ideal) (layerArr1 V c) := by
  show (cfg1.win 6).cut (grid1.coords t) ((dat1 (F := Ideal) V c).after 6 t) = _
  rw [after1_6]
  unfold out1_6
  rw [View.canon_unit_zero hz1]
  simp only [View.ld_unit_zero (S := S5000x64) hz1, View.ld_unit_zero (S := S64x64) hz1, View.ld_unit_zero (S := S1x64) hz1]
  funext j
  have hN : grid1.N = 20 := N_1
  have ht : t.val < 20 := hN ▸ t.isLt
  have hp : (j 0).val < 5000 := (j 0).isLt
  have hq : (j 1).val < 64 := (j 1).isLt
  show k1_pay1 (F := Ideal) (iblk1 V c 0 t) (iblk1 V c 1 t) (iblk1 V c 2 t) (iblk1 V c 4 t) (iblk1 V c 3 t) (iblk1 V c 5 t)
      (ix2 (⟨(j 0).val, hp⟩ : Fin 5000) (⟨(j 1).val, hq⟩ : Fin 64))
    = layerArr1 V c (((cfg1.win 6).blk t).view.emb (ix2 (⟨(j 0).val, hp⟩ : Fin 5000) (⟨(j 1).val, hq⟩ : Fin 64)))
  rw [emb_out1 t ⟨(j 0).val, hp⟩ ⟨(j 1).val, hq⟩ ⟨t.val * 5000 + (j 0).val, by omega⟩ rfl]
  exact pay_layer1 (iblk1 V c 0 t) (iblk1 V c 1 t) (iblk1 V c 2 t) (iblk1 V c 4 t) (iblk1 V c 3 t) (iblk1 V c 5 t)
    (V c (Pipeline.arrRef spec1 0)) (V c (Pipeline.arrRef spec1 1)) (V c (Pipeline.arrRef spec1 2))
    (V c (Pipeline.arrRef spec1 3)) (V c (Pipeline.arrRef spec1 4)) (V c (Pipeline.arrRef spec1 5))
    ⟨(j 0).val, hp⟩ ⟨(j 1).val, hq⟩ ⟨t.val * 5000 + (j 0).val, by omega⟩
    (fun k => blk_ego1 V c t _ k _ rfl) (fun k => blk_side1 V c t _ k _ rfl)
    (fun k => blk_wgc1 V c t k _) (fun k => blk_wbi1 V c t k _) (blk_bgc1 V c t _) (blk_bbi1 V c t _)

/-! ## The blocks tile the rows -/

/-- An index of the output array is in point `t`'s block iff each coordinate is in the block's range on its axis. -/
theorem mem_blk1 (t : Fin cfg1.N) (i : S100000x64.Idx) :
    i ∈ ((cfg1.win 6).blk t).view.set ↔ ∀ a : Fin 2, win1_6.index t a * S5000x64.size a ≤ (i a).val ∧ (i a).val < win1_6.index t a * S5000x64.size a + S5000x64.size a := by
  show i ∈ ((View.whole (Pipeline.arrRef spec1 6)).slice (win1_6.rect t)).set ↔ _
  rw [View.set_slice_whole, Rect.mem_set_unit]
  exact Iff.rfl

/-- Row `r` lies in the block of point `r / 5000`, which writes back. -/
theorem cover1 (i : S100000x64.Idx) :
    ∃ t : Fin cfg1.N, (cfg1.win 6).flush t = true ∧ i ∈ ((cfg1.win 6).blk t).view.set := by
  have hr : (i 0).val < 100000 := (i 0).isLt
  have hq : (i 1).val < 64 := (i 1).isLt
  have hN : grid1.N = 20 := N_1
  refine ⟨⟨(i 0).val / 5000, (show (i 0).val / 5000 < 20 by omega).trans_eq hN.symm⟩, flush1_6 _, ?_⟩
  rw [mem_blk1]
  intro a
  match a with
  | ⟨0, _⟩ =>
    show win1_6.index _ (0 : Fin 2) * 5000 ≤ (i 0).val ∧ (i 0).val < win1_6.index _ (0 : Fin 2) * 5000 + 5000
    rw [(idx_facts1 _).2.2.2.2.2.2.1]
    show (i 0).val / 5000 * 5000 ≤ (i 0).val ∧ (i 0).val < (i 0).val / 5000 * 5000 + 5000
    omega
  | ⟨1, _⟩ =>
    show win1_6.index _ (1 : Fin 2) * 64 ≤ (i 1).val ∧ (i 1).val < win1_6.index _ (1 : Fin 2) * 64 + 64
    rw [(idx_facts1 _).2.2.2.2.2.2.2]
    omega

/-! ## The output array after the region -/

/-- The output array after the last point is the layer's output array. -/
theorem out_eq1 (c : Dev nD) : (dat1 (F := Ideal) V c).arrAt 6 cfg1.N = layerArr1 V c :=
  (dat1 (F := Ideal) V c).arrAt_eq_of_cover 6 (layerArr1 V c) (fun t _ => flushed_eq1 V c t) cover1

/-- Entry `(r, q)` of the output array after the region: the layer's output at node `r`, feature `q`, of the six arrays
    the region reads. -/
theorem out_apply1 (c : Dev nD) (r : Fin 100000) (q : Fin 64) :
    (dat1 (F := Ideal) V c).arrAt 6 cfg1.N (ix2 r q)
      = Cert.Spec.layerAt (V c (Pipeline.arrRef spec1 0)) (V c (Pipeline.arrRef spec1 1)) (V c (Pipeline.arrRef spec1 2))
          (V c (Pipeline.arrRef spec1 3)) (V c (Pipeline.arrRef spec1 4)) (V c (Pipeline.arrRef spec1 5)) r q := by
  rw [out_eq1]
  rfl

end LayerValue

end Cert.KernelIdeal.Hand

end
-- ==== Proof.KI.LayerVal2.lean ====
import proofs.«424767_j70944269795902_3_alg».proof.Proof.KI.Region2
import proofs.«424767_j70944269795902_3_alg».proof.Proof.Spec
import Idealize.ShloMosaic.Lib.Pipeline.Value
import Idealize.ShloMosaic.Lib.ValueIdx
import Idealize.ShloMosaic.Lib.ValueLayout
import Idealize.ShloMosaic.PureOps.Ideal.Laws

/-! What one layer's pipeline leaves in its output array, entry by entry, over the extended reals.

The pipeline walks 20 blocks of 5000 rows. At a point the body holds the point's 5000 rows of the embedding array and of
the aggregated-neighbour array, the two 64x64 weight matrices and the two bias rows, and stores the leaky rectifier of
`side · W_gc + b_gc + (ego ∘ side) · W_bi + b_bi` for those rows; each point writes its rows back, and the 20 blocks tile
the 100000 rows. So entry `(r, q)` of the output array is the layer's output `Cert.Spec.layerAt` of the six arrays at node
`r`, feature `q`. -/

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

/-! ## The product's operand indices, axis by axis -/

/-- The left operand is read in the output's row … -/
theorem lhs_row2 (i : S5000x64.Idx) (k : dot_S5000x64_S64x64_S5000x64_1_0_0_1_n_n.contr.Idx) :
    (dot_S5000x64_S64x64_S5000x64_1_0_0_1_n_n.lhsIdx i k 0).val = (i 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl
/-- … at the summation position; -/
theorem lhs_contr2 (i : S5000x64.Idx) (k : dot_S5000x64_S64x64_S5000x64_1_0_0_1_n_n.contr.Idx) :
    (dot_S5000x64_S64x64_S5000x64_1_0_0_1_n_n.lhsIdx i k 1).val = (k ⟨0, by decide⟩).val :=
  dot_S5000x64_S64x64_S5000x64_1_0_0_1_n_n.lhsIdx_val_of_single rfl i k
/-- the right operand at the summation position … -/
theorem rhs_contr2 (i : S5000x64.Idx) (k : dot_S5000x64_S64x64_S5000x64_1_0_0_1_n_n.contr.Idx) :
    (dot_S5000x64_S64x64_S5000x64_1_0_0_1_n_n.rhsIdx i k 0).val = (k ⟨0, by decide⟩).val :=
  dot_S5000x64_S64x64_S5000x64_1_0_0_1_n_n.rhsIdx_val_of_single rfl i k
/-- … in the output's column. -/
theorem rhs_col2 (i : S5000x64.Idx) (k : dot_S5000x64_S64x64_S5000x64_1_0_0_1_n_n.contr.Idx) :
    (dot_S5000x64_S64x64_S5000x64_1_0_0_1_n_n.rhsIdx i k 1).val = (i 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- A 5000x64 by 64x64 product into the zero accumulator, at row `p` and column `q`: the sum over the 64 features of
    row `p` of the left operand times column `q` of the right. -/
theorem matmul_apply2 (a : FVec Ideal S5000x64 .bf16) (b : FVec Ideal S64x64 .bf16) (p : Fin 5000) (q : Fin 64) :
    matmul dot_S5000x64_S64x64_S5000x64_1_0_0_1_n_n none a b (constant (F := Ideal) S5000x64 .f32 0#32) (ix2 p q)
      = ∑ k : Fin 64, a (ix2 p k) * b (ix2 k q) := by
  rw [show matmul dot_S5000x64_S64x64_S5000x64_1_0_0_1_n_n none a b (constant (F := Ideal) S5000x64 .f32 0#32) (ix2 p q)
      = ∑ k : dot_S5000x64_S64x64_S5000x64_1_0_0_1_n_n.contr.Idx, a (dot_S5000x64_S64x64_S5000x64_1_0_0_1_n_n.lhsIdx (ix2 p q) k) * b (dot_S5000x64_S64x64_S5000x64_1_0_0_1_n_n.rhsIdx (ix2 p q) k) from
        Ideal.matmul_constant_zero_apply dot_S5000x64_S64x64_S5000x64_1_0_0_1_n_n none a b (ix2 p q),
    ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k :=
    funext fun ax => Fin.ext (by
      match ax with
      | ⟨0, _⟩ => exact lhs_row2 _ _
      | ⟨1, _⟩ => exact (lhs_contr2 _ _).trans hk)
  have er : dot_S5000x64_S64x64_S5000x64_1_0_0_1_n_n.rhsIdx (ix2 p q) ((contrEquiv1 dot_S5000x64_S64x64_S5000x64_1_0_0_1_n_n 64 rfl rfl).symm k) = ix2 k q :=
    funext fun ax => Fin.ext (by
      match ax with
      | ⟨0, _⟩ => exact (rhs_contr2 _ _).trans hk
      | ⟨1, _⟩ => exact rhs_col2 _ _)
  rw [el, er]

/-! ## The body's value at an entry -/

/-- Row `p`, column `q` of what the body stores, from its six operand blocks: the leaky rectifier of the sum of the
    two affine maps' entries there. The format changes around the products are the identity on extended reals, the
    bias rows are read in their one row, and each product into the zero accumulator is the sum over the features. -/
theorem pay_apply2 (ego side : Vec Ideal S5000x64 .f32) (wgc wbi : Vec Ideal S64x64 .f32) (bgc bbi : Vec Ideal S1x64 .f32)
    (p : Fin 5000) (q : Fin 64) :
    k2_pay1 (F := Ideal) ego side wgc wbi bgc bbi (ix2 p q)
      = Cert.Spec.leaky (((∑ k : Fin 64, side (ix2 p k) * wgc (ix2 k q)) + bgc (ix2 0 q))
          + ((∑ k : Fin 64, (ego (ix2 p k) * side (ix2 p k)) * wbi (ix2 k q)) + bbi (ix2 0 q))) := by
  unfold k2_pay1
  simp only [shapeCast_self]
  simp only [select_apply, cmpf_apply, mulf_apply, addf_apply, broadcast_apply, matmul_apply2, truncf_apply,
    broadcastTo_1b_ab_apply]
  rfl

/-- The same entry from the six whole arrays, when the embedding and neighbour blocks hold node `r`'s rows in their row
    `p` and the weight and bias blocks are the arrays. -/
theorem pay_layer2 (egoB sideB : Vec Ideal S5000x64 .f32) (wgcB wbiB : Vec Ideal S64x64 .f32) (bgcB bbiB : Vec Ideal S1x64 .f32)
    (ego side : FVec Ideal Cert.Spec.SN .f32) (wgc : FVec Ideal Cert.Spec.SW .f32) (bgc : FVec Ideal Cert.Spec.SB .f32)
    (wbi : FVec Ideal Cert.Spec.SW .f32) (bbi : FVec Ideal Cert.Spec.SB .f32)
    (p : Fin 5000) (q : Fin 64) (r : Fin 100000)
    (hego : ∀ k : Fin 64, egoB (ix2 p k) = ego (ix2 r k)) (hside : ∀ k : Fin 64, sideB (ix2 p k) = side (ix2 r k))
    (hwgc : ∀ k : Fin 64, wgcB (ix2 k q) = wgc (ix2 k q)) (hwbi : ∀ k : Fin 64, wbiB (ix2 k q) = wbi (ix2 k q))
    (hbgc : bgcB (ix2 0 q) = bgc (ix2 0 q)) (hbbi : bbiB (ix2 0 q) = bbi (ix2 0 q)) :
    k2_pay1 (F := Ideal) egoB sideB wgcB wbiB bgcB bbiB (ix2 p q) = Cert.Spec.layerAt ego side wgc bgc wbi bbi r q := by
  rw [pay_apply2]
  unfold Cert.Spec.layerAt Cert.Spec.preAct
  simp only [hego, hside, hwgc, hwbi, hbgc, hbbi]

section LayerValue
variable (V : (c : Dev nD) → (b : Ref sig .tc) → Buf (Elt Ideal) ((c : Thread nD τ).loc b))

/-! ## Where each window's block sits in its array -/

/-- The offsets of an access to a whole buffer are zero on both axes. -/
theorem hz2 : (![0, 0] : Fin 2 → Nat) = fun _ => 0 := funext fun a => by fin_cases a <;> rfl

/-- The index maps over the grid: the embedding, neighbour and output windows are at row block `t` at point `t`, the
    weight and bias windows at their one block throughout. -/
theorem idx_facts2 : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = t.val ∧ win2_6.index t (1 : Fin 2) = 0) :=
  (by decide +kernel : ∀ t : Fin grid2.N, _)

/-- Row `p` of the embedding block at point `t` is row `5000 t + p` of the embedding array. -/
theorem blk_ego2 (c : Dev nD) (t : Fin cfg2.N) (p : Fin 5000) (k : Fin 64) (r : Fin 100000) (hr : r.val = t.val * 5000 + p.val) :
    iblk2 V c 0 t (ix2 p k) = V c (Pipeline.arrRef spec2 0) (ix2 r k) := by
  show V c (Pipeline.arrRef spec2 0) (((cfg2.win 0).blk t).view.emb (ix2 p k)) = V c (Pipeline.arrRef spec2 0) (ix2 r k)
  refine congrArg _ (funext fun a => Fin.ext ?_)
  match a with
  | ⟨0, _⟩ => show win2_0.index t (0 : Fin 2) * 5000 + 1 * p.val = r.val; rw [(idx_facts2 t).1.1]; omega
  | ⟨1, _⟩ => show win2_0.index t (1 : Fin 2) * 64 + 1 * k.val = k.val; rw [(idx_facts2 t).1.2]; omega

/-- Row `p` of the neighbour block at point `t` is row `5000 t + p` of the neighbour array. -/
theorem blk_side2 (c : Dev nD) (t : Fin cfg2.N) (p : Fin 5000) (k : Fin 64) (r : Fin 100000) (hr : r.val = t.val * 5000 + p.val) :
    iblk2 V c 1 t (ix2 p k) = V c (Pipeline.arrRef spec2 1) (ix2 r k) := by
  show V c (Pipeline.arrRef spec2 1) (((cfg2.win 1).blk t).view.emb (ix2 p k)) = V c (Pipeline.arrRef spec2 1) (ix2 r k)
  refine congrArg _ (funext fun a => Fin.ext ?_)
  match a with
  | ⟨0, _⟩ => show win2_1.index t (0 : Fin 2) * 5000 + 1 * p.val = r.val; rw [(idx_facts2 t).2.1.1]; omega
  | ⟨1, _⟩ => show win2_1.index t (1 : Fin 2) * 64 + 1 * k.val = k.val; rw [(idx_facts2 t).2.1.2]; omega

/-- The first weight block is the first weight matrix at every point. -/
theorem blk_wgc2 (c : Dev nD) (t : Fin cfg2.N) (k q : Fin 64) :
    iblk2 V c 2 t (ix2 k q) = V c (Pipeline.arrRef spec2 2) (ix2 k q) := by
  show V c (Pipeline.arrRef spec2 2) (((cfg2.win 2).blk t).view.emb (ix2 k q)) = V c (Pipeline.arrRef spec2 2) (ix2 k q)
  refine congrArg _ (funext fun a => Fin.ext ?_)
  match a with
  | ⟨0, _⟩ => show win2_2.index t (0 : Fin 2) * 64 + 1 * k.val = k.val; rw [(idx_facts2 t).2.2.1.1]; omega
  | ⟨1, _⟩ => show win2_2.index t (1 : Fin 2) * 64 + 1 * q.val = q.val; rw [(idx_facts2 t).2.2.1.2]; omega

/-- The first bias block is the first bias row at every point. -/
theorem blk_bgc2 (c : Dev nD) (t : Fin cfg2.N) (q : Fin 64) :
    iblk2 V c 3 t (ix2 0 q) = V c (Pipeline.arrRef spec2 3) (ix2 0 q) := by
  show V c (Pipeline.arrRef spec2 3) (((cfg2.win 3).blk t).view.emb (ix2 0 q)) = V c (Pipeline.arrRef spec2 3) (ix2 0 q)
  refine congrArg _ (funext fun a => Fin.ext ?_)
  match a with
  | ⟨0, _⟩ => show win2_3.index t (0 : Fin 2) * 1 + 1 * 0 = 0; rw [(idx_facts2 t).2.2.2.1.1]
  | ⟨1, _⟩ => show win2_3.index t (1 : Fin 2) * 64 + 1 * q.val = q.val; rw [(idx_facts2 t).2.2.2.1.2]; omega

/-- The second weight block is the second weight matrix at every point. -/
theorem blk_wbi2 (c : Dev nD) (t : Fin cfg2.N) (k q : Fin 64) :
    iblk2 V c 4 t (ix2 k q) = V c (Pipeline.arrRef spec2 4) (ix2 k q) := by
  show V c (Pipeline.arrRef spec2 4) (((cfg2.win 4).blk t).view.emb (ix2 k q)) = V c (Pipeline.arrRef spec2 4) (ix2 k q)
  refine congrArg _ (funext fun a => Fin.ext ?_)
  match a with
  | ⟨0, _⟩ => show win2_4.index t (0 : Fin 2) * 64 + 1 * k.val = k.val; rw [(idx_facts2 t).2.2.2.2.1.1]; omega
  | ⟨1, _⟩ => show win2_4.index t (1 : Fin 2) * 64 + 1 * q.val = q.val; rw [(idx_facts2 t).2.2.2.2.1.2]; omega

/-- The second bias block is the second bias row at every point. -/
theorem blk_bbi2 (c : Dev nD) (t : Fin cfg2.N) (q : Fin 64) :
    iblk2 V c 5 t (ix2 0 q) = V c (Pipeline.arrRef spec2 5) (ix2 0 q) := by
  show V c (Pipeline.arrRef spec2 5) (((cfg2.win 5).blk t).view.emb (ix2 0 q)) = V c (Pipeline.arrRef spec2 5) (ix2 0 q)
  refine congrArg _ (funext fun a => Fin.ext ?_)
  match a with
  | ⟨0, _⟩ => show win2_5.index t (0 : Fin 2) * 1 + 1 * 0 = 0; rw [(idx_facts2 t).2.2.2.2.2.1.1]
  | ⟨1, _⟩ => show win2_5.index t (1 : Fin 2) * 64 + 1 * q.val = q.val; rw [(idx_facts2 t).2.2.2.2.2.1.2]; omega

/-- Entry `(p, q)` of the output block at point `t` sits at row `5000 t + p`, column `q` of the output array. -/
theorem emb_out2 (t : Fin cfg2.N) (p : Fin 5000) (q : Fin 64) (r : Fin 100000) (hr : r.val = t.val * 5000 + p.val) :
    ((cfg2.win 6).blk t).view.emb (ix2 p q) = ix2 r q := by
  refine funext fun a => Fin.ext ?_
  match a with
  | ⟨0, _⟩ => show win2_6.index t (0 : Fin 2) * 5000 + 1 * p.val = r.val; rw [(idx_facts2 t).2.2.2.2.2.2.1]; omega
  | ⟨1, _⟩ => show win2_6.index t (1 : Fin 2) * 64 + 1 * q.val = q.val; rw [(idx_facts2 t).2.2.2.2.2.2.2]; omega

/-! ## What a point writes back -/

/-- The layer's output array as one function of the six arrays the region reads. -/
def layerArr2 (c : Dev nD) : Vec Ideal S100000x64 .f32 := fun i =>
  Cert.Spec.layerAt (V c (Pipeline.arrRef spec2 0)) (V c (Pipeline.arrRef spec2 1)) (V c (Pipeline.arrRef spec2 2))
    (V c (Pipeline.arrRef spec2 3)) (V c (Pipeline.arrRef spec2 4)) (V c (Pipeline.arrRef spec2 5)) (i 0) (i 1)

/-- Point `t` writes back rows `5000 t … 5000 t + 4999` of the layer's output array: the body's one store covers its
    block, its loads read the six blocks whole, and each block is the part of its array that the output's rows need. -/
theorem flushed_eq2 (c : Dev nD) (t : Fin cfg2.N) :
    (dat2 (F := Ideal) V c).flushed 6 t = ((cfg2.win 6).blk t).view.read (Elt Ideal) (layerArr2 V c) := by
  show (cfg2.win 6).cut (grid2.coords t) ((dat2 (F := Ideal) V c).after 6 t) = _
  rw [after2_6]
  unfold out2_6
  rw [View.canon_unit_zero hz2]
  simp only [View.ld_unit_zero (S := S5000x64) hz2, View.ld_unit_zero (S := S64x64) hz2, View.ld_unit_zero (S := S1x64) hz2]
  funext j
  have hN : grid2.N = 20 := N_2
  have ht : t.val < 20 := hN ▸ t.isLt
  have hp : (j 0).val < 5000 := (j 0).isLt
  have hq : (j 1).val < 64 := (j 1).isLt
  show k2_pay1 (F := Ideal) (iblk2 V c 0 t) (iblk2 V c 1 t) (iblk2 V c 2 t) (iblk2 V c 4 t) (iblk2 V c 3 t) (iblk2 V c 5 t)
      (ix2 (⟨(j 0).val, hp⟩ : Fin 5000) (⟨(j 1).val, hq⟩ : Fin 64))
    = layerArr2 V c (((cfg2.win 6).blk t).view.emb (ix2 (⟨(j 0).val, hp⟩ : Fin 5000) (⟨(j 1).val, hq⟩ : Fin 64)))
  rw [emb_out2 t ⟨(j 0).val, hp⟩ ⟨(j 1).val, hq⟩ ⟨t.val * 5000 + (j 0).val, by omega⟩ rfl]
  exact pay_layer2 (iblk2 V c 0 t) (iblk2 V c 1 t) (iblk2 V c 2 t) (iblk2 V c 4 t) (iblk2 V c 3 t) (iblk2 V c 5 t)
    (V c (Pipeline.arrRef spec2 0)) (V c (Pipeline.arrRef spec2 1)) (V c (Pipeline.arrRef spec2 2))
    (V c (Pipeline.arrRef spec2 3)) (V c (Pipeline.arrRef spec2 4)) (V c (Pipeline.arrRef spec2 5))
    ⟨(j 0).val, hp⟩ ⟨(j 1).val, hq⟩ ⟨t.val * 5000 + (j 0).val, by omega⟩
    (fun k => blk_ego2 V c t _ k _ rfl) (fun k => blk_side2 V c t _ k _ rfl)
    (fun k => blk_wgc2 V c t k _) (fun k => blk_wbi2 V c t k _) (blk_bgc2 V c t _) (blk_bbi2 V c t _)

/-! ## The blocks tile the rows -/

/-- An index of the output array is in point `t`'s block iff each coordinate is in the block's range on its axis. -/
theorem mem_blk2 (t : Fin cfg2.N) (i : S100000x64.Idx) :
    i ∈ ((cfg2.win 6).blk t).view.set ↔ ∀ a : Fin 2, win2_6.index t a * S5000x64.size a ≤ (i a).val ∧ (i a).val < win2_6.index t a * S5000x64.size a + S5000x64.size a := by
  show i ∈ ((View.whole (Pipeline.arrRef spec2 6)).slice (win2_6.rect t)).set ↔ _
  rw [View.set_slice_whole, Rect.mem_set_unit]
  exact Iff.rfl

/-- Row `r` lies in the block of point `r / 5000`, which writes back. -/
theorem cover2 (i : S100000x64.Idx) :
    ∃ t : Fin cfg2.N, (cfg2.win 6).flush t = true ∧ i ∈ ((cfg2.win 6).blk t).view.set := by
  have hr : (i 0).val < 100000 := (i 0).isLt
  have hq : (i 1).val < 64 := (i 1).isLt
  have hN : grid2.N = 20 := N_2
  refine ⟨⟨(i 0).val / 5000, (show (i 0).val / 5000 < 20 by omega).trans_eq hN.symm⟩, flush2_6 _, ?_⟩
  rw [mem_blk2]
  intro a
  match a with
  | ⟨0, _⟩ =>
    show win2_6.index _ (0 : Fin 2) * 5000 ≤ (i 0).val ∧ (i 0).val < win2_6.index _ (0 : Fin 2) * 5000 + 5000
    rw [(idx_facts2 _).2.2.2.2.2.2.1]
    show (i 0).val / 5000 * 5000 ≤ (i 0).val ∧ (i 0).val < (i 0).val / 5000 * 5000 + 5000
    omega
  | ⟨1, _⟩ =>
    show win2_6.index _ (1 : Fin 2) * 64 ≤ (i 1).val ∧ (i 1).val < win2_6.index _ (1 : Fin 2) * 64 + 64
    rw [(idx_facts2 _).2.2.2.2.2.2.2]
    omega

/-! ## The output array after the region -/

/-- The output array after the last point is the layer's output array. -/
theorem out_eq2 (c : Dev nD) : (dat2 (F := Ideal) V c).arrAt 6 cfg2.N = layerArr2 V c :=
  (dat2 (F := Ideal) V c).arrAt_eq_of_cover 6 (layerArr2 V c) (fun t _ => flushed_eq2 V c t) cover2

/-- Entry `(r, q)` of the output array after the region: the layer's output at node `r`, feature `q`, of the six arrays
    the region reads. -/
theorem out_apply2 (c : Dev nD) (r : Fin 100000) (q : Fin 64) :
    (dat2 (F := Ideal) V c).arrAt 6 cfg2.N (ix2 r q)
      = Cert.Spec.layerAt (V c (Pipeline.arrRef spec2 0)) (V c (Pipeline.arrRef spec2 1)) (V c (Pipeline.arrRef spec2 2))
          (V c (Pipeline.arrRef spec2 3)) (V c (Pipeline.arrRef spec2 4)) (V c (Pipeline.arrRef spec2 5)) r q := by
  rw [out_eq2]
  rfl

end LayerValue

end Cert.KernelIdeal.Hand

end
-- ==== Proof.KI.ReadLayers.lean ====
import proofs.«424767_j70944269795902_3_alg».proof.Proof.Gen.KernelIdeal.Launch
import Idealize.ShloMosaic.Lib.StableHlo.Run

noncomputable section

namespace Cert.KernelIdeal.Hand

open Cert.KernelIdeal Cert.KernelIdeal.Gen Idealize.ShloMosaic Idealize.ShloMosaic.TcCoe

variable {F : FTy → Type} [FloatOps F]

/-! ## The arrays the three kernel calls read, as functions of the arrays before them -/

/-- The node embeddings at layer 0: the user rows followed by the item rows. -/
def ego0 (ue ie : (⟨S50000x64, .f32⟩ : BufTy).Contents (Elt F)) : (⟨S100000x64, .f32⟩ : BufTy).Contents (Elt F) :=
  concatenate S100000x64 0 [⟨S50000x64, ue⟩, ⟨S50000x64, ie⟩] concatenates_S50000x64_S50000x64_S100000x64_d0

/-- One propagation over the adjacency list: edge `e` takes row `col e` of `ego` (a negative `col e` read
    100000 higher; the rows pass through bf16 on the way), scales it by `val e`, and adds it into row `row e`
    of an array of zeros. -/
def side (row col : (⟨S3200000, .i32⟩ : BufTy).Contents (Elt F)) (val : (⟨S3200000, .f32⟩ : BufTy).Contents (Elt F))
    (ego : (⟨S100000x64, .f32⟩ : BufTy).Contents (Elt F)) : (⟨S100000x64, .f32⟩ : BufTy).Contents (Elt F) :=
  Host.scatterAdd scatter_S100000x64_S3200000x1_S3200000x64_1_0_0_1
    (broadcastInDim S100000x64 ![] bcast_S_S100000x64 (constant S_ .f32 0x00000000#32 : (⟨S_, .f32⟩ : BufTy).Contents (Elt F)))
    (broadcastInDim S3200000x1 ![0] bcast_S3200000_S3200000x1_0 row)
    (mulf
      (broadcastInDim S3200000x64 ![0, 1] bcast_S3200000x1_S3200000x64_0_1
        (broadcastInDim S3200000x1 ![0] bcast_S3200000_S3200000x1_0 val))
      (extf .f32
        (Host.gather gather_S100000x64_S3200000x1_S3200000x64_1_0_n_n_0_1_164
          (truncf .bf16 ego bitsLt_bf16_f32)
          (broadcastInDim S3200000x1 ![0] bcast_S3200000_S3200000x1_0
            (select
              (cmpi .slt col (broadcastInDim S3200000 ![] bcast_S_S3200000 (constantI S_ 32 0#32)))
              (addi col (broadcastInDim S3200000 ![] bcast_S_S3200000 (constantI S_ 32 100000#32)))
              col)))
        bitsLt_bf16_f32))

/-- Layer 0's graph-convolution weight: matrix 0 of the stack, as a 64 by 64 array. -/
def wgc0 (W : (⟨S3x64x64, .f32⟩ : BufTy).Contents (Elt F)) : (⟨S64x64, .f32⟩ : BufTy).Contents (Elt F) :=
  shapeCast S64x64 (extractStridedSlice S1x64x64 ![0, 0, 0] W slices_S3x64x64_S1x64x64_0_0_0) shapeCasts_S1x64x64_S64x64

/-- Layer 0's graph-convolution bias: row 0 of the stack, as a 1 by 64 array. -/
def bgc0 (b : (⟨S3x1x64, .f32⟩ : BufTy).Contents (Elt F)) : (⟨S1x64, .f32⟩ : BufTy).Contents (Elt F) :=
  shapeCast S1x64 (extractStridedSlice S1x1x64 ![0, 0, 0] b slices_S3x1x64_S1x1x64_0_0_0) shapeCasts_S1x1x64_S1x64

/-- Layer 0's bi-interaction weight: matrix 0 of the stack, as a 64 by 64 array. -/
def wbi0 (W : (⟨S3x64x64, .f32⟩ : BufTy).Contents (Elt F)) : (⟨S64x64, .f32⟩ : BufTy).Contents (Elt F) :=
  shapeCast S64x64 (extractStridedSlice S1x64x64 ![0, 0, 0] W slices_S3x64x64_S1x64x64_0_0_0) shapeCasts_S1x64x64_S64x64

/-- Layer 0's bi-interaction bias: row 0 of the stack, as a 1 by 64 array. -/
def bbi0 (b : (⟨S3x1x64, .f32⟩ : BufTy).Contents (Elt F)) : (⟨S1x64, .f32⟩ : BufTy).Contents (Elt F) :=
  shapeCast S1x64 (extractStridedSlice S1x1x64 ![0, 0, 0] b slices_S3x1x64_S1x1x64_0_0_0) shapeCasts_S1x1x64_S1x64

/-- Layer 1's graph-convolution weight: matrix 1 of the stack, as a 64 by 64 array. -/
def wgc1 (W : (⟨S3x64x64, .f32⟩ : BufTy).Contents (Elt F)) : (⟨S64x64, .f32⟩ : BufTy).Contents (Elt F) :=
  shapeCast S64x64 (extractStridedSlice S1x64x64 ![1, 0, 0] W slices_S3x64x64_S1x64x64_1_0_0) shapeCasts_S1x64x64_S64x64

/-- Layer 1's graph-convolution bias: row 1 of the stack, as a 1 by 64 array. -/
def bgc1 (b : (⟨S3x1x64, .f32⟩ : BufTy).Contents (Elt F)) : (⟨S1x64, .f32⟩ : BufTy).Contents (Elt F) :=
  shapeCast S1x64 (extractStridedSlice S1x1x64 ![1, 0, 0] b slices_S3x1x64_S1x1x64_1_0_0) shapeCasts_S1x1x64_S1x64

/-- Layer 1's bi-interaction weight: matrix 1 of the stack, as a 64 by 64 array. -/
def wbi1 (W : (⟨S3x64x64, .f32⟩ : BufTy).Contents (Elt F)) : (⟨S64x64, .f32⟩ : BufTy).Contents (Elt F) :=
  shapeCast S64x64 (extractStridedSlice S1x64x64 ![1, 0, 0] W slices_S3x64x64_S1x64x64_1_0_0) shapeCasts_S1x64x64_S64x64

/-- Layer 1's bi-interaction bias: row 1 of the stack, as a 1 by 64 array. -/
def bbi1 (b : (⟨S3x1x64, .f32⟩ : BufTy).Contents (Elt F)) : (⟨S1x64, .f32⟩ : BufTy).Contents (Elt F) :=
  shapeCast S1x64 (extractStridedSlice S1x1x64 ![1, 0, 0] b slices_S3x1x64_S1x1x64_1_0_0) shapeCasts_S1x1x64_S1x64

/-- Layer 2's graph-convolution weight: matrix 2 of the stack, as a 64 by 64 array. -/
def wgc2 (W : (⟨S3x64x64, .f32⟩ : BufTy).Contents (Elt F)) : (⟨S64x64, .f32⟩ : BufTy).Contents (Elt F) :=
  shapeCast S64x64 (extractStridedSlice S1x64x64 ![2, 0, 0] W slices_S3x64x64_S1x64x64_2_0_0) shapeCasts_S1x64x64_S64x64

/-- Layer 2's graph-convolution bias: row 2 of the stack, as a 1 by 64 array. -/
def bgc2 (b : (⟨S3x1x64, .f32⟩ : BufTy).Contents (Elt F)) : (⟨S1x64, .f32⟩ : BufTy).Contents (Elt F) :=
  shapeCast S1x64 (extractStridedSlice S1x1x64 ![2, 0, 0] b slices_S3x1x64_S1x1x64_2_0_0) shapeCasts_S1x1x64_S1x64

/-- Layer 2's bi-interaction weight: matrix 2 of the stack, as a 64 by 64 array. -/
def wbi2 (W : (⟨S3x64x64, .f32⟩ : BufTy).Contents (Elt F)) : (⟨S64x64, .f32⟩ : BufTy).Contents (Elt F) :=
  shapeCast S64x64 (extractStridedSlice S1x64x64 ![2, 0, 0] W slices_S3x64x64_S1x64x64_2_0_0) shapeCasts_S1x64x64_S64x64

/-- Layer 2's bi-interaction bias: row 2 of the stack, as a 1 by 64 array. -/
def bbi2 (b : (⟨S3x1x64, .f32⟩ : BufTy).Contents (Elt F)) : (⟨S1x64, .f32⟩ : BufTy).Contents (Elt F) :=
  shapeCast S1x64 (extractStridedSlice S1x1x64 ![2, 0, 0] b slices_S3x1x64_S1x1x64_2_0_0) shapeCasts_S1x1x64_S1x64

/-! ## What the host operations before each call leave in the arrays it reads -/

variable (W : Valuation τ sig (Elt F))

theorem read0_v0 : StableHlo.after hostOps0 W main_v0 = ego0 (W main_arg5) (W main_arg6) := by
  dsimp only [hostOps0]; after_results; rfl

theorem read0_v15 : StableHlo.after hostOps0 W main_v15
    = side (W main_arg2) (W main_arg3) (W main_arg4) (ego0 (W main_arg5) (W main_arg6)) := by
  dsimp only [hostOps0]; after_results_simp; rfl

theorem read0_v17 : StableHlo.after hostOps0 W main_v17 = wgc0 (W main_arg7) := by
  dsimp only [hostOps0]; after_results; rfl
theorem read0_v19 : StableHlo.after hostOps0 W main_v19 = bgc0 (W main_arg8) := by
  dsimp only [hostOps0]; after_results; rfl
theorem read0_v21 : StableHlo.after hostOps0 W main_v21 = wbi0 (W main_arg9) := by
  dsimp only [hostOps0]; after_results; rfl
theorem read0_v23 : StableHlo.after hostOps0 W main_v23 = bbi0 (W main_arg10) := by
  dsimp only [hostOps0]; after_results; rfl

theorem read1_v39 : StableHlo.after hostOps1 W main_v39
    = side (W main_arg2) (W main_arg3) (W main_arg4) (W main_v24) := by
  dsimp only [hostOps1]; after_results_simp; rfl

theorem read1_v41 : StableHlo.after hostOps1 W main_v41 = wgc1 (W main_arg7) := by
  dsimp only [hostOps1]; after_results; rfl
theorem read1_v43 : StableHlo.after hostOps1 W main_v43 = bgc1 (W main_arg8) := by
  dsimp only [hostOps1]; after_results; rfl
theorem read1_v45 : StableHlo.after hostOps1 W main_v45 = wbi1 (W main_arg9) := by
  dsimp only [hostOps1]; after_results; rfl
theorem read1_v47 : StableHlo.after hostOps1 W main_v47 = bbi1 (W main_arg10) := by
  dsimp only [hostOps1]; after_results; rfl

theorem read2_v63 : StableHlo.after hostOps2 W main_v63
    = side (W main_arg2) (W main_arg3) (W main_arg4) (W main_v48) := by
  dsimp only [hostOps2]; after_results_simp; rfl

theorem read2_v65 : StableHlo.after hostOps2 W main_v65 = wgc2 (W main_arg7) := by
  dsimp only [hostOps2]; after_results; rfl
theorem read2_v67 : StableHlo.after hostOps2 W main_v67 = bgc2 (W main_arg8) := by
  dsimp only [hostOps2]; after_results; rfl
theorem read2_v69 : StableHlo.after hostOps2 W main_v69 = wbi2 (W main_arg9) := by
  dsimp only [hostOps2]; after_results; rfl
theorem read2_v71 : StableHlo.after hostOps2 W main_v71 = bbi2 (W main_arg10) := by
  dsimp only [hostOps2]; after_results; rfl

end Cert.KernelIdeal.Hand
-- ==== Proof.KI.ReadTail.lean ====
import proofs.«424767_j70944269795902_3_alg».proof.Proof.Gen.KernelIdeal.Launch
import proofs.«424767_j70944269795902_3_alg».proof.Proof.Gen.KernelIdeal.Regions
import Idealize.ShloMosaic.Lib.StableHlo.Run

/-!
  What the host operations after the last layer leave in the three result buffers, as pure functions of
  the four node-feature arrays (the initial embedding table and the three layers' outputs) and the two
  index vectors.

  For each node-feature array: its first 50000 rows (the users) and its last 50000 rows (the items) are
  sliced out; 4096 rows of each slice are gathered at the index vector (a negative index is first moved up
  by 50000; a row whose moved index falls outside 0 … 49999 is replaced by the quiet-NaN word); the rows
  gathered from a layer's output are divided by max(sqrt(sum of squares of the row), 1e-12). The four
  64-wide pieces are laid side by side into 256-wide rows, once for the users and once for the items, and
  the score of a pair is the sum over the 256 columns of the product of its two rows.
-/

noncomputable section

namespace Cert.KernelIdeal.Hand

open Cert.KernelIdeal Cert.KernelIdeal.Gen Idealize.ShloMosaic Idealize.ShloMosaic.TcCoe

variable {F : FTy → Type} [FloatOps F]

/-! ## The pieces -/

/-- The first 50000 rows of a node-feature array: the users' rows. -/
def lo (e : (⟨S100000x64, .f32⟩ : BufTy).Contents (Elt F)) : (⟨S50000x64, .f32⟩ : BufTy).Contents (Elt F) :=
  extractStridedSlice S50000x64 ![0, 0] e slices_S100000x64_S50000x64_0_0

/-- The last 50000 rows of a node-feature array: the items' rows. -/
def hi (e : (⟨S100000x64, .f32⟩ : BufTy).Contents (Elt F)) : (⟨S50000x64, .f32⟩ : BufTy).Contents (Elt F) :=
  extractStridedSlice S50000x64 ![50000, 0] e slices_S100000x64_S50000x64_50000_0

/-- Rows of a 50000-row table at 4096 indices. An index below zero is first raised by 50000; the raised
    index, as a one-column matrix, addresses the gather; a row whose raised index is not within
    0 … 49999 holds the quiet-NaN word in every column instead of the gathered row. -/
def take (tbl : (⟨S50000x64, .f32⟩ : BufTy).Contents (Elt F)) (idx : (⟨S4096, .i32⟩ : BufTy).Contents (Elt F)) : (⟨S4096x64, .f32⟩ : BufTy).Contents (Elt F) :=
  select
    (broadcastInDim S4096x64 ![0] bcast_S4096_S4096x64_0
      (Host.reduce IntOp.andi
        (andi
          (cmpi .sge
            (broadcastInDim S4096x1 ![0] bcast_S4096_S4096x1_0
              (select (cmpi .slt idx (broadcastInDim S4096 ![] bcast_S_S4096 (constantI S_ 32 0#32)))
                (addi idx (broadcastInDim S4096 ![] bcast_S_S4096 (constantI S_ 32 50000#32))) idx))
            (broadcastInDim S4096x1 ![] bcast_S_S4096x1 (constantI S_ 32 0#32)))
          (cmpi .sle
            (broadcastInDim S4096x1 ![0] bcast_S4096_S4096x1_0
              (select (cmpi .slt idx (broadcastInDim S4096 ![] bcast_S_S4096 (constantI S_ 32 0#32)))
                (addi idx (broadcastInDim S4096 ![] bcast_S_S4096 (constantI S_ 32 50000#32))) idx))
            (broadcastInDim S4096x1 ![0, 1] bcast_S1x1_S4096x1_0_1
              (broadcastInDim S1x1 ![1] bcast_S1_S1x1_1 (constantI S1 32 49999#32)))))
        (constantI S_ 1 1#1) reducesTo_S4096x1_S4096_d1 h_S_))
    (Host.gather gather_S50000x64_S4096x1_S4096x64_1_0_n_n_0_1_164 tbl
      (broadcastInDim S4096x1 ![0] bcast_S4096_S4096x1_0
        (select (cmpi .slt idx (broadcastInDim S4096 ![] bcast_S_S4096 (constantI S_ 32 0#32)))
          (addi idx (broadcastInDim S4096 ![] bcast_S_S4096 (constantI S_ 32 50000#32))) idx)))
    (broadcastInDim S4096x64 ![] bcast_S_S4096x64 (constant S_ .f32 0x7FC00000#32))

/-- Each row divided by the larger of its Euclidean length and the word 0x2B8CBCCC (1e-12): the sum of the
    squares along the row, its square root, the maximum with the constant, spread back over the row. -/
def nrm (x : (⟨S4096x64, .f32⟩ : BufTy).Contents (Elt F)) : (⟨S4096x64, .f32⟩ : BufTy).Contents (Elt F) :=
  Host.divf x (broadcastInDim S4096x64 ![0, 1] bcast_S4096x1_S4096x64_0_1
    (maximumf (Host.sqrt (broadcastInDim S4096x1 ![0] bcast_S4096_S4096x1_0
        (Host.reduceAdd (mulf x x) (constant S_ .f32 0x00000000#32) reducesTo_S4096x64_S4096_d1 h_S_)))
      (broadcastInDim S4096x1 ![] bcast_S_S4096x1 (constant S_ .f32 0x2B8CBCCC#32))))

/-- Four 64-wide pieces side by side: columns 0 … 63 from the first, 64 … 127 from the second, and so on. -/
def cat4 (a b c d : (⟨S4096x64, .f32⟩ : BufTy).Contents (Elt F)) : (⟨S4096x256, .f32⟩ : BufTy).Contents (Elt F) :=
  concatenate S4096x256 1 [⟨S4096x64, a⟩, ⟨S4096x64, b⟩, ⟨S4096x64, c⟩, ⟨S4096x64, d⟩]
    concatenates_S4096x64_S4096x64_S4096x64_S4096x64_S4096x256_d1

/-- The score of each pair: the sum over the 256 columns of the product of the two rows. -/
def posf (u i : (⟨S4096x256, .f32⟩ : BufTy).Contents (Elt F)) : (⟨S4096, .f32⟩ : BufTy).Contents (Elt F) :=
  Host.reduceAdd (mulf u i) (constant S_ .f32 0x00000000#32) reducesTo_S4096x256_S4096_d1 h_S_

/-- The users' 256-wide rows: the embedding rows as they are, then each layer's rows normalized. -/
def uG (e0 e1 e2 e3 : (⟨S100000x64, .f32⟩ : BufTy).Contents (Elt F)) (user : (⟨S4096, .i32⟩ : BufTy).Contents (Elt F)) : (⟨S4096x256, .f32⟩ : BufTy).Contents (Elt F) :=
  cat4 (take (lo e0) user) (nrm (take (lo e1) user)) (nrm (take (lo e2) user)) (nrm (take (lo e3) user))

/-- The items' 256-wide rows, from the last 50000 rows of each array. -/
def iG (e0 e1 e2 e3 : (⟨S100000x64, .f32⟩ : BufTy).Contents (Elt F)) (item : (⟨S4096, .i32⟩ : BufTy).Contents (Elt F)) : (⟨S4096x256, .f32⟩ : BufTy).Contents (Elt F) :=
  cat4 (take (hi e0) item) (nrm (take (hi e1) item)) (nrm (take (hi e2) item)) (nrm (take (hi e3) item))

/-! ## The tail of the run -/

/-- The buffers once the seventeen stretches of host operations after the last layer have run, in order, from
    contents `W`. -/
abbrev tailVal (W : Valuation τ sig (Elt F)) : Valuation τ sig (Elt F) :=
  StableHlo.after hostOps3_16 (StableHlo.after hostOps3_15 (StableHlo.after hostOps3_14 (StableHlo.after hostOps3_13
  (StableHlo.after hostOps3_12 (StableHlo.after hostOps3_11 (StableHlo.after hostOps3_10 (StableHlo.after hostOps3_9
  (StableHlo.after hostOps3_8 (StableHlo.after hostOps3_7 (StableHlo.after hostOps3_6 (StableHlo.after hostOps3_5
  (StableHlo.after hostOps3_4 (StableHlo.after hostOps3_3 (StableHlo.after hostOps3_2 (StableHlo.after hostOps3_1
  (StableHlo.after hostOps3 W))))))))))))))))

/-! ## Each stretch, from any contents

What one stretch of operations leaves in the buffers a later stretch reads, as a function of the contents it
starts from. A slice stretch is one operation. A gather stretch is the twenty-three operations of the row
gather, whose intermediate buffers are typed by the callee; moving contents between a buffer's own type and the
callee's type is the identity, so the stretch's result is `take` of the table and the index vector read at its
start. A normalization stretch holds two normalizations and the next slice. -/

/-- A gather stretch read back: the fold unrolled, each operation's result read at its own buffer, the moves between
    a buffer's type and the callee's type cancelled; what is left is `take` unfolded. -/
local macro "gather_stretch" : tactic =>
  `(tactic| (after_results_simp
             simp only [StableHlo.TRef.ofBuf, StableHlo.TRef.toBuf, cast_cast, cast_eq]
             rfl))

theorem s0_v73 (W : Valuation τ sig (Elt F)) :
    StableHlo.after hostOps3 W main_v73 = lo (W main_v0) := by
  after_results; rfl

set_option maxRecDepth 4096 in
theorem s1_v74 (W : Valuation τ sig (Elt F)) :
    StableHlo.after hostOps3_1 W main_v74 = take (W main_v73) (W main_arg0) := by
  gather_stretch

theorem s2_v75 (W : Valuation τ sig (Elt F)) :
    StableHlo.after hostOps3_2 W main_v75 = hi (W main_v0) := by
  after_results; rfl

set_option maxRecDepth 4096 in
theorem s3_v76 (W : Valuation τ sig (Elt F)) :
    StableHlo.after hostOps3_3 W main_v76 = take (W main_v75) (W main_arg1) := by
  gather_stretch

theorem s4_v77 (W : Valuation τ sig (Elt F)) :
    StableHlo.after hostOps3_4 W main_v77 = lo (W main_v24) := by
  after_results; rfl

set_option maxRecDepth 4096 in
theorem s5_v78 (W : Valuation τ sig (Elt F)) :
    StableHlo.after hostOps3_5 W main_v78 = take (W main_v77) (W main_arg0) := by
  gather_stretch

theorem s6_v79 (W : Valuation τ sig (Elt F)) :
    StableHlo.after hostOps3_6 W main_v79 = hi (W main_v24) := by
  after_results; rfl

set_option maxRecDepth 4096 in
theorem s7_v80 (W : Valuation τ sig (Elt F)) :
    StableHlo.after hostOps3_7 W main_v80 = take (W main_v79) (W main_arg1) := by
  gather_stretch

theorem s8_v88 (W : Valuation τ sig (Elt F)) :
    StableHlo.after hostOps3_8 W main_v88 = nrm (W main_v78) := by
  after_results; rfl

theorem s8_v96 (W : Valuation τ sig (Elt F)) :
    StableHlo.after hostOps3_8 W main_v96 = nrm (W main_v80) := by
  after_results; rfl

theorem s8_v97 (W : Valuation τ sig (Elt F)) :
    StableHlo.after hostOps3_8 W main_v97 = lo (W main_v48) := by
  after_results; rfl

set_option maxRecDepth 4096 in
theorem s9_v98 (W : Valuation τ sig (Elt F)) :
    StableHlo.after hostOps3_9 W main_v98 = take (W main_v97) (W main_arg0) := by
  gather_stretch

theorem s10_v99 (W : Valuation τ sig (Elt F)) :
    StableHlo.after hostOps3_10 W main_v99 = hi (W main_v48) := by
  after_results; rfl

set_option maxRecDepth 4096 in
theorem s11_v100 (W : Valuation τ sig (Elt F)) :
    StableHlo.after hostOps3_11 W main_v100 = take (W main_v99) (W main_arg1) := by
  gather_stretch

theorem s12_v108 (W : Valuation τ sig (Elt F)) :
    StableHlo.after hostOps3_12 W main_v108 = nrm (W main_v98) := by
  after_results; rfl

theorem s12_v116 (W : Valuation τ sig (Elt F)) :
    StableHlo.after hostOps3_12 W main_v116 = nrm (W main_v100) := by
  after_results; rfl

theorem s12_v117 (W : Valuation τ sig (Elt F)) :
    StableHlo.after hostOps3_12 W main_v117 = lo (W main_v72) := by
  after_results; rfl

set_option maxRecDepth 4096 in
theorem s13_v118 (W : Valuation τ sig (Elt F)) :
    StableHlo.after hostOps3_13 W main_v118 = take (W main_v117) (W main_arg0) := by
  gather_stretch

theorem s14_v119 (W : Valuation τ sig (Elt F)) :
    StableHlo.after hostOps3_14 W main_v119 = hi (W main_v72) := by
  after_results; rfl

set_option maxRecDepth 4096 in
theorem s15_v120 (W : Valuation τ sig (Elt F)) :
    StableHlo.after hostOps3_15 W main_v120 = take (W main_v119) (W main_arg1) := by
  gather_stretch

/-- The last stretch: the third layer's two normalizations, then the two side-by-side layouts. -/
theorem s16_v137 (W : Valuation τ sig (Elt F)) :
    StableHlo.after hostOps3_16 W main_v137
      = cat4 (W main_v74) (W main_v88) (W main_v108) (nrm (W main_v118)) := by
  after_results; rfl

theorem s16_v138 (W : Valuation τ sig (Elt F)) :
    StableHlo.after hostOps3_16 W main_v138
      = cat4 (W main_v76) (W main_v96) (W main_v116) (nrm (W main_v120)) := by
  after_results; rfl

/-- The scores: the two layouts multiplied entry by entry and summed along the rows. -/
theorem s16_v140 (W : Valuation τ sig (Elt F)) :
    StableHlo.after hostOps3_16 W main_v140
      = posf (cat4 (W main_v74) (W main_v88) (W main_v108) (nrm (W main_v118)))
          (cat4 (W main_v76) (W main_v96) (W main_v116) (nrm (W main_v120))) := by
  after_results; rfl

/-! ## What a stretch leaves alone

A buffer none of a stretch's operations writes holds after the stretch what it held before. -/

theorem keep_0 {W : Valuation τ sig (Elt F)} {r : Ref sig .tc} (h : r ∉ hostOps3_W) :
    StableHlo.after hostOps3 W r = W r :=
  StableHlo.after_of_writes_sub hostOps3 W hostOps3_writes h

theorem keep_1 {W : Valuation τ sig (Elt F)} {r : Ref sig .tc} (h : r ∉ hostOps3_1_W) :
    StableHlo.after hostOps3_1 W r = W r :=
  StableHlo.after_of_writes_sub hostOps3_1 W hostOps3_1_writes h

theorem keep_2 {W : Valuation τ sig (Elt F)} {r : Ref sig .tc} (h : r ∉ hostOps3_2_W) :
    StableHlo.after hostOps3_2 W r = W r :=
  StableHlo.after_of_writes_sub hostOps3_2 W hostOps3_2_writes h

theorem keep_3 {W : Valuation τ sig (Elt F)} {r : Ref sig .tc} (h : r ∉ hostOps3_3_W) :
    StableHlo.after hostOps3_3 W r = W r :=
  StableHlo.after_of_writes_sub hostOps3_3 W hostOps3_3_writes h

theorem keep_4 {W : Valuation τ sig (Elt F)} {r : Ref sig .tc} (h : r ∉ hostOps3_4_W) :
    StableHlo.after hostOps3_4 W r = W r :=
  StableHlo.after_of_writes_sub hostOps3_4 W hostOps3_4_writes h

theorem keep_5 {W : Valuation τ sig (Elt F)} {r : Ref sig .tc} (h : r ∉ hostOps3_5_W) :
    StableHlo.after hostOps3_5 W r = W r :=
  StableHlo.after_of_writes_sub hostOps3_5 W hostOps3_5_writes h

theorem keep_6 {W : Valuation τ sig (Elt F)} {r : Ref sig .tc} (h : r ∉ hostOps3_6_W) :
    StableHlo.after hostOps3_6 W r = W r :=
  StableHlo.after_of_writes_sub hostOps3_6 W hostOps3_6_writes h

theorem keep_7 {W : Valuation τ sig (Elt F)} {r : Ref sig .tc} (h : r ∉ hostOps3_7_W) :
    StableHlo.after hostOps3_7 W r = W r :=
  StableHlo.after_of_writes_sub hostOps3_7 W hostOps3_7_writes h

theorem keep_8 {W : Valuation τ sig (Elt F)} {r : Ref sig .tc} (h : r ∉ hostOps3_8_W) :
    StableHlo.after hostOps3_8 W r = W r :=
  StableHlo.after_of_writes_sub hostOps3_8 W hostOps3_8_writes h

theorem keep_9 {W : Valuation τ sig (Elt F)} {r : Ref sig .tc} (h : r ∉ hostOps3_9_W) :
    StableHlo.after hostOps3_9 W r = W r :=
  StableHlo.after_of_writes_sub hostOps3_9 W hostOps3_9_writes h

theorem keep_10 {W : Valuation τ sig (Elt F)} {r : Ref sig .tc} (h : r ∉ hostOps3_10_W) :
    StableHlo.after hostOps3_10 W r = W r :=
  StableHlo.after_of_writes_sub hostOps3_10 W hostOps3_10_writes h

theorem keep_11 {W : Valuation τ sig (Elt F)} {r : Ref sig .tc} (h : r ∉ hostOps3_11_W) :
    StableHlo.after hostOps3_11 W r = W r :=
  StableHlo.after_of_writes_sub hostOps3_11 W hostOps3_11_writes h

theorem keep_12 {W : Valuation τ sig (Elt F)} {r : Ref sig .tc} (h : r ∉ hostOps3_12_W) :
    StableHlo.after hostOps3_12 W r = W r :=
  StableHlo.after_of_writes_sub hostOps3_12 W hostOps3_12_writes h

theorem keep_13 {W : Valuation τ sig (Elt F)} {r : Ref sig .tc} (h : r ∉ hostOps3_13_W) :
    StableHlo.after hostOps3_13 W r = W r :=
  StableHlo.after_of_writes_sub hostOps3_13 W hostOps3_13_writes h

theorem keep_14 {W : Valuation τ sig (Elt F)} {r : Ref sig .tc} (h : r ∉ hostOps3_14_W) :
    StableHlo.after hostOps3_14 W r = W r :=
  StableHlo.after_of_writes_sub hostOps3_14 W hostOps3_14_writes h

theorem keep_15 {W : Valuation τ sig (Elt F)} {r : Ref sig .tc} (h : r ∉ hostOps3_15_W) :
    StableHlo.after hostOps3_15 W r = W r :=
  StableHlo.after_of_writes_sub hostOps3_15 W hostOps3_15_writes h

/-- Every buffer written by the first stretches, up to a given one. The four node-feature arrays and the two index
    vectors are in none of these lists. -/
abbrev upTo_0 : List (Ref sig .tc) := hostOps3_W
abbrev upTo_1 : List (Ref sig .tc) := upTo_0 ++ hostOps3_1_W
abbrev upTo_2 : List (Ref sig .tc) := upTo_1 ++ hostOps3_2_W
abbrev upTo_3 : List (Ref sig .tc) := upTo_2 ++ hostOps3_3_W
abbrev upTo_4 : List (Ref sig .tc) := upTo_3 ++ hostOps3_4_W
abbrev upTo_5 : List (Ref sig .tc) := upTo_4 ++ hostOps3_5_W
abbrev upTo_6 : List (Ref sig .tc) := upTo_5 ++ hostOps3_6_W
abbrev upTo_7 : List (Ref sig .tc) := upTo_6 ++ hostOps3_7_W
abbrev upTo_8 : List (Ref sig .tc) := upTo_7 ++ hostOps3_8_W
abbrev upTo_9 : List (Ref sig .tc) := upTo_8 ++ hostOps3_9_W
abbrev upTo_10 : List (Ref sig .tc) := upTo_9 ++ hostOps3_10_W
abbrev upTo_11 : List (Ref sig .tc) := upTo_10 ++ hostOps3_11_W
abbrev upTo_12 : List (Ref sig .tc) := upTo_11 ++ hostOps3_12_W
abbrev upTo_13 : List (Ref sig .tc) := upTo_12 ++ hostOps3_13_W
abbrev upTo_14 : List (Ref sig .tc) := upTo_13 ++ hostOps3_14_W

/-- A buffer none of the first stretches writes holds after them what it held at the start. -/
theorem keepTo_0 {W : Valuation τ sig (Elt F)} {r : Ref sig .tc} (h : r ∉ upTo_0) :
    StableHlo.after hostOps3 W r = W r :=
  keep_0 h

theorem keepTo_1 {W : Valuation τ sig (Elt F)} {r : Ref sig .tc} (h : r ∉ upTo_1) :
    StableHlo.after hostOps3_1 (StableHlo.after hostOps3 W) r = W r := by
  rw [keep_1 (fun hm => h (List.mem_append_right _ hm)), keepTo_0 (fun hm => h (List.mem_append_left _ hm))]

theorem keepTo_2 {W : Valuation τ sig (Elt F)} {r : Ref sig .tc} (h : r ∉ upTo_2) :
    StableHlo.after hostOps3_2 (StableHlo.after hostOps3_1 (StableHlo.after hostOps3 W)) r = W r := by
  rw [keep_2 (fun hm => h (List.mem_append_right _ hm)), keepTo_1 (fun hm => h (List.mem_append_left _ hm))]

theorem keepTo_3 {W : Valuation τ sig (Elt F)} {r : Ref sig .tc} (h : r ∉ upTo_3) :
    StableHlo.after hostOps3_3 (StableHlo.after hostOps3_2 (StableHlo.after hostOps3_1
      (StableHlo.after hostOps3 W))) r = W r := by
  rw [keep_3 (fun hm => h (List.mem_append_right _ hm)), keepTo_2 (fun hm => h (List.mem_append_left _ hm))]

theorem keepTo_4 {W : Valuation τ sig (Elt F)} {r : Ref sig .tc} (h : r ∉ upTo_4) :
    StableHlo.after hostOps3_4 (StableHlo.after hostOps3_3 (StableHlo.after hostOps3_2
      (StableHlo.after hostOps3_1 (StableHlo.after hostOps3 W)))) r = W r := by
  rw [keep_4 (fun hm => h (List.mem_append_right _ hm)), keepTo_3 (fun hm => h (List.mem_append_left _ hm))]

theorem keepTo_5 {W : Valuation τ sig (Elt F)} {r : Ref sig .tc} (h : r ∉ upTo_5) :
    StableHlo.after hostOps3_5 (StableHlo.after hostOps3_4 (StableHlo.after hostOps3_3
      (StableHlo.after hostOps3_2 (StableHlo.after hostOps3_1 (StableHlo.after hostOps3 W))))) r = W r := by
  rw [keep_5 (fun hm => h (List.mem_append_right _ hm)), keepTo_4 (fun hm => h (List.mem_append_left _ hm))]

theorem keepTo_6 {W : Valuation τ sig (Elt F)} {r : Ref sig .tc} (h : r ∉ upTo_6) :
    StableHlo.after hostOps3_6 (StableHlo.after hostOps3_5 (StableHlo.after hostOps3_4
      (StableHlo.after hostOps3_3 (StableHlo.after hostOps3_2 (StableHlo.after hostOps3_1
      (StableHlo.after hostOps3 W)))))) r = W r := by
  rw [keep_6 (fun hm => h (List.mem_append_right _ hm)), keepTo_5 (fun hm => h (List.mem_append_left _ hm))]

theorem keepTo_7 {W : Valuation τ sig (Elt F)} {r : Ref sig .tc} (h : r ∉ upTo_7) :
    StableHlo.after hostOps3_7 (StableHlo.after hostOps3_6 (StableHlo.after hostOps3_5
      (StableHlo.after hostOps3_4 (StableHlo.after hostOps3_3 (StableHlo.after hostOps3_2
      (StableHlo.after hostOps3_1 (StableHlo.after hostOps3 W))))))) r = W r := by
  rw [keep_7 (fun hm => h (List.mem_append_right _ hm)), keepTo_6 (fun hm => h (List.mem_append_left _ hm))]

theorem keepTo_8 {W : Valuation τ sig (Elt F)} {r : Ref sig .tc} (h : r ∉ upTo_8) :
    StableHlo.after hostOps3_8 (StableHlo.after hostOps3_7 (StableHlo.after hostOps3_6
      (StableHlo.after hostOps3_5 (StableHlo.after hostOps3_4 (StableHlo.after hostOps3_3
      (StableHlo.after hostOps3_2 (StableHlo.after hostOps3_1 (StableHlo.after hostOps3 W)))))))) r = W r := by
  rw [keep_8 (fun hm => h (List.mem_append_right _ hm)), keepTo_7 (fun hm => h (List.mem_append_left _ hm))]

theorem keepTo_9 {W : Valuation τ sig (Elt F)} {r : Ref sig .tc} (h : r ∉ upTo_9) :
    StableHlo.after hostOps3_9 (StableHlo.after hostOps3_8 (StableHlo.after hostOps3_7
      (StableHlo.after hostOps3_6 (StableHlo.after hostOps3_5 (StableHlo.after hostOps3_4
      (StableHlo.after hostOps3_3 (StableHlo.after hostOps3_2 (StableHlo.after hostOps3_1
      (StableHlo.after hostOps3 W))))))))) r = W r := by
  rw [keep_9 (fun hm => h (List.mem_append_right _ hm)), keepTo_8 (fun hm => h (List.mem_append_left _ hm))]

theorem keepTo_10 {W : Valuation τ sig (Elt F)} {r : Ref sig .tc} (h : r ∉ upTo_10) :
    StableHlo.after hostOps3_10 (StableHlo.after hostOps3_9 (StableHlo.after hostOps3_8
      (StableHlo.after hostOps3_7 (StableHlo.after hostOps3_6 (StableHlo.after hostOps3_5
      (StableHlo.after hostOps3_4 (StableHlo.after hostOps3_3 (StableHlo.after hostOps3_2
      (StableHlo.after hostOps3_1 (StableHlo.after hostOps3 W)))))))))) r = W r := by
  rw [keep_10 (fun hm => h (List.mem_append_right _ hm)), keepTo_9 (fun hm => h (List.mem_append_left _ hm))]

theorem keepTo_11 {W : Valuation τ sig (Elt F)} {r : Ref sig .tc} (h : r ∉ upTo_11) :
    StableHlo.after hostOps3_11 (StableHlo.after hostOps3_10 (StableHlo.after hostOps3_9
      (StableHlo.after hostOps3_8 (StableHlo.after hostOps3_7 (StableHlo.after hostOps3_6
      (StableHlo.after hostOps3_5 (StableHlo.after hostOps3_4 (StableHlo.after hostOps3_3
      (StableHlo.after hostOps3_2 (StableHlo.after hostOps3_1 (StableHlo.after hostOps3 W))))))))))) r = W r := by
  rw [keep_11 (fun hm => h (List.mem_append_right _ hm)), keepTo_10 (fun hm => h (List.mem_append_left _ hm))]

theorem keepTo_12 {W : Valuation τ sig (Elt F)} {r : Ref sig .tc} (h : r ∉ upTo_12) :
    StableHlo.after hostOps3_12 (StableHlo.after hostOps3_11 (StableHlo.after hostOps3_10
      (StableHlo.after hostOps3_9 (StableHlo.after hostOps3_8 (StableHlo.after hostOps3_7
      (StableHlo.after hostOps3_6 (StableHlo.after hostOps3_5 (StableHlo.after hostOps3_4
      (StableHlo.after hostOps3_3 (StableHlo.after hostOps3_2 (StableHlo.after hostOps3_1
      (StableHlo.after hostOps3 W)))))))))))) r = W r := by
  rw [keep_12 (fun hm => h (List.mem_append_right _ hm)), keepTo_11 (fun hm => h (List.mem_append_left _ hm))]

theorem keepTo_13 {W : Valuation τ sig (Elt F)} {r : Ref sig .tc} (h : r ∉ upTo_13) :
    StableHlo.after hostOps3_13 (StableHlo.after hostOps3_12 (StableHlo.after hostOps3_11
      (StableHlo.after hostOps3_10 (StableHlo.after hostOps3_9 (StableHlo.after hostOps3_8
      (StableHlo.after hostOps3_7 (StableHlo.after hostOps3_6 (StableHlo.after hostOps3_5
      (StableHlo.after hostOps3_4 (StableHlo.after hostOps3_3 (StableHlo.after hostOps3_2
      (StableHlo.after hostOps3_1 (StableHlo.after hostOps3 W))))))))))))) r = W r := by
  rw [keep_13 (fun hm => h (List.mem_append_right _ hm)), keepTo_12 (fun hm => h (List.mem_append_left _ hm))]

theorem keepTo_14 {W : Valuation τ sig (Elt F)} {r : Ref sig .tc} (h : r ∉ upTo_14) :
    StableHlo.after hostOps3_14 (StableHlo.after hostOps3_13 (StableHlo.after hostOps3_12
      (StableHlo.after hostOps3_11 (StableHlo.after hostOps3_10 (StableHlo.after hostOps3_9
      (StableHlo.after hostOps3_8 (StableHlo.after hostOps3_7 (StableHlo.after hostOps3_6
      (StableHlo.after hostOps3_5 (StableHlo.after hostOps3_4 (StableHlo.after hostOps3_3
      (StableHlo.after hostOps3_2 (StableHlo.after hostOps3_1 (StableHlo.after hostOps3 W)))))))))))))) r = W r := by
  rw [keep_14 (fun hm => h (List.mem_append_right _ hm)), keepTo_13 (fun hm => h (List.mem_append_left _ hm))]

/-! ## The pieces at the start of the last stretch

Each 64-wide piece, carried through the stretches that leave it alone back to the stretch that wrote it, and from
there to the node-feature array and the index vector it was computed from. -/

theorem at0_v73 (W : Valuation τ sig (Elt F)) :
    StableHlo.after hostOps3 W main_v73
      = lo (W main_v0) := by
  rw [s0_v73]

theorem at15_v74 (W : Valuation τ sig (Elt F)) :
    StableHlo.after hostOps3_15 (StableHlo.after hostOps3_14 (StableHlo.after hostOps3_13
      (StableHlo.after hostOps3_12 (StableHlo.after hostOps3_11 (StableHlo.after hostOps3_10
      (StableHlo.after hostOps3_9 (StableHlo.after hostOps3_8 (StableHlo.after hostOps3_7
      (StableHlo.after hostOps3_6 (StableHlo.after hostOps3_5 (StableHlo.after hostOps3_4
      (StableHlo.after hostOps3_3 (StableHlo.after hostOps3_2 (StableHlo.after hostOps3_1
      (StableHlo.after hostOps3 W))))))))))))))) main_v74
      = take (lo (W main_v0)) (W main_arg0) := by
  rw [keep_15 (r := main_v74) (by decide), keep_14 (r := main_v74) (by decide), keep_13 (r := main_v74) (by decide),
    keep_12 (r := main_v74) (by decide), keep_11 (r := main_v74) (by decide), keep_10 (r := main_v74) (by decide),
    keep_9 (r := main_v74) (by decide), keep_8 (r := main_v74) (by decide), keep_7 (r := main_v74) (by decide),
    keep_6 (r := main_v74) (by decide), keep_5 (r := main_v74) (by decide), keep_4 (r := main_v74) (by decide),
    keep_3 (r := main_v74) (by decide), keep_2 (r := main_v74) (by decide), s1_v74, at0_v73,
    keepTo_0 (r := main_arg0) (by decide)]

theorem at4_v77 (W : Valuation τ sig (Elt F)) :
    StableHlo.after hostOps3_4 (StableHlo.after hostOps3_3 (StableHlo.after hostOps3_2
      (StableHlo.after hostOps3_1 (StableHlo.after hostOps3 W)))) main_v77
      = lo (W main_v24) := by
  rw [s4_v77, keepTo_3 (r := main_v24) (by decide)]

theorem at7_v78 (W : Valuation τ sig (Elt F)) :
    StableHlo.after hostOps3_7 (StableHlo.after hostOps3_6 (StableHlo.after hostOps3_5
      (StableHlo.after hostOps3_4 (StableHlo.after hostOps3_3 (StableHlo.after hostOps3_2
      (StableHlo.after hostOps3_1 (StableHlo.after hostOps3 W))))))) main_v78
      = take (lo (W main_v24)) (W main_arg0) := by
  rw [keep_7 (r := main_v78) (by decide), keep_6 (r := main_v78) (by decide), s5_v78, at4_v77,
    keepTo_4 (r := main_arg0) (by decide)]

theorem at15_v88 (W : Valuation τ sig (Elt F)) :
    StableHlo.after hostOps3_15 (StableHlo.after hostOps3_14 (StableHlo.after hostOps3_13
      (StableHlo.after hostOps3_12 (StableHlo.after hostOps3_11 (StableHlo.after hostOps3_10
      (StableHlo.after hostOps3_9 (StableHlo.after hostOps3_8 (StableHlo.after hostOps3_7
      (StableHlo.after hostOps3_6 (StableHlo.after hostOps3_5 (StableHlo.after hostOps3_4
      (StableHlo.after hostOps3_3 (StableHlo.after hostOps3_2 (StableHlo.after hostOps3_1
      (StableHlo.after hostOps3 W))))))))))))))) main_v88
      = nrm (take (lo (W main_v24)) (W main_arg0)) := by
  rw [keep_15 (r := main_v88) (by decide), keep_14 (r := main_v88) (by decide), keep_13 (r := main_v88) (by decide),
    keep_12 (r := main_v88) (by decide), keep_11 (r := main_v88) (by decide), keep_10 (r := main_v88) (by decide),
    keep_9 (r := main_v88) (by decide), s8_v88, at7_v78]

theorem at8_v97 (W : Valuation τ sig (Elt F)) :
    StableHlo.after hostOps3_8 (StableHlo.after hostOps3_7 (StableHlo.after hostOps3_6
      (StableHlo.after hostOps3_5 (StableHlo.after hostOps3_4 (StableHlo.after hostOps3_3
      (StableHlo.after hostOps3_2 (StableHlo.after hostOps3_1 (StableHlo.after hostOps3 W)))))))) main_v97
      = lo (W main_v48) := by
  rw [s8_v97, keepTo_7 (r := main_v48) (by decide)]

theorem at11_v98 (W : Valuation τ sig (Elt F)) :
    StableHlo.after hostOps3_11 (StableHlo.after hostOps3_10 (StableHlo.after hostOps3_9
      (StableHlo.after hostOps3_8 (StableHlo.after hostOps3_7 (StableHlo.after hostOps3_6
      (StableHlo.after hostOps3_5 (StableHlo.after hostOps3_4 (StableHlo.after hostOps3_3
      (StableHlo.after hostOps3_2 (StableHlo.after hostOps3_1 (StableHlo.after hostOps3 W))))))))))) main_v98
      = take (lo (W main_v48)) (W main_arg0) := by
  rw [keep_11 (r := main_v98) (by decide), keep_10 (r := main_v98) (by decide), s9_v98, at8_v97,
    keepTo_8 (r := main_arg0) (by decide)]

theorem at15_v108 (W : Valuation τ sig (Elt F)) :
    StableHlo.after hostOps3_15 (StableHlo.after hostOps3_14 (StableHlo.after hostOps3_13
      (StableHlo.after hostOps3_12 (StableHlo.after hostOps3_11 (StableHlo.after hostOps3_10
      (StableHlo.after hostOps3_9 (StableHlo.after hostOps3_8 (StableHlo.after hostOps3_7
      (StableHlo.after hostOps3_6 (StableHlo.after hostOps3_5 (StableHlo.after hostOps3_4
      (StableHlo.after hostOps3_3 (StableHlo.after hostOps3_2 (StableHlo.after hostOps3_1
      (StableHlo.after hostOps3 W))))))))))))))) main_v108
      = nrm (take (lo (W main_v48)) (W main_arg0)) := by
  rw [keep_15 (r := main_v108) (by decide), keep_14 (r := main_v108) (by decide), keep_13 (r := main_v108) (by decide),
    s12_v108, at11_v98]

theorem at12_v117 (W : Valuation τ sig (Elt F)) :
    StableHlo.after hostOps3_12 (StableHlo.after hostOps3_11 (StableHlo.after hostOps3_10
      (StableHlo.after hostOps3_9 (StableHlo.after hostOps3_8 (StableHlo.after hostOps3_7
      (StableHlo.after hostOps3_6 (StableHlo.after hostOps3_5 (StableHlo.after hostOps3_4
      (StableHlo.after hostOps3_3 (StableHlo.after hostOps3_2 (StableHlo.after hostOps3_1
      (StableHlo.after hostOps3 W)))))))))))) main_v117
      = lo (W main_v72) := by
  rw [s12_v117, keepTo_11 (r := main_v72) (by decide)]

theorem at15_v118 (W : Valuation τ sig (Elt F)) :
    StableHlo.after hostOps3_15 (StableHlo.after hostOps3_14 (StableHlo.after hostOps3_13
      (StableHlo.after hostOps3_12 (StableHlo.after hostOps3_11 (StableHlo.after hostOps3_10
      (StableHlo.after hostOps3_9 (StableHlo.after hostOps3_8 (StableHlo.after hostOps3_7
      (StableHlo.after hostOps3_6 (StableHlo.after hostOps3_5 (StableHlo.after hostOps3_4
      (StableHlo.after hostOps3_3 (StableHlo.after hostOps3_2 (StableHlo.after hostOps3_1
      (StableHlo.after hostOps3 W))))))))))))))) main_v118
      = take (lo (W main_v72)) (W main_arg0) := by
  rw [keep_15 (r := main_v118) (by decide), keep_14 (r := main_v118) (by decide), s13_v118, at12_v117,
    keepTo_12 (r := main_arg0) (by decide)]

theorem at2_v75 (W : Valuation τ sig (Elt F)) :
    StableHlo.after hostOps3_2 (StableHlo.after hostOps3_1 (StableHlo.after hostOps3 W)) main_v75
      = hi (W main_v0) := by
  rw [s2_v75, keepTo_1 (r := main_v0) (by decide)]

theorem at15_v76 (W : Valuation τ sig (Elt F)) :
    StableHlo.after hostOps3_15 (StableHlo.after hostOps3_14 (StableHlo.after hostOps3_13
      (StableHlo.after hostOps3_12 (StableHlo.after hostOps3_11 (StableHlo.after hostOps3_10
      (StableHlo.after hostOps3_9 (StableHlo.after hostOps3_8 (StableHlo.after hostOps3_7
      (StableHlo.after hostOps3_6 (StableHlo.after hostOps3_5 (StableHlo.after hostOps3_4
      (StableHlo.after hostOps3_3 (StableHlo.after hostOps3_2 (StableHlo.after hostOps3_1
      (StableHlo.after hostOps3 W))))))))))))))) main_v76
      = take (hi (W main_v0)) (W main_arg1) := by
  rw [keep_15 (r := main_v76) (by decide), keep_14 (r := main_v76) (by decide), keep_13 (r := main_v76) (by decide),
    keep_12 (r := main_v76) (by decide), keep_11 (r := main_v76) (by decide), keep_10 (r := main_v76) (by decide),
    keep_9 (r := main_v76) (by decide), keep_8 (r := main_v76) (by decide), keep_7 (r := main_v76) (by decide),
    keep_6 (r := main_v76) (by decide), keep_5 (r := main_v76) (by decide), keep_4 (r := main_v76) (by decide),
    s3_v76, at2_v75, keepTo_2 (r := main_arg1) (by decide)]

theorem at6_v79 (W : Valuation τ sig (Elt F)) :
    StableHlo.after hostOps3_6 (StableHlo.after hostOps3_5 (StableHlo.after hostOps3_4
      (StableHlo.after hostOps3_3 (StableHlo.after hostOps3_2 (StableHlo.after hostOps3_1
      (StableHlo.after hostOps3 W)))))) main_v79
      = hi (W main_v24) := by
  rw [s6_v79, keepTo_5 (r := main_v24) (by decide)]

theorem at7_v80 (W : Valuation τ sig (Elt F)) :
    StableHlo.after hostOps3_7 (StableHlo.after hostOps3_6 (StableHlo.after hostOps3_5
      (StableHlo.after hostOps3_4 (StableHlo.after hostOps3_3 (StableHlo.after hostOps3_2
      (StableHlo.after hostOps3_1 (StableHlo.after hostOps3 W))))))) main_v80
      = take (hi (W main_v24)) (W main_arg1) := by
  rw [s7_v80, at6_v79, keepTo_6 (r := main_arg1) (by decide)]

theorem at15_v96 (W : Valuation τ sig (Elt F)) :
    StableHlo.after hostOps3_15 (StableHlo.after hostOps3_14 (StableHlo.after hostOps3_13
      (StableHlo.after hostOps3_12 (StableHlo.after hostOps3_11 (StableHlo.after hostOps3_10
      (StableHlo.after hostOps3_9 (StableHlo.after hostOps3_8 (StableHlo.after hostOps3_7
      (StableHlo.after hostOps3_6 (StableHlo.after hostOps3_5 (StableHlo.after hostOps3_4
      (StableHlo.after hostOps3_3 (StableHlo.after hostOps3_2 (StableHlo.after hostOps3_1
      (StableHlo.after hostOps3 W))))))))))))))) main_v96
      = nrm (take (hi (W main_v24)) (W main_arg1)) := by
  rw [keep_15 (r := main_v96) (by decide), keep_14 (r := main_v96) (by decide), keep_13 (r := main_v96) (by decide),
    keep_12 (r := main_v96) (by decide), keep_11 (r := main_v96) (by decide), keep_10 (r := main_v96) (by decide),
    keep_9 (r := main_v96) (by decide), s8_v96, at7_v80]

theorem at10_v99 (W : Valuation τ sig (Elt F)) :
    StableHlo.after hostOps3_10 (StableHlo.after hostOps3_9 (StableHlo.after hostOps3_8
      (StableHlo.after hostOps3_7 (StableHlo.after hostOps3_6 (StableHlo.after hostOps3_5
      (StableHlo.after hostOps3_4 (StableHlo.after hostOps3_3 (StableHlo.after hostOps3_2
      (StableHlo.after hostOps3_1 (StableHlo.after hostOps3 W)))))))))) main_v99
      = hi (W main_v48) := by
  rw [s10_v99, keepTo_9 (r := main_v48) (by decide)]

theorem at11_v100 (W : Valuation τ sig (Elt F)) :
    StableHlo.after hostOps3_11 (StableHlo.after hostOps3_10 (StableHlo.after hostOps3_9
      (StableHlo.after hostOps3_8 (StableHlo.after hostOps3_7 (StableHlo.after hostOps3_6
      (StableHlo.after hostOps3_5 (StableHlo.after hostOps3_4 (StableHlo.after hostOps3_3
      (StableHlo.after hostOps3_2 (StableHlo.after hostOps3_1 (StableHlo.after hostOps3 W))))))))))) main_v100
      = take (hi (W main_v48)) (W main_arg1) := by
  rw [s11_v100, at10_v99, keepTo_10 (r := main_arg1) (by decide)]

theorem at15_v116 (W : Valuation τ sig (Elt F)) :
    StableHlo.after hostOps3_15 (StableHlo.after hostOps3_14 (StableHlo.after hostOps3_13
      (StableHlo.after hostOps3_12 (StableHlo.after hostOps3_11 (StableHlo.after hostOps3_10
      (StableHlo.after hostOps3_9 (StableHlo.after hostOps3_8 (StableHlo.after hostOps3_7
      (StableHlo.after hostOps3_6 (StableHlo.after hostOps3_5 (StableHlo.after hostOps3_4
      (StableHlo.after hostOps3_3 (StableHlo.after hostOps3_2 (StableHlo.after hostOps3_1
      (StableHlo.after hostOps3 W))))))))))))))) main_v116
      = nrm (take (hi (W main_v48)) (W main_arg1)) := by
  rw [keep_15 (r := main_v116) (by decide), keep_14 (r := main_v116) (by decide), keep_13 (r := main_v116) (by decide),
    s12_v116, at11_v100]

theorem at14_v119 (W : Valuation τ sig (Elt F)) :
    StableHlo.after hostOps3_14 (StableHlo.after hostOps3_13 (StableHlo.after hostOps3_12
      (StableHlo.after hostOps3_11 (StableHlo.after hostOps3_10 (StableHlo.after hostOps3_9
      (StableHlo.after hostOps3_8 (StableHlo.after hostOps3_7 (StableHlo.after hostOps3_6
      (StableHlo.after hostOps3_5 (StableHlo.after hostOps3_4 (StableHlo.after hostOps3_3
      (StableHlo.after hostOps3_2 (StableHlo.after hostOps3_1 (StableHlo.after hostOps3 W)))))))))))))) main_v119
      = hi (W main_v72) := by
  rw [s14_v119, keepTo_13 (r := main_v72) (by decide)]

theorem at15_v120 (W : Valuation τ sig (Elt F)) :
    StableHlo.after hostOps3_15 (StableHlo.after hostOps3_14 (StableHlo.after hostOps3_13
      (StableHlo.after hostOps3_12 (StableHlo.after hostOps3_11 (StableHlo.after hostOps3_10
      (StableHlo.after hostOps3_9 (StableHlo.after hostOps3_8 (StableHlo.after hostOps3_7
      (StableHlo.after hostOps3_6 (StableHlo.after hostOps3_5 (StableHlo.after hostOps3_4
      (StableHlo.after hostOps3_3 (StableHlo.after hostOps3_2 (StableHlo.after hostOps3_1
      (StableHlo.after hostOps3 W))))))))))))))) main_v120
      = take (hi (W main_v72)) (W main_arg1) := by
  rw [s15_v120, at14_v119, keepTo_14 (r := main_arg1) (by decide)]

/-! ## The three results -/

/-- The users' 256-wide rows. -/
theorem tail_v137 (W : Valuation τ sig (Elt F)) :
    tailVal W main_v137 = uG (W main_v0) (W main_v24) (W main_v48) (W main_v72) (W main_arg0) := by
  unfold tailVal uG
  rw [s16_v137, at15_v74, at15_v88, at15_v108, at15_v118]

/-- The items' 256-wide rows. -/
theorem tail_v138 (W : Valuation τ sig (Elt F)) :
    tailVal W main_v138 = iG (W main_v0) (W main_v24) (W main_v48) (W main_v72) (W main_arg1) := by
  unfold tailVal iG
  rw [s16_v138, at15_v76, at15_v96, at15_v116, at15_v120]

/-- The scores. -/
theorem tail_v140 (W : Valuation τ sig (Elt F)) :
    tailVal W main_v140
      = posf (uG (W main_v0) (W main_v24) (W main_v48) (W main_v72) (W main_arg0))
          (iG (W main_v0) (W main_v24) (W main_v48) (W main_v72) (W main_arg1)) := by
  unfold tailVal uG iG
  rw [s16_v140, at15_v74, at15_v88, at15_v108, at15_v118, at15_v76, at15_v96, at15_v116, at15_v120]

end Cert.KernelIdeal.Hand

end
-- ==== Proof.KI.Values.lean ====
import proofs.«424767_j70944269795902_3_alg».proof.Proof.Gen.KernelIdeal.Regions
import proofs.«424767_j70944269795902_3_alg».proof.Proof.Spec
import proofs.«424767_j70944269795902_3_alg».proof.Proof.KI.Launch
import proofs.«424767_j70944269795902_3_alg».proof.Proof.KI.LayerVal0
import proofs.«424767_j70944269795902_3_alg».proof.Proof.KI.LayerVal1
import proofs.«424767_j70944269795902_3_alg».proof.Proof.KI.LayerVal2
import proofs.«424767_j70944269795902_3_alg».proof.Proof.KI.ReadLayers
import proofs.«424767_j70944269795902_3_alg».proof.Proof.KI.ReadTail
import Idealize.ShloMosaic.Lib.ValueIdx
import Idealize.ShloMosaic.PureOps.Ideal

/-!
  The values of the run of the kernel program over the extended reals.

  The run passes through four node-feature arrays, 100000 nodes by 64 features each: the embedding table
  (the user rows followed by the item rows) and the outputs of the three message-passing layers. Each
  layer's output is named here as the array its row-block pipeline leaves, and is read entry by entry:
  the entry at node r, feature q is the layer formula applied to the array before it, to the neighbour
  sums of that array over the adjacency list, and to that layer's two weight matrices and two bias rows.
  The three result buffers are the user rows, the item rows and the pair scores computed from these four
  arrays; every argument buffer ends as it was launched.
-/

-- memberships of a reference in a list of some thirty references are decided by evaluation
set_option maxRecDepth 2032

noncomputable section

namespace Cert.KernelIdeal.Hand

open Cert.KernelIdeal Cert.KernelIdeal.Gen Idealize.ShloMosaic Idealize.ShloMosaic.TcCoe
open Idealize.ShloMosaic.ValueIdx Idealize.SL.Sem

variable (m : (ℓ : Loc nD τ sig) → Buf (Elt Ideal) ℓ)

/-! ## The arguments, as core c is launched with them -/

/-- The 4096 user indices. -/
abbrev aUser (c : Dev nD) : (⟨S4096, .i32⟩ : BufTy).Contents (Elt Ideal) := m ((c.tc : Thread nD τ).loc main_arg0)
/-- The 4096 item indices. -/
abbrev aItem (c : Dev nD) : (⟨S4096, .i32⟩ : BufTy).Contents (Elt Ideal) := m ((c.tc : Thread nD τ).loc main_arg1)
/-- The target node of each of the 3200000 edges. -/
abbrev aRow (c : Dev nD) : (⟨S3200000, .i32⟩ : BufTy).Contents (Elt Ideal) := m ((c.tc : Thread nD τ).loc main_arg2)
/-- The source node of each edge. -/
abbrev aCol (c : Dev nD) : (⟨S3200000, .i32⟩ : BufTy).Contents (Elt Ideal) := m ((c.tc : Thread nD τ).loc main_arg3)
/-- The weight of each edge. -/
abbrev aVal (c : Dev nD) : (⟨S3200000, .f32⟩ : BufTy).Contents (Elt Ideal) := m ((c.tc : Thread nD τ).loc main_arg4)
/-- The 50000 user embedding rows. -/
abbrev aUe (c : Dev nD) : (⟨S50000x64, .f32⟩ : BufTy).Contents (Elt Ideal) := m ((c.tc : Thread nD τ).loc main_arg5)
/-- The 50000 item embedding rows. -/
abbrev aIe (c : Dev nD) : (⟨S50000x64, .f32⟩ : BufTy).Contents (Elt Ideal) := m ((c.tc : Thread nD τ).loc main_arg6)
/-- The three graph-convolution weight matrices. -/
abbrev aWgc (c : Dev nD) : (⟨S3x64x64, .f32⟩ : BufTy).Contents (Elt Ideal) := m ((c.tc : Thread nD τ).loc main_arg7)
/-- The three graph-convolution bias rows. -/
abbrev aBgc (c : Dev nD) : (⟨S3x1x64, .f32⟩ : BufTy).Contents (Elt Ideal) := m ((c.tc : Thread nD τ).loc main_arg8)
/-- The three bi-interaction weight matrices. -/
abbrev aWbi (c : Dev nD) : (⟨S3x64x64, .f32⟩ : BufTy).Contents (Elt Ideal) := m ((c.tc : Thread nD τ).loc main_arg9)
/-- The three bi-interaction bias rows. -/
abbrev aBbi (c : Dev nD) : (⟨S3x1x64, .f32⟩ : BufTy).Contents (Elt Ideal) := m ((c.tc : Thread nD τ).loc main_arg10)

/-! ## The four node-feature arrays -/

/-- The embedding table: the user rows followed by the item rows. -/
def kE0 (c : Dev nD) : FVec Ideal S100000x64 .f32 := ego0 (aUe m c) (aIe m c)

/-- Layer 1's output: the array the first layer's pipeline leaves, entered with the buffers as the host
    operations before it leave them. -/
def kE1 (c : Dev nD) : FVec Ideal S100000x64 .f32 :=
  (dat0 (F := Ideal) (fun c b => V1 m c b) c).arrAt 6 cfg0.N

/-- Layer 2's output: the array the second layer's pipeline leaves. -/
def kE2 (c : Dev nD) : FVec Ideal S100000x64 .f32 :=
  (dat1 (F := Ideal) (fun c b => V3 m (outs m) c b) c).arrAt 6 cfg1.N

/-- Layer 3's output: the array the third layer's pipeline leaves. -/
def kE3 (c : Dev nD) : FVec Ideal S100000x64 .f32 :=
  (dat2 (F := Ideal) (fun c b => V5 m (outs m) c b) c).arrAt 6 cfg2.N

/-! ## Buffers no operation has written yet still hold the launch contents -/

/-- A buffer that neither the first stretch of host operations nor the first layer writes holds, after
    the first layer, what it was launched with. -/
theorem V2_launch (c : Dev nD) (b : Ref sig .tc) (h0 : b ∉ hostOps0_W)
    (h1 : b ∉ ([main_v24] : List (Ref sig .tc))) :
    V2 m (outs m) c b = m ((c.tc : Thread nD τ).loc b) :=
  (V2_of m (outs m) c b h1).trans (V1_of m c b h0)

/-- The same after the second layer. -/
theorem V4_launch (c : Dev nD) (b : Ref sig .tc) (h0 : b ∉ hostOps0_W)
    (h1 : b ∉ ([main_v24] : List (Ref sig .tc))) (h2 : b ∉ hostOps1_W)
    (h3 : b ∉ ([main_v48] : List (Ref sig .tc))) :
    V4 m (outs m) c b = m ((c.tc : Thread nD τ).loc b) :=
  (V4_of m (outs m) c b h3).trans <| (V3_of m (outs m) c b h2).trans (V2_launch m c b h0 h1)

/-- The same after the third layer. -/
theorem V6_launch (c : Dev nD) (b : Ref sig .tc) (h0 : b ∉ hostOps0_W)
    (h1 : b ∉ ([main_v24] : List (Ref sig .tc))) (h2 : b ∉ hostOps1_W)
    (h3 : b ∉ ([main_v48] : List (Ref sig .tc))) (h4 : b ∉ hostOps2_W)
    (h5 : b ∉ ([main_v72] : List (Ref sig .tc))) :
    V6 m (outs m) c b = m ((c.tc : Thread nD τ).loc b) :=
  (V6_of m (outs m) c b h5).trans <| (V5_of m (outs m) c b h4).trans (V4_launch m c b h0 h1 h2 h3)

/-! ## Where each node-feature array sits during the run -/

/-- The embedding table is what the first stretch of host operations leaves in its buffer. -/
theorem V1_v0 (c : Dev nD) : V1 m c main_v0 = kE0 m c := read0_v0 (V0 m c)

/-- Layer 1's output is what the first layer leaves in its output buffer. -/
theorem V2_v24 (c : Dev nD) : V2 m (outs m) c main_v24 = kE1 m c :=
  (Function.update_self _ _ _).trans (outs2 m c)

/-- Layer 2's output is what the second layer leaves in its output buffer. -/
theorem V4_v48 (c : Dev nD) : V4 m (outs m) c main_v48 = kE2 m c :=
  (Function.update_self _ _ _).trans (outs4 m c)

/-- Layer 3's output is what the third layer leaves in its output buffer. -/
theorem V6_v72 (c : Dev nD) : V6 m (outs m) c main_v72 = kE3 m c :=
  (Function.update_self _ _ _).trans (outs6 m c)

/-- Layer 1's output is still in place when the second layer starts. -/
theorem V3_v24 (c : Dev nD) : V3 m (outs m) c main_v24 = kE1 m c :=
  (V3_of m (outs m) c main_v24 (by decide)).trans (V2_v24 m c)

/-- Layer 2's output is still in place when the third layer starts. -/
theorem V5_v48 (c : Dev nD) : V5 m (outs m) c main_v48 = kE2 m c :=
  (V5_of m (outs m) c main_v48 (by decide)).trans (V4_v48 m c)

/-- After the third layer the embedding table is still in place. -/
theorem V6_v0 (c : Dev nD) : V6 m (outs m) c main_v0 = kE0 m c :=
  (V6_of m (outs m) c main_v0 (by decide)).trans <| (V5_of m (outs m) c main_v0 (by decide)).trans <|
  (V4_of m (outs m) c main_v0 (by decide)).trans <| (V3_of m (outs m) c main_v0 (by decide)).trans <|
  (V2_of m (outs m) c main_v0 (by decide)).trans (V1_v0 m c)

/-- After the third layer, layer 1's output is still in place. -/
theorem V6_v24 (c : Dev nD) : V6 m (outs m) c main_v24 = kE1 m c :=
  (V6_of m (outs m) c main_v24 (by decide)).trans <| (V5_of m (outs m) c main_v24 (by decide)).trans <|
  (V4_of m (outs m) c main_v24 (by decide)).trans (V3_v24 m c)

/-- After the third layer, layer 2's output is still in place. -/
theorem V6_v48 (c : Dev nD) : V6 m (outs m) c main_v48 = kE2 m c :=
  (V6_of m (outs m) c main_v48 (by decide)).trans (V5_v48 m c)

/-! ## Each layer's output, entry by entry -/

/-- Layer 1 at node r, feature q: the layer formula over the embedding table and its neighbour sums,
    with the first weight matrices and bias rows. -/
theorem kE1_apply (c : Dev nD) (r : Fin 100000) (q : Fin 64) :
    kE1 m c (ix2 r q) = Cert.Spec.layerAt (kE0 m c) (side (aRow m c) (aCol m c) (aVal m c) (kE0 m c))
      (wgc0 (aWgc m c)) (bgc0 (aBgc m c)) (wbi0 (aWbi m c)) (bbi0 (aBbi m c)) r q := by
  have e0 : V1 m c main_v0 = kE0 m c := V1_v0 m c
  have e1 : V1 m c main_v15 = side (aRow m c) (aCol m c) (aVal m c) (kE0 m c) := read0_v15 (V0 m c)
  have e2 : V1 m c main_v17 = wgc0 (aWgc m c) := read0_v17 (V0 m c)
  have e3 : V1 m c main_v19 = bgc0 (aBgc m c) := read0_v19 (V0 m c)
  have e4 : V1 m c main_v21 = wbi0 (aWbi m c) := read0_v21 (V0 m c)
  have e5 : V1 m c main_v23 = bbi0 (aBbi m c) := read0_v23 (V0 m c)
  refine (out_apply0 (fun c b => V1 m c b) c r q).trans ?_
  show Cert.Spec.layerAt (V1 m c main_v0) (V1 m c main_v15) (V1 m c main_v17) (V1 m c main_v19)
    (V1 m c main_v21) (V1 m c main_v23) r q = _
  rw [e0, e1, e2, e3, e4, e5]

/-- Layer 2 at node r, feature q: the layer formula over layer 1's output and its neighbour sums, with
    the second weight matrices and bias rows. -/
theorem kE2_apply (c : Dev nD) (r : Fin 100000) (q : Fin 64) :
    kE2 m c (ix2 r q) = Cert.Spec.layerAt (kE1 m c) (side (aRow m c) (aCol m c) (aVal m c) (kE1 m c))
      (wgc1 (aWgc m c)) (bgc1 (aBgc m c)) (wbi1 (aWbi m c)) (bbi1 (aBbi m c)) r q := by
  have a2 : V2 m (outs m) c main_arg2 = aRow m c := V2_launch m c main_arg2 (by decide) (by decide)
  have a3 : V2 m (outs m) c main_arg3 = aCol m c := V2_launch m c main_arg3 (by decide) (by decide)
  have a4 : V2 m (outs m) c main_arg4 = aVal m c := V2_launch m c main_arg4 (by decide) (by decide)
  have a7 : V2 m (outs m) c main_arg7 = aWgc m c := V2_launch m c main_arg7 (by decide) (by decide)
  have a8 : V2 m (outs m) c main_arg8 = aBgc m c := V2_launch m c main_arg8 (by decide) (by decide)
  have a9 : V2 m (outs m) c main_arg9 = aWbi m c := V2_launch m c main_arg9 (by decide) (by decide)
  have a10 : V2 m (outs m) c main_arg10 = aBbi m c := V2_launch m c main_arg10 (by decide) (by decide)
  have e0 : V3 m (outs m) c main_v24 = kE1 m c := V3_v24 m c
  have e1 : V3 m (outs m) c main_v39 = side (aRow m c) (aCol m c) (aVal m c) (kE1 m c) := by
    refine (read1_v39 (V2 m (outs m) c)).trans ?_
    rw [a2, a3, a4, V2_v24 m c]
  have e2 : V3 m (outs m) c main_v41 = wgc1 (aWgc m c) := by
    refine (read1_v41 (V2 m (outs m) c)).trans ?_
    rw [a7]
  have e3 : V3 m (outs m) c main_v43 = bgc1 (aBgc m c) := by
    refine (read1_v43 (V2 m (outs m) c)).trans ?_
    rw [a8]
  have e4 : V3 m (outs m) c main_v45 = wbi1 (aWbi m c) := by
    refine (read1_v45 (V2 m (outs m) c)).trans ?_
    rw [a9]
  have e5 : V3 m (outs m) c main_v47 = bbi1 (aBbi m c) := by
    refine (read1_v47 (V2 m (outs m) c)).trans ?_
    rw [a10]
  refine (out_apply1 (fun c b => V3 m (outs m) c b) c r q).trans ?_
  show Cert.Spec.layerAt (V3 m (outs m) c main_v24) (V3 m (outs m) c main_v39) (V3 m (outs m) c main_v41)
    (V3 m (outs m) c main_v43) (V3 m (outs m) c main_v45) (V3 m (outs m) c main_v47) r q = _
  rw [e0, e1, e2, e3, e4, e5]

/-- Layer 3 at node r, feature q: the layer formula over layer 2's output and its neighbour sums, with
    the third weight matrices and bias rows. -/
theorem kE3_apply (c : Dev nD) (r : Fin 100000) (q : Fin 64) :
    kE3 m c (ix2 r q) = Cert.Spec.layerAt (kE2 m c) (side (aRow m c) (aCol m c) (aVal m c) (kE2 m c))
      (wgc2 (aWgc m c)) (bgc2 (aBgc m c)) (wbi2 (aWbi m c)) (bbi2 (aBbi m c)) r q := by
  have a2 : V4 m (outs m) c main_arg2 = aRow m c :=
    V4_launch m c main_arg2 (by decide) (by decide) (by decide) (by decide)
  have a3 : V4 m (outs m) c main_arg3 = aCol m c :=
    V4_launch m c main_arg3 (by decide) (by decide) (by decide) (by decide)
  have a4 : V4 m (outs m) c main_arg4 = aVal m c :=
    V4_launch m c main_arg4 (by decide) (by decide) (by decide) (by decide)
  have a7 : V4 m (outs m) c main_arg7 = aWgc m c :=
    V4_launch m c main_arg7 (by decide) (by decide) (by decide) (by decide)
  have a8 : V4 m (outs m) c main_arg8 = aBgc m c :=
    V4_launch m c main_arg8 (by decide) (by decide) (by decide) (by decide)
  have a9 : V4 m (outs m) c main_arg9 = aWbi m c :=
    V4_launch m c main_arg9 (by decide) (by decide) (by decide) (by decide)
  have a10 : V4 m (outs m) c main_arg10 = aBbi m c :=
    V4_launch m c main_arg10 (by decide) (by decide) (by decide) (by decide)
  have e0 : V5 m (outs m) c main_v48 = kE2 m c := V5_v48 m c
  have e1 : V5 m (outs m) c main_v63 = side (aRow m c) (aCol m c) (aVal m c) (kE2 m c) := by
    refine (read2_v63 (V4 m (outs m) c)).trans ?_
    rw [a2, a3, a4, V4_v48 m c]
  have e2 : V5 m (outs m) c main_v65 = wgc2 (aWgc m c) := by
    refine (read2_v65 (V4 m (outs m) c)).trans ?_
    rw [a7]
  have e3 : V5 m (outs m) c main_v67 = bgc2 (aBgc m c) := by
    refine (read2_v67 (V4 m (outs m) c)).trans ?_
    rw [a8]
  have e4 : V5 m (outs m) c main_v69 = wbi2 (aWbi m c) := by
    refine (read2_v69 (V4 m (outs m) c)).trans ?_
    rw [a9]
  have e5 : V5 m (outs m) c main_v71 = bbi2 (aBbi m c) := by
    refine (read2_v71 (V4 m (outs m) c)).trans ?_
    rw [a10]
  refine (out_apply2 (fun c b => V5 m (outs m) c b) c r q).trans ?_
  show Cert.Spec.layerAt (V5 m (outs m) c main_v48) (V5 m (outs m) c main_v63) (V5 m (outs m) c main_v65)
    (V5 m (outs m) c main_v67) (V5 m (outs m) c main_v69) (V5 m (outs m) c main_v71) r q = _
  rw [e0, e1, e2, e3, e4, e5]

/-! ## The three result buffers at the end of the run -/

/-- The users' rows: the host operations after the third layer compute them from the four arrays and the
    user indices, all still in place. -/
theorem V23_v137 (c : Dev nD) :
    V23 m (outs m) c main_v137 = uG (kE0 m c) (kE1 m c) (kE2 m c) (kE3 m c) (aUser m c) := by
  have a0 : V6 m (outs m) c main_arg0 = aUser m c :=
    V6_launch m c main_arg0 (by decide) (by decide) (by decide) (by decide) (by decide) (by decide)
  refine (tail_v137 (V6 m (outs m) c)).trans ?_
  rw [V6_v0 m c, V6_v24 m c, V6_v48 m c, V6_v72 m c, a0]

/-- The items' rows, likewise from the item indices. -/
theorem V23_v138 (c : Dev nD) :
    V23 m (outs m) c main_v138 = iG (kE0 m c) (kE1 m c) (kE2 m c) (kE3 m c) (aItem m c) := by
  have a1 : V6 m (outs m) c main_arg1 = aItem m c :=
    V6_launch m c main_arg1 (by decide) (by decide) (by decide) (by decide) (by decide) (by decide)
  refine (tail_v138 (V6 m (outs m) c)).trans ?_
  rw [V6_v0 m c, V6_v24 m c, V6_v48 m c, V6_v72 m c, a1]

/-- The pair scores: the row-wise inner products of the users' rows with the items' rows. -/
theorem V23_v140 (c : Dev nD) :
    V23 m (outs m) c main_v140 = posf (uG (kE0 m c) (kE1 m c) (kE2 m c) (kE3 m c) (aUser m c))
      (iG (kE0 m c) (kE1 m c) (kE2 m c) (kE3 m c) (aItem m c)) := by
  have a0 : V6 m (outs m) c main_arg0 = aUser m c :=
    V6_launch m c main_arg0 (by decide) (by decide) (by decide) (by decide) (by decide) (by decide)
  have a1 : V6 m (outs m) c main_arg1 = aItem m c :=
    V6_launch m c main_arg1 (by decide) (by decide) (by decide) (by decide) (by decide) (by decide)
  refine (tail_v140 (V6 m (outs m) c)).trans ?_
  rw [V6_v0 m c, V6_v24 m c, V6_v48 m c, V6_v72 m c, a0, a1]

/-! ## The run -/

/-- Every weakly fair run from memory m terminates without fault; at its end each core holds the users'
    rows, the items' rows and the pair scores named above in the three result buffers, and every
    argument buffer as launched. -/
theorem value_run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v137) = uG (kE0 m c) (kE1 m c) (kE2 m c) (kE3 m c) (aUser m c)
      ∧ r.2.mem ((c.tc : Thread nD τ).loc main_v138) = iG (kE0 m c) (kE1 m c) (kE2 m c) (kE3 m c) (aItem m c)
      ∧ r.2.mem ((c.tc : Thread nD τ).loc main_v140)
          = posf (uG (kE0 m c) (kE1 m c) (kE2 m c) (kE3 m c) (aUser m c))
              (iG (kE0 m c) (kE1 m c) (kE2 m c) (kE3 m c) (aItem m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  refine (θ_run (defs (F := Ideal)) _ _).mono (fun r h c => ?_) (run_all m ρ)
  -- an unscoped buffer of core c ends at the last valuation
  have hb : ∀ b : Ref sig .tc, ¬ (Proc.devRef .tc b : DevRef τ sig).isScoped →
      r.2.mem ((c.tc : Thread nD τ).loc b) = V23 m (outs m) c b := fun b hs => h c _ (mem_uc b hs)
  exact ⟨(hb main_v137 (by decide)).trans (V23_v137 m c),
    (hb main_v138 (by decide)).trans (V23_v138 m c),
    (hb main_v140 (by decide)).trans (V23_v140 m c),
    (hb main_arg0 (by decide)).trans (V23_main_arg0 m (outs m) c),
    (hb main_arg1 (by decide)).trans (V23_main_arg1 m (outs m) c),
    (hb main_arg2 (by decide)).trans (V23_main_arg2 m (outs m) c),
    (hb main_arg3 (by decide)).trans (V23_main_arg3 m (outs m) c),
    (hb main_arg4 (by decide)).trans (V23_main_arg4 m (outs m) c),
    (hb main_arg5 (by decide)).trans (V23_main_arg5 m (outs m) c),
    (hb main_arg6 (by decide)).trans (V23_main_arg6 m (outs m) c),
    (hb main_arg7 (by decide)).trans (V23_main_arg7 m (outs m) c),
    (hb main_arg8 (by decide)).trans (V23_main_arg8 m (outs m) c),
    (hb main_arg9 (by decide)).trans (V23_main_arg9 m (outs m) c),
    (hb main_arg10 (by decide)).trans (V23_main_arg10 m (outs m) c)⟩

end Cert.KernelIdeal.Hand

end
-- ==== Proof.Ref.Run0.lean ====
import proofs.«424767_j70944269795902_3_alg».proof.Proof.Gen.ReferenceIdeal
import Idealize.ShloMosaic.Lib.StableHlo.Run
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The program as lists of operations

@main is one straight line of host operations. Each of its three calls of the leaky rectifier is seven operations
over that call's own buffers: the zero and its broadcast, the comparison of the operand against it, the slope
converted and broadcast, the product of slope and operand, and the choice between operand and product. -/

/-- The operations of the first printed stretch of @main, the call in it written out. -/
abbrev ops_part0 : List (HloOp τ sig (Elt F)) :=
  [ StableHlo.binary main_arg5 main_arg6 main_v0 ((fun a b => concatenate S100000x64 0 [⟨S50000x64, a⟩, ⟨S50000x64, b⟩] concatenates_S50000x64_S50000x64_S100000x64_d0) : (⟨S50000x64, .f32⟩ : BufTy).Contents (Elt F) → (⟨S50000x64, .f32⟩ : BufTy).Contents (Elt F) → (⟨S100000x64, .f32⟩ : BufTy).Contents (Elt F)),
    StableHlo.unary main_arg4 main_v1 (broadcastInDim S3200000x1 ![0] bcast_S3200000_S3200000x1_0 : (⟨S3200000, .f32⟩ : BufTy).Contents (Elt F) → (⟨S3200000x1, .f32⟩ : BufTy).Contents (Elt F)),
    StableHlo.nullary main_c (constantI S_ 32 0#32),
    StableHlo.unary main_c main_v2 (broadcastInDim S3200000 ![] bcast_S_S3200000 : (⟨S_, .i32⟩ : BufTy).Contents (Elt F) → (⟨S3200000, .i32⟩ : BufTy).Contents (Elt F)),
    StableHlo.binary main_arg3 main_v2 main_v3 (cmpi .slt : (⟨S3200000, .i32⟩ : BufTy).Contents (Elt F) → (⟨S3200000, .i32⟩ : BufTy).Contents (Elt F) → (⟨S3200000, .i1⟩ : BufTy).Contents (Elt F)),
    StableHlo.nullary main_c_0 (constantI S_ 32 100000#32),
    StableHlo.unary main_c_0 main_v4 (broadcastInDim S3200000 ![] bcast_S_S3200000 : (⟨S_, .i32⟩ : BufTy).Contents (Elt F) → (⟨S3200000, .i32⟩ : BufTy).Contents (Elt F)),
    StableHlo.binary main_arg3 main_v4 main_v5 (addi : (⟨S3200000, .i32⟩ : BufTy).Contents (Elt F) → (⟨S3200000, .i32⟩ : BufTy).Contents (Elt F) → (⟨S3200000, .i32⟩ : BufTy).Contents (Elt F)),
    StableHlo.ternary main_v3 main_v5 main_arg3 main_v6 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v6 main_v7 (broadcastInDim S3200000x1 ![0] bcast_S3200000_S3200000x1_0 : (⟨S3200000, .i32⟩ : BufTy).Contents (Elt F) → (⟨S3200000x1, .i32⟩ : BufTy).Contents (Elt F)),
    StableHlo.binary main_v0 main_v7 main_v8 ((fun x i => Host.gather gather_S100000x64_S3200000x1_S3200000x64_1_0_n_n_0_1_164 x i) : (⟨S100000x64, .f32⟩ : BufTy).Contents (Elt F) → (⟨S3200000x1, .i32⟩ : BufTy).Contents (Elt F) → (⟨S3200000x64, .f32⟩ : BufTy).Contents (Elt F)),
    StableHlo.unary main_v1 main_v9 (broadcastInDim S3200000x64 ![0, 1] bcast_S3200000x1_S3200000x64_0_1 : (⟨S3200000x1, .f32⟩ : BufTy).Contents (Elt F) → (⟨S3200000x64, .f32⟩ : BufTy).Contents (Elt F)),
    StableHlo.binary main_v9 main_v8 main_v10 (mulf : (⟨S3200000x64, .f32⟩ : BufTy).Contents (Elt F) → (⟨S3200000x64, .f32⟩ : BufTy).Contents (Elt F) → (⟨S3200000x64, .f32⟩ : BufTy).Contents (Elt F)),
    StableHlo.nullary main_cst (constant S_ .f32 0x00000000#32),
    StableHlo.unary main_cst main_v11 (broadcastInDim S100000x64 ![] bcast_S_S100000x64 : (⟨S_, .f32⟩ : BufTy).Contents (Elt F) → (⟨S100000x64, .f32⟩ : BufTy).Contents (Elt F)),
    StableHlo.unary main_arg2 main_v12 (broadcastInDim S3200000x1 ![0] bcast_S3200000_S3200000x1_0 : (⟨S3200000, .i32⟩ : BufTy).Contents (Elt F) → (⟨S3200000x1, .i32⟩ : BufTy).Contents (Elt F)),
    StableHlo.ternary main_v11 main_v12 main_v10 main_v13 ((fun x i u => Host.scatterAdd scatter_S100000x64_S3200000x1_S3200000x64_1_0_0_1 x i u) : (⟨S100000x64, .f32⟩ : BufTy).Contents (Elt F) → (⟨S3200000x1, .i32⟩ : BufTy).Contents (Elt F) → (⟨S3200000x64, .f32⟩ : BufTy).Contents (Elt F) → (⟨S100000x64, .f32⟩ : BufTy).Contents (Elt F)),
    StableHlo.unary main_arg7 main_v14 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v14 main_v15 rfl shapeCasts_S1x64x64_S64x64,
    StableHlo.binary main_v13 main_v15 main_v16 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg8 main_v17 ((extractStridedSlice S1x1x64 ![0, 0, 0] · slices_S3x1x64_S1x1x64_0_0_0) : (⟨S3x1x64, .f32⟩ : BufTy).Contents (Elt F) → (⟨S1x1x64, .f32⟩ : BufTy).Contents (Elt F)),
    StableHlo.reshape main_v17 main_v18 rfl shapeCasts_S1x1x64_S1x64,
    StableHlo.unary main_v18 main_v19 (broadcastInDim S100000x64 ![0, 1] bcast_S1x64_S100000x64_0_1 : (⟨S1x64, .f32⟩ : BufTy).Contents (Elt F) → (⟨S100000x64, .f32⟩ : BufTy).Contents (Elt F)),
    StableHlo.binary main_v16 main_v19 main_v20 (addf : (⟨S100000x64, .f32⟩ : BufTy).Contents (Elt F) → (⟨S100000x64, .f32⟩ : BufTy).Contents (Elt F) → (⟨S100000x64, .f32⟩ : BufTy).Contents (Elt F)),
    StableHlo.binary main_v0 main_v13 main_v21 (mulf : (⟨S100000x64, .f32⟩ : BufTy).Contents (Elt F) → (⟨S100000x64, .f32⟩ : BufTy).Contents (Elt F) → (⟨S100000x64, .f32⟩ : BufTy).Contents (Elt F)),
    StableHlo.unary main_arg9 main_v22 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v22 main_v23 rfl shapeCasts_S1x64x64_S64x64,
    StableHlo.binary main_v21 main_v23 main_v24 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg10 main_v25 ((extractStridedSlice S1x1x64 ![0, 0, 0] · slices_S3x1x64_S1x1x64_0_0_0) : (⟨S3x1x64, .f32⟩ : BufTy).Contents (Elt F) → (⟨S1x1x64, .f32⟩ : BufTy).Contents (Elt F)),
    StableHlo.reshape main_v25 main_v26 rfl shapeCasts_S1x1x64_S1x64,
    StableHlo.unary main_v26 main_v27 (broadcastInDim S100000x64 ![0, 1] bcast_S1x64_S100000x64_0_1 : (⟨S1x64, .f32⟩ : BufTy).Contents (Elt F) → (⟨S100000x64, .f32⟩ : BufTy).Contents (Elt F)),
    StableHlo.binary main_v24 main_v27 main_v28 (addf : (⟨S100000x64, .f32⟩ : BufTy).Contents (Elt F) → (⟨S100000x64, .f32⟩ : BufTy).Contents (Elt F) → (⟨S100000x64, .f32⟩ : BufTy).Contents (Elt F)),
    StableHlo.binary main_v20 main_v28 main_v29 (addf : (⟨S100000x64, .f32⟩ : BufTy).Contents (Elt F) → (⟨S100000x64, .f32⟩ : BufTy).Contents (Elt F) → (⟨S100000x64, .f32⟩ : BufTy).Contents (Elt F)),
    StableHlo.nullary main_cst_1 (constant S_ .f32 0x3E4CCCCD#32),
    StableHlo.TRef.nullary main_call0.cst (constant S_ .f32 0x00000000#32),
    StableHlo.TRef.unary main_call0.cst main_call0.v0 (broadcastInDim S100000x64 ![] bcast_S_S100000x64),
    StableHlo.TRef.binary (.of main_v29 : StableHlo.TRef sig ⟨S100000x64, .f32⟩) main_call0.v0 main_call0.v1 (cmpf .oge),
    StableHlo.TRef.unary (.of main_cst_1 : StableHlo.TRef sig ⟨S_, .f32⟩) main_call0.v2 id,
    StableHlo.TRef.unary main_call0.v2 main_call0.v3 (broadcastInDim S100000x64 ![] bcast_S_S100000x64),
    StableHlo.TRef.binary main_call0.v3 (.of main_v29 : StableHlo.TRef sig ⟨S100000x64, .f32⟩) main_call0.v4 mulf,
    StableHlo.TRef.ternary main_call0.v1 (.of main_v29 : StableHlo.TRef sig ⟨S100000x64, .f32⟩) main_call0.v4 main_call0.call0.v0 select,
    StableHlo.binary main_v30 main_v30 main_v31 (mulf : (⟨S100000x64, .f32⟩ : BufTy).Contents (Elt F) → (⟨S100000x64, .f32⟩ : BufTy).Contents (Elt F) → (⟨S100000x64, .f32⟩ : BufTy).Contents (Elt F)),
    StableHlo.nullary main_cst_2 (constant S_ .f32 0x00000000#32),
    StableHlo.binary main_v31 main_cst_2 main_v32 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    StableHlo.unary main_v32 main_v33 (broadcastInDim S100000x1 ![0] bcast_S100000_S100000x1_0 : (⟨S100000, .f32⟩ : BufTy).Contents (Elt F) → (⟨S100000x1, .f32⟩ : BufTy).Contents (Elt F)),
    StableHlo.unary main_v33 main_v34 (Host.sqrt : (⟨S100000x1, .f32⟩ : BufTy).Contents (Elt F) → (⟨S100000x1, .f32⟩ : BufTy).Contents (Elt F)),
    StableHlo.nullary main_cst_3 (constant S_ .f32 0x2B8CBCCC#32),
    StableHlo.unary main_cst_3 main_v35 (broadcastInDim S100000x1 ![] bcast_S_S100000x1 : (⟨S_, .f32⟩ : BufTy).Contents (Elt F) → (⟨S100000x1, .f32⟩ : BufTy).Contents (Elt F)),
    StableHlo.binary main_v34 main_v35 main_v36 (maximumf : (⟨S100000x1, .f32⟩ : BufTy).Contents (Elt F) → (⟨S100000x1, .f32⟩ : BufTy).Contents (Elt F) → (⟨S100000x1, .f32⟩ : BufTy).Contents (Elt F)),
    StableHlo.unary main_v36 main_v37 (broadcastInDim S100000x64 ![0, 1] bcast_S100000x1_S100000x64_0_1 : (⟨S100000x1, .f32⟩ : BufTy).Contents (Elt F) → (⟨S100000x64, .f32⟩ : BufTy).Contents (Elt F)),
    StableHlo.binary main_v30 main_v37 main_v38 (Host.divf : (⟨S100000x64, .f32⟩ : BufTy).Contents (Elt F) → (⟨S100000x64, .f32⟩ : BufTy).Contents (Elt F) → (⟨S100000x64, .f32⟩ : BufTy).Contents (Elt F)),
    StableHlo.unary main_arg4 main_v39 (broadcastInDim S3200000x1 ![0] bcast_S3200000_S3200000x1_0 : (⟨S3200000, .f32⟩ : BufTy).Contents (Elt F) → (⟨S3200000x1, .f32⟩ : BufTy).Contents (Elt F)),
    StableHlo.nullary main_c_4 (constantI S_ 32 0#32),
    StableHlo.unary main_c_4 main_v40 (broadcastInDim S3200000 ![] bcast_S_S3200000 : (⟨S_, .i32⟩ : BufTy).Contents (Elt F) → (⟨S3200000, .i32⟩ : BufTy).Contents (Elt F)),
    StableHlo.binary main_arg3 main_v40 main_v41 (cmpi .slt : (⟨S3200000, .i32⟩ : BufTy).Contents (Elt F) → (⟨S3200000, .i32⟩ : BufTy).Contents (Elt F) → (⟨S3200000, .i1⟩ : BufTy).Contents (Elt F)),
    StableHlo.nullary main_c_5 (constantI S_ 32 100000#32),
    StableHlo.unary main_c_5 main_v42 (broadcastInDim S3200000 ![] bcast_S_S3200000 : (⟨S_, .i32⟩ : BufTy).Contents (Elt F) → (⟨S3200000, .i32⟩ : BufTy).Contents (Elt F)),
    StableHlo.binary main_arg3 main_v42 main_v43 (addi : (⟨S3200000, .i32⟩ : BufTy).Contents (Elt F) → (⟨S3200000, .i32⟩ : BufTy).Contents (Elt F) → (⟨S3200000, .i32⟩ : BufTy).Contents (Elt F)),
    StableHlo.ternary main_v41 main_v43 main_arg3 main_v44 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v44 main_v45 (broadcastInDim S3200000x1 ![0] bcast_S3200000_S3200000x1_0 : (⟨S3200000, .i32⟩ : BufTy).Contents (Elt F) → (⟨S3200000x1, .i32⟩ : BufTy).Contents (Elt F)),
    StableHlo.binary main_v30 main_v45 main_v46 ((fun x i => Host.gather gather_S100000x64_S3200000x1_S3200000x64_1_0_n_n_0_1_164 x i) : (⟨S100000x64, .f32⟩ : BufTy).Contents (Elt F) → (⟨S3200000x1, .i32⟩ : BufTy).Contents (Elt F) → (⟨S3200000x64, .f32⟩ : BufTy).Contents (Elt F)),
    StableHlo.unary main_v39 main_v47 (broadcastInDim S3200000x64 ![0, 1] bcast_S3200000x1_S3200000x64_0_1 : (⟨S3200000x1, .f32⟩ : BufTy).Contents (Elt F) → (⟨S3200000x64, .f32⟩ : BufTy).Contents (Elt F)),
    StableHlo.binary main_v47 main_v46 main_v48 (mulf : (⟨S3200000x64, .f32⟩ : BufTy).Contents (Elt F) → (⟨S3200000x64, .f32⟩ : BufTy).Contents (Elt F) → (⟨S3200000x64, .f32⟩ : BufTy).Contents (Elt F)),
    StableHlo.nullary main_cst_6 (constant S_ .f32 0x00000000#32),
    StableHlo.unary main_cst_6 main_v49 (broadcastInDim S100000x64 ![] bcast_S_S100000x64 : (⟨S_, .f32⟩ : BufTy).Contents (Elt F) → (⟨S100000x64, .f32⟩ : BufTy).Contents (Elt F)),
    StableHlo.unary main_arg2 main_v50 (broadcastInDim S3200000x1 ![0] bcast_S3200000_S3200000x1_0 : (⟨S3200000, .i32⟩ : BufTy).Contents (Elt F) → (⟨S3200000x1, .i32⟩ : BufTy).Contents (Elt F)) ]

/-- The operations of the second printed stretch of @main, the call in it written out. -/
abbrev ops_part1 : List (HloOp τ sig (Elt F)) :=
  [ StableHlo.ternary main_v49 main_v50 main_v48 main_v51 ((fun x i u => Host.scatterAdd scatter_S100000x64_S3200000x1_S3200000x64_1_0_0_1 x i u) : (⟨S100000x64, .f32⟩ : BufTy).Contents (Elt F) → (⟨S3200000x1, .i32⟩ : BufTy).Contents (Elt F) → (⟨S3200000x64, .f32⟩ : BufTy).Contents (Elt F) → (⟨S100000x64, .f32⟩ : BufTy).Contents (Elt F)),
    StableHlo.unary main_arg7 main_v52 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v52 main_v53 rfl shapeCasts_S1x64x64_S64x64,
    StableHlo.binary main_v51 main_v53 main_v54 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg8 main_v55 ((extractStridedSlice S1x1x64 ![1, 0, 0] · slices_S3x1x64_S1x1x64_1_0_0) : (⟨S3x1x64, .f32⟩ : BufTy).Contents (Elt F) → (⟨S1x1x64, .f32⟩ : BufTy).Contents (Elt F)),
    StableHlo.reshape main_v55 main_v56 rfl shapeCasts_S1x1x64_S1x64,
    StableHlo.unary main_v56 main_v57 (broadcastInDim S100000x64 ![0, 1] bcast_S1x64_S100000x64_0_1 : (⟨S1x64, .f32⟩ : BufTy).Contents (Elt F) → (⟨S100000x64, .f32⟩ : BufTy).Contents (Elt F)),
    StableHlo.binary main_v54 main_v57 main_v58 (addf : (⟨S100000x64, .f32⟩ : BufTy).Contents (Elt F) → (⟨S100000x64, .f32⟩ : BufTy).Contents (Elt F) → (⟨S100000x64, .f32⟩ : BufTy).Contents (Elt F)),
    StableHlo.binary main_v30 main_v51 main_v59 (mulf : (⟨S100000x64, .f32⟩ : BufTy).Contents (Elt F) → (⟨S100000x64, .f32⟩ : BufTy).Contents (Elt F) → (⟨S100000x64, .f32⟩ : BufTy).Contents (Elt F)),
    StableHlo.unary main_arg9 main_v60 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v60 main_v61 rfl shapeCasts_S1x64x64_S64x64,
    StableHlo.binary main_v59 main_v61 main_v62 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg10 main_v63 ((extractStridedSlice S1x1x64 ![1, 0, 0] · slices_S3x1x64_S1x1x64_1_0_0) : (⟨S3x1x64, .f32⟩ : BufTy).Contents (Elt F) → (⟨S1x1x64, .f32⟩ : BufTy).Contents (Elt F)),
    StableHlo.reshape main_v63 main_v64 rfl shapeCasts_S1x1x64_S1x64,
    StableHlo.unary main_v64 main_v65 (broadcastInDim S100000x64 ![0, 1] bcast_S1x64_S100000x64_0_1 : (⟨S1x64, .f32⟩ : BufTy).Contents (Elt F) → (⟨S100000x64, .f32⟩ : BufTy).Contents (Elt F)),
    StableHlo.binary main_v62 main_v65 main_v66 (addf : (⟨S100000x64, .f32⟩ : BufTy).Contents (Elt F) → (⟨S100000x64, .f32⟩ : BufTy).Contents (Elt F) → (⟨S100000x64, .f32⟩ : BufTy).Contents (Elt F)),
    StableHlo.binary main_v58 main_v66 main_v67 (addf : (⟨S100000x64, .f32⟩ : BufTy).Contents (Elt F) → (⟨S100000x64, .f32⟩ : BufTy).Contents (Elt F) → (⟨S100000x64, .f32⟩ : BufTy).Contents (Elt F)),
    StableHlo.nullary main_cst_7 (constant S_ .f32 0x3E4CCCCD#32),
    StableHlo.TRef.nullary main_call1.cst (constant S_ .f32 0x00000000#32),
    StableHlo.TRef.unary main_call1.cst main_call1.v0 (broadcastInDim S100000x64 ![] bcast_S_S100000x64),
    StableHlo.TRef.binary (.of main_v67 : StableHlo.TRef sig ⟨S100000x64, .f32⟩) main_call1.v0 main_call1.v1 (cmpf .oge),
    StableHlo.TRef.unary (.of main_cst_7 : StableHlo.TRef sig ⟨S_, .f32⟩) main_call1.v2 id,
    StableHlo.TRef.unary main_call1.v2 main_call1.v3 (broadcastInDim S100000x64 ![] bcast_S_S100000x64),
    StableHlo.TRef.binary main_call1.v3 (.of main_v67 : StableHlo.TRef sig ⟨S100000x64, .f32⟩) main_call1.v4 mulf,
    StableHlo.TRef.ternary main_call1.v1 (.of main_v67 : StableHlo.TRef sig ⟨S100000x64, .f32⟩) main_call1.v4 main_call1.call0.v0 select,
    StableHlo.binary main_v68 main_v68 main_v69 (mulf : (⟨S100000x64, .f32⟩ : BufTy).Contents (Elt F) → (⟨S100000x64, .f32⟩ : BufTy).Contents (Elt F) → (⟨S100000x64, .f32⟩ : BufTy).Contents (Elt F)),
    StableHlo.nullary main_cst_8 (constant S_ .f32 0x00000000#32),
    StableHlo.binary main_v69 main_cst_8 main_v70 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    StableHlo.unary main_v70 main_v71 (broadcastInDim S100000x1 ![0] bcast_S100000_S100000x1_0 : (⟨S100000, .f32⟩ : BufTy).Contents (Elt F) → (⟨S100000x1, .f32⟩ : BufTy).Contents (Elt F)),
    StableHlo.unary main_v71 main_v72 (Host.sqrt : (⟨S100000x1, .f32⟩ : BufTy).Contents (Elt F) → (⟨S100000x1, .f32⟩ : BufTy).Contents (Elt F)),
    StableHlo.nullary main_cst_9 (constant S_ .f32 0x2B8CBCCC#32),
    StableHlo.unary main_cst_9 main_v73 (broadcastInDim S100000x1 ![] bcast_S_S100000x1 : (⟨S_, .f32⟩ : BufTy).Contents (Elt F) → (⟨S100000x1, .f32⟩ : BufTy).Contents (Elt F)),
    StableHlo.binary main_v72 main_v73 main_v74 (maximumf : (⟨S100000x1, .f32⟩ : BufTy).Contents (Elt F) → (⟨S100000x1, .f32⟩ : BufTy).Contents (Elt F) → (⟨S100000x1, .f32⟩ : BufTy).Contents (Elt F)),
    StableHlo.unary main_v74 main_v75 (broadcastInDim S100000x64 ![0, 1] bcast_S100000x1_S100000x64_0_1 : (⟨S100000x1, .f32⟩ : BufTy).Contents (Elt F) → (⟨S100000x64, .f32⟩ : BufTy).Contents (Elt F)),
    StableHlo.binary main_v68 main_v75 main_v76 (Host.divf : (⟨S100000x64, .f32⟩ : BufTy).Contents (Elt F) → (⟨S100000x64, .f32⟩ : BufTy).Contents (Elt F) → (⟨S100000x64, .f32⟩ : BufTy).Contents (Elt F)),
    StableHlo.unary main_arg4 main_v77 (broadcastInDim S3200000x1 ![0] bcast_S3200000_S3200000x1_0 : (⟨S3200000, .f32⟩ : BufTy).Contents (Elt F) → (⟨S3200000x1, .f32⟩ : BufTy).Contents (Elt F)),
    StableHlo.nullary main_c_10 (constantI S_ 32 0#32),
    StableHlo.unary main_c_10 main_v78 (broadcastInDim S3200000 ![] bcast_S_S3200000 : (⟨S_, .i32⟩ : BufTy).Contents (Elt F) → (⟨S3200000, .i32⟩ : BufTy).Contents (Elt F)),
    StableHlo.binary main_arg3 main_v78 main_v79 (cmpi .slt : (⟨S3200000, .i32⟩ : BufTy).Contents (Elt F) → (⟨S3200000, .i32⟩ : BufTy).Contents (Elt F) → (⟨S3200000, .i1⟩ : BufTy).Contents (Elt F)),
    StableHlo.nullary main_c_11 (constantI S_ 32 100000#32),
    StableHlo.unary main_c_11 main_v80 (broadcastInDim S3200000 ![] bcast_S_S3200000 : (⟨S_, .i32⟩ : BufTy).Contents (Elt F) → (⟨S3200000, .i32⟩ : BufTy).Contents (Elt F)),
    StableHlo.binary main_arg3 main_v80 main_v81 (addi : (⟨S3200000, .i32⟩ : BufTy).Contents (Elt F) → (⟨S3200000, .i32⟩ : BufTy).Contents (Elt F) → (⟨S3200000, .i32⟩ : BufTy).Contents (Elt F)),
    StableHlo.ternary main_v79 main_v81 main_arg3 main_v82 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v82 main_v83 (broadcastInDim S3200000x1 ![0] bcast_S3200000_S3200000x1_0 : (⟨S3200000, .i32⟩ : BufTy).Contents (Elt F) → (⟨S3200000x1, .i32⟩ : BufTy).Contents (Elt F)),
    StableHlo.binary main_v68 main_v83 main_v84 ((fun x i => Host.gather gather_S100000x64_S3200000x1_S3200000x64_1_0_n_n_0_1_164 x i) : (⟨S100000x64, .f32⟩ : BufTy).Contents (Elt F) → (⟨S3200000x1, .i32⟩ : BufTy).Contents (Elt F) → (⟨S3200000x64, .f32⟩ : BufTy).Contents (Elt F)),
    StableHlo.unary main_v77 main_v85 (broadcastInDim S3200000x64 ![0, 1] bcast_S3200000x1_S3200000x64_0_1 : (⟨S3200000x1, .f32⟩ : BufTy).Contents (Elt F) → (⟨S3200000x64, .f32⟩ : BufTy).Contents (Elt F)),
    StableHlo.binary main_v85 main_v84 main_v86 (mulf : (⟨S3200000x64, .f32⟩ : BufTy).Contents (Elt F) → (⟨S3200000x64, .f32⟩ : BufTy).Contents (Elt F) → (⟨S3200000x64, .f32⟩ : BufTy).Contents (Elt F)),
    StableHlo.nullary main_cst_12 (constant S_ .f32 0x00000000#32),
    StableHlo.unary main_cst_12 main_v87 (broadcastInDim S100000x64 ![] bcast_S_S100000x64 : (⟨S_, .f32⟩ : BufTy).Contents (Elt F) → (⟨S100000x64, .f32⟩ : BufTy).Contents (Elt F)),
    StableHlo.unary main_arg2 main_v88 (broadcastInDim S3200000x1 ![0] bcast_S3200000_S3200000x1_0 : (⟨S3200000, .i32⟩ : BufTy).Contents (Elt F) → (⟨S3200000x1, .i32⟩ : BufTy).Contents (Elt F)),
    StableHlo.ternary main_v87 main_v88 main_v86 main_v89 ((fun x i u => Host.scatterAdd scatter_S100000x64_S3200000x1_S3200000x64_1_0_0_1 x i u) : (⟨S100000x64, .f32⟩ : BufTy).Contents (Elt F) → (⟨S3200000x1, .i32⟩ : BufTy).Contents (Elt F) → (⟨S3200000x64, .f32⟩ : BufTy).Contents (Elt F) → (⟨S100000x64, .f32⟩ : BufTy).Contents (Elt F)),
    StableHlo.unary main_arg7 main_v90 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v90 main_v91 rfl shapeCasts_S1x64x64_S64x64,
    StableHlo.binary main_v89 main_v91 main_v92 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg8 main_v93 ((extractStridedSlice S1x1x64 ![2, 0, 0] · slices_S3x1x64_S1x1x64_2_0_0) : (⟨S3x1x64, .f32⟩ : BufTy).Contents (Elt F) → (⟨S1x1x64, .f32⟩ : BufTy).Contents (Elt F)),
    StableHlo.reshape main_v93 main_v94 rfl shapeCasts_S1x1x64_S1x64,
    StableHlo.unary main_v94 main_v95 (broadcastInDim S100000x64 ![0, 1] bcast_S1x64_S100000x64_0_1 : (⟨S1x64, .f32⟩ : BufTy).Contents (Elt F) → (⟨S100000x64, .f32⟩ : BufTy).Contents (Elt F)),
    StableHlo.binary main_v92 main_v95 main_v96 (addf : (⟨S100000x64, .f32⟩ : BufTy).Contents (Elt F) → (⟨S100000x64, .f32⟩ : BufTy).Contents (Elt F) → (⟨S100000x64, .f32⟩ : BufTy).Contents (Elt F)),
    StableHlo.binary main_v68 main_v89 main_v97 (mulf : (⟨S100000x64, .f32⟩ : BufTy).Contents (Elt F) → (⟨S100000x64, .f32⟩ : BufTy).Contents (Elt F) → (⟨S100000x64, .f32⟩ : BufTy).Contents (Elt F)),
    StableHlo.unary main_arg9 main_v98 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v98 main_v99 rfl shapeCasts_S1x64x64_S64x64,
    StableHlo.binary main_v97 main_v99 main_v100 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg10 main_v101 ((extractStridedSlice S1x1x64 ![2, 0, 0] · slices_S3x1x64_S1x1x64_2_0_0) : (⟨S3x1x64, .f32⟩ : BufTy).Contents (Elt F) → (⟨S1x1x64, .f32⟩ : BufTy).Contents (Elt F)),
    StableHlo.reshape main_v101 main_v102 rfl shapeCasts_S1x1x64_S1x64,
    StableHlo.unary main_v102 main_v103 (broadcastInDim S100000x64 ![0, 1] bcast_S1x64_S100000x64_0_1 : (⟨S1x64, .f32⟩ : BufTy).Contents (Elt F) → (⟨S100000x64, .f32⟩ : BufTy).Contents (Elt F)),
    StableHlo.binary main_v100 main_v103 main_v104 (addf : (⟨S100000x64, .f32⟩ : BufTy).Contents (Elt F) → (⟨S100000x64, .f32⟩ : BufTy).Contents (Elt F) → (⟨S100000x64, .f32⟩ : BufTy).Contents (Elt F)) ]

/-- The operations of the third printed stretch of @main, the call in it written out. -/
abbrev ops_part2 : List (HloOp τ sig (Elt F)) :=
  [ StableHlo.binary main_v96 main_v104 main_v105 (addf : (⟨S100000x64, .f32⟩ : BufTy).Contents (Elt F) → (⟨S100000x64, .f32⟩ : BufTy).Contents (Elt F) → (⟨S100000x64, .f32⟩ : BufTy).Contents (Elt F)),
    StableHlo.nullary main_cst_13 (constant S_ .f32 0x3E4CCCCD#32),
    StableHlo.TRef.nullary main_call2.cst (constant S_ .f32 0x00000000#32),
    StableHlo.TRef.unary main_call2.cst main_call2.v0 (broadcastInDim S100000x64 ![] bcast_S_S100000x64),
    StableHlo.TRef.binary (.of main_v105 : StableHlo.TRef sig ⟨S100000x64, .f32⟩) main_call2.v0 main_call2.v1 (cmpf .oge),
    StableHlo.TRef.unary (.of main_cst_13 : StableHlo.TRef sig ⟨S_, .f32⟩) main_call2.v2 id,
    StableHlo.TRef.unary main_call2.v2 main_call2.v3 (broadcastInDim S100000x64 ![] bcast_S_S100000x64),
    StableHlo.TRef.binary main_call2.v3 (.of main_v105 : StableHlo.TRef sig ⟨S100000x64, .f32⟩) main_call2.v4 mulf,
    StableHlo.TRef.ternary main_call2.v1 (.of main_v105 : StableHlo.TRef sig ⟨S100000x64, .f32⟩) main_call2.v4 main_call2.call0.v0 select,
    StableHlo.binary main_v106 main_v106 main_v107 (mulf : (⟨S100000x64, .f32⟩ : BufTy).Contents (Elt F) → (⟨S100000x64, .f32⟩ : BufTy).Contents (Elt F) → (⟨S100000x64, .f32⟩ : BufTy).Contents (Elt F)),
    StableHlo.nullary main_cst_14 (constant S_ .f32 0x00000000#32),
    StableHlo.binary main_v107 main_cst_14 main_v108 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    StableHlo.unary main_v108 main_v109 (broadcastInDim S100000x1 ![0] bcast_S100000_S100000x1_0 : (⟨S100000, .f32⟩ : BufTy).Contents (Elt F) → (⟨S100000x1, .f32⟩ : BufTy).Contents (Elt F)),
    StableHlo.unary main_v109 main_v110 (Host.sqrt : (⟨S100000x1, .f32⟩ : BufTy).Contents (Elt F) → (⟨S100000x1, .f32⟩ : BufTy).Contents (Elt F)),
    StableHlo.nullary main_cst_15 (constant S_ .f32 0x2B8CBCCC#32),
    StableHlo.unary main_cst_15 main_v111 (broadcastInDim S100000x1 ![] bcast_S_S100000x1 : (⟨S_, .f32⟩ : BufTy).Contents (Elt F) → (⟨S100000x1, .f32⟩ : BufTy).Contents (Elt F)),
    StableHlo.binary main_v110 main_v111 main_v112 (maximumf : (⟨S100000x1, .f32⟩ : BufTy).Contents (Elt F) → (⟨S100000x1, .f32⟩ : BufTy).Contents (Elt F) → (⟨S100000x1, .f32⟩ : BufTy).Contents (Elt F)),
    StableHlo.unary main_v112 main_v113 (broadcastInDim S100000x64 ![0, 1] bcast_S100000x1_S100000x64_0_1 : (⟨S100000x1, .f32⟩ : BufTy).Contents (Elt F) → (⟨S100000x64, .f32⟩ : BufTy).Contents (Elt F)),
    StableHlo.binary main_v106 main_v113 main_v114 (Host.divf : (⟨S100000x64, .f32⟩ : BufTy).Contents (Elt F) → (⟨S100000x64, .f32⟩ : BufTy).Contents (Elt F) → (⟨S100000x64, .f32⟩ : BufTy).Contents (Elt F)),
    StableHlo.nary ![main_v0, main_v38, main_v76, main_v114] main_v115 (fun u => concatenate S100000x256 1 [⟨S100000x64, u 0⟩, ⟨S100000x64, u 1⟩, ⟨S100000x64, u 2⟩, ⟨S100000x64, u 3⟩] concatenates_S100000x64_S100000x64_S100000x64_S100000x64_S100000x256_d1),
    StableHlo.unary main_v115 main_v116 ((extractStridedSlice S50000x256 ![0, 0] · slices_S100000x256_S50000x256_0_0) : (⟨S100000x256, .f32⟩ : BufTy).Contents (Elt F) → (⟨S50000x256, .f32⟩ : BufTy).Contents (Elt F)),
    StableHlo.nullary main_c_16 (constantI S_ 32 0#32),
    StableHlo.unary main_c_16 main_v117 (broadcastInDim S4096 ![] bcast_S_S4096 : (⟨S_, .i32⟩ : BufTy).Contents (Elt F) → (⟨S4096, .i32⟩ : BufTy).Contents (Elt F)),
    StableHlo.binary main_arg0 main_v117 main_v118 (cmpi .slt : (⟨S4096, .i32⟩ : BufTy).Contents (Elt F) → (⟨S4096, .i32⟩ : BufTy).Contents (Elt F) → (⟨S4096, .i1⟩ : BufTy).Contents (Elt F)),
    StableHlo.nullary main_c_17 (constantI S_ 32 50000#32),
    StableHlo.unary main_c_17 main_v119 (broadcastInDim S4096 ![] bcast_S_S4096 : (⟨S_, .i32⟩ : BufTy).Contents (Elt F) → (⟨S4096, .i32⟩ : BufTy).Contents (Elt F)),
    StableHlo.binary main_arg0 main_v119 main_v120 (addi : (⟨S4096, .i32⟩ : BufTy).Contents (Elt F) → (⟨S4096, .i32⟩ : BufTy).Contents (Elt F) → (⟨S4096, .i32⟩ : BufTy).Contents (Elt F)),
    StableHlo.ternary main_v118 main_v120 main_arg0 main_v121 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v121 main_v122 (broadcastInDim S4096x1 ![0] bcast_S4096_S4096x1_0 : (⟨S4096, .i32⟩ : BufTy).Contents (Elt F) → (⟨S4096x1, .i32⟩ : BufTy).Contents (Elt F)),
    StableHlo.binary main_v116 main_v122 main_v123 ((fun x i => Host.gather gather_S50000x256_S4096x1_S4096x256_1_0_n_n_0_1_1256 x i) : (⟨S50000x256, .f32⟩ : BufTy).Contents (Elt F) → (⟨S4096x1, .i32⟩ : BufTy).Contents (Elt F) → (⟨S4096x256, .f32⟩ : BufTy).Contents (Elt F)),
    StableHlo.unary main_v115 main_v124 ((extractStridedSlice S50000x256 ![50000, 0] · slices_S100000x256_S50000x256_50000_0) : (⟨S100000x256, .f32⟩ : BufTy).Contents (Elt F) → (⟨S50000x256, .f32⟩ : BufTy).Contents (Elt F)),
    StableHlo.nullary main_c_18 (constantI S_ 32 0#32),
    StableHlo.unary main_c_18 main_v125 (broadcastInDim S4096 ![] bcast_S_S4096 : (⟨S_, .i32⟩ : BufTy).Contents (Elt F) → (⟨S4096, .i32⟩ : BufTy).Contents (Elt F)),
    StableHlo.binary main_arg1 main_v125 main_v126 (cmpi .slt : (⟨S4096, .i32⟩ : BufTy).Contents (Elt F) → (⟨S4096, .i32⟩ : BufTy).Contents (Elt F) → (⟨S4096, .i1⟩ : BufTy).Contents (Elt F)),
    StableHlo.nullary main_c_19 (constantI S_ 32 50000#32),
    StableHlo.unary main_c_19 main_v127 (broadcastInDim S4096 ![] bcast_S_S4096 : (⟨S_, .i32⟩ : BufTy).Contents (Elt F) → (⟨S4096, .i32⟩ : BufTy).Contents (Elt F)),
    StableHlo.binary main_arg1 main_v127 main_v128 (addi : (⟨S4096, .i32⟩ : BufTy).Contents (Elt F) → (⟨S4096, .i32⟩ : BufTy).Contents (Elt F) → (⟨S4096, .i32⟩ : BufTy).Contents (Elt F)),
    StableHlo.ternary main_v126 main_v128 main_arg1 main_v129 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v129 main_v130 (broadcastInDim S4096x1 ![0] bcast_S4096_S4096x1_0 : (⟨S4096, .i32⟩ : BufTy).Contents (Elt F) → (⟨S4096x1, .i32⟩ : BufTy).Contents (Elt F)),
    StableHlo.binary main_v124 main_v130 main_v131 ((fun x i => Host.gather gather_S50000x256_S4096x1_S4096x256_1_0_n_n_0_1_1256 x i) : (⟨S50000x256, .f32⟩ : BufTy).Contents (Elt F) → (⟨S4096x1, .i32⟩ : BufTy).Contents (Elt F) → (⟨S4096x256, .f32⟩ : BufTy).Contents (Elt F)),
    StableHlo.binary main_v123 main_v131 main_v132 (mulf : (⟨S4096x256, .f32⟩ : BufTy).Contents (Elt F) → (⟨S4096x256, .f32⟩ : BufTy).Contents (Elt F) → (⟨S4096x256, .f32⟩ : BufTy).Contents (Elt F)),
    StableHlo.nullary main_cst_20 (constant S_ .f32 0x00000000#32),
    StableHlo.binary main_v132 main_cst_20 main_v133 ((fun x v => Host.reduceAdd x v reducesTo_S4096x256_S4096_d1 h_S_) : (⟨S4096x256, .f32⟩ : BufTy).Contents (Elt F) → (⟨S_, .f32⟩ : BufTy).Contents (Elt F) → (⟨S4096, .f32⟩ : BufTy).Contents (Elt F)) ]

/-- The first fifty-one operations: the node table (users over items), the first propagation layer and its row-normalized copy. -/
abbrev opsA : List (HloOp τ sig (Elt F)) :=
  [ StableHlo.binary main_arg5 main_arg6 main_v0 ((fun a b => concatenate S100000x64 0 [⟨S50000x64, a⟩, ⟨S50000x64, b⟩] concatenates_S50000x64_S50000x64_S100000x64_d0) : (⟨S50000x64, .f32⟩ : BufTy).Contents (Elt F) → (⟨S50000x64, .f32⟩ : BufTy).Contents (Elt F) → (⟨S100000x64, .f32⟩ : BufTy).Contents (Elt F)),
    StableHlo.unary main_arg4 main_v1 (broadcastInDim S3200000x1 ![0] bcast_S3200000_S3200000x1_0 : (⟨S3200000, .f32⟩ : BufTy).Contents (Elt F) → (⟨S3200000x1, .f32⟩ : BufTy).Contents (Elt F)),
    StableHlo.nullary main_c (constantI S_ 32 0#32),
    StableHlo.unary main_c main_v2 (broadcastInDim S3200000 ![] bcast_S_S3200000 : (⟨S_, .i32⟩ : BufTy).Contents (Elt F) → (⟨S3200000, .i32⟩ : BufTy).Contents (Elt F)),
    StableHlo.binary main_arg3 main_v2 main_v3 (cmpi .slt : (⟨S3200000, .i32⟩ : BufTy).Contents (Elt F) → (⟨S3200000, .i32⟩ : BufTy).Contents (Elt F) → (⟨S3200000, .i1⟩ : BufTy).Contents (Elt F)),
    StableHlo.nullary main_c_0 (constantI S_ 32 100000#32),
    StableHlo.unary main_c_0 main_v4 (broadcastInDim S3200000 ![] bcast_S_S3200000 : (⟨S_, .i32⟩ : BufTy).Contents (Elt F) → (⟨S3200000, .i32⟩ : BufTy).Contents (Elt F)),
    StableHlo.binary main_arg3 main_v4 main_v5 (addi : (⟨S3200000, .i32⟩ : BufTy).Contents (Elt F) → (⟨S3200000, .i32⟩ : BufTy).Contents (Elt F) → (⟨S3200000, .i32⟩ : BufTy).Contents (Elt F)),
    StableHlo.ternary main_v3 main_v5 main_arg3 main_v6 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v6 main_v7 (broadcastInDim S3200000x1 ![0] bcast_S3200000_S3200000x1_0 : (⟨S3200000, .i32⟩ : BufTy).Contents (Elt F) → (⟨S3200000x1, .i32⟩ : BufTy).Contents (Elt F)),
    StableHlo.binary main_v0 main_v7 main_v8 ((fun x i => Host.gather gather_S100000x64_S3200000x1_S3200000x64_1_0_n_n_0_1_164 x i) : (⟨S100000x64, .f32⟩ : BufTy).Contents (Elt F) → (⟨S3200000x1, .i32⟩ : BufTy).Contents (Elt F) → (⟨S3200000x64, .f32⟩ : BufTy).Contents (Elt F)),
    StableHlo.unary main_v1 main_v9 (broadcastInDim S3200000x64 ![0, 1] bcast_S3200000x1_S3200000x64_0_1 : (⟨S3200000x1, .f32⟩ : BufTy).Contents (Elt F) → (⟨S3200000x64, .f32⟩ : BufTy).Contents (Elt F)),
    StableHlo.binary main_v9 main_v8 main_v10 (mulf : (⟨S3200000x64, .f32⟩ : BufTy).Contents (Elt F) → (⟨S3200000x64, .f32⟩ : BufTy).Contents (Elt F) → (⟨S3200000x64, .f32⟩ : BufTy).Contents (Elt F)),
    StableHlo.nullary main_cst (constant S_ .f32 0x00000000#32),
    StableHlo.unary main_cst main_v11 (broadcastInDim S100000x64 ![] bcast_S_S100000x64 : (⟨S_, .f32⟩ : BufTy).Contents (Elt F) → (⟨S100000x64, .f32⟩ : BufTy).Contents (Elt F)),
    StableHlo.unary main_arg2 main_v12 (broadcastInDim S3200000x1 ![0] bcast_S3200000_S3200000x1_0 : (⟨S3200000, .i32⟩ : BufTy).Contents (Elt F) → (⟨S3200000x1, .i32⟩ : BufTy).Contents (Elt F)),
    StableHlo.ternary main_v11 main_v12 main_v10 main_v13 ((fun x i u => Host.scatterAdd scatter_S100000x64_S3200000x1_S3200000x64_1_0_0_1 x i u) : (⟨S100000x64, .f32⟩ : BufTy).Contents (Elt F) → (⟨S3200000x1, .i32⟩ : BufTy).Contents (Elt F) → (⟨S3200000x64, .f32⟩ : BufTy).Contents (Elt F) → (⟨S100000x64, .f32⟩ : BufTy).Contents (Elt F)),
    StableHlo.unary main_arg7 main_v14 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v14 main_v15 rfl shapeCasts_S1x64x64_S64x64,
    StableHlo.binary main_v13 main_v15 main_v16 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg8 main_v17 ((extractStridedSlice S1x1x64 ![0, 0, 0] · slices_S3x1x64_S1x1x64_0_0_0) : (⟨S3x1x64, .f32⟩ : BufTy).Contents (Elt F) → (⟨S1x1x64, .f32⟩ : BufTy).Contents (Elt F)),
    StableHlo.reshape main_v17 main_v18 rfl shapeCasts_S1x1x64_S1x64,
    StableHlo.unary main_v18 main_v19 (broadcastInDim S100000x64 ![0, 1] bcast_S1x64_S100000x64_0_1 : (⟨S1x64, .f32⟩ : BufTy).Contents (Elt F) → (⟨S100000x64, .f32⟩ : BufTy).Contents (Elt F)),
    StableHlo.binary main_v16 main_v19 main_v20 (addf : (⟨S100000x64, .f32⟩ : BufTy).Contents (Elt F) → (⟨S100000x64, .f32⟩ : BufTy).Contents (Elt F) → (⟨S100000x64, .f32⟩ : BufTy).Contents (Elt F)),
    StableHlo.binary main_v0 main_v13 main_v21 (mulf : (⟨S100000x64, .f32⟩ : BufTy).Contents (Elt F) → (⟨S100000x64, .f32⟩ : BufTy).Contents (Elt F) → (⟨S100000x64, .f32⟩ : BufTy).Contents (Elt F)),
    StableHlo.unary main_arg9 main_v22 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v22 main_v23 rfl shapeCasts_S1x64x64_S64x64,
    StableHlo.binary main_v21 main_v23 main_v24 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg10 main_v25 ((extractStridedSlice S1x1x64 ![0, 0, 0] · slices_S3x1x64_S1x1x64_0_0_0) : (⟨S3x1x64, .f32⟩ : BufTy).Contents (Elt F) → (⟨S1x1x64, .f32⟩ : BufTy).Contents (Elt F)),
    StableHlo.reshape main_v25 main_v26 rfl shapeCasts_S1x1x64_S1x64,
    StableHlo.unary main_v26 main_v27 (broadcastInDim S100000x64 ![0, 1] bcast_S1x64_S100000x64_0_1 : (⟨S1x64, .f32⟩ : BufTy).Contents (Elt F) → (⟨S100000x64, .f32⟩ : BufTy).Contents (Elt F)),
    StableHlo.binary main_v24 main_v27 main_v28 (addf : (⟨S100000x64, .f32⟩ : BufTy).Contents (Elt F) → (⟨S100000x64, .f32⟩ : BufTy).Contents (Elt F) → (⟨S100000x64, .f32⟩ : BufTy).Contents (Elt F)),
    StableHlo.binary main_v20 main_v28 main_v29 (addf : (⟨S100000x64, .f32⟩ : BufTy).Contents (Elt F) → (⟨S100000x64, .f32⟩ : BufTy).Contents (Elt F) → (⟨S100000x64, .f32⟩ : BufTy).Contents (Elt F)),
    StableHlo.nullary main_cst_1 (constant S_ .f32 0x3E4CCCCD#32),
    StableHlo.TRef.nullary main_call0.cst (constant S_ .f32 0x00000000#32),
    StableHlo.TRef.unary main_call0.cst main_call0.v0 (broadcastInDim S100000x64 ![] bcast_S_S100000x64),
    StableHlo.TRef.binary (.of main_v29 : StableHlo.TRef sig ⟨S100000x64, .f32⟩) main_call0.v0 main_call0.v1 (cmpf .oge),
    StableHlo.TRef.unary (.of main_cst_1 : StableHlo.TRef sig ⟨S_, .f32⟩) main_call0.v2 id,
    StableHlo.TRef.unary main_call0.v2 main_call0.v3 (broadcastInDim S100000x64 ![] bcast_S_S100000x64),
    StableHlo.TRef.binary main_call0.v3 (.of main_v29 : StableHlo.TRef sig ⟨S100000x64, .f32⟩) main_call0.v4 mulf,
    StableHlo.TRef.ternary main_call0.v1 (.of main_v29 : StableHlo.TRef sig ⟨S100000x64, .f32⟩) main_call0.v4 main_call0.call0.v0 select,
    StableHlo.binary main_v30 main_v30 main_v31 (mulf : (⟨S100000x64, .f32⟩ : BufTy).Contents (Elt F) → (⟨S100000x64, .f32⟩ : BufTy).Contents (Elt F) → (⟨S100000x64, .f32⟩ : BufTy).Contents (Elt F)),
    StableHlo.nullary main_cst_2 (constant S_ .f32 0x00000000#32),
    StableHlo.binary main_v31 main_cst_2 main_v32 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    StableHlo.unary main_v32 main_v33 (broadcastInDim S100000x1 ![0] bcast_S100000_S100000x1_0 : (⟨S100000, .f32⟩ : BufTy).Contents (Elt F) → (⟨S100000x1, .f32⟩ : BufTy).Contents (Elt F)),
    StableHlo.unary main_v33 main_v34 (Host.sqrt : (⟨S100000x1, .f32⟩ : BufTy).Contents (Elt F) → (⟨S100000x1, .f32⟩ : BufTy).Contents (Elt F)),
    StableHlo.nullary main_cst_3 (constant S_ .f32 0x2B8CBCCC#32),
    StableHlo.unary main_cst_3 main_v35 (broadcastInDim S100000x1 ![] bcast_S_S100000x1 : (⟨S_, .f32⟩ : BufTy).Contents (Elt F) → (⟨S100000x1, .f32⟩ : BufTy).Contents (Elt F)),
    StableHlo.binary main_v34 main_v35 main_v36 (maximumf : (⟨S100000x1, .f32⟩ : BufTy).Contents (Elt F) → (⟨S100000x1, .f32⟩ : BufTy).Contents (Elt F) → (⟨S100000x1, .f32⟩ : BufTy).Contents (Elt F)),
    StableHlo.unary main_v36 main_v37 (broadcastInDim S100000x64 ![0, 1] bcast_S100000x1_S100000x64_0_1 : (⟨S100000x1, .f32⟩ : BufTy).Contents (Elt F) → (⟨S100000x64, .f32⟩ : BufTy).Contents (Elt F)),
    StableHlo.binary main_v30 main_v37 main_v38 (Host.divf : (⟨S100000x64, .f32⟩ : BufTy).Contents (Elt F) → (⟨S100000x64, .f32⟩ : BufTy).Contents (Elt F) → (⟨S100000x64, .f32⟩ : BufTy).Contents (Elt F)) ]

/-- The next fifty: the second propagation layer, read off the first layer's output, and its row-normalized copy. -/
abbrev opsB : List (HloOp τ sig (Elt F)) :=
  [ StableHlo.unary main_arg4 main_v39 (broadcastInDim S3200000x1 ![0] bcast_S3200000_S3200000x1_0 : (⟨S3200000, .f32⟩ : BufTy).Contents (Elt F) → (⟨S3200000x1, .f32⟩ : BufTy).Contents (Elt F)),
    StableHlo.nullary main_c_4 (constantI S_ 32 0#32),
    StableHlo.unary main_c_4 main_v40 (broadcastInDim S3200000 ![] bcast_S_S3200000 : (⟨S_, .i32⟩ : BufTy).Contents (Elt F) → (⟨S3200000, .i32⟩ : BufTy).Contents (Elt F)),
    StableHlo.binary main_arg3 main_v40 main_v41 (cmpi .slt : (⟨S3200000, .i32⟩ : BufTy).Contents (Elt F) → (⟨S3200000, .i32⟩ : BufTy).Contents (Elt F) → (⟨S3200000, .i1⟩ : BufTy).Contents (Elt F)),
    StableHlo.nullary main_c_5 (constantI S_ 32 100000#32),
    StableHlo.unary main_c_5 main_v42 (broadcastInDim S3200000 ![] bcast_S_S3200000 : (⟨S_, .i32⟩ : BufTy).Contents (Elt F) → (⟨S3200000, .i32⟩ : BufTy).Contents (Elt F)),
    StableHlo.binary main_arg3 main_v42 main_v43 (addi : (⟨S3200000, .i32⟩ : BufTy).Contents (Elt F) → (⟨S3200000, .i32⟩ : BufTy).Contents (Elt F) → (⟨S3200000, .i32⟩ : BufTy).Contents (Elt F)),
    StableHlo.ternary main_v41 main_v43 main_arg3 main_v44 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v44 main_v45 (broadcastInDim S3200000x1 ![0] bcast_S3200000_S3200000x1_0 : (⟨S3200000, .i32⟩ : BufTy).Contents (Elt F) → (⟨S3200000x1, .i32⟩ : BufTy).Contents (Elt F)),
    StableHlo.binary main_v30 main_v45 main_v46 ((fun x i => Host.gather gather_S100000x64_S3200000x1_S3200000x64_1_0_n_n_0_1_164 x i) : (⟨S100000x64, .f32⟩ : BufTy).Contents (Elt F) → (⟨S3200000x1, .i32⟩ : BufTy).Contents (Elt F) → (⟨S3200000x64, .f32⟩ : BufTy).Contents (Elt F)),
    StableHlo.unary main_v39 main_v47 (broadcastInDim S3200000x64 ![0, 1] bcast_S3200000x1_S3200000x64_0_1 : (⟨S3200000x1, .f32⟩ : BufTy).Contents (Elt F) → (⟨S3200000x64, .f32⟩ : BufTy).Contents (Elt F)),
    StableHlo.binary main_v47 main_v46 main_v48 (mulf : (⟨S3200000x64, .f32⟩ : BufTy).Contents (Elt F) → (⟨S3200000x64, .f32⟩ : BufTy).Contents (Elt F) → (⟨S3200000x64, .f32⟩ : BufTy).Contents (Elt F)),
    StableHlo.nullary main_cst_6 (constant S_ .f32 0x00000000#32),
    StableHlo.unary main_cst_6 main_v49 (broadcastInDim S100000x64 ![] bcast_S_S100000x64 : (⟨S_, .f32⟩ : BufTy).Contents (Elt F) → (⟨S100000x64, .f32⟩ : BufTy).Contents (Elt F)),
    StableHlo.unary main_arg2 main_v50 (broadcastInDim S3200000x1 ![0] bcast_S3200000_S3200000x1_0 : (⟨S3200000, .i32⟩ : BufTy).Contents (Elt F) → (⟨S3200000x1, .i32⟩ : BufTy).Contents (Elt F)),
    StableHlo.ternary main_v49 main_v50 main_v48 main_v51 ((fun x i u => Host.scatterAdd scatter_S100000x64_S3200000x1_S3200000x64_1_0_0_1 x i u) : (⟨S100000x64, .f32⟩ : BufTy).Contents (Elt F) → (⟨S3200000x1, .i32⟩ : BufTy).Contents (Elt F) → (⟨S3200000x64, .f32⟩ : BufTy).Contents (Elt F) → (⟨S100000x64, .f32⟩ : BufTy).Contents (Elt F)),
    StableHlo.unary main_arg7 main_v52 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v52 main_v53 rfl shapeCasts_S1x64x64_S64x64,
    StableHlo.binary main_v51 main_v53 main_v54 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg8 main_v55 ((extractStridedSlice S1x1x64 ![1, 0, 0] · slices_S3x1x64_S1x1x64_1_0_0) : (⟨S3x1x64, .f32⟩ : BufTy).Contents (Elt F) → (⟨S1x1x64, .f32⟩ : BufTy).Contents (Elt F)),
    StableHlo.reshape main_v55 main_v56 rfl shapeCasts_S1x1x64_S1x64,
    StableHlo.unary main_v56 main_v57 (broadcastInDim S100000x64 ![0, 1] bcast_S1x64_S100000x64_0_1 : (⟨S1x64, .f32⟩ : BufTy).Contents (Elt F) → (⟨S100000x64, .f32⟩ : BufTy).Contents (Elt F)),
    StableHlo.binary main_v54 main_v57 main_v58 (addf : (⟨S100000x64, .f32⟩ : BufTy).Contents (Elt F) → (⟨S100000x64, .f32⟩ : BufTy).Contents (Elt F) → (⟨S100000x64, .f32⟩ : BufTy).Contents (Elt F)),
    StableHlo.binary main_v30 main_v51 main_v59 (mulf : (⟨S100000x64, .f32⟩ : BufTy).Contents (Elt F) → (⟨S100000x64, .f32⟩ : BufTy).Contents (Elt F) → (⟨S100000x64, .f32⟩ : BufTy).Contents (Elt F)),
    StableHlo.unary main_arg9 main_v60 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v60 main_v61 rfl shapeCasts_S1x64x64_S64x64,
    StableHlo.binary main_v59 main_v61 main_v62 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg10 main_v63 ((extractStridedSlice S1x1x64 ![1, 0, 0] · slices_S3x1x64_S1x1x64_1_0_0) : (⟨S3x1x64, .f32⟩ : BufTy).Contents (Elt F) → (⟨S1x1x64, .f32⟩ : BufTy).Contents (Elt F)),
    StableHlo.reshape main_v63 main_v64 rfl shapeCasts_S1x1x64_S1x64,
    StableHlo.unary main_v64 main_v65 (broadcastInDim S100000x64 ![0, 1] bcast_S1x64_S100000x64_0_1 : (⟨S1x64, .f32⟩ : BufTy).Contents (Elt F) → (⟨S100000x64, .f32⟩ : BufTy).Contents (Elt F)),
    StableHlo.binary main_v62 main_v65 main_v66 (addf : (⟨S100000x64, .f32⟩ : BufTy).Contents (Elt F) → (⟨S100000x64, .f32⟩ : BufTy).Contents (Elt F) → (⟨S100000x64, .f32⟩ : BufTy).Contents (Elt F)),
    StableHlo.binary main_v58 main_v66 main_v67 (addf : (⟨S100000x64, .f32⟩ : BufTy).Contents (Elt F) → (⟨S100000x64, .f32⟩ : BufTy).Contents (Elt F) → (⟨S100000x64, .f32⟩ : BufTy).Contents (Elt F)),
    StableHlo.nullary main_cst_7 (constant S_ .f32 0x3E4CCCCD#32),
    StableHlo.TRef.nullary main_call1.cst (constant S_ .f32 0x00000000#32),
    StableHlo.TRef.unary main_call1.cst main_call1.v0 (broadcastInDim S100000x64 ![] bcast_S_S100000x64),
    StableHlo.TRef.binary (.of main_v67 : StableHlo.TRef sig ⟨S100000x64, .f32⟩) main_call1.v0 main_call1.v1 (cmpf .oge),
    StableHlo.TRef.unary (.of main_cst_7 : StableHlo.TRef sig ⟨S_, .f32⟩) main_call1.v2 id,
    StableHlo.TRef.unary main_call1.v2 main_call1.v3 (broadcastInDim S100000x64 ![] bcast_S_S100000x64),
    StableHlo.TRef.binary main_call1.v3 (.of main_v67 : StableHlo.TRef sig ⟨S100000x64, .f32⟩) main_call1.v4 mulf,
    StableHlo.TRef.ternary main_call1.v1 (.of main_v67 : StableHlo.TRef sig ⟨S100000x64, .f32⟩) main_call1.v4 main_call1.call0.v0 select,
    StableHlo.binary main_v68 main_v68 main_v69 (mulf : (⟨S100000x64, .f32⟩ : BufTy).Contents (Elt F) → (⟨S100000x64, .f32⟩ : BufTy).Contents (Elt F) → (⟨S100000x64, .f32⟩ : BufTy).Contents (Elt F)),
    StableHlo.nullary main_cst_8 (constant S_ .f32 0x00000000#32),
    StableHlo.binary main_v69 main_cst_8 main_v70 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    StableHlo.unary main_v70 main_v71 (broadcastInDim S100000x1 ![0] bcast_S100000_S100000x1_0 : (⟨S100000, .f32⟩ : BufTy).Contents (Elt F) → (⟨S100000x1, .f32⟩ : BufTy).Contents (Elt F)),
    StableHlo.unary main_v71 main_v72 (Host.sqrt : (⟨S100000x1, .f32⟩ : BufTy).Contents (Elt F) → (⟨S100000x1, .f32⟩ : BufTy).Contents (Elt F)),
    StableHlo.nullary main_cst_9 (constant S_ .f32 0x2B8CBCCC#32),
    StableHlo.unary main_cst_9 main_v73 (broadcastInDim S100000x1 ![] bcast_S_S100000x1 : (⟨S_, .f32⟩ : BufTy).Contents (Elt F) → (⟨S100000x1, .f32⟩ : BufTy).Contents (Elt F)),
    StableHlo.binary main_v72 main_v73 main_v74 (maximumf : (⟨S100000x1, .f32⟩ : BufTy).Contents (Elt F) → (⟨S100000x1, .f32⟩ : BufTy).Contents (Elt F) → (⟨S100000x1, .f32⟩ : BufTy).Contents (Elt F)),
    StableHlo.unary main_v74 main_v75 (broadcastInDim S100000x64 ![0, 1] bcast_S100000x1_S100000x64_0_1 : (⟨S100000x1, .f32⟩ : BufTy).Contents (Elt F) → (⟨S100000x64, .f32⟩ : BufTy).Contents (Elt F)),
    StableHlo.binary main_v68 main_v75 main_v76 (Host.divf : (⟨S100000x64, .f32⟩ : BufTy).Contents (Elt F) → (⟨S100000x64, .f32⟩ : BufTy).Contents (Elt F) → (⟨S100000x64, .f32⟩ : BufTy).Contents (Elt F)) ]

/-- The next fifty: the third propagation layer, read off the second layer's output, and its row-normalized copy. -/
abbrev opsC : List (HloOp τ sig (Elt F)) :=
  [ StableHlo.unary main_arg4 main_v77 (broadcastInDim S3200000x1 ![0] bcast_S3200000_S3200000x1_0 : (⟨S3200000, .f32⟩ : BufTy).Contents (Elt F) → (⟨S3200000x1, .f32⟩ : BufTy).Contents (Elt F)),
    StableHlo.nullary main_c_10 (constantI S_ 32 0#32),
    StableHlo.unary main_c_10 main_v78 (broadcastInDim S3200000 ![] bcast_S_S3200000 : (⟨S_, .i32⟩ : BufTy).Contents (Elt F) → (⟨S3200000, .i32⟩ : BufTy).Contents (Elt F)),
    StableHlo.binary main_arg3 main_v78 main_v79 (cmpi .slt : (⟨S3200000, .i32⟩ : BufTy).Contents (Elt F) → (⟨S3200000, .i32⟩ : BufTy).Contents (Elt F) → (⟨S3200000, .i1⟩ : BufTy).Contents (Elt F)),
    StableHlo.nullary main_c_11 (constantI S_ 32 100000#32),
    StableHlo.unary main_c_11 main_v80 (broadcastInDim S3200000 ![] bcast_S_S3200000 : (⟨S_, .i32⟩ : BufTy).Contents (Elt F) → (⟨S3200000, .i32⟩ : BufTy).Contents (Elt F)),
    StableHlo.binary main_arg3 main_v80 main_v81 (addi : (⟨S3200000, .i32⟩ : BufTy).Contents (Elt F) → (⟨S3200000, .i32⟩ : BufTy).Contents (Elt F) → (⟨S3200000, .i32⟩ : BufTy).Contents (Elt F)),
    StableHlo.ternary main_v79 main_v81 main_arg3 main_v82 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v82 main_v83 (broadcastInDim S3200000x1 ![0] bcast_S3200000_S3200000x1_0 : (⟨S3200000, .i32⟩ : BufTy).Contents (Elt F) → (⟨S3200000x1, .i32⟩ : BufTy).Contents (Elt F)),
    StableHlo.binary main_v68 main_v83 main_v84 ((fun x i => Host.gather gather_S100000x64_S3200000x1_S3200000x64_1_0_n_n_0_1_164 x i) : (⟨S100000x64, .f32⟩ : BufTy).Contents (Elt F) → (⟨S3200000x1, .i32⟩ : BufTy).Contents (Elt F) → (⟨S3200000x64, .f32⟩ : BufTy).Contents (Elt F)),
    StableHlo.unary main_v77 main_v85 (broadcastInDim S3200000x64 ![0, 1] bcast_S3200000x1_S3200000x64_0_1 : (⟨S3200000x1, .f32⟩ : BufTy).Contents (Elt F) → (⟨S3200000x64, .f32⟩ : BufTy).Contents (Elt F)),
    StableHlo.binary main_v85 main_v84 main_v86 (mulf : (⟨S3200000x64, .f32⟩ : BufTy).Contents (Elt F) → (⟨S3200000x64, .f32⟩ : BufTy).Contents (Elt F) → (⟨S3200000x64, .f32⟩ : BufTy).Contents (Elt F)),
    StableHlo.nullary main_cst_12 (constant S_ .f32 0x00000000#32),
    StableHlo.unary main_cst_12 main_v87 (broadcastInDim S100000x64 ![] bcast_S_S100000x64 : (⟨S_, .f32⟩ : BufTy).Contents (Elt F) → (⟨S100000x64, .f32⟩ : BufTy).Contents (Elt F)),
    StableHlo.unary main_arg2 main_v88 (broadcastInDim S3200000x1 ![0] bcast_S3200000_S3200000x1_0 : (⟨S3200000, .i32⟩ : BufTy).Contents (Elt F) → (⟨S3200000x1, .i32⟩ : BufTy).Contents (Elt F)),
    StableHlo.ternary main_v87 main_v88 main_v86 main_v89 ((fun x i u => Host.scatterAdd scatter_S100000x64_S3200000x1_S3200000x64_1_0_0_1 x i u) : (⟨S100000x64, .f32⟩ : BufTy).Contents (Elt F) → (⟨S3200000x1, .i32⟩ : BufTy).Contents (Elt F) → (⟨S3200000x64, .f32⟩ : BufTy).Contents (Elt F) → (⟨S100000x64, .f32⟩ : BufTy).Contents (Elt F)),
    StableHlo.unary main_arg7 main_v90 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v90 main_v91 rfl shapeCasts_S1x64x64_S64x64,
    StableHlo.binary main_v89 main_v91 main_v92 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg8 main_v93 ((extractStridedSlice S1x1x64 ![2, 0, 0] · slices_S3x1x64_S1x1x64_2_0_0) : (⟨S3x1x64, .f32⟩ : BufTy).Contents (Elt F) → (⟨S1x1x64, .f32⟩ : BufTy).Contents (Elt F)),
    StableHlo.reshape main_v93 main_v94 rfl shapeCasts_S1x1x64_S1x64,
    StableHlo.unary main_v94 main_v95 (broadcastInDim S100000x64 ![0, 1] bcast_S1x64_S100000x64_0_1 : (⟨S1x64, .f32⟩ : BufTy).Contents (Elt F) → (⟨S100000x64, .f32⟩ : BufTy).Contents (Elt F)),
    StableHlo.binary main_v92 main_v95 main_v96 (addf : (⟨S100000x64, .f32⟩ : BufTy).Contents (Elt F) → (⟨S100000x64, .f32⟩ : BufTy).Contents (Elt F) → (⟨S100000x64, .f32⟩ : BufTy).Contents (Elt F)),
    StableHlo.binary main_v68 main_v89 main_v97 (mulf : (⟨S100000x64, .f32⟩ : BufTy).Contents (Elt F) → (⟨S100000x64, .f32⟩ : BufTy).Contents (Elt F) → (⟨S100000x64, .f32⟩ : BufTy).Contents (Elt F)),
    StableHlo.unary main_arg9 main_v98 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v98 main_v99 rfl shapeCasts_S1x64x64_S64x64,
    StableHlo.binary main_v97 main_v99 main_v100 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg10 main_v101 ((extractStridedSlice S1x1x64 ![2, 0, 0] · slices_S3x1x64_S1x1x64_2_0_0) : (⟨S3x1x64, .f32⟩ : BufTy).Contents (Elt F) → (⟨S1x1x64, .f32⟩ : BufTy).Contents (Elt F)),
    StableHlo.reshape main_v101 main_v102 rfl shapeCasts_S1x1x64_S1x64,
    StableHlo.unary main_v102 main_v103 (broadcastInDim S100000x64 ![0, 1] bcast_S1x64_S100000x64_0_1 : (⟨S1x64, .f32⟩ : BufTy).Contents (Elt F) → (⟨S100000x64, .f32⟩ : BufTy).Contents (Elt F)),
    StableHlo.binary main_v100 main_v103 main_v104 (addf : (⟨S100000x64, .f32⟩ : BufTy).Contents (Elt F) → (⟨S100000x64, .f32⟩ : BufTy).Contents (Elt F) → (⟨S100000x64, .f32⟩ : BufTy).Contents (Elt F)),
    StableHlo.binary main_v96 main_v104 main_v105 (addf : (⟨S100000x64, .f32⟩ : BufTy).Contents (Elt F) → (⟨S100000x64, .f32⟩ : BufTy).Contents (Elt F) → (⟨S100000x64, .f32⟩ : BufTy).Contents (Elt F)),
    StableHlo.nullary main_cst_13 (constant S_ .f32 0x3E4CCCCD#32),
    StableHlo.TRef.nullary main_call2.cst (constant S_ .f32 0x00000000#32),
    StableHlo.TRef.unary main_call2.cst main_call2.v0 (broadcastInDim S100000x64 ![] bcast_S_S100000x64),
    StableHlo.TRef.binary (.of main_v105 : StableHlo.TRef sig ⟨S100000x64, .f32⟩) main_call2.v0 main_call2.v1 (cmpf .oge),
    StableHlo.TRef.unary (.of main_cst_13 : StableHlo.TRef sig ⟨S_, .f32⟩) main_call2.v2 id,
    StableHlo.TRef.unary main_call2.v2 main_call2.v3 (broadcastInDim S100000x64 ![] bcast_S_S100000x64),
    StableHlo.TRef.binary main_call2.v3 (.of main_v105 : StableHlo.TRef sig ⟨S100000x64, .f32⟩) main_call2.v4 mulf,
    StableHlo.TRef.ternary main_call2.v1 (.of main_v105 : StableHlo.TRef sig ⟨S100000x64, .f32⟩) main_call2.v4 main_call2.call0.v0 select,
    StableHlo.binary main_v106 main_v106 main_v107 (mulf : (⟨S100000x64, .f32⟩ : BufTy).Contents (Elt F) → (⟨S100000x64, .f32⟩ : BufTy).Contents (Elt F) → (⟨S100000x64, .f32⟩ : BufTy).Contents (Elt F)),
    StableHlo.nullary main_cst_14 (constant S_ .f32 0x00000000#32),
    StableHlo.binary main_v107 main_cst_14 main_v108 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    StableHlo.unary main_v108 main_v109 (broadcastInDim S100000x1 ![0] bcast_S100000_S100000x1_0 : (⟨S100000, .f32⟩ : BufTy).Contents (Elt F) → (⟨S100000x1, .f32⟩ : BufTy).Contents (Elt F)),
    StableHlo.unary main_v109 main_v110 (Host.sqrt : (⟨S100000x1, .f32⟩ : BufTy).Contents (Elt F) → (⟨S100000x1, .f32⟩ : BufTy).Contents (Elt F)),
    StableHlo.nullary main_cst_15 (constant S_ .f32 0x2B8CBCCC#32),
    StableHlo.unary main_cst_15 main_v111 (broadcastInDim S100000x1 ![] bcast_S_S100000x1 : (⟨S_, .f32⟩ : BufTy).Contents (Elt F) → (⟨S100000x1, .f32⟩ : BufTy).Contents (Elt F)),
    StableHlo.binary main_v110 main_v111 main_v112 (maximumf : (⟨S100000x1, .f32⟩ : BufTy).Contents (Elt F) → (⟨S100000x1, .f32⟩ : BufTy).Contents (Elt F) → (⟨S100000x1, .f32⟩ : BufTy).Contents (Elt F)),
    StableHlo.unary main_v112 main_v113 (broadcastInDim S100000x64 ![0, 1] bcast_S100000x1_S100000x64_0_1 : (⟨S100000x1, .f32⟩ : BufTy).Contents (Elt F) → (⟨S100000x64, .f32⟩ : BufTy).Contents (Elt F)),
    StableHlo.binary main_v106 main_v113 main_v114 (Host.divf : (⟨S100000x64, .f32⟩ : BufTy).Contents (Elt F) → (⟨S100000x64, .f32⟩ : BufTy).Contents (Elt F) → (⟨S100000x64, .f32⟩ : BufTy).Contents (Elt F)) ]

/-- The last twenty-four: the four tables side by side, its two halves, the rows picked by the two index vectors, and the row-wise inner product of the picked rows. -/
abbrev opsD : List (HloOp τ sig (Elt F)) :=
  [ StableHlo.nary ![main_v0, main_v38, main_v76, main_v114] main_v115 (fun u => concatenate S100000x256 1 [⟨S100000x64, u 0⟩, ⟨S100000x64, u 1⟩, ⟨S100000x64, u 2⟩, ⟨S100000x64, u 3⟩] concatenates_S100000x64_S100000x64_S100000x64_S100000x64_S100000x256_d1),
    StableHlo.unary main_v115 main_v116 ((extractStridedSlice S50000x256 ![0, 0] · slices_S100000x256_S50000x256_0_0) : (⟨S100000x256, .f32⟩ : BufTy).Contents (Elt F) → (⟨S50000x256, .f32⟩ : BufTy).Contents (Elt F)),
    StableHlo.nullary main_c_16 (constantI S_ 32 0#32),
    StableHlo.unary main_c_16 main_v117 (broadcastInDim S4096 ![] bcast_S_S4096 : (⟨S_, .i32⟩ : BufTy).Contents (Elt F) → (⟨S4096, .i32⟩ : BufTy).Contents (Elt F)),
    StableHlo.binary main_arg0 main_v117 main_v118 (cmpi .slt : (⟨S4096, .i32⟩ : BufTy).Contents (Elt F) → (⟨S4096, .i32⟩ : BufTy).Contents (Elt F) → (⟨S4096, .i1⟩ : BufTy).Contents (Elt F)),
    StableHlo.nullary main_c_17 (constantI S_ 32 50000#32),
    StableHlo.unary main_c_17 main_v119 (broadcastInDim S4096 ![] bcast_S_S4096 : (⟨S_, .i32⟩ : BufTy).Contents (Elt F) → (⟨S4096, .i32⟩ : BufTy).Contents (Elt F)),
    StableHlo.binary main_arg0 main_v119 main_v120 (addi : (⟨S4096, .i32⟩ : BufTy).Contents (Elt F) → (⟨S4096, .i32⟩ : BufTy).Contents (Elt F) → (⟨S4096, .i32⟩ : BufTy).Contents (Elt F)),
    StableHlo.ternary main_v118 main_v120 main_arg0 main_v121 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v121 main_v122 (broadcastInDim S4096x1 ![0] bcast_S4096_S4096x1_0 : (⟨S4096, .i32⟩ : BufTy).Contents (Elt F) → (⟨S4096x1, .i32⟩ : BufTy).Contents (Elt F)),
    StableHlo.binary main_v116 main_v122 main_v123 ((fun x i => Host.gather gather_S50000x256_S4096x1_S4096x256_1_0_n_n_0_1_1256 x i) : (⟨S50000x256, .f32⟩ : BufTy).Contents (Elt F) → (⟨S4096x1, .i32⟩ : BufTy).Contents (Elt F) → (⟨S4096x256, .f32⟩ : BufTy).Contents (Elt F)),
    StableHlo.unary main_v115 main_v124 ((extractStridedSlice S50000x256 ![50000, 0] · slices_S100000x256_S50000x256_50000_0) : (⟨S100000x256, .f32⟩ : BufTy).Contents (Elt F) → (⟨S50000x256, .f32⟩ : BufTy).Contents (Elt F)),
    StableHlo.nullary main_c_18 (constantI S_ 32 0#32),
    StableHlo.unary main_c_18 main_v125 (broadcastInDim S4096 ![] bcast_S_S4096 : (⟨S_, .i32⟩ : BufTy).Contents (Elt F) → (⟨S4096, .i32⟩ : BufTy).Contents (Elt F)),
    StableHlo.binary main_arg1 main_v125 main_v126 (cmpi .slt : (⟨S4096, .i32⟩ : BufTy).Contents (Elt F) → (⟨S4096, .i32⟩ : BufTy).Contents (Elt F) → (⟨S4096, .i1⟩ : BufTy).Contents (Elt F)),
    StableHlo.nullary main_c_19 (constantI S_ 32 50000#32),
    StableHlo.unary main_c_19 main_v127 (broadcastInDim S4096 ![] bcast_S_S4096 : (⟨S_, .i32⟩ : BufTy).Contents (Elt F) → (⟨S4096, .i32⟩ : BufTy).Contents (Elt F)),
    StableHlo.binary main_arg1 main_v127 main_v128 (addi : (⟨S4096, .i32⟩ : BufTy).Contents (Elt F) → (⟨S4096, .i32⟩ : BufTy).Contents (Elt F) → (⟨S4096, .i32⟩ : BufTy).Contents (Elt F)),
    StableHlo.ternary main_v126 main_v128 main_arg1 main_v129 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v129 main_v130 (broadcastInDim S4096x1 ![0] bcast_S4096_S4096x1_0 : (⟨S4096, .i32⟩ : BufTy).Contents (Elt F) → (⟨S4096x1, .i32⟩ : BufTy).Contents (Elt F)),
    StableHlo.binary main_v124 main_v130 main_v131 ((fun x i => Host.gather gather_S50000x256_S4096x1_S4096x256_1_0_n_n_0_1_1256 x i) : (⟨S50000x256, .f32⟩ : BufTy).Contents (Elt F) → (⟨S4096x1, .i32⟩ : BufTy).Contents (Elt F) → (⟨S4096x256, .f32⟩ : BufTy).Contents (Elt F)),
    StableHlo.binary main_v123 main_v131 main_v132 (mulf : (⟨S4096x256, .f32⟩ : BufTy).Contents (Elt F) → (⟨S4096x256, .f32⟩ : BufTy).Contents (Elt F) → (⟨S4096x256, .f32⟩ : BufTy).Contents (Elt F)),
    StableHlo.nullary main_cst_20 (constant S_ .f32 0x00000000#32),
    StableHlo.binary main_v132 main_cst_20 main_v133 ((fun x v => Host.reduceAdd x v reducesTo_S4096x256_S4096_d1 h_S_) : (⟨S4096x256, .f32⟩ : BufTy).Contents (Elt F) → (⟨S_, .f32⟩ : BufTy).Contents (Elt F) → (⟨S4096, .f32⟩ : BufTy).Contents (Elt F)) ]

/-- @main's one hundred and seventy-five operations, in order, cut where one layer's output is complete. -/
abbrev ops : List (HloOp τ sig (Elt F)) := opsA ++ (opsB ++ (opsC ++ opsD))

/-- The two cuts of the same list: the printed stretches, and the layers. -/
theorem recut : (ops_part0 ++ (ops_part1 ++ ops_part2) : List (HloOp τ sig (Elt F))) = ops := rfl

set_option maxRecDepth 8192 in
set_option maxHeartbeats 4000000 in
theorem main_part0_eq (c : Dev nD) : main_part0 (F := F) c = seq ops_part0 := by
  simp only [main_part0, fn_leaky_relu.body, fn_where.body, seq, bind_assoc, pure_bind]
  rfl

set_option maxRecDepth 8192 in
set_option maxHeartbeats 4000000 in
theorem main_part1_eq (c : Dev nD) : main_part1 (F := F) c = seq ops_part1 := by
  simp only [main_part1, fn_leaky_relu.body, fn_where.body, seq, bind_assoc, pure_bind]
  rfl

set_option maxRecDepth 8192 in
set_option maxHeartbeats 4000000 in
theorem main_part2_eq (c : Dev nD) : main_part2 (F := F) c = seq ops_part2 := by
  simp only [main_part2, fn_leaky_relu.body, fn_where.body, seq, bind_assoc, pure_bind]

/-- @main is that straight line: each stretch is its list, and lists run one after the other are their concatenation. -/
theorem main_eq (c : Dev nD) : main (F := F) c = seq ops := by
  rw [← recut]
  simp only [seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

theorem opsA_sub : (opsA : List (HloOp τ sig (Elt F))).Forall fun op => op.bufs ⊆ tcRefs τ sig :=
  ⟨binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., binary_bufs_sub .., unary_bufs_sub .., reshape_bufs_sub .., unary_bufs_sub .., binary_bufs_sub .., binary_bufs_sub .., unary_bufs_sub .., reshape_bufs_sub .., binary_bufs_sub .., unary_bufs_sub .., reshape_bufs_sub .., unary_bufs_sub .., binary_bufs_sub .., binary_bufs_sub .., nullary_bufs_sub .., nullary_bufs_sub .., unary_bufs_sub .., binary_bufs_sub .., unary_bufs_sub .., unary_bufs_sub .., binary_bufs_sub .., ternary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩

/-- Every operation of the chunk determines what it writes. -/
theorem opsA_fresh : (opsA : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem opsB_sub : (opsB : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., binary_bufs_sub .., unary_bufs_sub .., reshape_bufs_sub .., unary_bufs_sub .., binary_bufs_sub .., binary_bufs_sub .., unary_bufs_sub .., reshape_bufs_sub .., binary_bufs_sub .., unary_bufs_sub .., reshape_bufs_sub .., unary_bufs_sub .., binary_bufs_sub .., binary_bufs_sub .., nullary_bufs_sub .., nullary_bufs_sub .., unary_bufs_sub .., binary_bufs_sub .., unary_bufs_sub .., unary_bufs_sub .., binary_bufs_sub .., ternary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩

/-- Every operation of the chunk determines what it writes. -/
theorem opsB_fresh : (opsB : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem opsC_sub : (opsC : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., binary_bufs_sub .., unary_bufs_sub .., reshape_bufs_sub .., unary_bufs_sub .., binary_bufs_sub .., binary_bufs_sub .., unary_bufs_sub .., reshape_bufs_sub .., binary_bufs_sub .., unary_bufs_sub .., reshape_bufs_sub .., unary_bufs_sub .., binary_bufs_sub .., binary_bufs_sub .., nullary_bufs_sub .., nullary_bufs_sub .., unary_bufs_sub .., binary_bufs_sub .., unary_bufs_sub .., unary_bufs_sub .., binary_bufs_sub .., ternary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩

/-- Every operation of the chunk determines what it writes. -/
theorem opsC_fresh : (opsC : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem opsD_sub : (opsD : List (HloOp τ sig (Elt F))).Forall fun op => op.bufs ⊆ tcRefs τ sig :=
  ⟨nary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub ..⟩

/-- Every operation of the chunk determines what it writes. -/
theorem opsD_fresh : (opsD : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl⟩

theorem ops_sub : (ops : List (HloOp τ sig (Elt F))).Forall fun op => op.bufs ⊆ tcRefs τ sig :=
  List.forall_iff_forall_mem.mpr fun op h => by
    simp only [ops, List.mem_append] at h
    rcases h with h | h | h | h
    exacts [List.forall_iff_forall_mem.mp opsA_sub op h, List.forall_iff_forall_mem.mp opsB_sub op h,
      List.forall_iff_forall_mem.mp opsC_sub op h, List.forall_iff_forall_mem.mp opsD_sub op h]

theorem ops_fresh : ∀ op ∈ (ops : List (HloOp τ sig (Elt F))), op.fresh = ∅ := fun op h => by
  simp only [ops, List.mem_append] at h
  rcases h with h | h | h | h
  exacts [List.forall_iff_forall_mem.mp opsA_fresh op h, List.forall_iff_forall_mem.mp opsB_fresh op h,
    List.forall_iff_forall_mem.mp opsC_fresh op h, List.forall_iff_forall_mem.mp opsD_fresh op h]

/-- The contents after the whole line are the contents after the four chunks in turn. -/
theorem after_ops (V : Valuation τ sig (Elt F)) :
    after ops V = after opsD (after opsC (after opsB (after opsA V))) := by
  simp only [ops, after_append]

/-- From any memory with zero counters, every weakly fair execution of @main terminates, and every buffer of every
    core then holds what the operations, folded in order over the launch contents, leave in it. -/
theorem run_after (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.ReferenceIdeal.Hand

end
-- ==== Proof.Ref.St.lean ====
/-
  The reference's stages as functions of the arrays they read.

  Each definition is the composite of the StableHLO operations that compute one stage, in the
  order the program applies them, with the same shape evidence. Rows 0 … 49999 of a node array
  are the users, rows 50000 … 99999 the items.
-/
import proofs.«424767_j70944269795902_3_alg».proof.ReferenceIdeal

noncomputable section

namespace Cert.ReferenceIdeal.Hand

open Cert.ReferenceIdeal Idealize.ShloMosaic
open Facts₀ Facts

variable {F : FTy → Type} [FloatOps F] [Facts]

/-- The layer-0 node features: the user rows above the item rows. -/
def ego0 (ue ie : FVec F S50000x64 .f32) : FVec F S100000x64 .f32 :=
  concatenate S100000x64 0 [⟨S50000x64, ue⟩, ⟨S50000x64, ie⟩] concatenates_S50000x64_S50000x64_S100000x64_d0

/-- The neighbourhood sum: edge `e` adds `val e` times row `col e` of `ego` (a negative column
    index first raised by 100000) into row `row e` of a zero array. -/
def side (row col : IVec S3200000 32) (val : FVec F S3200000 .f32) (ego : FVec F S100000x64 .f32) :
    FVec F S100000x64 .f32 :=
  Host.scatterAdd scatter_S100000x64_S3200000x1_S3200000x64_1_0_0_1
    (broadcastInDim S100000x64 ![] bcast_S_S100000x64 (constant S_ .f32 0x00000000#32))
    (broadcastInDim S3200000x1 ![0] bcast_S3200000_S3200000x1_0 row)
    (mulf
      (broadcastInDim S3200000x64 ![0, 1] bcast_S3200000x1_S3200000x64_0_1
        (broadcastInDim S3200000x1 ![0] bcast_S3200000_S3200000x1_0 val))
      (Host.gather gather_S100000x64_S3200000x1_S3200000x64_1_0_n_n_0_1_164 ego
        (broadcastInDim S3200000x1 ![0] bcast_S3200000_S3200000x1_0
          (select
            (cmpi .slt col (broadcastInDim S3200000 ![] bcast_S_S3200000 (constantI S_ 32 0#32)))
            (addi col (broadcastInDim S3200000 ![] bcast_S_S3200000 (constantI S_ 32 100000#32)))
            col))))

/-- Layer 0's weight matrices and bias rows: slab 0 of each stacked parameter. -/
def wgc0 (W : FVec F S3x64x64 .f32) : FVec F S64x64 .f32 :=
  shapeCast S64x64 (extractStridedSlice S1x64x64 ![0, 0, 0] W slices_S3x64x64_S1x64x64_0_0_0) shapeCasts_S1x64x64_S64x64
def bgc0 (b : FVec F S3x1x64 .f32) : FVec F S1x64 .f32 :=
  shapeCast S1x64 (extractStridedSlice S1x1x64 ![0, 0, 0] b slices_S3x1x64_S1x1x64_0_0_0) shapeCasts_S1x1x64_S1x64
def wbi0 (W : FVec F S3x64x64 .f32) : FVec F S64x64 .f32 :=
  shapeCast S64x64 (extractStridedSlice S1x64x64 ![0, 0, 0] W slices_S3x64x64_S1x64x64_0_0_0) shapeCasts_S1x64x64_S64x64
def bbi0 (b : FVec F S3x1x64 .f32) : FVec F S1x64 .f32 :=
  shapeCast S1x64 (extractStridedSlice S1x1x64 ![0, 0, 0] b slices_S3x1x64_S1x1x64_0_0_0) shapeCasts_S1x1x64_S1x64

/-- Layer 1's: slab 1. -/
def wgc1 (W : FVec F S3x64x64 .f32) : FVec F S64x64 .f32 :=
  shapeCast S64x64 (extractStridedSlice S1x64x64 ![1, 0, 0] W slices_S3x64x64_S1x64x64_1_0_0) shapeCasts_S1x64x64_S64x64
def bgc1 (b : FVec F S3x1x64 .f32) : FVec F S1x64 .f32 :=
  shapeCast S1x64 (extractStridedSlice S1x1x64 ![1, 0, 0] b slices_S3x1x64_S1x1x64_1_0_0) shapeCasts_S1x1x64_S1x64
def wbi1 (W : FVec F S3x64x64 .f32) : FVec F S64x64 .f32 :=
  shapeCast S64x64 (extractStridedSlice S1x64x64 ![1, 0, 0] W slices_S3x64x64_S1x64x64_1_0_0) shapeCasts_S1x64x64_S64x64
def bbi1 (b : FVec F S3x1x64 .f32) : FVec F S1x64 .f32 :=
  shapeCast S1x64 (extractStridedSlice S1x1x64 ![1, 0, 0] b slices_S3x1x64_S1x1x64_1_0_0) shapeCasts_S1x1x64_S1x64

/-- Layer 2's: slab 2. -/
def wgc2 (W : FVec F S3x64x64 .f32) : FVec F S64x64 .f32 :=
  shapeCast S64x64 (extractStridedSlice S1x64x64 ![2, 0, 0] W slices_S3x64x64_S1x64x64_2_0_0) shapeCasts_S1x64x64_S64x64
def bgc2 (b : FVec F S3x1x64 .f32) : FVec F S1x64 .f32 :=
  shapeCast S1x64 (extractStridedSlice S1x1x64 ![2, 0, 0] b slices_S3x1x64_S1x1x64_2_0_0) shapeCasts_S1x1x64_S1x64
def wbi2 (W : FVec F S3x64x64 .f32) : FVec F S64x64 .f32 :=
  shapeCast S64x64 (extractStridedSlice S1x64x64 ![2, 0, 0] W slices_S3x64x64_S1x64x64_2_0_0) shapeCasts_S1x64x64_S64x64
def bbi2 (b : FVec F S3x1x64 .f32) : FVec F S1x64 .f32 :=
  shapeCast S1x64 (extractStridedSlice S1x1x64 ![2, 0, 0] b slices_S3x1x64_S1x1x64_2_0_0) shapeCasts_S1x1x64_S1x64

/-- One layer: `(side · wgc + bgc) + ((ego * side) · wbi + bbi)`, each bias row broadcast down the
    nodes, then the leaky rectifier with slope word 0x3E4CCCCD: where the sum compares ≥ 0 the sum
    itself, elsewhere the slope times the sum. -/
def layer (ego side : FVec F S100000x64 .f32) (wgc : FVec F S64x64 .f32) (bgc : FVec F S1x64 .f32)
    (wbi : FVec F S64x64 .f32) (bbi : FVec F S1x64 .f32) : FVec F S100000x64 .f32 :=
  select
    (cmpf .oge
      (addf
        (addf (Host.dotGeneral dot_S100000x64_S64x64_S100000x64_1_0_0_1_n_n none side wgc)
          (broadcastInDim S100000x64 ![0, 1] bcast_S1x64_S100000x64_0_1 bgc))
        (addf (Host.dotGeneral dot_S100000x64_S64x64_S100000x64_1_0_0_1_n_n none (mulf ego side) wbi)
          (broadcastInDim S100000x64 ![0, 1] bcast_S1x64_S100000x64_0_1 bbi)))
      (broadcastInDim S100000x64 ![] bcast_S_S100000x64 (constant S_ .f32 0x00000000#32)))
    (addf
      (addf (Host.dotGeneral dot_S100000x64_S64x64_S100000x64_1_0_0_1_n_n none side wgc)
        (broadcastInDim S100000x64 ![0, 1] bcast_S1x64_S100000x64_0_1 bgc))
      (addf (Host.dotGeneral dot_S100000x64_S64x64_S100000x64_1_0_0_1_n_n none (mulf ego side) wbi)
        (broadcastInDim S100000x64 ![0, 1] bcast_S1x64_S100000x64_0_1 bbi)))
    (mulf
      (broadcastInDim S100000x64 ![] bcast_S_S100000x64 (id (constant S_ .f32 0x3E4CCCCD#32)))
      (addf
        (addf (Host.dotGeneral dot_S100000x64_S64x64_S100000x64_1_0_0_1_n_n none side wgc)
          (broadcastInDim S100000x64 ![0, 1] bcast_S1x64_S100000x64_0_1 bgc))
        (addf (Host.dotGeneral dot_S100000x64_S64x64_S100000x64_1_0_0_1_n_n none (mulf ego side) wbi)
          (broadcastInDim S100000x64 ![0, 1] bcast_S1x64_S100000x64_0_1 bbi))))

/-- Row-wise normalization: each entry divided by the larger of its row's root sum of squares
    and the word 0x2B8CBCCC. -/
def nrmFull (x : FVec F S100000x64 .f32) : FVec F S100000x64 .f32 :=
  Host.divf x
    (broadcastInDim S100000x64 ![0, 1] bcast_S100000x1_S100000x64_0_1
      (maximumf
        (Host.sqrt
          (broadcastInDim S100000x1 ![0] bcast_S100000_S100000x1_0
            (Host.reduceAdd (mulf x x) (constant S_ .f32 0x00000000#32) reducesTo_S100000x64_S100000_d1 h_S_)))
        (broadcastInDim S100000x1 ![] bcast_S_S100000x1 (constant S_ .f32 0x2B8CBCCC#32))))

/-- The 256 features of every node: layer 0's as they are, then the normalized features of
    layers 1, 2 and 3, side by side. -/
def allE (e0 e1 e2 e3 : FVec F S100000x64 .f32) : FVec F S100000x256 .f32 :=
  concatenate S100000x256 1
    [⟨S100000x64, e0⟩, ⟨S100000x64, nrmFull e1⟩, ⟨S100000x64, nrmFull e2⟩, ⟨S100000x64, nrmFull e3⟩]
    concatenates_S100000x64_S100000x64_S100000x64_S100000x64_S100000x256_d1

/-- Rows `idx` of a 50000-row table (a negative index first raised by 50000). -/
def takeRows (tbl : FVec F S50000x256 .f32) (idx : IVec S4096 32) : FVec F S4096x256 .f32 :=
  Host.gather gather_S50000x256_S4096x1_S4096x256_1_0_n_n_0_1_1256 tbl
    (broadcastInDim S4096x1 ![0] bcast_S4096_S4096x1_0
      (select
        (cmpi .slt idx (broadcastInDim S4096 ![] bcast_S_S4096 (constantI S_ 32 0#32)))
        (addi idx (broadcastInDim S4096 ![] bcast_S_S4096 (constantI S_ 32 50000#32)))
        idx))

/-- The batch's user rows: rows `user` of the first 50000 nodes' features. -/
def uGof (e0 e1 e2 e3 : FVec F S100000x64 .f32) (user : IVec S4096 32) : FVec F S4096x256 .f32 :=
  takeRows (extractStridedSlice S50000x256 ![0, 0] (allE e0 e1 e2 e3) slices_S100000x256_S50000x256_0_0) user

/-- The batch's item rows: rows `item` of the last 50000 nodes' features. -/
def iGof (e0 e1 e2 e3 : FVec F S100000x64 .f32) (item : IVec S4096 32) : FVec F S4096x256 .f32 :=
  takeRows (extractStridedSlice S50000x256 ![50000, 0] (allE e0 e1 e2 e3) slices_S100000x256_S50000x256_50000_0) item

/-- The scores: each batch row's sum over the 256 features of the user entry times the item entry. -/
def posf (u i : FVec F S4096x256 .f32) : FVec F S4096 .f32 :=
  Host.reduceAdd (mulf u i) (constant S_ .f32 0x00000000#32) reducesTo_S4096x256_S4096_d1 h_S_

end Cert.ReferenceIdeal.Hand

end
-- ==== Proof.Ref.Run1.lean ====
import proofs.«424767_j70944269795902_3_alg».proof.Proof.Ref.Run0
import proofs.«424767_j70944269795902_3_alg».proof.Proof.Ref.St

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## What each chunk writes, and what it leaves alone -/

/-- The buffers the chunk's operations write, in order. -/
abbrev opsA_W : List (Ref sig .tc) := [main_v0, main_v1, main_c, main_v2, main_v3, main_c_0, main_v4, main_v5, main_v6, main_v7, main_v8, main_v9, main_v10, main_cst, main_v11, main_v12, main_v13, main_v14, main_v15, main_v16, main_v17, main_v18, main_v19, main_v20, main_v21, main_v22, main_v23, main_v24, main_v25, main_v26, main_v27, main_v28, main_v29, main_cst_1, main_call0_cst, main_call0_v0, main_call0_v1, main_call0_v2, main_call0_v3, main_call0_v4, main_v30, main_v31, main_cst_2, main_v32, main_v33, main_v34, main_cst_3, main_v35, main_v36, main_v37, main_v38]

set_option maxRecDepth 8192 in
theorem opsA_writes : (opsA : List (HloOp τ sig (Elt F))).Forall fun op =>
    op.writes ⊆ (opsA_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the chunk does not write keeps its contents through it. -/
theorem opsA_keep (W : Valuation τ sig (Elt F)) (r : Ref sig .tc) (h : r ∉ opsA_W) :
    after opsA W (Proc.devRef .tc r) = W (Proc.devRef .tc r) :=
  after_of_writes_sub opsA _ opsA_writes h

/-- The buffers the chunk's operations write, in order. -/
abbrev opsB_W : List (Ref sig .tc) := [main_v39, main_c_4, main_v40, main_v41, main_c_5, main_v42, main_v43, main_v44, main_v45, main_v46, main_v47, main_v48, main_cst_6, main_v49, main_v50, main_v51, main_v52, main_v53, main_v54, main_v55, main_v56, main_v57, main_v58, main_v59, main_v60, main_v61, main_v62, main_v63, main_v64, main_v65, main_v66, main_v67, main_cst_7, main_call1_cst, main_call1_v0, main_call1_v1, main_call1_v2, main_call1_v3, main_call1_v4, main_v68, main_v69, main_cst_8, main_v70, main_v71, main_v72, main_cst_9, main_v73, main_v74, main_v75, main_v76]

set_option maxRecDepth 8192 in
theorem opsB_writes : (opsB : List (HloOp τ sig (Elt F))).Forall fun op =>
    op.writes ⊆ (opsB_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the chunk does not write keeps its contents through it. -/
theorem opsB_keep (W : Valuation τ sig (Elt F)) (r : Ref sig .tc) (h : r ∉ opsB_W) :
    after opsB W (Proc.devRef .tc r) = W (Proc.devRef .tc r) :=
  after_of_writes_sub opsB _ opsB_writes h

/-- The buffers the chunk's operations write, in order. -/
abbrev opsC_W : List (Ref sig .tc) := [main_v77, main_c_10, main_v78, main_v79, main_c_11, main_v80, main_v81, main_v82, main_v83, main_v84, main_v85, main_v86, main_cst_12, main_v87, main_v88, main_v89, main_v90, main_v91, main_v92, main_v93, main_v94, main_v95, main_v96, main_v97, main_v98, main_v99, main_v100, main_v101, main_v102, main_v103, main_v104, main_v105, main_cst_13, main_call2_cst, main_call2_v0, main_call2_v1, main_call2_v2, main_call2_v3, main_call2_v4, main_v106, main_v107, main_cst_14, main_v108, main_v109, main_v110, main_cst_15, main_v111, main_v112, main_v113, main_v114]

set_option maxRecDepth 8192 in
theorem opsC_writes : (opsC : List (HloOp τ sig (Elt F))).Forall fun op =>
    op.writes ⊆ (opsC_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the chunk does not write keeps its contents through it. -/
theorem opsC_keep (W : Valuation τ sig (Elt F)) (r : Ref sig .tc) (h : r ∉ opsC_W) :
    after opsC W (Proc.devRef .tc r) = W (Proc.devRef .tc r) :=
  after_of_writes_sub opsC _ opsC_writes h

/-- The buffers the chunk's operations write, in order. -/
abbrev opsD_W : List (Ref sig .tc) := [main_v115, main_v116, main_c_16, main_v117, main_v118, main_c_17, main_v119, main_v120, main_v121, main_v122, main_v123, main_v124, main_c_18, main_v125, main_v126, main_c_19, main_v127, main_v128, main_v129, main_v130, main_v131, main_v132, main_cst_20, main_v133]

set_option maxRecDepth 8192 in
theorem opsD_writes : (opsD : List (HloOp τ sig (Elt F))).Forall fun op =>
    op.writes ⊆ (opsD_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the chunk does not write keeps its contents through it. -/
theorem opsD_keep (W : Valuation τ sig (Elt F)) (r : Ref sig .tc) (h : r ∉ opsD_W) :
    after opsD W (Proc.devRef .tc r) = W (Proc.devRef .tc r) :=
  after_of_writes_sub opsD _ opsD_writes h

/-! ## Each chunk's outputs as functions of what it reads, from any contents -/

/-- One propagation layer with slab 0 of the parameters, read off a valuation: the node table from the two
    embedding arguments, its neighbourhood sum over the edge arguments, then the layer. -/
def stepA (W : Valuation τ sig (Elt F)) : FVec F S100000x64 .f32 :=
  layer (ego0 (W (Proc.devRef .tc main_arg5)) (W (Proc.devRef .tc main_arg6))) (side (W (Proc.devRef .tc main_arg2)) (W (Proc.devRef .tc main_arg3)) (W (Proc.devRef .tc main_arg4)) (ego0 (W (Proc.devRef .tc main_arg5)) (W (Proc.devRef .tc main_arg6)))) (wgc0 (W (Proc.devRef .tc main_arg7))) (bgc0 (W (Proc.devRef .tc main_arg8))) (wbi0 (W (Proc.devRef .tc main_arg9))) (bbi0 (W (Proc.devRef .tc main_arg10)))

/-- The layer with slab 1, its node features read from the first layer's output buffer. -/
def stepB (W : Valuation τ sig (Elt F)) : FVec F S100000x64 .f32 :=
  layer (W (Proc.devRef .tc main_v30)) (side (W (Proc.devRef .tc main_arg2)) (W (Proc.devRef .tc main_arg3)) (W (Proc.devRef .tc main_arg4)) (W (Proc.devRef .tc main_v30))) (wgc1 (W (Proc.devRef .tc main_arg7))) (bgc1 (W (Proc.devRef .tc main_arg8))) (wbi1 (W (Proc.devRef .tc main_arg9))) (bbi1 (W (Proc.devRef .tc main_arg10)))

/-- The layer with slab 2, its node features read from the second layer's output buffer. -/
def stepC (W : Valuation τ sig (Elt F)) : FVec F S100000x64 .f32 :=
  layer (W (Proc.devRef .tc main_v68)) (side (W (Proc.devRef .tc main_arg2)) (W (Proc.devRef .tc main_arg3)) (W (Proc.devRef .tc main_arg4)) (W (Proc.devRef .tc main_v68))) (wgc2 (W (Proc.devRef .tc main_arg7))) (bgc2 (W (Proc.devRef .tc main_arg8))) (wbi2 (W (Proc.devRef .tc main_arg9))) (bbi2 (W (Proc.devRef .tc main_arg10)))

set_option maxRecDepth 8192 in
set_option maxHeartbeats 4000000 in
theorem opsA_v0 (W : Valuation τ sig (Elt F)) :
    after opsA W (Proc.devRef .tc main_v0) = ego0 (W (Proc.devRef .tc main_arg5)) (W (Proc.devRef .tc main_arg6)) := by
  simp only [opsA]
  after_results_simp
  rfl

set_option maxRecDepth 8192 in
set_option maxHeartbeats 4000000 in
theorem opsA_v30 (W : Valuation τ sig (Elt F)) :
    after opsA W (Proc.devRef .tc main_v30) = stepA W := by
  simp only [opsA]
  after_results_simp
  rfl

set_option maxRecDepth 8192 in
set_option maxHeartbeats 4000000 in
theorem opsA_v38 (W : Valuation τ sig (Elt F)) :
    after opsA W (Proc.devRef .tc main_v38) = nrmFull (stepA W) := by
  simp only [opsA]
  after_results_simp
  rfl

set_option maxRecDepth 8192 in
set_option maxHeartbeats 4000000 in
theorem opsB_v68 (W : Valuation τ sig (Elt F)) :
    after opsB W (Proc.devRef .tc main_v68) = stepB W := by
  simp only [opsB]
  after_results_simp
  rfl

set_option maxRecDepth 8192 in
set_option maxHeartbeats 4000000 in
theorem opsB_v76 (W : Valuation τ sig (Elt F)) :
    after opsB W (Proc.devRef .tc main_v76) = nrmFull (stepB W) := by
  simp only [opsB]
  after_results_simp
  rfl

set_option maxRecDepth 8192 in
set_option maxHeartbeats 4000000 in
theorem opsC_v106 (W : Valuation τ sig (Elt F)) :
    after opsC W (Proc.devRef .tc main_v106) = stepC W := by
  simp only [opsC]
  after_results_simp
  rfl

set_option maxRecDepth 8192 in
set_option maxHeartbeats 4000000 in
theorem opsC_v114 (W : Valuation τ sig (Elt F)) :
    after opsC W (Proc.devRef .tc main_v114) = nrmFull (stepC W) := by
  simp only [opsC]
  after_results_simp
  rfl

end Cert.ReferenceIdeal.Hand

end
-- ==== Proof.Ref.Run.lean ====
import proofs.«424767_j70944269795902_3_alg».proof.Proof.Ref.Run1

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The last chunk: the picked rows and their inner products -/

set_option maxRecDepth 8192 in
set_option maxHeartbeats 4000000 in
theorem opsD_v123 (W : Valuation τ sig (Elt F)) (e1 e2 e3 : FVec F S100000x64 .f32)
    (h1 : W (Proc.devRef .tc main_v38) = nrmFull e1) (h2 : W (Proc.devRef .tc main_v76) = nrmFull e2) (h3 : W (Proc.devRef .tc main_v114) = nrmFull e3) :
    after opsD W (Proc.devRef .tc main_v123) = uGof (W (Proc.devRef .tc main_v0)) e1 e2 e3 (W (Proc.devRef .tc main_arg0)) := by
  simp only [opsD]
  after_results_simp
  dsimp only [Matrix.cons_val]
  rw [h1, h2, h3]
  rfl

set_option maxRecDepth 8192 in
set_option maxHeartbeats 4000000 in
theorem opsD_v131 (W : Valuation τ sig (Elt F)) (e1 e2 e3 : FVec F S100000x64 .f32)
    (h1 : W (Proc.devRef .tc main_v38) = nrmFull e1) (h2 : W (Proc.devRef .tc main_v76) = nrmFull e2) (h3 : W (Proc.devRef .tc main_v114) = nrmFull e3) :
    after opsD W (Proc.devRef .tc main_v131) = iGof (W (Proc.devRef .tc main_v0)) e1 e2 e3 (W (Proc.devRef .tc main_arg1)) := by
  simp only [opsD]
  after_results_simp
  dsimp only [Matrix.cons_val]
  rw [h1, h2, h3]
  rfl

set_option maxRecDepth 8192 in
set_option maxHeartbeats 4000000 in
theorem opsD_v133 (W : Valuation τ sig (Elt F)) (e1 e2 e3 : FVec F S100000x64 .f32)
    (h1 : W (Proc.devRef .tc main_v38) = nrmFull e1) (h2 : W (Proc.devRef .tc main_v76) = nrmFull e2) (h3 : W (Proc.devRef .tc main_v114) = nrmFull e3) :
    after opsD W (Proc.devRef .tc main_v133) = posf (uGof (W (Proc.devRef .tc main_v0)) e1 e2 e3 (W (Proc.devRef .tc main_arg0))) (iGof (W (Proc.devRef .tc main_v0)) e1 e2 e3 (W (Proc.devRef .tc main_arg1))) := by
  simp only [opsD]
  after_results_simp
  dsimp only [Matrix.cons_val]
  rw [h1, h2, h3]
  rfl

/-! ## The four node tables, from the argument buffers -/

/-- The node table of a valuation's two embedding arguments. -/
def valE0 (V : Valuation τ sig (Elt F)) : FVec F S100000x64 .f32 := ego0 (V (Proc.devRef .tc main_arg5)) (V (Proc.devRef .tc main_arg6))
/-- The first layer's output over a valuation's arguments. -/
def valE1 (V : Valuation τ sig (Elt F)) : FVec F S100000x64 .f32 := layer (valE0 V) (side (V (Proc.devRef .tc main_arg2)) (V (Proc.devRef .tc main_arg3)) (V (Proc.devRef .tc main_arg4)) (valE0 V)) (wgc0 (V (Proc.devRef .tc main_arg7))) (bgc0 (V (Proc.devRef .tc main_arg8))) (wbi0 (V (Proc.devRef .tc main_arg9))) (bbi0 (V (Proc.devRef .tc main_arg10)))
/-- The second layer's. -/
def valE2 (V : Valuation τ sig (Elt F)) : FVec F S100000x64 .f32 := layer (valE1 V) (side (V (Proc.devRef .tc main_arg2)) (V (Proc.devRef .tc main_arg3)) (V (Proc.devRef .tc main_arg4)) (valE1 V)) (wgc1 (V (Proc.devRef .tc main_arg7))) (bgc1 (V (Proc.devRef .tc main_arg8))) (wbi1 (V (Proc.devRef .tc main_arg9))) (bbi1 (V (Proc.devRef .tc main_arg10)))
/-- The third layer's. -/
def valE3 (V : Valuation τ sig (Elt F)) : FVec F S100000x64 .f32 := layer (valE2 V) (side (V (Proc.devRef .tc main_arg2)) (V (Proc.devRef .tc main_arg3)) (V (Proc.devRef .tc main_arg4)) (valE2 V)) (wgc2 (V (Proc.devRef .tc main_arg7))) (bgc2 (V (Proc.devRef .tc main_arg8))) (wbi2 (V (Proc.devRef .tc main_arg9))) (bbi2 (V (Proc.devRef .tc main_arg10)))

/-- The node table at launch on core `c`: the user embeddings above the item embeddings. -/
def refE0 (m : (ℓ : Loc nD τ sig) → Buf (Elt F) ℓ) (c : Dev nD) : FVec F S100000x64 .f32 := ego0 (m ((c.tc : Thread nD τ).loc main_arg5)) (m ((c.tc : Thread nD τ).loc main_arg6))
/-- The first propagation layer's output over the launch arguments. -/
def refE1 (m : (ℓ : Loc nD τ sig) → Buf (Elt F) ℓ) (c : Dev nD) : FVec F S100000x64 .f32 := layer (refE0 m c) (side (m ((c.tc : Thread nD τ).loc main_arg2)) (m ((c.tc : Thread nD τ).loc main_arg3)) (m ((c.tc : Thread nD τ).loc main_arg4)) (refE0 m c)) (wgc0 (m ((c.tc : Thread nD τ).loc main_arg7))) (bgc0 (m ((c.tc : Thread nD τ).loc main_arg8))) (wbi0 (m ((c.tc : Thread nD τ).loc main_arg9))) (bbi0 (m ((c.tc : Thread nD τ).loc main_arg10)))
/-- The second layer's. -/
def refE2 (m : (ℓ : Loc nD τ sig) → Buf (Elt F) ℓ) (c : Dev nD) : FVec F S100000x64 .f32 := layer (refE1 m c) (side (m ((c.tc : Thread nD τ).loc main_arg2)) (m ((c.tc : Thread nD τ).loc main_arg3)) (m ((c.tc : Thread nD τ).loc main_arg4)) (refE1 m c)) (wgc1 (m ((c.tc : Thread nD τ).loc main_arg7))) (bgc1 (m ((c.tc : Thread nD τ).loc main_arg8))) (wbi1 (m ((c.tc : Thread nD τ).loc main_arg9))) (bbi1 (m ((c.tc : Thread nD τ).loc main_arg10)))
/-- The third layer's. -/
def refE3 (m : (ℓ : Loc nD τ sig) → Buf (Elt F) ℓ) (c : Dev nD) : FVec F S100000x64 .f32 := layer (refE2 m c) (side (m ((c.tc : Thread nD τ).loc main_arg2)) (m ((c.tc : Thread nD τ).loc main_arg3)) (m ((c.tc : Thread nD τ).loc main_arg4)) (refE2 m c)) (wgc2 (m ((c.tc : Thread nD τ).loc main_arg7))) (bgc2 (m ((c.tc : Thread nD τ).loc main_arg8))) (wbi2 (m ((c.tc : Thread nD τ).loc main_arg9))) (bbi2 (m ((c.tc : Thread nD τ).loc main_arg10)))

theorem valE0_launch (m : (ℓ : Loc nD τ sig) → Buf (Elt F) ℓ) (c : Dev nD) : valE0 (launchContents m c) = refE0 m c := rfl
theorem valE1_launch (m : (ℓ : Loc nD τ sig) → Buf (Elt F) ℓ) (c : Dev nD) : valE1 (launchContents m c) = refE1 m c := rfl
theorem valE2_launch (m : (ℓ : Loc nD τ sig) → Buf (Elt F) ℓ) (c : Dev nD) : valE2 (launchContents m c) = refE2 m c := rfl
theorem valE3_launch (m : (ℓ : Loc nD τ sig) → Buf (Elt F) ℓ) (c : Dev nD) : valE3 (launchContents m c) = refE3 m c := rfl

/-! ## The contents after one, two and three chunks -/

theorem at1_v0 (V : Valuation τ sig (Elt F)) : after opsA V (Proc.devRef .tc main_v0) = valE0 V := opsA_v0 V
theorem at1_v30 (V : Valuation τ sig (Elt F)) : after opsA V (Proc.devRef .tc main_v30) = valE1 V := opsA_v30 V
theorem at1_v38 (V : Valuation τ sig (Elt F)) : after opsA V (Proc.devRef .tc main_v38) = nrmFull (valE1 V) := opsA_v38 V

/-- What neither of the first two chunks writes is unchanged after both. -/
theorem at2_keep (V : Valuation τ sig (Elt F)) (r : Ref sig .tc) (hA : r ∉ opsA_W) (hB : r ∉ opsB_W) :
    after opsB (after opsA V) (Proc.devRef .tc r) = V (Proc.devRef .tc r) :=
  (opsB_keep _ r hB).trans (opsA_keep V r hA)
theorem at2_v0 (V : Valuation τ sig (Elt F)) : after opsB (after opsA V) (Proc.devRef .tc main_v0) = valE0 V :=
  (opsB_keep _ main_v0 (by decide)).trans (at1_v0 V)
theorem at2_v38 (V : Valuation τ sig (Elt F)) : after opsB (after opsA V) (Proc.devRef .tc main_v38) = nrmFull (valE1 V) :=
  (opsB_keep _ main_v38 (by decide)).trans (at1_v38 V)
theorem stepB_at1 (V : Valuation τ sig (Elt F)) : stepB (after opsA V) = valE2 V := by
  unfold stepB valE2
  rw [at1_v30, opsA_keep V main_arg2 (by decide), opsA_keep V main_arg3 (by decide), opsA_keep V main_arg4 (by decide), opsA_keep V main_arg7 (by decide), opsA_keep V main_arg8 (by decide), opsA_keep V main_arg9 (by decide), opsA_keep V main_arg10 (by decide)]
theorem at2_v68 (V : Valuation τ sig (Elt F)) : after opsB (after opsA V) (Proc.devRef .tc main_v68) = valE2 V :=
  (opsB_v68 _).trans (stepB_at1 V)
theorem at2_v76 (V : Valuation τ sig (Elt F)) : after opsB (after opsA V) (Proc.devRef .tc main_v76) = nrmFull (valE2 V) :=
  (opsB_v76 _).trans (congrArg nrmFull (stepB_at1 V))

/-- What none of the first three chunks writes is unchanged after the three. -/
theorem at3_keep (V : Valuation τ sig (Elt F)) (r : Ref sig .tc) (hA : r ∉ opsA_W) (hB : r ∉ opsB_W) (hC : r ∉ opsC_W) :
    after opsC (after opsB (after opsA V)) (Proc.devRef .tc r) = V (Proc.devRef .tc r) :=
  (opsC_keep _ r hC).trans (at2_keep V r hA hB)
theorem at3_v0 (V : Valuation τ sig (Elt F)) : after opsC (after opsB (after opsA V)) (Proc.devRef .tc main_v0) = valE0 V :=
  (opsC_keep _ main_v0 (by decide)).trans (at2_v0 V)
theorem at3_v38 (V : Valuation τ sig (Elt F)) : after opsC (after opsB (after opsA V)) (Proc.devRef .tc main_v38) = nrmFull (valE1 V) :=
  (opsC_keep _ main_v38 (by decide)).trans (at2_v38 V)
theorem at3_v76 (V : Valuation τ sig (Elt F)) : after opsC (after opsB (after opsA V)) (Proc.devRef .tc main_v76) = nrmFull (valE2 V) :=
  (opsC_keep _ main_v76 (by decide)).trans (at2_v76 V)
theorem stepC_at2 (V : Valuation τ sig (Elt F)) : stepC (after opsB (after opsA V)) = valE3 V := by
  unfold stepC valE3
  rw [at2_v68, at2_keep V main_arg2 (by decide) (by decide), at2_keep V main_arg3 (by decide) (by decide), at2_keep V main_arg4 (by decide) (by decide), at2_keep V main_arg7 (by decide) (by decide), at2_keep V main_arg8 (by decide) (by decide), at2_keep V main_arg9 (by decide) (by decide), at2_keep V main_arg10 (by decide) (by decide)]
theorem at3_v114 (V : Valuation τ sig (Elt F)) : after opsC (after opsB (after opsA V)) (Proc.devRef .tc main_v114) = nrmFull (valE3 V) :=
  (opsC_v114 _).trans (congrArg nrmFull (stepC_at2 V))

/-! ## The contents after the whole line -/

theorem fin_keep (V : Valuation τ sig (Elt F)) (r : Ref sig .tc) (hA : r ∉ opsA_W) (hB : r ∉ opsB_W) (hC : r ∉ opsC_W) (hD : r ∉ opsD_W) :
    after ops V (Proc.devRef .tc r) = V (Proc.devRef .tc r) := by
  rw [after_ops]; exact (opsD_keep _ r hD).trans (at3_keep V r hA hB hC)

theorem fin_v123 (V : Valuation τ sig (Elt F)) :
    after ops V (Proc.devRef .tc main_v123) = uGof (valE0 V) (valE1 V) (valE2 V) (valE3 V) (V (Proc.devRef .tc main_arg0)) := by
  rw [after_ops, opsD_v123 _ (valE1 V) (valE2 V) (valE3 V) (at3_v38 V) (at3_v76 V) (at3_v114 V), at3_v0,
    at3_keep V main_arg0 (by decide) (by decide) (by decide)]

theorem fin_v131 (V : Valuation τ sig (Elt F)) :
    after ops V (Proc.devRef .tc main_v131) = iGof (valE0 V) (valE1 V) (valE2 V) (valE3 V) (V (Proc.devRef .tc main_arg1)) := by
  rw [after_ops, opsD_v131 _ (valE1 V) (valE2 V) (valE3 V) (at3_v38 V) (at3_v76 V) (at3_v114 V), at3_v0,
    at3_keep V main_arg1 (by decide) (by decide) (by decide)]

theorem fin_v133 (V : Valuation τ sig (Elt F)) :
    after ops V (Proc.devRef .tc main_v133)
      = posf (uGof (valE0 V) (valE1 V) (valE2 V) (valE3 V) (V (Proc.devRef .tc main_arg0)))
          (iGof (valE0 V) (valE1 V) (valE2 V) (valE3 V) (V (Proc.devRef .tc main_arg1))) := by
  rw [after_ops, opsD_v133 _ (valE1 V) (valE2 V) (valE3 V) (at3_v38 V) (at3_v76 V) (at3_v114 V), at3_v0,
    at3_keep V main_arg0 (by decide) (by decide) (by decide), at3_keep V main_arg1 (by decide) (by decide) (by decide)]

/-! ## The run -/

/-- On every core, for any float values, from any memory with zero counters: every weakly fair execution of @main
    terminates; the first result holds rows `user` of the users' half of the four tables side by side (the last three
    row-normalized), the second rows `item` of the items' half, the third their row-wise inner products; and the eleven
    arguments hold what they held at launch. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v123) = uGof (refE0 m c) (refE1 m c) (refE2 m c) (refE3 m c) (m ((c.tc : Thread nD τ).loc main_arg0))
      ∧ r.2.mem ((c.tc : Thread nD τ).loc main_v131) = iGof (refE0 m c) (refE1 m c) (refE2 m c) (refE3 m c) (m ((c.tc : Thread nD τ).loc main_arg1))
      ∧ r.2.mem ((c.tc : Thread nD τ).loc main_v133) = posf (uGof (refE0 m c) (refE1 m c) (refE2 m c) (refE3 m c) (m ((c.tc : Thread nD τ).loc main_arg0))) (iGof (refE0 m c) (refE1 m c) (refE2 m c) (refE3 m c) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨
      (h c main_v123).trans ((fin_v123 (launchContents m c)).trans (by rw [valE0_launch, valE1_launch, valE2_launch, valE3_launch])),
      (h c main_v131).trans ((fin_v131 (launchContents m c)).trans (by rw [valE0_launch, valE1_launch, valE2_launch, valE3_launch])),
      (h c main_v133).trans ((fin_v133 (launchContents m c)).trans (by rw [valE0_launch, valE1_launch, valE2_launch, valE3_launch])),
      (h c main_arg0).trans (fin_keep (launchContents m c) main_arg0 (by decide) (by decide) (by decide) (by decide)),
      (h c main_arg1).trans (fin_keep (launchContents m c) main_arg1 (by decide) (by decide) (by decide) (by decide)),
      (h c main_arg2).trans (fin_keep (launchContents m c) main_arg2 (by decide) (by decide) (by decide) (by decide)),
      (h c main_arg3).trans (fin_keep (launchContents m c) main_arg3 (by decide) (by decide) (by decide) (by decide)),
      (h c main_arg4).trans (fin_keep (launchContents m c) main_arg4 (by decide) (by decide) (by decide) (by decide)),
      (h c main_arg5).trans (fin_keep (launchContents m c) main_arg5 (by decide) (by decide) (by decide) (by decide)),
      (h c main_arg6).trans (fin_keep (launchContents m c) main_arg6 (by decide) (by decide) (by decide) (by decide)),
      (h c main_arg7).trans (fin_keep (launchContents m c) main_arg7 (by decide) (by decide) (by decide) (by decide)),
      (h c main_arg8).trans (fin_keep (launchContents m c) main_arg8 (by decide) (by decide) (by decide) (by decide)),
      (h c main_arg9).trans (fin_keep (launchContents m c) main_arg9 (by decide) (by decide) (by decide) (by decide)),
      (h c main_arg10).trans (fin_keep (launchContents m c) main_arg10 (by decide) (by decide) (by decide) (by decide))⟩)
    (run_after m ρ)

end Cert.ReferenceIdeal.Hand

end
-- ==== Proof.Ref.Layer.lean ====
/-
  One layer of the reference read entry by entry over the extended reals.

  A matrix product at (r, q) is the sum over the 64 contracted positions k of the left operand at
  (r, k) times the right operand at (k, q); a bias row broadcast down the nodes reads the row at
  (0, q); the rectifier's compare, multiply and select act entry by entry. Together these give the
  layer's entry (r, q) as the closed form `Cert.Spec.layerAt`.
-/
import proofs.«424767_j70944269795902_3_alg».proof.Proof.Ref.St
import proofs.«424767_j70944269795902_3_alg».proof.Proof.Spec
import Idealize.ShloMosaic.Lib.ValueIdx
import Idealize.ShloMosaic.PureOps.Ideal.Laws
import Idealize.ShloMosaic.Lib.StableHlo.Predicate
import Idealize.ShloMosaic.Lib.Pipeline.Value

noncomputable section

namespace Cert.ReferenceIdeal.Hand

open Cert.ReferenceIdeal Idealize.ShloMosaic Idealize.ShloMosaic.ValueIdx
open Facts₀ Facts

variable [Facts]

/-! ## The product's operand indices, axis by axis

The product contracts axis 1 of the left operand with axis 0 of the right one; the left operand's
axis 0 is the result's axis 0 and the right operand's axis 1 the result's axis 1. -/

theorem lhs_dot_0 (i : S100000x64.Idx) (q : dot_S100000x64_S64x64_S100000x64_1_0_0_1_n_n.contr.Idx) :
    (dot_S100000x64_S64x64_S100000x64_1_0_0_1_n_n.lhsIdx i q 0).val = (i 0).val := by
  unfold DotDims.lhsIdx
  rw [dif_neg (show ¬(0 : Fin S100000x64.rank) ∈ dot_S100000x64_S64x64_S100000x64_1_0_0_1_n_n.lhsBatch from List.not_mem_nil),
    dif_pos (show (0 : Fin S100000x64.rank) ∈ dot_S100000x64_S64x64_S100000x64_1_0_0_1_n_n.lhsNonContracting from List.mem_singleton.mpr rfl)]
  rfl

theorem lhs_dot_1 (i : S100000x64.Idx) (q : dot_S100000x64_S64x64_S100000x64_1_0_0_1_n_n.contr.Idx) :
    (dot_S100000x64_S64x64_S100000x64_1_0_0_1_n_n.lhsIdx i q 1).val = (q ⟨0, Nat.one_pos⟩).val :=
  dot_S100000x64_S64x64_S100000x64_1_0_0_1_n_n.lhsIdx_val_of_single rfl i q

theorem rhs_dot_0 (i : S100000x64.Idx) (q : dot_S100000x64_S64x64_S100000x64_1_0_0_1_n_n.contr.Idx) :
    (dot_S100000x64_S64x64_S100000x64_1_0_0_1_n_n.rhsIdx i q 0).val = (q ⟨0, Nat.one_pos⟩).val :=
  dot_S100000x64_S64x64_S100000x64_1_0_0_1_n_n.rhsIdx_val_of_single rfl i q

theorem rhs_dot_1 (i : S100000x64.Idx) (q : dot_S100000x64_S64x64_S100000x64_1_0_0_1_n_n.contr.Idx) :
    (dot_S100000x64_S64x64_S100000x64_1_0_0_1_n_n.rhsIdx i q 1).val = (i 1).val := by
  unfold DotDims.rhsIdx
  rw [dif_neg (show ¬(1 : Fin S64x64.rank) ∈ dot_S100000x64_S64x64_S100000x64_1_0_0_1_n_n.rhsBatch from List.not_mem_nil),
    dif_pos (show (1 : Fin S64x64.rank) ∈ dot_S100000x64_S64x64_S100000x64_1_0_0_1_n_n.rhsNonContracting from List.mem_singleton.mpr rfl)]
  rfl

/-- The product at (r, q): the sum over k of left (r, k) times right (k, q). -/
theorem dot_apply (l : FVec Ideal S100000x64 .f32) (w : FVec Ideal S64x64 .f32) (r : Fin 100000) (q : Fin 64) :
    Host.dotGeneral (F := Ideal) dot_S100000x64_S64x64_S100000x64_1_0_0_1_n_n none l w (ix2 r q)
      = ∑ k : Fin 64, l (ix2 r k) * w (ix2 k q) := by
  simp only [Host.dotGeneral]
  rw [Ideal.dotGeneral_apply, ← Equiv.sum_comp (contrEquiv1 dot_S100000x64_S64x64_S100000x64_1_0_0_1_n_n 64 rfl rfl).symm]
  refine Finset.sum_congr rfl fun k _ => ?_
  have hk := contrEquiv1_symm_val dot_S100000x64_S64x64_S100000x64_1_0_0_1_n_n 64 rfl rfl k
  have el : dot_S100000x64_S64x64_S100000x64_1_0_0_1_n_n.lhsIdx (ix2 r q) ((contrEquiv1 dot_S100000x64_S64x64_S100000x64_1_0_0_1_n_n 64 rfl rfl).symm k) = ix2 r k :=
    funext fun a => Fin.ext (by
      match a with
      | ⟨0, _⟩ => exact lhs_dot_0 _ _
      | ⟨1, _⟩ => exact (lhs_dot_1 _ _).trans hk)
  have er : dot_S100000x64_S64x64_S100000x64_1_0_0_1_n_n.rhsIdx (ix2 r q) ((contrEquiv1 dot_S100000x64_S64x64_S100000x64_1_0_0_1_n_n 64 rfl rfl).symm k) = ix2 k q :=
    funext fun a => Fin.ext (by
      match a with
      | ⟨0, _⟩ => exact (rhs_dot_0 _ _).trans hk
      | ⟨1, _⟩ => exact rhs_dot_1 _ _)
  rw [el, er]

/-- A bias row broadcast down the nodes reads, at (r, q), the row at (0, q). -/
theorem bias_apply (b : FVec Ideal S1x64 .f32) (r : Fin 100000) (q : Fin 64) :
    broadcastInDim S100000x64 ![0, 1] bcast_S1x64_S100000x64_0_1 b (ix2 r q) = b (ix2 0 q) :=
  broadcastInDim_apply _ _ b (ix2 r q) (ix2 0 q) fun a => by
    match a with
    | ⟨0, _⟩ => rfl
    | ⟨1, _⟩ => rfl

/-- A scalar constant broadcast over the nodes reads the constant's value everywhere. -/
theorem splat_apply (w : BitVec FTy.f32.bits) (j : S100000x64.Idx) :
    broadcastInDim S100000x64 ![] bcast_S_S100000x64 (constant (F := Ideal) S_ .f32 w) j
      = FloatOps.ofBits (F := Ideal) .f32 w :=
  StableHlo.Predicate.bcast_scalar bcast_S_S100000x64 h_S_ _ j

/-- The layer's entry (r, q) is the closed form. -/
theorem layer_apply (ego side : FVec Ideal S100000x64 .f32) (wgc : FVec Ideal S64x64 .f32)
    (bgc : FVec Ideal S1x64 .f32) (wbi : FVec Ideal S64x64 .f32) (bbi : FVec Ideal S1x64 .f32)
    (r : Fin 100000) (q : Fin 64) :
    layer (F := Ideal) ego side wgc bgc wbi bbi (ix2 r q) = Cert.Spec.layerAt ego side wgc bgc wbi bbi r q := by
  unfold layer Cert.Spec.layerAt Cert.Spec.leaky Cert.Spec.preAct
  simp only [select_apply, cmpf_apply, mulf_apply, addf_apply, dot_apply, id]
  rw [bias_apply, bias_apply, splat_apply, splat_apply]

end Cert.ReferenceIdeal.Hand

end
-- ==== Proof.BridgeLayers.lean ====
import proofs.«424767_j70944269795902_3_alg».proof.Proof.KI.ReadLayers
import proofs.«424767_j70944269795902_3_alg».proof.Proof.Ref.St
import Idealize.ShloMosaic.PureOps.Ideal

noncomputable section

namespace Cert.Bridge

open Idealize.ShloMosaic

variable [Cert.ReferenceIdeal.Facts]

/-! ## The layer stages of the two programs are the same functions over the extended reals -/

/-- Over the extended reals narrowing to bf16 and widening back are both the identity, and a gather
    only re-indexes: gathering the narrowed rows and widening them is gathering the rows. -/
theorem extf_gather_truncf {s si t : Shape} {w : Nat} (d : GatherDims s si t) (x : FVec Ideal s .f32) (idx : IVec si w)
    (h₁ h₂ : FTy.bits .bf16 < FTy.bits .f32) :
    extf .f32 (Host.gather d (truncf .bf16 x h₁) idx) h₂ = Host.gather d x idx := rfl

/-- Layer 0's node array: the same concatenation of the user rows and the item rows. -/
theorem ego0_eq (ue ie : FVec Ideal ⟨2, ![50000, 64]⟩ .f32) :
    Cert.KernelIdeal.Hand.ego0 (F := Ideal) ue ie = Cert.ReferenceIdeal.Hand.ego0 (F := Ideal) ue ie := rfl

/-- The propagation over the adjacency list: once the bf16 round trip around the gather is dropped,
    the two programs apply the same operations with the same dimension records. -/
theorem side_eq (row col : IVec ⟨1, ![3200000]⟩ 32) (val : FVec Ideal ⟨1, ![3200000]⟩ .f32)
    (ego : FVec Ideal ⟨2, ![100000, 64]⟩ .f32) :
    Cert.KernelIdeal.Hand.side (F := Ideal) row col val ego = Cert.ReferenceIdeal.Hand.side (F := Ideal) row col val ego := by
  unfold Cert.KernelIdeal.Hand.side Cert.ReferenceIdeal.Hand.side
  rw [extf_gather_truncf]
  rfl

/-! ### The weights and biases: the same slab of the stack, reshaped alike -/

theorem wgc0_eq (W : FVec Ideal ⟨3, ![3, 64, 64]⟩ .f32) :
    Cert.KernelIdeal.Hand.wgc0 (F := Ideal) W = Cert.ReferenceIdeal.Hand.wgc0 (F := Ideal) W := rfl
theorem bgc0_eq (b : FVec Ideal ⟨3, ![3, 1, 64]⟩ .f32) :
    Cert.KernelIdeal.Hand.bgc0 (F := Ideal) b = Cert.ReferenceIdeal.Hand.bgc0 (F := Ideal) b := rfl
theorem wbi0_eq (W : FVec Ideal ⟨3, ![3, 64, 64]⟩ .f32) :
    Cert.KernelIdeal.Hand.wbi0 (F := Ideal) W = Cert.ReferenceIdeal.Hand.wbi0 (F := Ideal) W := rfl
theorem bbi0_eq (b : FVec Ideal ⟨3, ![3, 1, 64]⟩ .f32) :
    Cert.KernelIdeal.Hand.bbi0 (F := Ideal) b = Cert.ReferenceIdeal.Hand.bbi0 (F := Ideal) b := rfl

theorem wgc1_eq (W : FVec Ideal ⟨3, ![3, 64, 64]⟩ .f32) :
    Cert.KernelIdeal.Hand.wgc1 (F := Ideal) W = Cert.ReferenceIdeal.Hand.wgc1 (F := Ideal) W := rfl
theorem bgc1_eq (b : FVec Ideal ⟨3, ![3, 1, 64]⟩ .f32) :
    Cert.KernelIdeal.Hand.bgc1 (F := Ideal) b = Cert.ReferenceIdeal.Hand.bgc1 (F := Ideal) b := rfl
theorem wbi1_eq (W : FVec Ideal ⟨3, ![3, 64, 64]⟩ .f32) :
    Cert.KernelIdeal.Hand.wbi1 (F := Ideal) W = Cert.ReferenceIdeal.Hand.wbi1 (F := Ideal) W := rfl
theorem bbi1_eq (b : FVec Ideal ⟨3, ![3, 1, 64]⟩ .f32) :
    Cert.KernelIdeal.Hand.bbi1 (F := Ideal) b = Cert.ReferenceIdeal.Hand.bbi1 (F := Ideal) b := rfl

theorem wgc2_eq (W : FVec Ideal ⟨3, ![3, 64, 64]⟩ .f32) :
    Cert.KernelIdeal.Hand.wgc2 (F := Ideal) W = Cert.ReferenceIdeal.Hand.wgc2 (F := Ideal) W := rfl
theorem bgc2_eq (b : FVec Ideal ⟨3, ![3, 1, 64]⟩ .f32) :
    Cert.KernelIdeal.Hand.bgc2 (F := Ideal) b = Cert.ReferenceIdeal.Hand.bgc2 (F := Ideal) b := rfl
theorem wbi2_eq (W : FVec Ideal ⟨3, ![3, 64, 64]⟩ .f32) :
    Cert.KernelIdeal.Hand.wbi2 (F := Ideal) W = Cert.ReferenceIdeal.Hand.wbi2 (F := Ideal) W := rfl
theorem bbi2_eq (b : FVec Ideal ⟨3, ![3, 1, 64]⟩ .f32) :
    Cert.KernelIdeal.Hand.bbi2 (F := Ideal) b = Cert.ReferenceIdeal.Hand.bbi2 (F := Ideal) b := rfl

end Cert.Bridge
-- ==== Proof.Bridge.lean ====
/-
  The four node-feature arrays of the two programs are equal when their arguments agree.

  Layer 0's array is the same concatenation of the same two embedding tables. Above it, entry
  (r, q) of each program's layer k+1 is the layer's closed form over layer k's array, its
  neighbourhood sum and slab k of the four stacked parameters: the reference's by reading its
  composite of operations at an index, the kernel program's by what its row-block pipeline leaves.
  The closed form's arguments are equal by the level below, so the arrays are equal entry by entry.
-/
import proofs.«424767_j70944269795902_3_alg».proof.Proof.KI.Values
import proofs.«424767_j70944269795902_3_alg».proof.Proof.Ref.Run
import proofs.«424767_j70944269795902_3_alg».proof.Proof.Ref.Layer
import proofs.«424767_j70944269795902_3_alg».proof.Proof.BridgeLayers
import Idealize.ShloMosaic.Lib.ValueIdx

noncomputable section

namespace Cert.Bridge

open Idealize.ShloMosaic Idealize.SL.Sem Idealize.ShloMosaic.ValueIdx

/-- An array whose every entry (r, q) is the layer's closed form over `eK`, `sK` and the four
    parameters is the reference's layer over equal arguments. -/
theorem layer_eq_of_apply [Cert.ReferenceIdeal.Facts] (X eK eR sK sR : FVec Ideal ⟨2, ![100000, 64]⟩ .f32)
    (wgK wgR wbK wbR : FVec Ideal ⟨2, ![64, 64]⟩ .f32) (bgK bgR bbK bbR : FVec Ideal ⟨2, ![1, 64]⟩ .f32)
    (hX : ∀ (r : Fin 100000) (q : Fin 64), X (ix2 r q) = Cert.Spec.layerAt eK sK wgK bgK wbK bbK r q)
    (he : eR = eK) (hs : sR = sK) (hwg : wgR = wgK) (hbg : bgR = bgK) (hwb : wbR = wbK) (hbb : bbR = bbK) :
    Cert.ReferenceIdeal.Hand.layer (F := Ideal) eR sR wgR bgR wbR bbR = X := by
  subst he hs hwg hbg hwb hbb
  funext i
  obtain ⟨r, q, rfl⟩ : ∃ (r : Fin 100000) (q : Fin 64), i = ix2 r q := ⟨i 0, i 1, eq_ix2 i⟩
  rw [Cert.ReferenceIdeal.Hand.layer_apply, hX]

/-- From memories that agree on the eleven arguments, the reference's four node-feature arrays are
    the kernel program's. -/
theorem arrays_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hagree :
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    Cert.ReferenceIdeal.Hand.refE0 m' c = Cert.KernelIdeal.Hand.kE0 m c
      ∧ Cert.ReferenceIdeal.Hand.refE1 m' c = Cert.KernelIdeal.Hand.kE1 m c
      ∧ Cert.ReferenceIdeal.Hand.refE2 m' c = Cert.KernelIdeal.Hand.kE2 m c
      ∧ Cert.ReferenceIdeal.Hand.refE3 m' c = Cert.KernelIdeal.Hand.kE3 m c := by
  obtain ⟨_, _, h2, h3, h4, h5, h6, h7, h8, h9, h10⟩ := hagree
  -- layer 0: the same concatenation of the same two tables
  have e0 : Cert.ReferenceIdeal.Hand.refE0 m' c = Cert.KernelIdeal.Hand.kE0 m c := by
    show Cert.ReferenceIdeal.Hand.ego0 (F := Ideal) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6))
      = Cert.KernelIdeal.Hand.ego0 (F := Ideal) (Cert.KernelIdeal.Hand.aUe m c) (Cert.KernelIdeal.Hand.aIe m c)
    rw [h5, h6]; exact (ego0_eq _ _).symm
  -- layer 1: both sides are the layer's closed form over equal arguments
  have s0 : Cert.ReferenceIdeal.Hand.side (F := Ideal) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (Cert.ReferenceIdeal.Hand.refE0 m' c)
      = Cert.KernelIdeal.Hand.side (F := Ideal) (Cert.KernelIdeal.Hand.aRow m c) (Cert.KernelIdeal.Hand.aCol m c) (Cert.KernelIdeal.Hand.aVal m c) (Cert.KernelIdeal.Hand.kE0 m c) := by
    rw [h2, h3, h4, e0]; exact (side_eq _ _ _ _).symm
  have wg0 : Cert.ReferenceIdeal.Hand.wgc0 (F := Ideal) (m' ((c.tc : Thread Cert.ReferenceIdeal.nD Cert.ReferenceIdeal.τ).loc Cert.ReferenceIdeal.main_arg7)) = Cert.KernelIdeal.Hand.wgc0 (F := Ideal) (Cert.KernelIdeal.Hand.aWgc m c) := by
    rw [h7]; exact (wgc0_eq _).symm
  have bg0 : Cert.ReferenceIdeal.Hand.bgc0 (F := Ideal) (m' ((c.tc : Thread Cert.ReferenceIdeal.nD Cert.ReferenceIdeal.τ).loc Cert.ReferenceIdeal.main_arg8)) = Cert.KernelIdeal.Hand.bgc0 (F := Ideal) (Cert.KernelIdeal.Hand.aBgc m c) := by
    rw [h8]; exact (bgc0_eq _).symm
  have wb0 : Cert.ReferenceIdeal.Hand.wbi0 (F := Ideal) (m' ((c.tc : Thread Cert.ReferenceIdeal.nD Cert.ReferenceIdeal.τ).loc Cert.ReferenceIdeal.main_arg9)) = Cert.KernelIdeal.Hand.wbi0 (F := Ideal) (Cert.KernelIdeal.Hand.aWbi m c) := by
    rw [h9]; exact (wbi0_eq _).symm
  have bb0 : Cert.ReferenceIdeal.Hand.bbi0 (F := Ideal) (m' ((c.tc : Thread Cert.ReferenceIdeal.nD Cert.ReferenceIdeal.τ).loc Cert.ReferenceIdeal.main_arg10)) = Cert.KernelIdeal.Hand.bbi0 (F := Ideal) (Cert.KernelIdeal.Hand.aBbi m c) := by
    rw [h10]; exact (bbi0_eq _).symm
  have e1 : Cert.ReferenceIdeal.Hand.refE1 m' c = Cert.KernelIdeal.Hand.kE1 m c :=
    layer_eq_of_apply (Cert.KernelIdeal.Hand.kE1 m c) _ _ _ _ _ _ _ _ _ _ _ _ (Cert.KernelIdeal.Hand.kE1_apply m c) e0 s0 wg0 bg0 wb0 bb0
  -- layer 2: both sides are the layer's closed form over equal arguments
  have s1 : Cert.ReferenceIdeal.Hand.side (F := Ideal) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (Cert.ReferenceIdeal.Hand.refE1 m' c)
      = Cert.KernelIdeal.Hand.side (F := Ideal) (Cert.KernelIdeal.Hand.aRow m c) (Cert.KernelIdeal.Hand.aCol m c) (Cert.KernelIdeal.Hand.aVal m c) (Cert.KernelIdeal.Hand.kE1 m c) := by
    rw [h2, h3, h4, e1]; exact (side_eq _ _ _ _).symm
  have wg1 : Cert.ReferenceIdeal.Hand.wgc1 (F := Ideal) (m' ((c.tc : Thread Cert.ReferenceIdeal.nD Cert.ReferenceIdeal.τ).loc Cert.ReferenceIdeal.main_arg7)) = Cert.KernelIdeal.Hand.wgc1 (F := Ideal) (Cert.KernelIdeal.Hand.aWgc m c) := by
    rw [h7]; exact (wgc1_eq _).symm
  have bg1 : Cert.ReferenceIdeal.Hand.bgc1 (F := Ideal) (m' ((c.tc : Thread Cert.ReferenceIdeal.nD Cert.ReferenceIdeal.τ).loc Cert.ReferenceIdeal.main_arg8)) = Cert.KernelIdeal.Hand.bgc1 (F := Ideal) (Cert.KernelIdeal.Hand.aBgc m c) := by
    rw [h8]; exact (bgc1_eq _).symm
  have wb1 : Cert.ReferenceIdeal.Hand.wbi1 (F := Ideal) (m' ((c.tc : Thread Cert.ReferenceIdeal.nD Cert.ReferenceIdeal.τ).loc Cert.ReferenceIdeal.main_arg9)) = Cert.KernelIdeal.Hand.wbi1 (F := Ideal) (Cert.KernelIdeal.Hand.aWbi m c) := by
    rw [h9]; exact (wbi1_eq _).symm
  have bb1 : Cert.ReferenceIdeal.Hand.bbi1 (F := Ideal) (m' ((c.tc : Thread Cert.ReferenceIdeal.nD Cert.ReferenceIdeal.τ).loc Cert.ReferenceIdeal.main_arg10)) = Cert.KernelIdeal.Hand.bbi1 (F := Ideal) (Cert.KernelIdeal.Hand.aBbi m c) := by
    rw [h10]; exact (bbi1_eq _).symm
  have e2 : Cert.ReferenceIdeal.Hand.refE2 m' c = Cert.KernelIdeal.Hand.kE2 m c :=
    layer_eq_of_apply (Cert.KernelIdeal.Hand.kE2 m c) _ _ _ _ _ _ _ _ _ _ _ _ (Cert.KernelIdeal.Hand.kE2_apply m c) e1 s1 wg1 bg1 wb1 bb1
  -- layer 3: both sides are the layer's closed form over equal arguments
  have s2 : Cert.ReferenceIdeal.Hand.side (F := Ideal) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (Cert.ReferenceIdeal.Hand.refE2 m' c)
      = Cert.KernelIdeal.Hand.side (F := Ideal) (Cert.KernelIdeal.Hand.aRow m c) (Cert.KernelIdeal.Hand.aCol m c) (Cert.KernelIdeal.Hand.aVal m c) (Cert.KernelIdeal.Hand.kE2 m c) := by
    rw [h2, h3, h4, e2]; exact (side_eq _ _ _ _).symm
  have wg2 : Cert.ReferenceIdeal.Hand.wgc2 (F := Ideal) (m' ((c.tc : Thread Cert.ReferenceIdeal.nD Cert.ReferenceIdeal.τ).loc Cert.ReferenceIdeal.main_arg7)) = Cert.KernelIdeal.Hand.wgc2 (F := Ideal) (Cert.KernelIdeal.Hand.aWgc m c) := by
    rw [h7]; exact (wgc2_eq _).symm
  have bg2 : Cert.ReferenceIdeal.Hand.bgc2 (F := Ideal) (m' ((c.tc : Thread Cert.ReferenceIdeal.nD Cert.ReferenceIdeal.τ).loc Cert.ReferenceIdeal.main_arg8)) = Cert.KernelIdeal.Hand.bgc2 (F := Ideal) (Cert.KernelIdeal.Hand.aBgc m c) := by
    rw [h8]; exact (bgc2_eq _).symm
  have wb2 : Cert.ReferenceIdeal.Hand.wbi2 (F := Ideal) (m' ((c.tc : Thread Cert.ReferenceIdeal.nD Cert.ReferenceIdeal.τ).loc Cert.ReferenceIdeal.main_arg9)) = Cert.KernelIdeal.Hand.wbi2 (F := Ideal) (Cert.KernelIdeal.Hand.aWbi m c) := by
    rw [h9]; exact (wbi2_eq _).symm
  have bb2 : Cert.ReferenceIdeal.Hand.bbi2 (F := Ideal) (m' ((c.tc : Thread Cert.ReferenceIdeal.nD Cert.ReferenceIdeal.τ).loc Cert.ReferenceIdeal.main_arg10)) = Cert.KernelIdeal.Hand.bbi2 (F := Ideal) (Cert.KernelIdeal.Hand.aBbi m c) := by
    rw [h10]; exact (bbi2_eq _).symm
  have e3 : Cert.ReferenceIdeal.Hand.refE3 m' c = Cert.KernelIdeal.Hand.kE3 m c :=
    layer_eq_of_apply (Cert.KernelIdeal.Hand.kE3 m c) _ _ _ _ _ _ _ _ _ _ _ _ (Cert.KernelIdeal.Hand.kE3_apply m c) e2 s2 wg2 bg2 wb2 bb2
  exact ⟨e0, e1, e2, e3⟩

end Cert.Bridge

end
-- ==== Proof.LibRowGatherScatter.lean ====
/-
  Row gathers and a row scatter read at an index (general lemmas, no program imported).

  * `Host.scatter` is a left fold over the update elements in row-major order; an element whose result index is outside
    the operand is skipped. So two update arrays that agree on every element the fold does NOT skip scatter to the same
    array (`scatter_congr_kept`).
  * A row gather `x[i]` (operand [N, C]) reads row `min (max i 0) (N - 1)`: the start index read signed and clamped, for
    an index column [M, 1] (`rowGather2_apply`) and for an index array [R, G, 1] (`rowGather3_apply`).
  * For the row scatter `x.at[i].set(u)` (operand [N, C], indices [M, 1], updates [M, C]) an element of update row `p` is kept
    only if the row's index, read signed, lies in `[0, N)` (`rowScatter_kept`).
-/
import Idealize.ShloMosaic.PureOps.ShapeOps
import Idealize.ShloMosaic.Lib.ValueIdx

noncomputable section

namespace Cert.RowOps

open Idealize.ShloMosaic Idealize.ShloMosaic.ValueIdx

/-- Updates that agree wherever the scatter keeps the element give the same result. -/
theorem scatter_congr_kept {α : Type} {s si u : Shape} {w : Nat} (d : ScatterDims s si u) (f : α → α → α)
    (x : s.Idx → α) (idx : IVec si w) (upd upd' : u.Idx → α)
    (h : ∀ j i, d.resultIdx? j idx = some i → upd j = upd' j) :
    Host.scatter d f x idx upd = Host.scatter d f x idx upd' := by
  unfold Host.scatter
  congr 1
  funext r n
  rcases hres : d.resultIdx? (u.rowMajor.symm n) idx with _ | i
  · rfl
  · simp only [h _ _ hres]

section Gather
variable {α : Type}

/-- The dimension numbers of the row gather `x[i]` for an operand `[N, C]`, a column `[M, 1]` of start indices and the
    result `[M, C]`: result row `p` is the operand's row at start index `i[p, 0]`. -/
abbrev rowGather2Dims (N M C : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- The row gather over an index column read at `(p, c)`: the operand at row `i[p, 0]`, read signed and clamped into
    `[0, N − 1]`, and column `c`. -/
theorem rowGather2_apply {N M C w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (y : (⟨2, ![M, C]⟩ : Shape).Idx) :
    Host.gather (rowGather2Dims N M C wf) x idx y
      = x (ix2 ⟨min (idx (ix2 (y 0) 0)).toInt.toNat (N - 1), by omega⟩ (y 1)) := by
  unfold Host.gather
  congr 1
  funext a
  refine Fin.ext ?_
  match a with
  | ⟨0, _⟩ =>
    show (rowGather2Dims N M C wf).start y idx 0 + (rowGather2Dims N M C wf).batchCoord y 0
      + (rowGather2Dims N M C wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather2Dims N M C wf).startIndexMap from List.mem_singleton.mpr rfl)]
    have hsi : (rowGather2Dims N M C wf).siIdx y ⟨List.idxOf (0 : Fin 2) (rowGather2Dims N M C wf).startIndexMap,
        List.idxOf_lt_length_iff.2 (List.mem_singleton.mpr rfl)⟩ = ix2 (y 0) 0 := by
      funext b; refine Fin.ext ?_
      match b with
      | ⟨0, _⟩ => rfl
      | ⟨1, _⟩ => rfl
    rw [hsi]
    rfl
  | ⟨1, _⟩ =>
    show (rowGather2Dims N M C wf).start y idx 1 + (rowGather2Dims N M C wf).batchCoord y 1
      + (rowGather2Dims N M C wf).offCoord y 1 = (y 1).val
    have hs : (rowGather2Dims N M C wf).start y idx 1 = 0 := by
      unfold GatherDims.start; exact dif_neg (show (1 : Fin 2) ∉ [(0 : Fin 2)] by decide)
    have ho : (rowGather2Dims N M C wf).offCoord y 1 = (y 1).val := by
      unfold GatherDims.offCoord
      rw [dif_pos ((GatherDims.mem_sKept _ _).mpr ⟨show (1 : Fin 2) ∉ [(0 : Fin 2)] by decide, List.not_mem_nil⟩)]
      rfl
    rw [hs, GatherDims.batchCoord_eq_zero _ _ _ List.not_mem_nil, ho]
    omega

/-- The dimension numbers of the row gather `x[i]` for an operand `[N, C]`, an array `[R, G, 1]` of start indices and the
    result `[R, G, C]`: result row `(r, g)` is the operand's row at start index `i[r, g, 0]`. -/
abbrev rowGather3Dims (N R G C : Nat)
    (wf : GatherDims.WF ⟨2, ![N, C]⟩ ⟨3, ![R, G, 1]⟩ ⟨3, ![R, G, C]⟩ [2] [0] [] [0] [] 2 ![1, C]) :
    GatherDims ⟨2, ![N, C]⟩ ⟨3, ![R, G, 1]⟩ ⟨3, ![R, G, C]⟩ where
  offsetDims := [2]
  collapsedSliceDims := [0]
  operandBatchingDims := []
  startIndicesBatchingDims := []
  startIndexMap := [0]
  indexVectorDim := 2
  sliceSizes := ![1, C]
  wf := wf

/-- The row gather over an index array read at `(r, g, c)`: the operand at row `i[r, g, 0]`, read signed and clamped into
    `[0, N − 1]`, and column `c`. -/
theorem rowGather3_apply {N R G C w : Nat} (hN : 0 < N)
    (wf : GatherDims.WF ⟨2, ![N, C]⟩ ⟨3, ![R, G, 1]⟩ ⟨3, ![R, G, C]⟩ [2] [0] [] [0] [] 2 ![1, C])
    (x : (⟨2, ![N, C]⟩ : Shape).Idx → α) (idx : IVec ⟨3, ![R, G, 1]⟩ w) (y : (⟨3, ![R, G, C]⟩ : Shape).Idx) :
    Host.gather (rowGather3Dims N R G C wf) x idx y
      = x (ix2 ⟨min (idx (ix3 (y 0) (y 1) 0)).toInt.toNat (N - 1), by omega⟩ (y 2)) := by
  unfold Host.gather
  congr 1
  funext a
  refine Fin.ext ?_
  match a with
  | ⟨0, _⟩ =>
    show (rowGather3Dims N R G C wf).start y idx 0 + (rowGather3Dims N R G C wf).batchCoord y 0
      + (rowGather3Dims N R G C wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather3Dims N R G C wf).startIndexMap from List.mem_singleton.mpr rfl)]
    have hsi : (rowGather3Dims N R G C wf).siIdx y ⟨List.idxOf (0 : Fin 2) (rowGather3Dims N R G C wf).startIndexMap,
        List.idxOf_lt_length_iff.2 (List.mem_singleton.mpr rfl)⟩ = ix3 (y 0) (y 1) 0 := by
      funext b; refine Fin.ext ?_
      match b with
      | ⟨0, _⟩ => rfl
      | ⟨1, _⟩ => rfl
      | ⟨2, _⟩ => rfl
    rw [hsi]
    rfl
  | ⟨1, _⟩ =>
    show (rowGather3Dims N R G C wf).start y idx 1 + (rowGather3Dims N R G C wf).batchCoord y 1
      + (rowGather3Dims N R G C wf).offCoord y 1 = (y 2).val
    have hs : (rowGather3Dims N R G C wf).start y idx 1 = 0 := by
      unfold GatherDims.start; exact dif_neg (show (1 : Fin 2) ∉ [(0 : Fin 2)] by decide)
    have ho : (rowGather3Dims N R G C wf).offCoord y 1 = (y 2).val := by
      unfold GatherDims.offCoord
      rw [dif_pos ((GatherDims.mem_sKept _ _).mpr ⟨show (1 : Fin 2) ∉ [(0 : Fin 2)] by decide, List.not_mem_nil⟩)]
      rfl
    rw [hs, GatherDims.batchCoord_eq_zero _ _ _ List.not_mem_nil, ho]
    omega

end Gather

section Scatter

/-- The dimension numbers of the row scatter `x.at[i].set(u)` for an operand `[N, C]`, a column `[M, 1]` of scatter indices
    and updates `[M, C]`: update row `p` goes to the operand's row `i[p, 0]`. -/
abbrev rowScatterDims (N M C : Nat)
    (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- An element of update row `p` is kept only if the row's scatter index `i[p, 0]`, read signed, is a row of the
    operand. -/
theorem rowScatter_kept {N M C w : Nat}
    (wf : ScatterDims.WF ⟨2, ![N, C]⟩ ⟨2, ![M, 1]⟩ ⟨2, ![M, C]⟩ [1] [0] [0] 1)
    (idx : IVec ⟨2, ![M, 1]⟩ w) (j : (⟨2, ![M, C]⟩ : Shape).Idx) (i : (⟨2, ![N, C]⟩ : Shape).Idx)
    (h : (rowScatterDims N M C wf).resultIdx? j idx = some i) :
    0 ≤ (idx (ix2 (j 0) 0)).toInt ∧ (idx (ix2 (j 0) 0)).toInt < N := by
  unfold ScatterDims.resultIdx? at h
  split at h
  · rename_i hall
    have h0 := hall 0
    have hw : (rowScatterDims N M C wf).window j 0 = 0 := by
      unfold ScatterDims.window
      exact dif_neg (fun hm => (List.mem_filter.mp hm).2 |> fun hd => by simp at hd)
    have hs : (rowScatterDims N M C wf).start j idx 0 = (idx (ix2 (j 0) 0)).toInt := by
      unfold ScatterDims.start
      rw [dif_pos (show (0 : Fin 2) ∈ (rowScatterDims N M C wf).scatterDimsToOperandDims from List.mem_singleton.mpr rfl)]
      have hsi : (rowScatterDims N M C wf).siIdx j
          ⟨List.idxOf (0 : Fin 2) (rowScatterDims N M C wf).scatterDimsToOperandDims,
            List.idxOf_lt_length_iff.2 (List.mem_singleton.mpr rfl)⟩ = ix2 (j 0) 0 := by
        funext b; refine Fin.ext ?_
        match b with
        | ⟨0, _⟩ => rfl
        | ⟨1, _⟩ => rfl
      rw [hsi]
      rfl
    have hsz : (⟨2, ![N, C]⟩ : Shape).size 0 = N := rfl
    rw [hs, hw, hsz] at h0
    omega
  · cases h

end Scatter

end Cert.RowOps

end
-- ==== Proof.BridgeTail.lean ====
import proofs.«424767_j70944269795902_3_alg».proof.Proof.KI.ReadTail
import proofs.«424767_j70944269795902_3_alg».proof.Proof.Ref.St
import proofs.«424767_j70944269795902_3_alg».proof.Proof.LibRowGatherScatter
import Idealize.ShloMosaic.Lib.ValueIdx
import Idealize.ShloMosaic.Lib.ValueLayout
import Idealize.ShloMosaic.Lib.Pipeline.Value
import Idealize.ShloMosaic.Lib.IdealHost
import Idealize.ShloMosaic.Lib.DynamicIndex
import Idealize.ShloMosaic.PureOps.Ideal.Laws
import Idealize.ShloMosaic.Lib.StableHlo.Predicate

/-!
  The two programs' tails are one function.

  Both programs end by reading 4096 user rows and 4096 item rows out of the four node-feature arrays
  (the embedding table and the three layers' outputs), dividing every row taken from a layer's output
  by the larger of its Euclidean length and 1e-12, laying the four 64-wide pieces side by side, and
  summing the products of the paired rows. One program takes the 4096 rows of each array first and
  normalizes the small slices; the other normalizes the full arrays, lays them side by side 256 wide,
  and takes the rows last. With every index within 0 … 49999 both read the same rows, and the
  normalization of a row depends on that row only, so the results are equal entry by entry.
-/

noncomputable section

namespace Cert.Bridge

open Idealize.ShloMosaic Idealize.ShloMosaic.ValueIdx
open scoped BigOperators

/-! ## Words: the index after the wrap, and its bounds test -/

/-- A word that reads, signed, within 0 … 49999 reads the same unsigned. -/
theorem toNat_of_range {w : BitVec 32} (h : 0 ≤ w.toInt ∧ w.toInt < 50000) : (w.toNat : Int) = w.toInt ∧ w.toNat < 50000 := by
  have h1 := BitVec.toInt_eq_toNat_cond w
  have h2 := w.isLt
  constructor
  · split at h1 <;> omega
  · split at h1 <;> omega

/-- The index vector after the wrap (an index below zero raised by 50000), as a one-column matrix, reads
    at row `b` the index itself when it is not negative. -/
theorem wrapCol_apply (idx : IVec ⟨1, ![4096]⟩ 32) (b : Fin 4096) (h0 : 0 ≤ (idx (ix1 b)).toInt)
    (h₁ : (⟨1, ![4096]⟩ : Shape).BroadcastsInDim ⟨2, ![4096, 1]⟩ ![0])
    (h₂ : (⟨0, ![]⟩ : Shape).BroadcastsInDim ⟨1, ![4096]⟩ ![]) (z : Fin 1) :
    broadcastInDim ⟨2, ![4096, 1]⟩ ![0] h₁
      (select (cmpi .slt idx (broadcastInDim ⟨1, ![4096]⟩ ![] h₂ (constantI ⟨0, ![]⟩ 32 0#32)))
        (addi idx (broadcastInDim ⟨1, ![4096]⟩ ![] h₂ (constantI ⟨0, ![]⟩ 32 50000#32))) idx) (ix2 b z)
      = idx (ix1 b) := by
  rw [broadcastInDim_apply _ _ _ _ (ix1 b) (fun a => by match a with | ⟨0, _⟩ => rfl)]
  exact select_slt_zero_of_nonneg idx _ _ (ix1 b) h0

/-- The conjunction over the unit axis of a one-column matrix of bits, from the bit 1: at row `b` the
    matrix's bit at `(b, 0)`. -/
theorem reduceAnd_unit_apply (m : IVec ⟨2, ![4096, 1]⟩ 1)
    (h' : (⟨2, ![4096, 1]⟩ : Shape).ReducesTo [1] ⟨1, ![4096]⟩) (hu : 0 < (⟨0, ![]⟩ : Shape).numel) (b : Fin 4096) :
    Host.reduce IntOp.andi m (constantI ⟨0, ![]⟩ 1 1#1) h' hu (ix1 b) = m (ix2 b 0) := by
  have h : (⟨2, ![4096, 1]⟩ : Shape).Reduces [1] ⟨1, ![4096]⟩ := by decide
  haveI : Std.Commutative (IntOp.andi (w := 1)) := ⟨BitVec.and_comm⟩
  haveI : Std.Associative (IntOp.andi (w := 1)) := ⟨BitVec.and_assoc⟩
  rw [Host.reduce_eq_fold_single IntOp.andi m _ h' h hu (ix1 b)]
  have hl : ∀ k : Fin 1, h.lift (ix1 b) k = ix2 b 0 := fun k => by
    funext c; match c with | ⟨0, _⟩ => rfl | ⟨1, _⟩ => exact Fin.ext (by have := k.isLt; show k.val = 0; omega)
  show (Finset.univ : Finset (Fin 1)).fold IntOp.andi 1#1 (fun k : Fin 1 => m (h.lift (ix1 b) k)) = _
  simp only [hl]
  rw [Finset.univ_unique, Finset.fold_singleton]
  generalize m (ix2 b 0) = v
  revert v
  decide

/-! ## One row taken from a table -/

/-- The row gather over a column of indices, read at `(b, j)`: where the column's index at row `b` reads within
    0 … 49999 the clamp leaves it, and the entry is the table's at that row. -/
theorem rowGather_apply {C : Nat} (tbl : FVec Ideal ⟨2, ![50000, C]⟩ .f32) (col : IVec ⟨2, ![4096, 1]⟩ 32)
    (b : Fin 4096) (j : Fin C) (W : Fin 50000) (hW : (W.val : Int) = (col (ix2 b 0)).toInt)
    (wf : GatherDims.WF ⟨2, ![50000, C]⟩ ⟨2, ![4096, 1]⟩ ⟨2, ![4096, C]⟩ [1] [0] [] [0] [] 1 ![1, C]) :
    Host.gather (Cert.RowOps.rowGather2Dims 50000 4096 C wf) tbl col (ix2 b j) = tbl (ix2 W j) := by
  have hlt := W.isLt
  rw [Cert.RowOps.rowGather2_apply (by decide)]
  refine congrArg tbl ?_
  funext a
  match a with
  | ⟨0, _⟩ =>
    apply Fin.ext
    show min (col (ix2 b 0)).toInt.toNat (50000 - 1) = W.val
    omega
  | ⟨1, _⟩ => rfl

/-- The masked row gather over a column of indices: where the column's index at row `b` reads within 0 … 49999 the
    bounds test passes, the select keeps the gathered row, and the gather reads the table's row at that index. -/
theorem maskedGather_apply (tbl : FVec Ideal ⟨2, ![50000, 64]⟩ .f32) (col : IVec ⟨2, ![4096, 1]⟩ 32)
    (nan : FVec Ideal ⟨2, ![4096, 64]⟩ .f32) (b : Fin 4096) (j : Fin 64)
    (W : Fin 50000) (hW : (W.val : Int) = (col (ix2 b 0)).toInt)
    (h₁ : (⟨1, ![4096]⟩ : Shape).BroadcastsInDim ⟨2, ![4096, 64]⟩ ![0])
    (h₂ : (⟨0, ![]⟩ : Shape).BroadcastsInDim ⟨2, ![4096, 1]⟩ ![])
    (h₃ : (⟨2, ![1, 1]⟩ : Shape).BroadcastsInDim ⟨2, ![4096, 1]⟩ ![0, 1])
    (h₄ : (⟨1, ![1]⟩ : Shape).BroadcastsInDim ⟨2, ![1, 1]⟩ ![1])
    (hr : (⟨2, ![4096, 1]⟩ : Shape).ReducesTo [1] ⟨1, ![4096]⟩) (hu : 0 < (⟨0, ![]⟩ : Shape).numel)
    (wf : GatherDims.WF ⟨2, ![50000, 64]⟩ ⟨2, ![4096, 1]⟩ ⟨2, ![4096, 64]⟩ [1] [0] [] [0] [] 1 ![1, 64]) :
    select
      (broadcastInDim ⟨2, ![4096, 64]⟩ ![0] h₁
        (Host.reduce IntOp.andi
          (andi (cmpi .sge col (broadcastInDim ⟨2, ![4096, 1]⟩ ![] h₂ (constantI ⟨0, ![]⟩ 32 0#32)))
            (cmpi .sle col (broadcastInDim ⟨2, ![4096, 1]⟩ ![0, 1] h₃
              (broadcastInDim ⟨2, ![1, 1]⟩ ![1] h₄ (constantI ⟨1, ![1]⟩ 32 49999#32)))))
          (constantI ⟨0, ![]⟩ 1 1#1) hr hu))
      (Host.gather (Cert.RowOps.rowGather2Dims 50000 4096 64 wf) tbl col) nan (ix2 b j)
      = tbl (ix2 W j) := by
  have hlt := W.isLt
  have hn : (col (ix2 b 0)).toNat < 50000 ∧ ((col (ix2 b 0)).toNat : Int) = (col (ix2 b 0)).toInt := by
    have h := toNat_of_range (w := col (ix2 b 0)) ⟨by omega, by omega⟩
    exact ⟨h.2, h.1⟩
  rw [select_apply, broadcastInDim_apply _ _ _ _ (ix1 b) (fun a => by match a with | ⟨0, _⟩ => rfl),
    reduceAnd_unit_apply]
  have hm : andi (cmpi .sge col (broadcastInDim ⟨2, ![4096, 1]⟩ ![] h₂ (constantI ⟨0, ![]⟩ 32 0#32)))
      (cmpi .sle col (broadcastInDim ⟨2, ![4096, 1]⟩ ![0, 1] h₃
        (broadcastInDim ⟨2, ![1, 1]⟩ ![1] h₄ (constantI ⟨1, ![1]⟩ 32 49999#32)))) (ix2 b 0) = 1#1 := by
    show IntOp.andi (IntOp.cmpi .sge (col (ix2 b 0)) 0#32) (IntOp.cmpi .sle (col (ix2 b 0)) 49999#32) = 1#1
    rw [(StableHlo.Predicate.sge_iff_toNat (a := col (ix2 b 0)) (b := 0#32) (by omega) (by decide)).mpr (by simp),
      (StableHlo.Predicate.sle_iff_toNat (a := col (ix2 b 0)) (b := 49999#32) (by omega) (by decide)).mpr
        (by show (col (ix2 b 0)).toNat ≤ 49999; omega)]
    rfl
  rw [hm, select_one]
  exact rowGather_apply tbl col b j W hW wf

/-- One row taken the first way (wrap, bounds test, gather, select): with the index within 0 … 49999 the entry at
    `(b, j)` is the table's at row `idx b`. -/
theorem take_apply (tbl : FVec Ideal ⟨2, ![50000, 64]⟩ .f32) (idx : IVec ⟨1, ![4096]⟩ 32) (b : Fin 4096) (j : Fin 64)
    (h : 0 ≤ (idx (ix1 b)).toInt ∧ (idx (ix1 b)).toInt < 50000) (W : Fin 50000) (hW : (W.val : Int) = (idx (ix1 b)).toInt) :
    Cert.KernelIdeal.Hand.take (F := Ideal) tbl idx (ix2 b j) = tbl (ix2 W j) := by
  unfold Cert.KernelIdeal.Hand.take
  exact maskedGather_apply tbl _ _ b j W
    (by rw [wrapCol_apply idx b h.1 _ _ 0]; exact hW) _ _ _ _ _ _ _

/-- One 256-wide row taken the second way (wrap, gather): with the index within 0 … 49999 the entry at `(b, j)` is
    the table's at row `idx b`. -/
theorem takeRows_apply [Cert.ReferenceIdeal.Facts] (tbl : FVec Ideal ⟨2, ![50000, 256]⟩ .f32) (idx : IVec ⟨1, ![4096]⟩ 32)
    (b : Fin 4096) (j : Fin 256)
    (h : 0 ≤ (idx (ix1 b)).toInt ∧ (idx (ix1 b)).toInt < 50000) (W : Fin 50000) (hW : (W.val : Int) = (idx (ix1 b)).toInt) :
    Cert.ReferenceIdeal.Hand.takeRows (F := Ideal) tbl idx (ix2 b j) = tbl (ix2 W j) := by
  unfold Cert.ReferenceIdeal.Hand.takeRows
  exact rowGather_apply tbl _ b j W (by rw [wrapCol_apply idx b h.1 _ _ 0]; exact hW) _

/-! ## The normalization of a row -/

/-- A row divided by the larger of its Euclidean length and the word 0x2B8CBCCC: entry `j` over
    max(sqrt(0 + Σ_k row k²), that constant). -/
def rowNorm (row : Fin 64 → EReal) (j : Fin 64) : EReal :=
  Ideal.div (row j)
    (max (Ideal.hostUnary HostUnaryOp.sqrt (Ideal.ofBits .f32 0x00000000#32 + ∑ k : Fin 64, row k * row k))
      (Ideal.ofBits .f32 0x2B8CBCCC#32))

/-- The row-wise normalization of an array of 64-wide rows (sum of squares along the row, square root, maximum with the
    constant, spread back over the row, quotient) read at `(r, j)`: the normalization of row `r`, at `j`. -/
theorem normRows_apply {N : Nat} (x : FVec Ideal ⟨2, ![N, 64]⟩ .f32) (r : Fin N) (j : Fin 64)
    (h₁ : (⟨2, ![N, 1]⟩ : Shape).BroadcastsInDim ⟨2, ![N, 64]⟩ ![0, 1])
    (h₂ : (⟨1, ![N]⟩ : Shape).BroadcastsInDim ⟨2, ![N, 1]⟩ ![0])
    (h₃ : (⟨0, ![]⟩ : Shape).BroadcastsInDim ⟨2, ![N, 1]⟩ ![])
    (hr : (⟨2, ![N, 64]⟩ : Shape).ReducesTo [1] ⟨1, ![N]⟩) (hu : 0 < (⟨0, ![]⟩ : Shape).numel) :
    Host.divf x (broadcastInDim ⟨2, ![N, 64]⟩ ![0, 1] h₁
      (maximumf (Host.sqrt (broadcastInDim ⟨2, ![N, 1]⟩ ![0] h₂
          (Host.reduceAdd (mulf x x) (constant ⟨0, ![]⟩ .f32 0x00000000#32) hr hu)))
        (broadcastInDim ⟨2, ![N, 1]⟩ ![] h₃ (constant ⟨0, ![]⟩ .f32 0x2B8CBCCC#32)))) (ix2 r j)
      = rowNorm (fun k => x (ix2 r k)) j := by
  have hN := r.isLt
  have hR : (⟨2, ![N, 64]⟩ : Shape).Reduces [1] ⟨1, ![N]⟩ := by
    obtain ⟨h1, h2⟩ := hr
    exact ⟨h1, Nat.one_pos, h2⟩
  have hl : ∀ k : Fin 64, hR.lift (ix1 r) k = ix2 r k := fun k => by
    funext c; match c with | ⟨0, _⟩ => rfl | ⟨1, _⟩ => rfl
  rw [hostDivf_apply,
    broadcastInDim_apply _ _ _ _ (ix2 r (0 : Fin 1)) (fun a => by
      match a with
      | ⟨0, _⟩ => show r.val = if N = 1 then 0 else r.val; split <;> omega
      | ⟨1, _⟩ => rfl),
    maximumf_apply]
  show Ideal.div (x (ix2 r j)) (max (Ideal.hostUnary HostUnaryOp.sqrt
      (broadcastInDim ⟨2, ![N, 1]⟩ ![0] h₂ (Host.reduceAdd (mulf x x) (constant ⟨0, ![]⟩ .f32 0x00000000#32) hr hu) (ix2 r 0)))
    (Ideal.ofBits .f32 0x2B8CBCCC#32)) = _
  rw [broadcastInDim_apply _ _ _ _ (ix1 r) (fun a => by
      match a with
      | ⟨0, _⟩ => show r.val = if N = 1 then 0 else r.val; split <;> omega),
    hostReduceAdd_apply, Ideal.hostReduceAdd_single hr hR]
  show _ = Ideal.div (x (ix2 r j)) (max (Ideal.hostUnary HostUnaryOp.sqrt
    (Ideal.ofBits .f32 0x00000000#32 + ∑ k : Fin 64, x (ix2 r k) * x (ix2 r k))) (Ideal.ofBits .f32 0x2B8CBCCC#32))
  congr 4
  exact Finset.sum_congr rfl fun k _ => by rw [hl k]; rfl

/-! ## Four pieces side by side -/

/-- Four `C`-wide pieces laid side by side along the columns, read at `(p, q)` with `q = n * C + c`: piece `n` at
    `(p, c)`. -/
theorem concat4_cols_apply {α : Type} {M C C4 : Nat} (x0 x1 x2 x3 : (⟨2, ![M, C]⟩ : Shape).Idx → α)
    (h : Shape.Concatenates [⟨2, ![M, C]⟩, ⟨2, ![M, C]⟩, ⟨2, ![M, C]⟩, ⟨2, ![M, C]⟩] ⟨2, ![M, C4]⟩ 1)
    (p : Fin M) (q : Fin C4) (n : Fin 4) (c : Fin C) (hq : q.val = n.val * C + c.val) :
    concatenate ⟨2, ![M, C4]⟩ 1 [⟨⟨2, ![M, C]⟩, x0⟩, ⟨⟨2, ![M, C]⟩, x1⟩, ⟨⟨2, ![M, C]⟩, x2⟩, ⟨⟨2, ![M, C]⟩, x3⟩] h (ix2 p q)
      = (![x0, x1, x2, x3] n) (ix2 p c) := by
  have hi : ∀ b : Fin (⟨2, ![M, C]⟩ : Shape).rank, b.cast (rfl : (2 : Nat) = 2) ≠ (1 : Fin 2) →
      ((ix2 p c) b).val = ((ix2 p q) (b.cast rfl)).val := fun b hb => by
    match b with
    | ⟨0, _⟩ => rfl
    | ⟨1, _⟩ => exact absurd rfl hb
  let xs : List ((s : Shape) × (s.Idx → α)) :=
    [⟨⟨2, ![M, C]⟩, x0⟩, ⟨⟨2, ![M, C]⟩, x1⟩, ⟨⟨2, ![M, C]⟩, x2⟩, ⟨⟨2, ![M, C]⟩, x3⟩]
  have hlen : xs.length = 4 := rfl
  fin_cases n
  · exact concatenate_apply_piece (t := ⟨2, ![M, C4]⟩) (1 : Fin 2) xs h (ix2 p q) 0 (by omega) ⟨2, ![M, C]⟩ x0 rfl rfl 0 rfl
      (ix2 p c) hi (by show 0 + c.val = q.val; simp at hq; omega)
  · exact concatenate_apply_piece (t := ⟨2, ![M, C4]⟩) (1 : Fin 2) xs h (ix2 p q) 1 (by omega) ⟨2, ![M, C]⟩ x1 rfl rfl (C + 0) rfl
      (ix2 p c) hi (by show C + 0 + c.val = q.val; simp at hq; omega)
  · exact concatenate_apply_piece (t := ⟨2, ![M, C4]⟩) (1 : Fin 2) xs h (ix2 p q) 2 (by omega) ⟨2, ![M, C]⟩ x2 rfl rfl (C + (C + 0)) rfl
      (ix2 p c) hi (by show C + (C + 0) + c.val = q.val; simp at hq; omega)
  · exact concatenate_apply_piece (t := ⟨2, ![M, C4]⟩) (1 : Fin 2) xs h (ix2 p q) 3 (by omega) ⟨2, ![M, C]⟩ x3 rfl rfl
      (C + (C + (C + 0))) rfl (ix2 p c) hi (by show C + (C + (C + 0)) + c.val = q.val; simp at hq; omega)

/-! ## The two tails -/

/-- For either half of the nodes (`o` its first row: 0 for the users, 50000 for the items): taking the 4096 rows of each
    array's half and normalizing the slices taken from the layers' outputs, laid side by side, is taking the 4096 rows of
    the half of the 256-wide array of the embedding and the normalized layers' outputs. Entry `(b, n * 64 + c)` of both is
    read off row `o + idx b` of array `n`: its entry `c` for the embedding, its normalization at `c` for a layer's output. -/
theorem tail_eq [Cert.ReferenceIdeal.Facts] (o : Nat)
    (hs : (⟨2, ![100000, 64]⟩ : Shape).Slices ![o, 0] ⟨2, ![50000, 64]⟩)
    (hs' : (⟨2, ![100000, 256]⟩ : Shape).Slices ![o, 0] ⟨2, ![50000, 256]⟩)
    (e0 e1 e2 e3 : FVec Ideal ⟨2, ![100000, 64]⟩ .f32) (idx : IVec ⟨1, ![4096]⟩ 32)
    (hidx : ∀ b : Fin 4096, 0 ≤ (idx (ix1 b)).toInt ∧ (idx (ix1 b)).toInt < 50000) :
    Cert.KernelIdeal.Hand.cat4 (F := Ideal)
      (Cert.KernelIdeal.Hand.take (extractStridedSlice ⟨2, ![50000, 64]⟩ ![o, 0] e0 hs) idx)
      (Cert.KernelIdeal.Hand.nrm (Cert.KernelIdeal.Hand.take (extractStridedSlice ⟨2, ![50000, 64]⟩ ![o, 0] e1 hs) idx))
      (Cert.KernelIdeal.Hand.nrm (Cert.KernelIdeal.Hand.take (extractStridedSlice ⟨2, ![50000, 64]⟩ ![o, 0] e2 hs) idx))
      (Cert.KernelIdeal.Hand.nrm (Cert.KernelIdeal.Hand.take (extractStridedSlice ⟨2, ![50000, 64]⟩ ![o, 0] e3 hs) idx))
    = Cert.ReferenceIdeal.Hand.takeRows (F := Ideal)
        (extractStridedSlice ⟨2, ![50000, 256]⟩ ![o, 0] (Cert.ReferenceIdeal.Hand.allE e0 e1 e2 e3) hs') idx := by
  funext y
  obtain ⟨b, J, rfl⟩ : ∃ b J, y = ix2 b J := ⟨y 0, y 1, eq_ix2 y⟩
  obtain ⟨n, c, hq⟩ : ∃ (n : Fin 4) (c : Fin 64), J.val = n.val * 64 + c.val :=
    ⟨⟨J.val / 64, by have := J.isLt; omega⟩, ⟨J.val % 64, Nat.mod_lt _ (by decide)⟩,
      by show J.val = J.val / 64 * 64 + J.val % 64; omega⟩
  have hnat := toNat_of_range (hidx b)
  have ho : o + 50000 ≤ 100000 := hs.2 0
  -- the row read: `W` within the half, `R` within the whole array
  obtain ⟨W, hW⟩ : ∃ W : Fin 50000, (W.val : Int) = (idx (ix1 b)).toInt := ⟨⟨(idx (ix1 b)).toNat, hnat.2⟩, hnat.1⟩
  obtain ⟨R, hR⟩ : ∃ R : Fin 100000, R.val = o + W.val := ⟨⟨o + W.val, by have := W.isLt; omega⟩, rfl⟩
  -- a row taken from an array's half is row `R` of the array
  have ht : ∀ (e : FVec Ideal ⟨2, ![100000, 64]⟩ .f32) (k : Fin 64),
      Cert.KernelIdeal.Hand.take (F := Ideal) (extractStridedSlice ⟨2, ![50000, 64]⟩ ![o, 0] e hs) idx (ix2 b k) = e (ix2 R k) :=
    fun e k => by
      rw [take_apply _ idx b k (hidx b) W hW]
      exact slice2_axis0_apply o e hs W k R hR
  -- so its normalization is the normalization of row `R`
  have hn : ∀ e : FVec Ideal ⟨2, ![100000, 64]⟩ .f32,
      Cert.KernelIdeal.Hand.nrm (F := Ideal)
        (Cert.KernelIdeal.Hand.take (extractStridedSlice ⟨2, ![50000, 64]⟩ ![o, 0] e hs) idx) (ix2 b c)
      = Cert.ReferenceIdeal.Hand.nrmFull (F := Ideal) e (ix2 R c) := fun e => by
    unfold Cert.KernelIdeal.Hand.nrm Cert.ReferenceIdeal.Hand.nrmFull
    rw [normRows_apply, normRows_apply]
    exact congrArg (fun row => rowNorm row c) (funext fun k => ht e k)
  unfold Cert.KernelIdeal.Hand.cat4
  rw [concat4_cols_apply _ _ _ _ _ b J n c hq, takeRows_apply _ idx b J (hidx b) W hW,
    slice2_axis0_apply o _ hs' W J R hR]
  unfold Cert.ReferenceIdeal.Hand.allE
  rw [concat4_cols_apply _ _ _ _ _ R J n c hq]
  fin_cases n
  · exact ht e0 c
  · exact hn e1
  · exact hn e2
  · exact hn e3

/-- The users' rows. -/
theorem uG_eq [Cert.ReferenceIdeal.Facts] (e0 e1 e2 e3 : FVec Ideal ⟨2, ![100000, 64]⟩ .f32) (user : IVec ⟨1, ![4096]⟩ 32)
    (hu : ∀ b : Fin 4096, 0 ≤ (user (ix1 b)).toInt ∧ (user (ix1 b)).toInt < 50000) :
    Cert.KernelIdeal.Hand.uG (F := Ideal) e0 e1 e2 e3 user = Cert.ReferenceIdeal.Hand.uGof (F := Ideal) e0 e1 e2 e3 user :=
  tail_eq 0 _ _ e0 e1 e2 e3 user hu

/-- The items' rows. -/
theorem iG_eq [Cert.ReferenceIdeal.Facts] (e0 e1 e2 e3 : FVec Ideal ⟨2, ![100000, 64]⟩ .f32) (item : IVec ⟨1, ![4096]⟩ 32)
    (hi : ∀ b : Fin 4096, 0 ≤ (item (ix1 b)).toInt ∧ (item (ix1 b)).toInt < 50000) :
    Cert.KernelIdeal.Hand.iG (F := Ideal) e0 e1 e2 e3 item = Cert.ReferenceIdeal.Hand.iGof (F := Ideal) e0 e1 e2 e3 item :=
  tail_eq 50000 _ _ e0 e1 e2 e3 item hi

/-- The scores: both programs sum the products of the paired rows over the 256 columns, from the same zero word. -/
theorem posf_eq [Cert.ReferenceIdeal.Facts] (u i : FVec Ideal ⟨2, ![4096, 256]⟩ .f32) :
    Cert.KernelIdeal.Hand.posf (F := Ideal) u i = Cert.ReferenceIdeal.Hand.posf (F := Ideal) u i := rfl

end Cert.Bridge

end
-- ==== Proof.PreRange.lean ====
/-
  The index range, read out of the printed precondition. The predicate is a chain of conjunctions, and-ed left to
  right; its last two conjuncts say, of the two index vectors, that every lane lies in [0, 50000) read signed. The
  predicate being all ones gives each conjunct, each conjunct (a reduction by "and" over the whole vector into one
  cell) gives every lane, and a lane is two signed comparisons of the word against a constant broadcast to every lane.
-/
import proofs.«424767_j70944269795902_3_alg».proof.Pre_finite_inputs
import Idealize.ShloMosaic.Lib.StableHlo.Predicate
import Idealize.ShloMosaic.Lib.ReduceAll
import Idealize.ShloMosaic.Lib.ValueIdx

noncomputable section

namespace Cert.PreRange

open Idealize.ShloMosaic Idealize.ShloMosaic.ValueIdx Cert.Pre_finite_inputs

/-- The scalar shape has one index. -/
instance subsingleton_scalar_idx : Subsingleton S_.Idx := ⟨fun a b => funext fun d => d.elim0⟩

/-- A word that tests "at least 0" and "below n" signed, n a small literal, lies in [0, n) read signed. -/
theorem lane_range (w : BitVec 32) (n : Nat) (hn : n < 2 ^ 31) (h0 : IntOp.cmpi .sge w (0#32) = 1#1)
    (hlt : IntOp.cmpi .slt w (BitVec.ofNat 32 n) = 1#1) : 0 ≤ w.toInt ∧ w.toInt < n := by
  rw [IntOp.cmpi_sge, show (0#32 : BitVec 32).toInt = 0 from by decide] at h0
  rw [IntOp.cmpi_slt, StableHlo.Predicate.toInt_ofNat_small n hn] at hlt
  exact ⟨h0, hlt⟩

/-- A word in [0, n) read signed is below n read unsigned. -/
theorem toNat_lt_of_range (w : BitVec 32) (n : Nat) (h : 0 ≤ w.toInt ∧ w.toInt < n) : w.toNat < n := by
  obtain ⟨h0, hlt⟩ := h
  have hw : 2 * w.toNat < 2 ^ 32 := BitVec.toInt_pos_iff.mp h0
  rw [BitVec.toInt_eq_toNat_of_lt hw] at hlt
  exact_mod_cast hlt

/-- The vector "and" and the vector comparison, read at an index. -/
theorem andi_at {s : Shape} {w : Nat} (x y : IVec s w) (i : s.Idx) : andi x y i = IntOp.andi (x i) (y i) := rfl
theorem cmpi_at {s : Shape} {w : Nat} (p : CmpIPredicate) (x y : IVec s w) (i : s.Idx) :
    cmpi p x y i = IntOp.cmpi p (x i) (y i) := rfl

/-- One index-range conjunct: the "and" of "a ≥ 0" and "a < 50000" (both constants broadcast to every lane), reduced by
    "and" over the whole vector into one cell that is 1, says lane b of a lies in [0, 50000). -/
theorem all_range (a : IVec S4096 32) (hb : S_.BroadcastsInDim S4096 (![] : Fin 0 → Fin S4096.rank))
    (hr : S4096.ReducesTo [0] S_) (hS : 0 < S_.numel)
    (e : Host.reduce IntOp.andi
          (andi (cmpi .sge a (broadcastInDim S4096 ![] hb (constantI S_ 32 0#32)))
            (cmpi .slt a (broadcastInDim S4096 ![] hb (constantI S_ 32 50000#32))))
          (constantI S_ 1 1#1) hr hS ix0 = 1#1) (b : Fin 4096) :
    0 ≤ (a (ix1 b)).toInt ∧ (a (ix1 b)).toInt < 50000 := by
  have l := Host.reduce_andi_all _ _ hr hS ix0 e (ix1 b)
  rw [andi_at, IntOp.andi_eq_one, cmpi_at, cmpi_at, StableHlo.Predicate.bcast_scalar hb hS,
    StableHlo.Predicate.bcast_scalar hb hS] at l
  exact lane_range _ 50000 (by decide) l.1 l.2

variable [Facts]

/-- The last part of the chain: all ones, it says both index vectors lie in [0, 50000) at every lane. -/
theorem part2_range {F : FTy → Type} [FloatOps F] (a0 a1 : IVec S4096 32) (v33 : IVec S_ 1)
    (h : fn_part2 (F := F) a0 a1 v33 = fun _ => 1#1) (b : Fin 4096) :
    (0 ≤ (a0 (ix1 b)).toInt ∧ (a0 (ix1 b)).toInt < 50000) ∧ (0 ≤ (a1 (ix1 b)).toInt ∧ (a1 (ix1 b)).toInt < 50000) := by
  have e := congrFun h ix0
  dsimp only [fn_part2] at e
  rw [andi_at, IntOp.andi_eq_one, andi_at, IntOp.andi_eq_one] at e
  exact ⟨all_range a0 _ _ _ e.1.2 b, all_range a1 _ _ _ e.2 b⟩

/-- The whole predicate is its last part applied to the two index vectors and the conjunction of the seven
    conjuncts before: all ones, it says both index vectors lie in [0, 50000) at every lane. -/
theorem fn_range {F : FTy → Type} [FloatOps F] (a0 a1 : IVec S4096 32) (a2 a3 : IVec S3200000 32) (a4 : FVec F S3200000 .f32)
    (a5 a6 : FVec F S50000x64 .f32) (a7 : FVec F S3x64x64 .f32) (a8 : FVec F S3x1x64 .f32) (a9 : FVec F S3x64x64 .f32)
    (a10 : FVec F S3x1x64 .f32)
    (h : fn (F := F) a0 a1 a2 a3 a4 a5 a6 a7 a8 a9 a10 = fun _ => 1#1) (b : Fin 4096) :
    (0 ≤ (a0 (ix1 b)).toInt ∧ (a0 (ix1 b)).toInt < 50000) ∧ (0 ≤ (a1 (ix1 b)).toInt ∧ (a1 (ix1 b)).toInt < 50000) := by
  unfold fn fn_part1 at h
  exact part2_range (F := F) a0 a1 _ h b

/-- Lane b of the first index vector lies in [0, 50000), read signed. -/
theorem user_range {F : FTy → Type} [FloatOps F] (a0 a1 : IVec S4096 32) (a2 a3 : IVec S3200000 32) (a4 : FVec F S3200000 .f32)
    (a5 a6 : FVec F S50000x64 .f32) (a7 : FVec F S3x64x64 .f32) (a8 : FVec F S3x1x64 .f32) (a9 : FVec F S3x64x64 .f32)
    (a10 : FVec F S3x1x64 .f32)
    (h : fn (F := F) a0 a1 a2 a3 a4 a5 a6 a7 a8 a9 a10 = fun _ => 1#1) (b : Fin 4096) :
    0 ≤ (a0 (ix1 b)).toInt ∧ (a0 (ix1 b)).toInt < 50000 :=
  (fn_range a0 a1 a2 a3 a4 a5 a6 a7 a8 a9 a10 h b).1

/-- Lane b of the second index vector lies in [0, 50000), read signed. -/
theorem item_range {F : FTy → Type} [FloatOps F] (a0 a1 : IVec S4096 32) (a2 a3 : IVec S3200000 32) (a4 : FVec F S3200000 .f32)
    (a5 a6 : FVec F S50000x64 .f32) (a7 : FVec F S3x64x64 .f32) (a8 : FVec F S3x1x64 .f32) (a9 : FVec F S3x64x64 .f32)
    (a10 : FVec F S3x1x64 .f32)
    (h : fn (F := F) a0 a1 a2 a3 a4 a5 a6 a7 a8 a9 a10 = fun _ => 1#1) (b : Fin 4096) :
    0 ≤ (a1 (ix1 b)).toInt ∧ (a1 (ix1 b)).toInt < 50000 :=
  (fn_range a0 a1 a2 a3 a4 a5 a6 a7 a8 a9 a10 h b).2

/-- The same, read unsigned: lane b of the first index vector is below 50000. -/
theorem user_toNat_lt {F : FTy → Type} [FloatOps F] (a0 a1 : IVec S4096 32) (a2 a3 : IVec S3200000 32) (a4 : FVec F S3200000 .f32)
    (a5 a6 : FVec F S50000x64 .f32) (a7 : FVec F S3x64x64 .f32) (a8 : FVec F S3x1x64 .f32) (a9 : FVec F S3x64x64 .f32)
    (a10 : FVec F S3x1x64 .f32)
    (h : fn (F := F) a0 a1 a2 a3 a4 a5 a6 a7 a8 a9 a10 = fun _ => 1#1) (b : Fin 4096) :
    (a0 (ix1 b)).toNat < 50000 :=
  toNat_lt_of_range _ 50000 (user_range a0 a1 a2 a3 a4 a5 a6 a7 a8 a9 a10 h b)

/-- The same, read unsigned: lane b of the second index vector is below 50000. -/
theorem item_toNat_lt {F : FTy → Type} [FloatOps F] (a0 a1 : IVec S4096 32) (a2 a3 : IVec S3200000 32) (a4 : FVec F S3200000 .f32)
    (a5 a6 : FVec F S50000x64 .f32) (a7 : FVec F S3x64x64 .f32) (a8 : FVec F S3x1x64 .f32) (a9 : FVec F S3x64x64 .f32)
    (a10 : FVec F S3x1x64 .f32)
    (h : fn (F := F) a0 a1 a2 a3 a4 a5 a6 a7 a8 a9 a10 = fun _ => 1#1) (b : Fin 4096) :
    (a1 (ix1 b)).toNat < 50000 :=
  toNat_lt_of_range _ 50000 (item_range a0 a1 a2 a3 a4 a5 a6 a7 a8 a9 a10 h b)

end Cert.PreRange

end
-- ==== Proof.lean ====
/-
  The three node-embedding layers and their read-out, kernel against reference.

  Both programs stack the user and item tables into one node-feature array, and three times replace it by
  the leaky rectifier of  side · W_gc + b_gc + (ego ∘ side) · W_bi + b_bi,  where `side` is the sparse
  neighbourhood sum of the current array (a gather of rows followed by a scatter-add). The kernel program
  computes each layer in a pallas_call over 20 blocks of 5000 rows; the reference with two whole matrix
  products on the host. Entry by entry both are the same two 64-term sums (`Cert.Spec.layerAt`), so the four
  arrays agree (`Cert.Bridge.arrays_agree`). The read-out gathers 4096 rows of [ego0 | n(ego1) | n(ego2) | n(ego3)],
  n the row-wise L2 normalisation: the kernel program gathers each array's rows first and normalises the small
  slices, the reference normalises, concatenates and gathers; the normalisation is row-wise, so for indices
  inside the tables (the precondition's range conjuncts) both read the same rows (`Cert.Bridge.uG_eq`, `iG_eq`).
  No law of the extended reals beyond reading both sides at an index is used, and the finiteness conjuncts of
  the precondition are not needed.

  The frames: each pallas_call's body is run once at a symbolic grid point and the three calls are chained
  through the program's host stretches; the reference is a host program and its run is its frame.
-/
import proofs.«424767_j70944269795902_3_alg».proof.Defs
import proofs.«424767_j70944269795902_3_alg».proof.Proof.Gen.Kernel
import proofs.«424767_j70944269795902_3_alg».proof.Proof.Gen.KernelIdeal
import proofs.«424767_j70944269795902_3_alg».proof.Proof.Gen.ReferenceIdeal
import proofs.«424767_j70944269795902_3_alg».proof.Proof.Gen.Pre_finite_inputs
import proofs.«424767_j70944269795902_3_alg».proof.Proof.K.Launch
import proofs.«424767_j70944269795902_3_alg».proof.Proof.KI.Values
import proofs.«424767_j70944269795902_3_alg».proof.Proof.Ref.Run
import proofs.«424767_j70944269795902_3_alg».proof.Proof.Bridge
import proofs.«424767_j70944269795902_3_alg».proof.Proof.BridgeTail
import proofs.«424767_j70944269795902_3_alg».proof.Proof.PreRange
import Idealize.ShloMosaic.Adequacy
import Idealize.ShloMosaic.Init

noncomputable section

namespace Cert.Proof

open Idealize.ShloMosaic Idealize.SL.Sem

/-- The word-level program runs, faults nowhere and leaves its arguments as launched. -/
theorem frame_p : Cert.frame_Kernel := fun m ρ _ => Cert.Kernel.Hand.frame m ρ

/-- The same for the idealized program. -/
theorem frame_pi : Cert.frame_KernelIdeal := fun m ρ _ => Cert.KernelIdeal.Hand.frame m ρ

/-- The reference is a host program: its run, with the results dropped, is its frame. -/
theorem frame_ri : Cert.frame_ReferenceIdeal := fun m ρ _ =>
  (θ_run Cert.ReferenceIdeal.defs _ _).mono (fun _ h c => (h c).2.2.2) (Cert.ReferenceIdeal.Hand.run (F := Ideal) m ρ)

/-- From memories that agree on the arguments, with the gather indices inside the tables, both programs end with
    the same three results: the four node-feature arrays agree, and the two read-outs read the same rows. -/
theorem algebraic : Cert.algebraic_KernelIdeal_ReferenceIdeal := by
  intro m ρ m' ρ' hpre hagree
  refine ⟨_, _, _, Cert.KernelIdeal.Hand.value_run m ρ, ?_⟩
  refine (θ_run Cert.ReferenceIdeal.defs _ _).mono (fun r h c => ?_) (Cert.ReferenceIdeal.Hand.run (F := Ideal) m' ρ')
  obtain ⟨h1, h2, h3, hargs⟩ := h c
  obtain ⟨e0, e1, e2, e3⟩ := Cert.Bridge.arrays_agree m m' c (hagree c)
  have hu := fun b => Cert.PreRange.user_range _ _ _ _ _ _ _ _ _ _ _ (hpre c) b
  have hi := fun b => Cert.PreRange.item_range _ _ _ _ _ _ _ _ _ _ _ (hpre c) b
  have hU := Cert.Bridge.uG_eq (Cert.KernelIdeal.Hand.kE0 m c) (Cert.KernelIdeal.Hand.kE1 m c) (Cert.KernelIdeal.Hand.kE2 m c)
    (Cert.KernelIdeal.Hand.kE3 m c) (Cert.KernelIdeal.Hand.aUser m c) hu
  have hI := Cert.Bridge.iG_eq (Cert.KernelIdeal.Hand.kE0 m c) (Cert.KernelIdeal.Hand.kE1 m c) (Cert.KernelIdeal.Hand.kE2 m c)
    (Cert.KernelIdeal.Hand.kE3 m c) (Cert.KernelIdeal.Hand.aItem m c) hi
  refine ⟨h1.trans ?_, h2.trans ?_, h3.trans ?_, hargs⟩
  · rw [e0, e1, e2, e3, (hagree c).1]; exact hU.symm
  · rw [e0, e1, e2, e3, (hagree c).2.1]; exact hI.symm
  · rw [e0, e1, e2, e3, (hagree c).1, (hagree c).2.1, Cert.Bridge.posf_eq]; exact congrArg₂ _ hU.symm hI.symm

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
